-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256x256 : Shape := ⟨3, ![256, 256, 256]⟩
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S262144x256 : S_.BroadcastsInDim S262144x256 (![] : Fin 0 → Fin S262144x256.rank)
  reducesTo_S262144x256_S_d0_1 : S262144x256.ReducesTo [0, 1] S_
  bcast_S_S256x256x256 : S_.BroadcastsInDim S256x256x256 (![] : Fin 0 → Fin S256x256x256.rank)
  reducesTo_S256x256x256_S_d0_1_2 : S256x256x256.ReducesTo [0, 1, 2] S_

variable [Facts]

def fn_part1 {F : FTy → Type} [FloatOps F] (main_arg2 : IVec S256x256x256 32) (main_v10 : IVec S_ 1) (main_v15 : IVec S262144x256 1) (main_c_5 : IVec S_ 1) : IVec S_ 1 :=
  let main_v16 : IVec S_ 1 := (fun x v => Host.reduce IntOp.andi x v reducesTo_S262144x256_S_d0_1 h_S_) main_v15 main_c_5
  let main_v17 : IVec S_ 1 := andi main_v10 main_v16
  let main_c_6 : IVec S_ 32 := constantI S_ 32 0#32
  let main_v18 : IVec S256x256x256 32 := broadcastInDim S256x256x256 ![] bcast_S_S256x256x256 main_c_6
  let main_v19 : IVec S256x256x256 1 := cmpi .sge main_arg2 main_v18
  let main_c_7 : IVec S_ 32 := constantI S_ 32 256#32
  let main_v20 : IVec S256x256x256 32 := broadcastInDim S256x256x256 ![] bcast_S_S256x256x256 main_c_7
  let main_v21 : IVec S256x256x256 1 := cmpi .slt main_arg2 main_v20
  let main_v22 : IVec S256x256x256 1 := andi main_v19 main_v21
  let main_c_8 : IVec S_ 1 := constantI S_ 1 1#1
  let main_v23 : IVec S_ 1 := (fun x v => Host.reduce IntOp.andi x v reducesTo_S256x256x256_S_d0_1_2 h_S_) main_v22 main_c_8
  let main_v24 : IVec S_ 1 := andi main_v17 main_v23
  main_v24

def fn {F : FTy → Type} [FloatOps F] (main_arg0 : IVec S262144x256 32) (main_arg1 : IVec S262144x256 32) (main_arg2 : IVec S256x256x256 32) (main_arg3 : FVec F S256x256 .f32) : IVec S_ 1 :=
  let main_v0 : FVec F S256x256 .f32 := Host.absf main_arg3
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_c_0 : IVec S_ 32 := constantI S_ 32 0#32
  let main_v4 : IVec S262144x256 32 := broadcastInDim S262144x256 ![] bcast_S_S262144x256 main_c_0
  let main_v5 : IVec S262144x256 1 := cmpi .sge main_arg0 main_v4
  let main_c_1 : IVec S_ 32 := constantI S_ 32 256#32
  let main_v6 : IVec S262144x256 32 := broadcastInDim S262144x256 ![] bcast_S_S262144x256 main_c_1
  let main_v7 : IVec S262144x256 1 := cmpi .slt main_arg0 main_v6
  let main_v8 : IVec S262144x256 1 := andi main_v5 main_v7
  let main_c_2 : IVec S_ 1 := constantI S_ 1 1#1
  let main_v9 : IVec S_ 1 := (fun x v => Host.reduce IntOp.andi x v reducesTo_S262144x256_S_d0_1 h_S_) main_v8 main_c_2
  let main_v10 : IVec S_ 1 := andi main_v3 main_v9
  let main_c_3 : IVec S_ 32 := constantI S_ 32 0#32
  let main_v11 : IVec S262144x256 32 := broadcastInDim S262144x256 ![] bcast_S_S262144x256 main_c_3
  let main_v12 : IVec S262144x256 1 := cmpi .sge main_arg1 main_v11
  let main_c_4 : IVec S_ 32 := constantI S_ 32 256#32
  let main_v13 : IVec S262144x256 32 := broadcastInDim S262144x256 ![] bcast_S_S262144x256 main_c_4
  let main_v14 : IVec S262144x256 1 := cmpi .slt main_arg1 main_v13
  let main_v15 : IVec S262144x256 1 := andi main_v12 main_v14
  let main_c_5 : IVec S_ 1 := constantI S_ 1 1#1
  fn_part1 (F := F) main_arg2 main_v10 main_v15 main_c_5
-- ==== Kernel.lean ====
abbrev S262144x256 : Shape := ⟨2, ![262144, 256]⟩
abbrev S256x256x256 : Shape := ⟨3, ![256, 256, 256]⟩
abbrev S256x256 : Shape := ⟨2, ![256, 256]⟩
abbrev S1024x128 : Shape := ⟨2, ![1024, 128]⟩
abbrev S128x256x256 : Shape := ⟨3, ![128, 256, 256]⟩
abbrev S128x256 : Shape := ⟨2, ![128, 256]⟩
abbrev S1x256 : Shape := ⟨2, ![1, 256]⟩
abbrev S1024x1 : Shape := ⟨2, ![1024, 1]⟩
abbrev S1x256x256 : Shape := ⟨3, ![1, 256, 256]⟩
abbrev S1024x256 : Shape := ⟨2, ![1024, 256]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S262144x256, .i32⟩
  | .hbm, ⟨1, _⟩ => ⟨S262144x256, .i32⟩
  | .hbm, ⟨2, _⟩ => ⟨S256x256x256, .i32⟩
  | .hbm, ⟨3, _⟩ => ⟨S256x256, .f32⟩
  | .hbm, ⟨4, _⟩ => ⟨S256x256x256, .bf16⟩
  | .hbm, ⟨5, _⟩ => ⟨S262144x256, .f32⟩
  | .local _ .vmem, ⟨0, _⟩ => ⟨S1024x128, .i32⟩
  | .local _ .vmem, ⟨1, _⟩ => ⟨S1024x128, .i32⟩
  | .local _ .vmem, ⟨2, _⟩ => ⟨S1024x128, .i32⟩
  | .local _ .vmem, ⟨3, _⟩ => ⟨S1024x128, .i32⟩
  | .local _ .vmem, ⟨4, _⟩ => ⟨S128x256x256, .bf16⟩
  | .local _ .vmem, ⟨5, _⟩ => ⟨S128x256x256, .bf16⟩
  | .local _ .vmem, ⟨6, _⟩ => ⟨S128x256, .f32⟩
  | .local _ .vmem, ⟨7, _⟩ => ⟨S128x256, .f32⟩
  | .local _ .vmem, ⟨8, _⟩ => ⟨S1024x128, .f32⟩
  | .local _ .vmem, ⟨9, _⟩ => ⟨S1024x128, .f32⟩
  | _, _ => ⟨S262144x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 256], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1024x128_S1024x128_0_0 : ∀ a, (![0, 0] : Fin 2 → Nat) a + S1024x128.size a ≤ S1024x128.size a
  h_S1024x128 : 0 < S1024x128.numel
  iota_S1x256_d1_w32 : S1x256.Iotas .tc 32 [1]
  slices_S1024x128_o0_0_S1024x1 : S1024x128.Slices ![0, 0] S1024x1
  inb_S128x256x256_S1x256x256_0_0_0 : ∀ a, (![0, 0, 0] : Fin 3 → Nat) a + S1x256x256.size a ≤ S128x256x256.size a
  h_S1x256x256 : 0 < S1x256x256.numel
  shapeCasts_S1x256x256_S256x256 : S1x256x256.ShapeCasts S256x256
  broadcasts_S1024x1_S1024x256 : S1024x1.Broadcasts S1024x256
  broadcasts_S1x256_S1024x256 : S1x256.Broadcasts S1024x256
  natLt_1_32 : 1 < 32
  bitsLt_bf16_f32 : FTy.bits .bf16 < FTy.bits .f32
  reduces_S1024x256_S1024 : S1024x256.Reduces [1] S1024
  shapeCasts_S1024_S1024x1 : S1024.ShapeCasts S1024x1
  inb_S128x256_S1x256_0_0 : ∀ a, (![0, 0] : Fin 2 → Nat) a + S1x256.size a ≤ S128x256.size a
  h_S1x256 : 0 < S1x256.numel
  inb_S1024x128_S1024x1_0_0 : ∀ a, (![0, 0] : Fin 2 → Nat) a + S1024x1.size a ≤ S1024x128.size a
  h_S1024x1 : 0 < S1024x1.numel
  slices_S1024x128_o0_1_S1024x1 : S1024x128.Slices ![0, 1] S1024x1
  inb_S128x256x256_S1x256x256_1_0_0 : ∀ a, (![1, 0, 0] : Fin 3 → Nat) a + S1x256x256.size a ≤ S128x256x256.size a
  inb_S128x256_S1x256_1_0 : ∀ a, (![1, 0] : Fin 2 → Nat) a + S1x256.size a ≤ S128x256.size a
  inb_S1024x128_S1024x1_0_1 : ∀ a, (![0, 1] : Fin 2 → Nat) a + S1024x1.size a ≤ S1024x128.size a
  slices_S1024x128_o0_2_S1024x1 : S1024x128.Slices ![0, 2] S1024x1
  inb_S128x256x256_S1x256x256_2_0_0 : ∀ a, (![2, 0, 0] : Fin 3 → Nat) a + S1x256x256.size a ≤ S128x256x256.size a
  inb_S128x256_S1x256_2_0 : ∀ a, (![2, 0] : Fin 2 → Nat) a + S1x256.size a ≤ S128x256.size a
  inb_S1024x128_S1024x1_0_2 : ∀ a, (![0, 2] : Fin 2 → Nat) a + S1024x1.size a ≤ S1024x128.size a
  slices_S1024x128_o0_3_S1024x1 : S1024x128.Slices ![0, 3] S1024x1
  inb_S128x256x256_S1x256x256_3_0_0 : ∀ a, (![3, 0, 0] : Fin 3 → Nat) a + S1x256x256.size a ≤ S128x256x256.size a
  inb_S128x256_S1x256_3_0 : ∀ a, (![3, 0] : Fin 2 → Nat) a + S1x256.size a ≤ S128x256.size a
  inb_S1024x128_S1024x1_0_3 : ∀ a, (![0, 3] : Fin 2 → Nat) a + S1024x1.size a ≤ S1024x128.size a
  slices_S1024x128_o0_4_S1024x1 : S1024x128.Slices ![0, 4] S1024x1
  inb_S128x256x256_S1x256x256_4_0_0 : ∀ a, (![4, 0, 0] : Fin 3 → Nat) a + S1x256x256.size a ≤ S128x256x256.size a
  inb_S128x256_S1x256_4_0 : ∀ a, (![4, 0] : Fin 2 → Nat) a + S1x256.size a ≤ S128x256.size a
  inb_S1024x128_S1024x1_0_4 : ∀ a, (![0, 4] : Fin 2 → Nat) a + S1024x1.size a ≤ S1024x128.size a
  slices_S1024x128_o0_5_S1024x1 : S1024x128.Slices ![0, 5] S1024x1
  inb_S128x256x256_S1x256x256_5_0_0 : ∀ a, (![5, 0, 0] : Fin 3 → Nat) a + S1x256x256.size a ≤ S128x256x256.size a
  inb_S128x256_S1x256_5_0 : ∀ a, (![5, 0] : Fin 2 → Nat) a + S1x256.size a ≤ S128x256.size a
  inb_S1024x128_S1024x1_0_5 : ∀ a, (![0, 5] : Fin 2 → Nat) a + S1024x1.size a ≤ S1024x128.size a
  slices_S1024x128_o0_6_S1024x1 : S1024x128.Slices ![0, 6] S1024x1
  inb_S128x256x256_S1x256x256_6_0_0 : ∀ a, (![6, 0, 0] : Fin 3 → Nat) a + S1x256x256.size a ≤ S128x256x256.size a
  inb_S128x256_S1x256_6_0 : ∀ a, (![6, 0] : Fin 2 → Nat) a + S1x256.size a ≤ S128x256.size a
  inb_S1024x128_S1024x1_0_6 : ∀ a, (![0, 6] : Fin 2 → Nat) a + S1024x1.size a ≤ S1024x128.size a
  slices_S1024x128_o0_7_S1024x1 : S1024x128.Slices ![0, 7] S1024x1
  inb_S128x256x256_S1x256x256_7_0_0 : ∀ a, (![7, 0, 0] : Fin 3 → Nat) a + S1x256x256.size a ≤ S128x256x256.size a
  inb_S128x256_S1x256_7_0 : ∀ a, (![7, 0] : Fin 2 → Nat) a + S1x256.size a ≤ S128x256.size a
  inb_S1024x128_S1024x1_0_7 : ∀ a, (![0, 7] : Fin 2 → Nat) a + S1024x1.size a ≤ S1024x128.size a
  slices_S1024x128_o0_8_S1024x1 : S1024x128.Slices ![0, 8] S1024x1
  inb_S128x256x256_S1x256x256_8_0_0 : ∀ a, (![8, 0, 0] : Fin 3 → Nat) a + S1x256x256.size a ≤ S128x256x256.size a
  inb_S128x256_S1x256_8_0 : ∀ a, (![8, 0] : Fin 2 → Nat) a + S1x256.size a ≤ S128x256.size a
  inb_S1024x128_S1024x1_0_8 : ∀ a, (![0, 8] : Fin 2 → Nat) a + S1024x1.size a ≤ S1024x128.size a
  slices_S1024x128_o0_9_S1024x1 : S1024x128.Slices ![0, 9] S1024x1
  inb_S128x256x256_S1x256x256_9_0_0 : ∀ a, (![9, 0, 0] : Fin 3 → Nat) a + S1x256x256.size a ≤ S128x256x256.size a
  inb_S128x256_S1x256_9_0 : ∀ a, (![9, 0] : Fin 2 → Nat) a + S1x256.size a ≤ S128x256.size a
  inb_S1024x128_S1024x1_0_9 : ∀ a, (![0, 9] : Fin 2 → Nat) a + S1024x1.size a ≤ S1024x128.size a
  slices_S1024x128_o0_10_S1024x1 : S1024x128.Slices ![0, 10] S1024x1
  inb_S128x256x256_S1x256x256_10_0_0 : ∀ a, (![10, 0, 0] : Fin 3 → Nat) a + S1x256x256.size a ≤ S128x256x256.size a
  inb_S128x256_S1x256_10_0 : ∀ a, (![10, 0] : Fin 2 → Nat) a + S1x256.size a ≤ S128x256.size a
  inb_S1024x128_S1024x1_0_10 : ∀ a, (![0, 10] : Fin 2 → Nat) a + S1024x1.size a ≤ S1024x128.size a
  slices_S1024x128_o0_11_S1024x1 : S1024x128.Slices ![0, 11] S1024x1
  inb_S128x256x256_S1x256x256_11_0_0 : ∀ a, (![11, 0, 0] : Fin 3 → Nat) a + S1x256x256.size a ≤ S128x256x256.size a
  inb_S128x256_S1x256_11_0 : ∀ a, (![11, 0] : Fin 2 → Nat) a + S1x256.size a ≤ S128x256.size a
  inb_S1024x128_S1024x1_0_11 : ∀ a, (![0, 11] : Fin 2 → Nat) a + S1024x1.size a ≤ S1024x128.size a
  slices_S1024x128_o0_12_S1024x1 : S1024x128.Slices ![0, 12] S1024x1
  inb_S128x256x256_S1x256x256_12_0_0 : ∀ a, (![12, 0, 0] : Fin 3 → Nat) a + S1x256x256.size a ≤ S128x256x256.size a
  inb_S128x256_S1x256_12_0 : ∀ a, (![12, 0] : Fin 2 → Nat) a + S1x256.size a ≤ S128x256.size a
  inb_S1024x128_S1024x1_0_12 : ∀ a, (![0, 12] : Fin 2 → Nat) a + S1024x1.size a ≤ S1024x128.size a
  slices_S1024x128_o0_13_S1024x1 : S1024x128.Slices ![0, 13] S1024x1
  inb_S128x256x256_S1x256x256_13_0_0 : ∀ a, (![13, 0, 0] : Fin 3 → Nat) a + S1x256x256.size a ≤ S128x256x256.size a
  inb_S128x256_S1x256_13_0 : ∀ a, (![13, 0] : Fin 2 → Nat) a + S1x256.size a ≤ S128x256.size a
  inb_S1024x128_S1024x1_0_13 : ∀ a, (![0, 13] : Fin 2 → Nat) a + S1024x1.size a ≤ S1024x128.size a
  slices_S1024x128_o0_14_S1024x1 : S1024x128.Slices ![0, 14] S1024x1
  inb_S128x256x256_S1x256x256_14_0_0 : ∀ a, (![14, 0, 0] : Fin 3 → Nat) a + S1x256x256.size a ≤ S128x256x256.size a
  inb_S128x256_S1x256_14_0 : ∀ a, (![14, 0] : Fin 2 → Nat) a + S1x256.size a ≤ S128x256.size a
  inb_S1024x128_S1024x1_0_14 : ∀ a, (![0, 14] : Fin 2 → Nat) a + S1024x1.size a ≤ S1024x128.size a
  slices_S1024x128_o0_15_S1024x1 : S1024x128.Slices ![0, 15] S1024x1
  inb_S128x256x256_S1x256x256_15_0_0 : ∀ a, (![15, 0, 0] : Fin 3 → Nat) a + S1x256x256.size a ≤ S128x256x256.size a
  inb_S128x256_S1x256_15_0 : ∀ a, (![15, 0] : Fin 2 → Nat) a + S1x256.size a ≤ S128x256.size a
  inb_S1024x128_S1024x1_0_15 : ∀ a, (![0, 15] : Fin 2 → Nat) a + S1024x1.size a ≤ S1024x128.size a
  slices_S1024x128_o0_16_S1024x1 : S1024x128.Slices ![0, 16] S1024x1
  inb_S128x256x256_S1x256x256_16_0_0 : ∀ a, (![16, 0, 0] : Fin 3 → Nat) a + S1x256x256.size a ≤ S128x256x256.size a
  inb_S128x256_S1x256_16_0 : ∀ a, (![16, 0] : Fin 2 → Nat) a + S1x256.size a ≤ S128x256.size a
  inb_S1024x128_S1024x1_0_16 : ∀ a, (![0, 16] : Fin 2 → Nat) a + S1024x1.size a ≤ S1024x128.size a
  slices_S1024x128_o0_17_S1024x1 : S1024x128.Slices ![0, 17] S1024x1
  inb_S128x256x256_S1x256x256_17_0_0 : ∀ a, (![17, 0, 0] : Fin 3 → Nat) a + S1x256x256.size a ≤ S128x256x256.size a
  inb_S128x256_S1x256_17_0 : ∀ a, (![17, 0] : Fin 2 → Nat) a + S1x256.size a ≤ S128x256.size a
  inb_S1024x128_S1024x1_0_17 : ∀ a, (![0, 17] : Fin 2 → Nat) a + S1024x1.size a ≤ S1024x128.size a
  slices_S1024x128_o0_18_S1024x1 : S1024x128.Slices ![0, 18] S1024x1
  inb_S128x256x256_S1x256x256_18_0_0 : ∀ a, (![18, 0, 0] : Fin 3 → Nat) a + S1x256x256.size a ≤ S128x256x256.size a
  inb_S128x256_S1x256_18_0 : ∀ a, (![18, 0] : Fin 2 → Nat) a + S1x256.size a ≤ S128x256.size a
  inb_S1024x128_S1024x1_0_18 : ∀ a, (![0, 18] : Fin 2 → Nat) a + S1024x1.size a ≤ S1024x128.size a
  slices_S1024x128_o0_19_S1024x1 : S1024x128.Slices ![0, 19] S1024x1
  inb_S128x256x256_S1x256x256_19_0_0 : ∀ a, (![19, 0, 0] : Fin 3 → Nat) a + S1x256x256.size a ≤ S128x256x256.size a
  inb_S128x256_S1x256_19_0 : ∀ a, (![19, 0] : Fin 2 → Nat) a + S1x256.size a ≤ S128x256.size a
  inb_S1024x128_S1024x1_0_19 : ∀ a, (![0, 19] : Fin 2 → Nat) a + S1024x1.size a ≤ S1024x128.size a
  slices_S1024x128_o0_20_S1024x1 : S1024x128.Slices ![0, 20] S1024x1
  inb_S128x256x256_S1x256x256_20_0_0 : ∀ a, (![20, 0, 0] : Fin 3 → Nat) a + S1x256x256.size a ≤ S128x256x256.size a
  inb_S128x256_S1x256_20_0 : ∀ a, (![20, 0] : Fin 2 → Nat) a + S1x256.size a ≤ S128x256.size a
  inb_S1024x128_S1024x1_0_20 : ∀ a, (![0, 20] : Fin 2 → Nat) a + S1024x1.size a ≤ S1024x128.size a
  slices_S1024x128_o0_21_S1024x1 : S1024x128.Slices ![0, 21] S1024x1
  inb_S128x256x256_S1x256x256_21_0_0 : ∀ a, (![21, 0, 0] : Fin 3 → Nat) a + S1x256x256.size a ≤ S128x256x256.size a
  inb_S128x256_S1x256_21_0 : ∀ a, (![21, 0] : Fin 2 → Nat) a + S1x256.size a ≤ S128x256.size a
  inb_S1024x128_S1024x1_0_21 : ∀ a, (![0, 21] : Fin 2 → Nat) a + S1024x1.size a ≤ S1024x128.size a
  slices_S1024x128_o0_22_S1024x1 : S1024x128.Slices ![0, 22] S1024x1
  inb_S128x256x256_S1x256x256_22_0_0 : ∀ a, (![22, 0, 0] : Fin 3 → Nat) a + S1x256x256.size a ≤ S128x256x256.size a
  inb_S128x256_S1x256_22_0 : ∀ a, (![22, 0] : Fin 2 → Nat) a + S1x256.size a ≤ S128x256.size a
  inb_S1024x128_S1024x1_0_22 : ∀ a, (![0, 22] : Fin 2 → Nat) a + S1024x1.size a ≤ S1024x128.size a
  slices_S1024x128_o0_23_S1024x1 : S1024x128.Slices ![0, 23] S1024x1
  inb_S128x256x256_S1x256x256_23_0_0 : ∀ a, (![23, 0, 0] : Fin 3 → Nat) a + S1x256x256.size a ≤ S128x256x256.size a
  inb_S128x256_S1x256_23_0 : ∀ a, (![23, 0] : Fin 2 → Nat) a + S1x256.size a ≤ S128x256.size a
  inb_S1024x128_S1024x1_0_23 : ∀ a, (![0, 23] : Fin 2 → Nat) a + S1024x1.size a ≤ S1024x128.size a
  slices_S1024x128_o0_24_S1024x1 : S1024x128.Slices ![0, 24] S1024x1
  inb_S128x256x256_S1x256x256_24_0_0 : ∀ a, (![24, 0, 0] : Fin 3 → Nat) a + S1x256x256.size a ≤ S128x256x256.size a
  inb_S128x256_S1x256_24_0 : ∀ a, (![24, 0] : Fin 2 → Nat) a + S1x256.size a ≤ S128x256.size a
  inb_S1024x128_S1024x1_0_24 : ∀ a, (![0, 24] : Fin 2 → Nat) a + S1024x1.size a ≤ S1024x128.size a
  slices_S1024x128_o0_25_S1024x1 : S1024x128.Slices ![0, 25] S1024x1
  inb_S128x256x256_S1x256x256_25_0_0 : ∀ a, (![25, 0, 0] : Fin 3 → Nat) a + S1x256x256.size a ≤ S128x256x256.size a
  inb_S128x256_S1x256_25_0 : ∀ a, (![25, 0] : Fin 2 → Nat) a + S1x256.size a ≤ S128x256.size a
  inb_S1024x128_S1024x1_0_25 : ∀ a, (![0, 25] : Fin 2 → Nat) a + S1024x1.size a ≤ S1024x128.size a
  slices_S1024x128_o0_26_S1024x1 : S1024x128.Slices ![0, 26] S1024x1
  inb_S128x256x256_S1x256x256_26_0_0 : ∀ a, (![26, 0, 0] : Fin 3 → Nat) a + S1x256x256.size a ≤ S128x256x256.size a
  inb_S128x256_S1x256_26_0 : ∀ a, (![26, 0] : Fin 2 → Nat) a + S1x256.size a ≤ S128x256.size a
  inb_S1024x128_S1024x1_0_26 : ∀ a, (![0, 26] : Fin 2 → Nat) a + S1024x1.size a ≤ S1024x128.size a
  slices_S1024x128_o0_27_S1024x1 : S1024x128.Slices ![0, 27] S1024x1
  inb_S128x256x256_S1x256x256_27_0_0 : ∀ a, (![27, 0, 0] : Fin 3 → Nat) a + S1x256x256.size a ≤ S128x256x256.size a
  inb_S128x256_S1x256_27_0 : ∀ a, (![27, 0] : Fin 2 → Nat) a + S1x256.size a ≤ S128x256.size a
  inb_S1024x128_S1024x1_0_27 : ∀ a, (![0, 27] : Fin 2 → Nat) a + S1024x1.size a ≤ S1024x128.size a
  slices_S1024x128_o0_28_S1024x1 : S1024x128.Slices ![0, 28] S1024x1
  inb_S128x256x256_S1x256x256_28_0_0 : ∀ a, (![28, 0, 0] : Fin 3 → Nat) a + S1x256x256.size a ≤ S128x256x256.size a
  inb_S128x256_S1x256_28_0 : ∀ a, (![28, 0] : Fin 2 → Nat) a + S1x256.size a ≤ S128x256.size a
  inb_S1024x128_S1024x1_0_28 : ∀ a, (![0, 28] : Fin 2 → Nat) a + S1024x1.size a ≤ S1024x128.size a
  slices_S1024x128_o0_29_S1024x1 : S1024x128.Slices ![0, 29] S1024x1
  inb_S128x256x256_S1x256x256_29_0_0 : ∀ a, (![29, 0, 0] : Fin 3 → Nat) a + S1x256x256.size a ≤ S128x256x256.size a
  inb_S128x256_S1x256_29_0 : ∀ a, (![29, 0] : Fin 2 → Nat) a + S1x256.size a ≤ S128x256.size a
  inb_S1024x128_S1024x1_0_29 : ∀ a, (![0, 29] : Fin 2 → Nat) a + S1024x1.size a ≤ S1024x128.size a
  slices_S1024x128_o0_30_S1024x1 : S1024x128.Slices ![0, 30] S1024x1
  inb_S128x256x256_S1x256x256_30_0_0 : ∀ a, (![30, 0, 0] : Fin 3 → Nat) a + S1x256x256.size a ≤ S128x256x256.size a
  inb_S128x256_S1x256_30_0 : ∀ a, (![30, 0] : Fin 2 → Nat) a + S1x256.size a ≤ S128x256.size a
  inb_S1024x128_S1024x1_0_30 : ∀ a, (![0, 30] : Fin 2 → Nat) a + S1024x1.size a ≤ S1024x128.size a
  slices_S1024x128_o0_31_S1024x1 : S1024x128.Slices ![0, 31] S1024x1
  inb_S128x256x256_S1x256x256_31_0_0 : ∀ a, (![31, 0, 0] : Fin 3 → Nat) a + S1x256x256.size a ≤ S128x256x256.size a
  inb_S128x256_S1x256_31_0 : ∀ a, (![31, 0] : Fin 2 → Nat) a + S1x256.size a ≤ S128x256.size a
  inb_S1024x128_S1024x1_0_31 : ∀ a, (![0, 31] : Fin 2 → Nat) a + S1024x1.size a ≤ S1024x128.size a
  slices_S1024x128_o0_32_S1024x1 : S1024x128.Slices ![0, 32] S1024x1
  inb_S128x256x256_S1x256x256_32_0_0 : ∀ a, (![32, 0, 0] : Fin 3 → Nat) a + S1x256x256.size a ≤ S128x256x256.size a
  inb_S128x256_S1x256_32_0 : ∀ a, (![32, 0] : Fin 2 → Nat) a + S1x256.size a ≤ S128x256.size a
  inb_S1024x128_S1024x1_0_32 : ∀ a, (![0, 32] : Fin 2 → Nat) a + S1024x1.size a ≤ S1024x128.size a
  slices_S1024x128_o0_33_S1024x1 : S1024x128.Slices ![0, 33] S1024x1
  inb_S128x256x256_S1x256x256_33_0_0 : ∀ a, (![33, 0, 0] : Fin 3 → Nat) a + S1x256x256.size a ≤ S128x256x256.size a
  inb_S128x256_S1x256_33_0 : ∀ a, (![33, 0] : Fin 2 → Nat) a + S1x256.size a ≤ S128x256.size a
  inb_S1024x128_S1024x1_0_33 : ∀ a, (![0, 33] : Fin 2 → Nat) a + S1024x1.size a ≤ S1024x128.size a
  slices_S1024x128_o0_34_S1024x1 : S1024x128.Slices ![0, 34] S1024x1
  inb_S128x256x256_S1x256x256_34_0_0 : ∀ a, (![34, 0, 0] : Fin 3 → Nat) a + S1x256x256.size a ≤ S128x256x256.size a
  inb_S128x256_S1x256_34_0 : ∀ a, (![34, 0] : Fin 2 → Nat) a + S1x256.size a ≤ S128x256.size a
  inb_S1024x128_S1024x1_0_34 : ∀ a, (![0, 34] : Fin 2 → Nat) a + S1024x1.size a ≤ S1024x128.size a
  slices_S1024x128_o0_35_S1024x1 : S1024x128.Slices ![0, 35] S1024x1
  inb_S128x256x256_S1x256x256_35_0_0 : ∀ a, (![35, 0, 0] : Fin 3 → Nat) a + S1x256x256.size a ≤ S128x256x256.size a
  inb_S128x256_S1x256_35_0 : ∀ a, (![35, 0] : Fin 2 → Nat) a + S1x256.size a ≤ S128x256.size a
  inb_S1024x128_S1024x1_0_35 : ∀ a, (![0, 35] : Fin 2 → Nat) a + S1024x1.size a ≤ S1024x128.size a
  slices_S1024x128_o0_36_S1024x1 : S1024x128.Slices ![0, 36] S1024x1
  inb_S128x256x256_S1x256x256_36_0_0 : ∀ a, (![36, 0, 0] : Fin 3 → Nat) a + S1x256x256.size a ≤ S128x256x256.size a
  inb_S128x256_S1x256_36_0 : ∀ a, (![36, 0] : Fin 2 → Nat) a + S1x256.size a ≤ S128x256.size a
  inb_S1024x128_S1024x1_0_36 : ∀ a, (![0, 36] : Fin 2 → Nat) a + S1024x1.size a ≤ S1024x128.size a
  slices_S1024x128_o0_37_S1024x1 : S1024x128.Slices ![0, 37] S1024x1
  inb_S128x256x256_S1x256x256_37_0_0 : ∀ a, (![37, 0, 0] : Fin 3 → Nat) a + S1x256x256.size a ≤ S128x256x256.size a
  inb_S128x256_S1x256_37_0 : ∀ a, (![37, 0] : Fin 2 → Nat) a + S1x256.size a ≤ S128x256.size a
  inb_S1024x128_S1024x1_0_37 : ∀ a, (![0, 37] : Fin 2 → Nat) a + S1024x1.size a ≤ S1024x128.size a
  slices_S1024x128_o0_38_S1024x1 : S1024x128.Slices ![0, 38] S1024x1
  inb_S128x256x256_S1x256x256_38_0_0 : ∀ a, (![38, 0, 0] : Fin 3 → Nat) a + S1x256x256.size a ≤ S128x256x256.size a
  inb_S128x256_S1x256_38_0 : ∀ a, (![38, 0] : Fin 2 → Nat) a + S1x256.size a ≤ S128x256.size a
  inb_S1024x128_S1024x1_0_38 : ∀ a, (![0, 38] : Fin 2 → Nat) a + S1024x1.size a ≤ S1024x128.size a
  slices_S1024x128_o0_39_S1024x1 : S1024x128.Slices ![0, 39] S1024x1
  inb_S128x256x256_S1x256x256_39_0_0 : ∀ a, (![39, 0, 0] : Fin 3 → Nat) a + S1x256x256.size a ≤ S128x256x256.size a
  inb_S128x256_S1x256_39_0 : ∀ a, (![39, 0] : Fin 2 → Nat) a + S1x256.size a ≤ S128x256.size a
  inb_S1024x128_S1024x1_0_39 : ∀ a, (![0, 39] : Fin 2 → Nat) a + S1024x1.size a ≤ S1024x128.size a
  slices_S1024x128_o0_40_S1024x1 : S1024x128.Slices ![0, 40] S1024x1
  inb_S128x256x256_S1x256x256_40_0_0 : ∀ a, (![40, 0, 0] : Fin 3 → Nat) a + S1x256x256.size a ≤ S128x256x256.size a
  inb_S128x256_S1x256_40_0 : ∀ a, (![40, 0] : Fin 2 → Nat) a + S1x256.size a ≤ S128x256.size a
  inb_S1024x128_S1024x1_0_40 : ∀ a, (![0, 40] : Fin 2 → Nat) a + S1024x1.size a ≤ S1024x128.size a
  slices_S1024x128_o0_41_S1024x1 : S1024x128.Slices ![0, 41] S1024x1
  inb_S128x256x256_S1x256x256_41_0_0 : ∀ a, (![41, 0, 0] : Fin 3 → Nat) a + S1x256x256.size a ≤ S128x256x256.size a
  inb_S128x256_S1x256_41_0 : ∀ a, (![41, 0] : Fin 2 → Nat) a + S1x256.size a ≤ S128x256.size a
  inb_S1024x128_S1024x1_0_41 : ∀ a, (![0, 41] : Fin 2 → Nat) a + S1024x1.size a ≤ S1024x128.size a
  slices_S1024x128_o0_42_S1024x1 : S1024x128.Slices ![0, 42] S1024x1
  inb_S128x256x256_S1x256x256_42_0_0 : ∀ a, (![42, 0, 0] : Fin 3 → Nat) a + S1x256x256.size a ≤ S128x256x256.size a
  inb_S128x256_S1x256_42_0 : ∀ a, (![42, 0] : Fin 2 → Nat) a + S1x256.size a ≤ S128x256.size a
  inb_S1024x128_S1024x1_0_42 : ∀ a, (![0, 42] : Fin 2 → Nat) a + S1024x1.size a ≤ S1024x128.size a
  slices_S1024x128_o0_43_S1024x1 : S1024x128.Slices ![0, 43] S1024x1
  inb_S128x256x256_S1x256x256_43_0_0 : ∀ a, (![43, 0, 0] : Fin 3 → Nat) a + S1x256x256.size a ≤ S128x256x256.size a
  inb_S128x256_S1x256_43_0 : ∀ a, (![43, 0] : Fin 2 → Nat) a + S1x256.size a ≤ S128x256.size a
  inb_S1024x128_S1024x1_0_43 : ∀ a, (![0, 43] : Fin 2 → Nat) a + S1024x1.size a ≤ S1024x128.size a
  slices_S1024x128_o0_44_S1024x1 : S1024x128.Slices ![0, 44] S1024x1
  inb_S128x256x256_S1x256x256_44_0_0 : ∀ a, (![44, 0, 0] : Fin 3 → Nat) a + S1x256x256.size a ≤ S128x256x256.size a
  inb_S128x256_S1x256_44_0 : ∀ a, (![44, 0] : Fin 2 → Nat) a + S1x256.size a ≤ S128x256.size a
  inb_S1024x128_S1024x1_0_44 : ∀ a, (![0, 44] : Fin 2 → Nat) a + S1024x1.size a ≤ S1024x128.size a
  slices_S1024x128_o0_45_S1024x1 : S1024x128.Slices ![0, 45] S1024x1
  inb_S128x256x256_S1x256x256_45_0_0 : ∀ a, (![45, 0, 0] : Fin 3 → Nat) a + S1x256x256.size a ≤ S128x256x256.size a
  inb_S128x256_S1x256_45_0 : ∀ a, (![45, 0] : Fin 2 → Nat) a + S1x256.size a ≤ S128x256.size a
  inb_S1024x128_S1024x1_0_45 : ∀ a, (![0, 45] : Fin 2 → Nat) a + S1024x1.size a ≤ S1024x128.size a
  slices_S1024x128_o0_46_S1024x1 : S1024x128.Slices ![0, 46] S1024x1
  inb_S128x256x256_S1x256x256_46_0_0 : ∀ a, (![46, 0, 0] : Fin 3 → Nat) a + S1x256x256.size a ≤ S128x256x256.size a
  inb_S128x256_S1x256_46_0 : ∀ a, (![46, 0] : Fin 2 → Nat) a + S1x256.size a ≤ S128x256.size a
  inb_S1024x128_S1024x1_0_46 : ∀ a, (![0, 46] : Fin 2 → Nat) a + S1024x1.size a ≤ S1024x128.size a
  slices_S1024x128_o0_47_S1024x1 : S1024x128.Slices ![0, 47] S1024x1
  inb_S128x256x256_S1x256x256_47_0_0 : ∀ a, (![47, 0, 0] : Fin 3 → Nat) a + S1x256x256.size a ≤ S128x256x256.size a
  inb_S128x256_S1x256_47_0 : ∀ a, (![47, 0] : Fin 2 → Nat) a + S1x256.size a ≤ S128x256.size a
  inb_S1024x128_S1024x1_0_47 : ∀ a, (![0, 47] : Fin 2 → Nat) a + S1024x1.size a ≤ S1024x128.size a
  slices_S1024x128_o0_48_S1024x1 : S1024x128.Slices ![0, 48] S1024x1
  inb_S128x256x256_S1x256x256_48_0_0 : ∀ a, (![48, 0, 0] : Fin 3 → Nat) a + S1x256x256.size a ≤ S128x256x256.size a
  inb_S128x256_S1x256_48_0 : ∀ a, (![48, 0] : Fin 2 → Nat) a + S1x256.size a ≤ S128x256.size a
  inb_S1024x128_S1024x1_0_48 : ∀ a, (![0, 48] : Fin 2 → Nat) a + S1024x1.size a ≤ S1024x128.size a
  slices_S1024x128_o0_49_S1024x1 : S1024x128.Slices ![0, 49] S1024x1
  inb_S128x256x256_S1x256x256_49_0_0 : ∀ a, (![49, 0, 0] : Fin 3 → Nat) a + S1x256x256.size a ≤ S128x256x256.size a
  inb_S128x256_S1x256_49_0 : ∀ a, (![49, 0] : Fin 2 → Nat) a + S1x256.size a ≤ S128x256.size a
  inb_S1024x128_S1024x1_0_49 : ∀ a, (![0, 49] : Fin 2 → Nat) a + S1024x1.size a ≤ S1024x128.size a
  slices_S1024x128_o0_50_S1024x1 : S1024x128.Slices ![0, 50] S1024x1
  inb_S128x256x256_S1x256x256_50_0_0 : ∀ a, (![50, 0, 0] : Fin 3 → Nat) a + S1x256x256.size a ≤ S128x256x256.size a
  inb_S128x256_S1x256_50_0 : ∀ a, (![50, 0] : Fin 2 → Nat) a + S1x256.size a ≤ S128x256.size a
  inb_S1024x128_S1024x1_0_50 : ∀ a, (![0, 50] : Fin 2 → Nat) a + S1024x1.size a ≤ S1024x128.size a
  slices_S1024x128_o0_51_S1024x1 : S1024x128.Slices ![0, 51] S1024x1
  inb_S128x256x256_S1x256x256_51_0_0 : ∀ a, (![51, 0, 0] : Fin 3 → Nat) a + S1x256x256.size a ≤ S128x256x256.size a
  inb_S128x256_S1x256_51_0 : ∀ a, (![51, 0] : Fin 2 → Nat) a + S1x256.size a ≤ S128x256.size a
  inb_S1024x128_S1024x1_0_51 : ∀ a, (![0, 51] : Fin 2 → Nat) a + S1024x1.size a ≤ S1024x128.size a
  slices_S1024x128_o0_52_S1024x1 : S1024x128.Slices ![0, 52] S1024x1
  inb_S128x256x256_S1x256x256_52_0_0 : ∀ a, (![52, 0, 0] : Fin 3 → Nat) a + S1x256x256.size a ≤ S128x256x256.size a
  inb_S128x256_S1x256_52_0 : ∀ a, (![52, 0] : Fin 2 → Nat) a + S1x256.size a ≤ S128x256.size a
  inb_S1024x128_S1024x1_0_52 : ∀ a, (![0, 52] : Fin 2 → Nat) a + S1024x1.size a ≤ S1024x128.size a
  slices_S1024x128_o0_53_S1024x1 : S1024x128.Slices ![0, 53] S1024x1
  inb_S128x256x256_S1x256x256_53_0_0 : ∀ a, (![53, 0, 0] : Fin 3 → Nat) a + S1x256x256.size a ≤ S128x256x256.size a
  inb_S128x256_S1x256_53_0 : ∀ a, (![53, 0] : Fin 2 → Nat) a + S1x256.size a ≤ S128x256.size a
  inb_S1024x128_S1024x1_0_53 : ∀ a, (![0, 53] : Fin 2 → Nat) a + S1024x1.size a ≤ S1024x128.size a
  slices_S1024x128_o0_54_S1024x1 : S1024x128.Slices ![0, 54] S1024x1
  inb_S128x256x256_S1x256x256_54_0_0 : ∀ a, (![54, 0, 0] : Fin 3 → Nat) a + S1x256x256.size a ≤ S128x256x256.size a
  inb_S128x256_S1x256_54_0 : ∀ a, (![54, 0] : Fin 2 → Nat) a + S1x256.size a ≤ S128x256.size a
  inb_S1024x128_S1024x1_0_54 : ∀ a, (![0, 54] : Fin 2 → Nat) a + S1024x1.size a ≤ S1024x128.size a
  slices_S1024x128_o0_55_S1024x1 : S1024x128.Slices ![0, 55] S1024x1
  inb_S128x256x256_S1x256x256_55_0_0 : ∀ a, (![55, 0, 0] : Fin 3 → Nat) a + S1x256x256.size a ≤ S128x256x256.size a
  inb_S128x256_S1x256_55_0 : ∀ a, (![55, 0] : Fin 2 → Nat) a + S1x256.size a ≤ S128x256.size a
  inb_S1024x128_S1024x1_0_55 : ∀ a, (![0, 55] : Fin 2 → Nat) a + S1024x1.size a ≤ S1024x128.size a
  slices_S1024x128_o0_56_S1024x1 : S1024x128.Slices ![0, 56] S1024x1
  inb_S128x256x256_S1x256x256_56_0_0 : ∀ a, (![56, 0, 0] : Fin 3 → Nat) a + S1x256x256.size a ≤ S128x256x256.size a
  inb_S128x256_S1x256_56_0 : ∀ a, (![56, 0] : Fin 2 → Nat) a + S1x256.size a ≤ S128x256.size a
  inb_S1024x128_S1024x1_0_56 : ∀ a, (![0, 56] : Fin 2 → Nat) a + S1024x1.size a ≤ S1024x128.size a
  slices_S1024x128_o0_57_S1024x1 : S1024x128.Slices ![0, 57] S1024x1
  inb_S128x256x256_S1x256x256_57_0_0 : ∀ a, (![57, 0, 0] : Fin 3 → Nat) a + S1x256x256.size a ≤ S128x256x256.size a
  inb_S128x256_S1x256_57_0 : ∀ a, (![57, 0] : Fin 2 → Nat) a + S1x256.size a ≤ S128x256.size a
  inb_S1024x128_S1024x1_0_57 : ∀ a, (![0, 57] : Fin 2 → Nat) a + S1024x1.size a ≤ S1024x128.size a
  slices_S1024x128_o0_58_S1024x1 : S1024x128.Slices ![0, 58] S1024x1
  inb_S128x256x256_S1x256x256_58_0_0 : ∀ a, (![58, 0, 0] : Fin 3 → Nat) a + S1x256x256.size a ≤ S128x256x256.size a
  inb_S128x256_S1x256_58_0 : ∀ a, (![58, 0] : Fin 2 → Nat) a + S1x256.size a ≤ S128x256.size a
  inb_S1024x128_S1024x1_0_58 : ∀ a, (![0, 58] : Fin 2 → Nat) a + S1024x1.size a ≤ S1024x128.size a
  slices_S1024x128_o0_59_S1024x1 : S1024x128.Slices ![0, 59] S1024x1
  inb_S128x256x256_S1x256x256_59_0_0 : ∀ a, (![59, 0, 0] : Fin 3 → Nat) a + S1x256x256.size a ≤ S128x256x256.size a
  inb_S128x256_S1x256_59_0 : ∀ a, (![59, 0] : Fin 2 → Nat) a + S1x256.size a ≤ S128x256.size a
  inb_S1024x128_S1024x1_0_59 : ∀ a, (![0, 59] : Fin 2 → Nat) a + S1024x1.size a ≤ S1024x128.size a
  slices_S1024x128_o0_60_S1024x1 : S1024x128.Slices ![0, 60] S1024x1
  inb_S128x256x256_S1x256x256_60_0_0 : ∀ a, (![60, 0, 0] : Fin 3 → Nat) a + S1x256x256.size a ≤ S128x256x256.size a
  inb_S128x256_S1x256_60_0 : ∀ a, (![60, 0] : Fin 2 → Nat) a + S1x256.size a ≤ S128x256.size a
  inb_S1024x128_S1024x1_0_60 : ∀ a, (![0, 60] : Fin 2 → Nat) a + S1024x1.size a ≤ S1024x128.size a
  slices_S1024x128_o0_61_S1024x1 : S1024x128.Slices ![0, 61] S1024x1
  inb_S128x256x256_S1x256x256_61_0_0 : ∀ a, (![61, 0, 0] : Fin 3 → Nat) a + S1x256x256.size a ≤ S128x256x256.size a
  inb_S128x256_S1x256_61_0 : ∀ a, (![61, 0] : Fin 2 → Nat) a + S1x256.size a ≤ S128x256.size a
  inb_S1024x128_S1024x1_0_61 : ∀ a, (![0, 61] : Fin 2 → Nat) a + S1024x1.size a ≤ S1024x128.size a
  slices_S1024x128_o0_62_S1024x1 : S1024x128.Slices ![0, 62] S1024x1
  inb_S128x256x256_S1x256x256_62_0_0 : ∀ a, (![62, 0, 0] : Fin 3 → Nat) a + S1x256x256.size a ≤ S128x256x256.size a
  inb_S128x256_S1x256_62_0 : ∀ a, (![62, 0] : Fin 2 → Nat) a + S1x256.size a ≤ S128x256.size a
  inb_S1024x128_S1024x1_0_62 : ∀ a, (![0, 62] : Fin 2 → Nat) a + S1024x1.size a ≤ S1024x128.size a
  slices_S1024x128_o0_63_S1024x1 : S1024x128.Slices ![0, 63] S1024x1
  inb_S128x256x256_S1x256x256_63_0_0 : ∀ a, (![63, 0, 0] : Fin 3 → Nat) a + S1x256x256.size a ≤ S128x256x256.size a
  inb_S128x256_S1x256_63_0 : ∀ a, (![63, 0] : Fin 2 → Nat) a + S1x256.size a ≤ S128x256.size a
  inb_S1024x128_S1024x1_0_63 : ∀ a, (![0, 63] : Fin 2 → Nat) a + S1024x1.size a ≤ S1024x128.size a
  slices_S1024x128_o0_64_S1024x1 : S1024x128.Slices ![0, 64] S1024x1
  inb_S128x256x256_S1x256x256_64_0_0 : ∀ a, (![64, 0, 0] : Fin 3 → Nat) a + S1x256x256.size a ≤ S128x256x256.size a
  inb_S128x256_S1x256_64_0 : ∀ a, (![64, 0] : Fin 2 → Nat) a + S1x256.size a ≤ S128x256.size a
  inb_S1024x128_S1024x1_0_64 : ∀ a, (![0, 64] : Fin 2 → Nat) a + S1024x1.size a ≤ S1024x128.size a
  slices_S1024x128_o0_65_S1024x1 : S1024x128.Slices ![0, 65] S1024x1
  inb_S128x256x256_S1x256x256_65_0_0 : ∀ a, (![65, 0, 0] : Fin 3 → Nat) a + S1x256x256.size a ≤ S128x256x256.size a
  inb_S128x256_S1x256_65_0 : ∀ a, (![65, 0] : Fin 2 → Nat) a + S1x256.size a ≤ S128x256.size a
  inb_S1024x128_S1024x1_0_65 : ∀ a, (![0, 65] : Fin 2 → Nat) a + S1024x1.size a ≤ S1024x128.size a
  slices_S1024x128_o0_66_S1024x1 : S1024x128.Slices ![0, 66] S1024x1
  inb_S128x256x256_S1x256x256_66_0_0 : ∀ a, (![66, 0, 0] : Fin 3 → Nat) a + S1x256x256.size a ≤ S128x256x256.size a
  inb_S128x256_S1x256_66_0 : ∀ a, (![66, 0] : Fin 2 → Nat) a + S1x256.size a ≤ S128x256.size a
  inb_S1024x128_S1024x1_0_66 : ∀ a, (![0, 66] : Fin 2 → Nat) a + S1024x1.size a ≤ S1024x128.size a
  slices_S1024x128_o0_67_S1024x1 : S1024x128.Slices ![0, 67] S1024x1
  inb_S128x256x256_S1x256x256_67_0_0 : ∀ a, (![67, 0, 0] : Fin 3 → Nat) a + S1x256x256.size a ≤ S128x256x256.size a
  inb_S128x256_S1x256_67_0 : ∀ a, (![67, 0] : Fin 2 → Nat) a + S1x256.size a ≤ S128x256.size a
  inb_S1024x128_S1024x1_0_67 : ∀ a, (![0, 67] : Fin 2 → Nat) a + S1024x1.size a ≤ S1024x128.size a
  slices_S1024x128_o0_68_S1024x1 : S1024x128.Slices ![0, 68] S1024x1
  inb_S128x256x256_S1x256x256_68_0_0 : ∀ a, (![68, 0, 0] : Fin 3 → Nat) a + S1x256x256.size a ≤ S128x256x256.size a
  inb_S128x256_S1x256_68_0 : ∀ a, (![68, 0] : Fin 2 → Nat) a + S1x256.size a ≤ S128x256.size a
  inb_S1024x128_S1024x1_0_68 : ∀ a, (![0, 68] : Fin 2 → Nat) a + S1024x1.size a ≤ S1024x128.size a
  slices_S1024x128_o0_69_S1024x1 : S1024x128.Slices ![0, 69] S1024x1
  inb_S128x256x256_S1x256x256_69_0_0 : ∀ a, (![69, 0, 0] : Fin 3 → Nat) a + S1x256x256.size a ≤ S128x256x256.size a
  inb_S128x256_S1x256_69_0 : ∀ a, (![69, 0] : Fin 2 → Nat) a + S1x256.size a ≤ S128x256.size a
  inb_S1024x128_S1024x1_0_69 : ∀ a, (![0, 69] : Fin 2 → Nat) a + S1024x1.size a ≤ S1024x128.size a
  slices_S1024x128_o0_70_S1024x1 : S1024x128.Slices ![0, 70] S1024x1
  inb_S128x256x256_S1x256x256_70_0_0 : ∀ a, (![70, 0, 0] : Fin 3 → Nat) a + S1x256x256.size a ≤ S128x256x256.size a
  inb_S128x256_S1x256_70_0 : ∀ a, (![70, 0] : Fin 2 → Nat) a + S1x256.size a ≤ S128x256.size a
  inb_S1024x128_S1024x1_0_70 : ∀ a, (![0, 70] : Fin 2 → Nat) a + S1024x1.size a ≤ S1024x128.size a
  slices_S1024x128_o0_71_S1024x1 : S1024x128.Slices ![0, 71] S1024x1
  inb_S128x256x256_S1x256x256_71_0_0 : ∀ a, (![71, 0, 0] : Fin 3 → Nat) a + S1x256x256.size a ≤ S128x256x256.size a
  inb_S128x256_S1x256_71_0 : ∀ a, (![71, 0] : Fin 2 → Nat) a + S1x256.size a ≤ S128x256.size a
  inb_S1024x128_S1024x1_0_71 : ∀ a, (![0, 71] : Fin 2 → Nat) a + S1024x1.size a ≤ S1024x128.size a
  slices_S1024x128_o0_72_S1024x1 : S1024x128.Slices ![0, 72] S1024x1
  inb_S128x256x256_S1x256x256_72_0_0 : ∀ a, (![72, 0, 0] : Fin 3 → Nat) a + S1x256x256.size a ≤ S128x256x256.size a
  inb_S128x256_S1x256_72_0 : ∀ a, (![72, 0] : Fin 2 → Nat) a + S1x256.size a ≤ S128x256.size a
  inb_S1024x128_S1024x1_0_72 : ∀ a, (![0, 72] : Fin 2 → Nat) a + S1024x1.size a ≤ S1024x128.size a
  slices_S1024x128_o0_73_S1024x1 : S1024x128.Slices ![0, 73] S1024x1
  inb_S128x256x256_S1x256x256_73_0_0 : ∀ a, (![73, 0, 0] : Fin 3 → Nat) a + S1x256x256.size a ≤ S128x256x256.size a
  inb_S128x256_S1x256_73_0 : ∀ a, (![73, 0] : Fin 2 → Nat) a + S1x256.size a ≤ S128x256.size a
  inb_S1024x128_S1024x1_0_73 : ∀ a, (![0, 73] : Fin 2 → Nat) a + S1024x1.size a ≤ S1024x128.size a
  slices_S1024x128_o0_74_S1024x1 : S1024x128.Slices ![0, 74] S1024x1
  inb_S128x256x256_S1x256x256_74_0_0 : ∀ a, (![74, 0, 0] : Fin 3 → Nat) a + S1x256x256.size a ≤ S128x256x256.size a
  inb_S128x256_S1x256_74_0 : ∀ a, (![74, 0] : Fin 2 → Nat) a + S1x256.size a ≤ S128x256.size a
  inb_S1024x128_S1024x1_0_74 : ∀ a, (![0, 74] : Fin 2 → Nat) a + S1024x1.size a ≤ S1024x128.size a
  slices_S1024x128_o0_75_S1024x1 : S1024x128.Slices ![0, 75] S1024x1
  inb_S128x256x256_S1x256x256_75_0_0 : ∀ a, (![75, 0, 0] : Fin 3 → Nat) a + S1x256x256.size a ≤ S128x256x256.size a
  inb_S128x256_S1x256_75_0 : ∀ a, (![75, 0] : Fin 2 → Nat) a + S1x256.size a ≤ S128x256.size a
  inb_S1024x128_S1024x1_0_75 : ∀ a, (![0, 75] : Fin 2 → Nat) a + S1024x1.size a ≤ S1024x128.size a
  slices_S1024x128_o0_76_S1024x1 : S1024x128.Slices ![0, 76] S1024x1
  inb_S128x256x256_S1x256x256_76_0_0 : ∀ a, (![76, 0, 0] : Fin 3 → Nat) a + S1x256x256.size a ≤ S128x256x256.size a
  inb_S128x256_S1x256_76_0 : ∀ a, (![76, 0] : Fin 2 → Nat) a + S1x256.size a ≤ S128x256.size a
  inb_S1024x128_S1024x1_0_76 : ∀ a, (![0, 76] : Fin 2 → Nat) a + S1024x1.size a ≤ S1024x128.size a
  slices_S1024x128_o0_77_S1024x1 : S1024x128.Slices ![0, 77] S1024x1
  inb_S128x256x256_S1x256x256_77_0_0 : ∀ a, (![77, 0, 0] : Fin 3 → Nat) a + S1x256x256.size a ≤ S128x256x256.size a
  inb_S128x256_S1x256_77_0 : ∀ a, (![77, 0] : Fin 2 → Nat) a + S1x256.size a ≤ S128x256.size a
  inb_S1024x128_S1024x1_0_77 : ∀ a, (![0, 77] : Fin 2 → Nat) a + S1024x1.size a ≤ S1024x128.size a
  slices_S1024x128_o0_78_S1024x1 : S1024x128.Slices ![0, 78] S1024x1
  inb_S128x256x256_S1x256x256_78_0_0 : ∀ a, (![78, 0, 0] : Fin 3 → Nat) a + S1x256x256.size a ≤ S128x256x256.size a
  inb_S128x256_S1x256_78_0 : ∀ a, (![78, 0] : Fin 2 → Nat) a + S1x256.size a ≤ S128x256.size a
  inb_S1024x128_S1024x1_0_78 : ∀ a, (![0, 78] : Fin 2 → Nat) a + S1024x1.size a ≤ S1024x128.size a
  slices_S1024x128_o0_79_S1024x1 : S1024x128.Slices ![0, 79] S1024x1
  inb_S128x256x256_S1x256x256_79_0_0 : ∀ a, (![79, 0, 0] : Fin 3 → Nat) a + S1x256x256.size a ≤ S128x256x256.size a
  inb_S128x256_S1x256_79_0 : ∀ a, (![79, 0] : Fin 2 → Nat) a + S1x256.size a ≤ S128x256.size a
  inb_S1024x128_S1024x1_0_79 : ∀ a, (![0, 79] : Fin 2 → Nat) a + S1024x1.size a ≤ S1024x128.size a
  slices_S1024x128_o0_80_S1024x1 : S1024x128.Slices ![0, 80] S1024x1
  inb_S128x256x256_S1x256x256_80_0_0 : ∀ a, (![80, 0, 0] : Fin 3 → Nat) a + S1x256x256.size a ≤ S128x256x256.size a
  inb_S128x256_S1x256_80_0 : ∀ a, (![80, 0] : Fin 2 → Nat) a + S1x256.size a ≤ S128x256.size a
  inb_S1024x128_S1024x1_0_80 : ∀ a, (![0, 80] : Fin 2 → Nat) a + S1024x1.size a ≤ S1024x128.size a
  slices_S1024x128_o0_81_S1024x1 : S1024x128.Slices ![0, 81] S1024x1
  inb_S128x256x256_S1x256x256_81_0_0 : ∀ a, (![81, 0, 0] : Fin 3 → Nat) a + S1x256x256.size a ≤ S128x256x256.size a
  inb_S128x256_S1x256_81_0 : ∀ a, (![81, 0] : Fin 2 → Nat) a + S1x256.size a ≤ S128x256.size a
  inb_S1024x128_S1024x1_0_81 : ∀ a, (![0, 81] : Fin 2 → Nat) a + S1024x1.size a ≤ S1024x128.size a
  slices_S1024x128_o0_82_S1024x1 : S1024x128.Slices ![0, 82] S1024x1
  inb_S128x256x256_S1x256x256_82_0_0 : ∀ a, (![82, 0, 0] : Fin 3 → Nat) a + S1x256x256.size a ≤ S128x256x256.size a
  inb_S128x256_S1x256_82_0 : ∀ a, (![82, 0] : Fin 2 → Nat) a + S1x256.size a ≤ S128x256.size a
  inb_S1024x128_S1024x1_0_82 : ∀ a, (![0, 82] : Fin 2 → Nat) a + S1024x1.size a ≤ S1024x128.size a
  slices_S1024x128_o0_83_S1024x1 : S1024x128.Slices ![0, 83] S1024x1
  inb_S128x256x256_S1x256x256_83_0_0 : ∀ a, (![83, 0, 0] : Fin 3 → Nat) a + S1x256x256.size a ≤ S128x256x256.size a
  inb_S128x256_S1x256_83_0 : ∀ a, (![83, 0] : Fin 2 → Nat) a + S1x256.size a ≤ S128x256.size a
  inb_S1024x128_S1024x1_0_83 : ∀ a, (![0, 83] : Fin 2 → Nat) a + S1024x1.size a ≤ S1024x128.size a
  slices_S1024x128_o0_84_S1024x1 : S1024x128.Slices ![0, 84] S1024x1
  inb_S128x256x256_S1x256x256_84_0_0 : ∀ a, (![84, 0, 0] : Fin 3 → Nat) a + S1x256x256.size a ≤ S128x256x256.size a
  inb_S128x256_S1x256_84_0 : ∀ a, (![84, 0] : Fin 2 → Nat) a + S1x256.size a ≤ S128x256.size a
  inb_S1024x128_S1024x1_0_84 : ∀ a, (![0, 84] : Fin 2 → Nat) a + S1024x1.size a ≤ S1024x128.size a
  slices_S1024x128_o0_85_S1024x1 : S1024x128.Slices ![0, 85] S1024x1
  inb_S128x256x256_S1x256x256_85_0_0 : ∀ a, (![85, 0, 0] : Fin 3 → Nat) a + S1x256x256.size a ≤ S128x256x256.size a
  inb_S128x256_S1x256_85_0 : ∀ a, (![85, 0] : Fin 2 → Nat) a + S1x256.size a ≤ S128x256.size a
  inb_S1024x128_S1024x1_0_85 : ∀ a, (![0, 85] : Fin 2 → Nat) a + S1024x1.size a ≤ S1024x128.size a
  slices_S1024x128_o0_86_S1024x1 : S1024x128.Slices ![0, 86] S1024x1
  inb_S128x256x256_S1x256x256_86_0_0 : ∀ a, (![86, 0, 0] : Fin 3 → Nat) a + S1x256x256.size a ≤ S128x256x256.size a
  inb_S128x256_S1x256_86_0 : ∀ a, (![86, 0] : Fin 2 → Nat) a + S1x256.size a ≤ S128x256.size a
  inb_S1024x128_S1024x1_0_86 : ∀ a, (![0, 86] : Fin 2 → Nat) a + S1024x1.size a ≤ S1024x128.size a
  slices_S1024x128_o0_87_S1024x1 : S1024x128.Slices ![0, 87] S1024x1
  inb_S128x256x256_S1x256x256_87_0_0 : ∀ a, (![87, 0, 0] : Fin 3 → Nat) a + S1x256x256.size a ≤ S128x256x256.size a
  inb_S128x256_S1x256_87_0 : ∀ a, (![87, 0] : Fin 2 → Nat) a + S1x256.size a ≤ S128x256.size a
  inb_S1024x128_S1024x1_0_87 : ∀ a, (![0, 87] : Fin 2 → Nat) a + S1024x1.size a ≤ S1024x128.size a
  slices_S1024x128_o0_88_S1024x1 : S1024x128.Slices ![0, 88] S1024x1
  inb_S128x256x256_S1x256x256_88_0_0 : ∀ a, (![88, 0, 0] : Fin 3 → Nat) a + S1x256x256.size a ≤ S128x256x256.size a
  inb_S128x256_S1x256_88_0 : ∀ a, (![88, 0] : Fin 2 → Nat) a + S1x256.size a ≤ S128x256.size a
  inb_S1024x128_S1024x1_0_88 : ∀ a, (![0, 88] : Fin 2 → Nat) a + S1024x1.size a ≤ S1024x128.size a
  slices_S1024x128_o0_89_S1024x1 : S1024x128.Slices ![0, 89] S1024x1
  inb_S128x256x256_S1x256x256_89_0_0 : ∀ a, (![89, 0, 0] : Fin 3 → Nat) a + S1x256x256.size a ≤ S128x256x256.size a
  inb_S128x256_S1x256_89_0 : ∀ a, (![89, 0] : Fin 2 → Nat) a + S1x256.size a ≤ S128x256.size a
  inb_S1024x128_S1024x1_0_89 : ∀ a, (![0, 89] : Fin 2 → Nat) a + S1024x1.size a ≤ S1024x128.size a
  slices_S1024x128_o0_90_S1024x1 : S1024x128.Slices ![0, 90] S1024x1
  inb_S128x256x256_S1x256x256_90_0_0 : ∀ a, (![90, 0, 0] : Fin 3 → Nat) a + S1x256x256.size a ≤ S128x256x256.size a
  inb_S128x256_S1x256_90_0 : ∀ a, (![90, 0] : Fin 2 → Nat) a + S1x256.size a ≤ S128x256.size a
  inb_S1024x128_S1024x1_0_90 : ∀ a, (![0, 90] : Fin 2 → Nat) a + S1024x1.size a ≤ S1024x128.size a
  slices_S1024x128_o0_91_S1024x1 : S1024x128.Slices ![0, 91] S1024x1
  inb_S128x256x256_S1x256x256_91_0_0 : ∀ a, (![91, 0, 0] : Fin 3 → Nat) a + S1x256x256.size a ≤ S128x256x256.size a
  inb_S128x256_S1x256_91_0 : ∀ a, (![91, 0] : Fin 2 → Nat) a + S1x256.size a ≤ S128x256.size a
  inb_S1024x128_S1024x1_0_91 : ∀ a, (![0, 91] : Fin 2 → Nat) a + S1024x1.size a ≤ S1024x128.size a
  slices_S1024x128_o0_92_S1024x1 : S1024x128.Slices ![0, 92] S1024x1
  inb_S128x256x256_S1x256x256_92_0_0 : ∀ a, (![92, 0, 0] : Fin 3 → Nat) a + S1x256x256.size a ≤ S128x256x256.size a
  inb_S128x256_S1x256_92_0 : ∀ a, (![92, 0] : Fin 2 → Nat) a + S1x256.size a ≤ S128x256.size a
  inb_S1024x128_S1024x1_0_92 : ∀ a, (![0, 92] : Fin 2 → Nat) a + S1024x1.size a ≤ S1024x128.size a
  slices_S1024x128_o0_93_S1024x1 : S1024x128.Slices ![0, 93] S1024x1
  inb_S128x256x256_S1x256x256_93_0_0 : ∀ a, (![93, 0, 0] : Fin 3 → Nat) a + S1x256x256.size a ≤ S128x256x256.size a
  inb_S128x256_S1x256_93_0 : ∀ a, (![93, 0] : Fin 2 → Nat) a + S1x256.size a ≤ S128x256.size a
  inb_S1024x128_S1024x1_0_93 : ∀ a, (![0, 93] : Fin 2 → Nat) a + S1024x1.size a ≤ S1024x128.size a
  slices_S1024x128_o0_94_S1024x1 : S1024x128.Slices ![0, 94] S1024x1
  inb_S128x256x256_S1x256x256_94_0_0 : ∀ a, (![94, 0, 0] : Fin 3 → Nat) a + S1x256x256.size a ≤ S128x256x256.size a
  inb_S128x256_S1x256_94_0 : ∀ a, (![94, 0] : Fin 2 → Nat) a + S1x256.size a ≤ S128x256.size a
  inb_S1024x128_S1024x1_0_94 : ∀ a, (![0, 94] : Fin 2 → Nat) a + S1024x1.size a ≤ S1024x128.size a
  slices_S1024x128_o0_95_S1024x1 : S1024x128.Slices ![0, 95] S1024x1
  inb_S128x256x256_S1x256x256_95_0_0 : ∀ a, (![95, 0, 0] : Fin 3 → Nat) a + S1x256x256.size a ≤ S128x256x256.size a
  inb_S128x256_S1x256_95_0 : ∀ a, (![95, 0] : Fin 2 → Nat) a + S1x256.size a ≤ S128x256.size a
  inb_S1024x128_S1024x1_0_95 : ∀ a, (![0, 95] : Fin 2 → Nat) a + S1024x1.size a ≤ S1024x128.size a
  slices_S1024x128_o0_96_S1024x1 : S1024x128.Slices ![0, 96] S1024x1
  inb_S128x256x256_S1x256x256_96_0_0 : ∀ a, (![96, 0, 0] : Fin 3 → Nat) a + S1x256x256.size a ≤ S128x256x256.size a
  inb_S128x256_S1x256_96_0 : ∀ a, (![96, 0] : Fin 2 → Nat) a + S1x256.size a ≤ S128x256.size a
  inb_S1024x128_S1024x1_0_96 : ∀ a, (![0, 96] : Fin 2 → Nat) a + S1024x1.size a ≤ S1024x128.size a
  slices_S1024x128_o0_97_S1024x1 : S1024x128.Slices ![0, 97] S1024x1
  inb_S128x256x256_S1x256x256_97_0_0 : ∀ a, (![97, 0, 0] : Fin 3 → Nat) a + S1x256x256.size a ≤ S128x256x256.size a
  inb_S128x256_S1x256_97_0 : ∀ a, (![97, 0] : Fin 2 → Nat) a + S1x256.size a ≤ S128x256.size a
  inb_S1024x128_S1024x1_0_97 : ∀ a, (![0, 97] : Fin 2 → Nat) a + S1024x1.size a ≤ S1024x128.size a
  slices_S1024x128_o0_98_S1024x1 : S1024x128.Slices ![0, 98] S1024x1
  inb_S128x256x256_S1x256x256_98_0_0 : ∀ a, (![98, 0, 0] : Fin 3 → Nat) a + S1x256x256.size a ≤ S128x256x256.size a
  inb_S128x256_S1x256_98_0 : ∀ a, (![98, 0] : Fin 2 → Nat) a + S1x256.size a ≤ S128x256.size a
  inb_S1024x128_S1024x1_0_98 : ∀ a, (![0, 98] : Fin 2 → Nat) a + S1024x1.size a ≤ S1024x128.size a
  slices_S1024x128_o0_99_S1024x1 : S1024x128.Slices ![0, 99] S1024x1
  inb_S128x256x256_S1x256x256_99_0_0 : ∀ a, (![99, 0, 0] : Fin 3 → Nat) a + S1x256x256.size a ≤ S128x256x256.size a
  inb_S128x256_S1x256_99_0 : ∀ a, (![99, 0] : Fin 2 → Nat) a + S1x256.size a ≤ S128x256.size a
  inb_S1024x128_S1024x1_0_99 : ∀ a, (![0, 99] : Fin 2 → Nat) a + S1024x1.size a ≤ S1024x128.size a
  slices_S1024x128_o0_100_S1024x1 : S1024x128.Slices ![0, 100] S1024x1
  inb_S128x256x256_S1x256x256_100_0_0 : ∀ a, (![100, 0, 0] : Fin 3 → Nat) a + S1x256x256.size a ≤ S128x256x256.size a
  inb_S128x256_S1x256_100_0 : ∀ a, (![100, 0] : Fin 2 → Nat) a + S1x256.size a ≤ S128x256.size a
  inb_S1024x128_S1024x1_0_100 : ∀ a, (![0, 100] : Fin 2 → Nat) a + S1024x1.size a ≤ S1024x128.size a
  slices_S1024x128_o0_101_S1024x1 : S1024x128.Slices ![0, 101] S1024x1
  inb_S128x256x256_S1x256x256_101_0_0 : ∀ a, (![101, 0, 0] : Fin 3 → Nat) a + S1x256x256.size a ≤ S128x256x256.size a
  inb_S128x256_S1x256_101_0 : ∀ a, (![101, 0] : Fin 2 → Nat) a + S1x256.size a ≤ S128x256.size a
  inb_S1024x128_S1024x1_0_101 : ∀ a, (![0, 101] : Fin 2 → Nat) a + S1024x1.size a ≤ S1024x128.size a
  slices_S1024x128_o0_102_S1024x1 : S1024x128.Slices ![0, 102] S1024x1
  inb_S128x256x256_S1x256x256_102_0_0 : ∀ a, (![102, 0, 0] : Fin 3 → Nat) a + S1x256x256.size a ≤ S128x256x256.size a
  inb_S128x256_S1x256_102_0 : ∀ a, (![102, 0] : Fin 2 → Nat) a + S1x256.size a ≤ S128x256.size a
  inb_S1024x128_S1024x1_0_102 : ∀ a, (![0, 102] : Fin 2 → Nat) a + S1024x1.size a ≤ S1024x128.size a
  slices_S1024x128_o0_103_S1024x1 : S1024x128.Slices ![0, 103] S1024x1
  inb_S128x256x256_S1x256x256_103_0_0 : ∀ a, (![103, 0, 0] : Fin 3 → Nat) a + S1x256x256.size a ≤ S128x256x256.size a
  inb_S128x256_S1x256_103_0 : ∀ a, (![103, 0] : Fin 2 → Nat) a + S1x256.size a ≤ S128x256.size a
  inb_S1024x128_S1024x1_0_103 : ∀ a, (![0, 103] : Fin 2 → Nat) a + S1024x1.size a ≤ S1024x128.size a
  slices_S1024x128_o0_104_S1024x1 : S1024x128.Slices ![0, 104] S1024x1
  inb_S128x256x256_S1x256x256_104_0_0 : ∀ a, (![104, 0, 0] : Fin 3 → Nat) a + S1x256x256.size a ≤ S128x256x256.size a
  inb_S128x256_S1x256_104_0 : ∀ a, (![104, 0] : Fin 2 → Nat) a + S1x256.size a ≤ S128x256.size a
  inb_S1024x128_S1024x1_0_104 : ∀ a, (![0, 104] : Fin 2 → Nat) a + S1024x1.size a ≤ S1024x128.size a
  slices_S1024x128_o0_105_S1024x1 : S1024x128.Slices ![0, 105] S1024x1
  inb_S128x256x256_S1x256x256_105_0_0 : ∀ a, (![105, 0, 0] : Fin 3 → Nat) a + S1x256x256.size a ≤ S128x256x256.size a
  inb_S128x256_S1x256_105_0 : ∀ a, (![105, 0] : Fin 2 → Nat) a + S1x256.size a ≤ S128x256.size a
  inb_S1024x128_S1024x1_0_105 : ∀ a, (![0, 105] : Fin 2 → Nat) a + S1024x1.size a ≤ S1024x128.size a
  slices_S1024x128_o0_106_S1024x1 : S1024x128.Slices ![0, 106] S1024x1
  inb_S128x256x256_S1x256x256_106_0_0 : ∀ a, (![106, 0, 0] : Fin 3 → Nat) a + S1x256x256.size a ≤ S128x256x256.size a
  inb_S128x256_S1x256_106_0 : ∀ a, (![106, 0] : Fin 2 → Nat) a + S1x256.size a ≤ S128x256.size a
  inb_S1024x128_S1024x1_0_106 : ∀ a, (![0, 106] : Fin 2 → Nat) a + S1024x1.size a ≤ S1024x128.size a
  slices_S1024x128_o0_107_S1024x1 : S1024x128.Slices ![0, 107] S1024x1
  inb_S128x256x256_S1x256x256_107_0_0 : ∀ a, (![107, 0, 0] : Fin 3 → Nat) a + S1x256x256.size a ≤ S128x256x256.size a
  inb_S128x256_S1x256_107_0 : ∀ a, (![107, 0] : Fin 2 → Nat) a + S1x256.size a ≤ S128x256.size a
  inb_S1024x128_S1024x1_0_107 : ∀ a, (![0, 107] : Fin 2 → Nat) a + S1024x1.size a ≤ S1024x128.size a
  slices_S1024x128_o0_108_S1024x1 : S1024x128.Slices ![0, 108] S1024x1
  inb_S128x256x256_S1x256x256_108_0_0 : ∀ a, (![108, 0, 0] : Fin 3 → Nat) a + S1x256x256.size a ≤ S128x256x256.size a
  inb_S128x256_S1x256_108_0 : ∀ a, (![108, 0] : Fin 2 → Nat) a + S1x256.size a ≤ S128x256.size a
  inb_S1024x128_S1024x1_0_108 : ∀ a, (![0, 108] : Fin 2 → Nat) a + S1024x1.size a ≤ S1024x128.size a
  slices_S1024x128_o0_109_S1024x1 : S1024x128.Slices ![0, 109] S1024x1
  inb_S128x256x256_S1x256x256_109_0_0 : ∀ a, (![109, 0, 0] : Fin 3 → Nat) a + S1x256x256.size a ≤ S128x256x256.size a
  inb_S128x256_S1x256_109_0 : ∀ a, (![109, 0] : Fin 2 → Nat) a + S1x256.size a ≤ S128x256.size a
  inb_S1024x128_S1024x1_0_109 : ∀ a, (![0, 109] : Fin 2 → Nat) a + S1024x1.size a ≤ S1024x128.size a
  slices_S1024x128_o0_110_S1024x1 : S1024x128.Slices ![0, 110] S1024x1
  inb_S128x256x256_S1x256x256_110_0_0 : ∀ a, (![110, 0, 0] : Fin 3 → Nat) a + S1x256x256.size a ≤ S128x256x256.size a
  inb_S128x256_S1x256_110_0 : ∀ a, (![110, 0] : Fin 2 → Nat) a + S1x256.size a ≤ S128x256.size a
  inb_S1024x128_S1024x1_0_110 : ∀ a, (![0, 110] : Fin 2 → Nat) a + S1024x1.size a ≤ S1024x128.size a
  slices_S1024x128_o0_111_S1024x1 : S1024x128.Slices ![0, 111] S1024x1
  inb_S128x256x256_S1x256x256_111_0_0 : ∀ a, (![111, 0, 0] : Fin 3 → Nat) a + S1x256x256.size a ≤ S128x256x256.size a
  inb_S128x256_S1x256_111_0 : ∀ a, (![111, 0] : Fin 2 → Nat) a + S1x256.size a ≤ S128x256.size a
  inb_S1024x128_S1024x1_0_111 : ∀ a, (![0, 111] : Fin 2 → Nat) a + S1024x1.size a ≤ S1024x128.size a
  slices_S1024x128_o0_112_S1024x1 : S1024x128.Slices ![0, 112] S1024x1
  inb_S128x256x256_S1x256x256_112_0_0 : ∀ a, (![112, 0, 0] : Fin 3 → Nat) a + S1x256x256.size a ≤ S128x256x256.size a
  inb_S128x256_S1x256_112_0 : ∀ a, (![112, 0] : Fin 2 → Nat) a + S1x256.size a ≤ S128x256.size a
  inb_S1024x128_S1024x1_0_112 : ∀ a, (![0, 112] : Fin 2 → Nat) a + S1024x1.size a ≤ S1024x128.size a
  slices_S1024x128_o0_113_S1024x1 : S1024x128.Slices ![0, 113] S1024x1
  inb_S128x256x256_S1x256x256_113_0_0 : ∀ a, (![113, 0, 0] : Fin 3 → Nat) a + S1x256x256.size a ≤ S128x256x256.size a
  inb_S128x256_S1x256_113_0 : ∀ a, (![113, 0] : Fin 2 → Nat) a + S1x256.size a ≤ S128x256.size a
  inb_S1024x128_S1024x1_0_113 : ∀ a, (![0, 113] : Fin 2 → Nat) a + S1024x1.size a ≤ S1024x128.size a
  slices_S1024x128_o0_114_S1024x1 : S1024x128.Slices ![0, 114] S1024x1
  inb_S128x256x256_S1x256x256_114_0_0 : ∀ a, (![114, 0, 0] : Fin 3 → Nat) a + S1x256x256.size a ≤ S128x256x256.size a
  inb_S128x256_S1x256_114_0 : ∀ a, (![114, 0] : Fin 2 → Nat) a + S1x256.size a ≤ S128x256.size a
  inb_S1024x128_S1024x1_0_114 : ∀ a, (![0, 114] : Fin 2 → Nat) a + S1024x1.size a ≤ S1024x128.size a
  slices_S1024x128_o0_115_S1024x1 : S1024x128.Slices ![0, 115] S1024x1
  inb_S128x256x256_S1x256x256_115_0_0 : ∀ a, (![115, 0, 0] : Fin 3 → Nat) a + S1x256x256.size a ≤ S128x256x256.size a
  inb_S128x256_S1x256_115_0 : ∀ a, (![115, 0] : Fin 2 → Nat) a + S1x256.size a ≤ S128x256.size a
  inb_S1024x128_S1024x1_0_115 : ∀ a, (![0, 115] : Fin 2 → Nat) a + S1024x1.size a ≤ S1024x128.size a
  slices_S1024x128_o0_116_S1024x1 : S1024x128.Slices ![0, 116] S1024x1
  inb_S128x256x256_S1x256x256_116_0_0 : ∀ a, (![116, 0, 0] : Fin 3 → Nat) a + S1x256x256.size a ≤ S128x256x256.size a
  inb_S128x256_S1x256_116_0 : ∀ a, (![116, 0] : Fin 2 → Nat) a + S1x256.size a ≤ S128x256.size a
  inb_S1024x128_S1024x1_0_116 : ∀ a, (![0, 116] : Fin 2 → Nat) a + S1024x1.size a ≤ S1024x128.size a
  slices_S1024x128_o0_117_S1024x1 : S1024x128.Slices ![0, 117] S1024x1
  inb_S128x256x256_S1x256x256_117_0_0 : ∀ a, (![117, 0, 0] : Fin 3 → Nat) a + S1x256x256.size a ≤ S128x256x256.size a
  inb_S128x256_S1x256_117_0 : ∀ a, (![117, 0] : Fin 2 → Nat) a + S1x256.size a ≤ S128x256.size a
  inb_S1024x128_S1024x1_0_117 : ∀ a, (![0, 117] : Fin 2 → Nat) a + S1024x1.size a ≤ S1024x128.size a
  slices_S1024x128_o0_118_S1024x1 : S1024x128.Slices ![0, 118] S1024x1
  inb_S128x256x256_S1x256x256_118_0_0 : ∀ a, (![118, 0, 0] : Fin 3 → Nat) a + S1x256x256.size a ≤ S128x256x256.size a
  inb_S128x256_S1x256_118_0 : ∀ a, (![118, 0] : Fin 2 → Nat) a + S1x256.size a ≤ S128x256.size a
  inb_S1024x128_S1024x1_0_118 : ∀ a, (![0, 118] : Fin 2 → Nat) a + S1024x1.size a ≤ S1024x128.size a
  slices_S1024x128_o0_119_S1024x1 : S1024x128.Slices ![0, 119] S1024x1
  inb_S128x256x256_S1x256x256_119_0_0 : ∀ a, (![119, 0, 0] : Fin 3 → Nat) a + S1x256x256.size a ≤ S128x256x256.size a
  inb_S128x256_S1x256_119_0 : ∀ a, (![119, 0] : Fin 2 → Nat) a + S1x256.size a ≤ S128x256.size a
  inb_S1024x128_S1024x1_0_119 : ∀ a, (![0, 119] : Fin 2 → Nat) a + S1024x1.size a ≤ S1024x128.size a
  slices_S1024x128_o0_120_S1024x1 : S1024x128.Slices ![0, 120] S1024x1
  inb_S128x256x256_S1x256x256_120_0_0 : ∀ a, (![120, 0, 0] : Fin 3 → Nat) a + S1x256x256.size a ≤ S128x256x256.size a
  inb_S128x256_S1x256_120_0 : ∀ a, (![120, 0] : Fin 2 → Nat) a + S1x256.size a ≤ S128x256.size a
  inb_S1024x128_S1024x1_0_120 : ∀ a, (![0, 120] : Fin 2 → Nat) a + S1024x1.size a ≤ S1024x128.size a
  slices_S1024x128_o0_121_S1024x1 : S1024x128.Slices ![0, 121] S1024x1
  inb_S128x256x256_S1x256x256_121_0_0 : ∀ a, (![121, 0, 0] : Fin 3 → Nat) a + S1x256x256.size a ≤ S128x256x256.size a
  inb_S128x256_S1x256_121_0 : ∀ a, (![121, 0] : Fin 2 → Nat) a + S1x256.size a ≤ S128x256.size a
  inb_S1024x128_S1024x1_0_121 : ∀ a, (![0, 121] : Fin 2 → Nat) a + S1024x1.size a ≤ S1024x128.size a
  slices_S1024x128_o0_122_S1024x1 : S1024x128.Slices ![0, 122] S1024x1
  inb_S128x256x256_S1x256x256_122_0_0 : ∀ a, (![122, 0, 0] : Fin 3 → Nat) a + S1x256x256.size a ≤ S128x256x256.size a
  inb_S128x256_S1x256_122_0 : ∀ a, (![122, 0] : Fin 2 → Nat) a + S1x256.size a ≤ S128x256.size a
  inb_S1024x128_S1024x1_0_122 : ∀ a, (![0, 122] : Fin 2 → Nat) a + S1024x1.size a ≤ S1024x128.size a
  slices_S1024x128_o0_123_S1024x1 : S1024x128.Slices ![0, 123] S1024x1
  inb_S128x256x256_S1x256x256_123_0_0 : ∀ a, (![123, 0, 0] : Fin 3 → Nat) a + S1x256x256.size a ≤ S128x256x256.size a
  inb_S128x256_S1x256_123_0 : ∀ a, (![123, 0] : Fin 2 → Nat) a + S1x256.size a ≤ S128x256.size a
  inb_S1024x128_S1024x1_0_123 : ∀ a, (![0, 123] : Fin 2 → Nat) a + S1024x1.size a ≤ S1024x128.size a
  slices_S1024x128_o0_124_S1024x1 : S1024x128.Slices ![0, 124] S1024x1
  inb_S128x256x256_S1x256x256_124_0_0 : ∀ a, (![124, 0, 0] : Fin 3 → Nat) a + S1x256x256.size a ≤ S128x256x256.size a
  inb_S128x256_S1x256_124_0 : ∀ a, (![124, 0] : Fin 2 → Nat) a + S1x256.size a ≤ S128x256.size a
  inb_S1024x128_S1024x1_0_124 : ∀ a, (![0, 124] : Fin 2 → Nat) a + S1024x1.size a ≤ S1024x128.size a
  slices_S1024x128_o0_125_S1024x1 : S1024x128.Slices ![0, 125] S1024x1
  inb_S128x256x256_S1x256x256_125_0_0 : ∀ a, (![125, 0, 0] : Fin 3 → Nat) a + S1x256x256.size a ≤ S128x256x256.size a
  inb_S128x256_S1x256_125_0 : ∀ a, (![125, 0] : Fin 2 → Nat) a + S1x256.size a ≤ S128x256.size a
  inb_S1024x128_S1024x1_0_125 : ∀ a, (![0, 125] : Fin 2 → Nat) a + S1024x1.size a ≤ S1024x128.size a
  slices_S1024x128_o0_126_S1024x1 : S1024x128.Slices ![0, 126] S1024x1
  inb_S128x256x256_S1x256x256_126_0_0 : ∀ a, (![126, 0, 0] : Fin 3 → Nat) a + S1x256x256.size a ≤ S128x256x256.size a
  inb_S128x256_S1x256_126_0 : ∀ a, (![126, 0] : Fin 2 → Nat) a + S1x256.size a ≤ S128x256.size a
  inb_S1024x128_S1024x1_0_126 : ∀ a, (![0, 126] : Fin 2 → Nat) a + S1024x1.size a ≤ S1024x128.size a
  slices_S1024x128_o0_127_S1024x1 : S1024x128.Slices ![0, 127] S1024x1
  inb_S128x256x256_S1x256x256_127_0_0 : ∀ a, (![127, 0, 0] : Fin 3 → Nat) a + S1x256x256.size a ≤ S128x256x256.size a
  inb_S128x256_S1x256_127_0 : ∀ a, (![127, 0] : Fin 2 → Nat) a + S1x256.size a ≤ S128x256.size a
  inb_S1024x128_S1024x1_0_127 : ∀ a, (![0, 127] : Fin 2 → Nat) a + S1024x1.size a ≤ S1024x128.size a
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S262144x256.size a
  hwx0_0 : ∀ i : grid0.Coords, EltTy.bits .i32 = 32 ∨ (Rect.block (s := S262144x256) S1024x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S262144x256.size a
  hwx0_1 : ∀ i : grid0.Coords, EltTy.bits .i32 = 32 ∨ (Rect.block (s := S262144x256) S1024x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256x256.size a ≤ S256x256x256.size a
  hwx0_2 : ∀ i : grid0.Coords, EltTy.bits .bf16 = 32 ∨ (Rect.block (s := S256x256x256) S128x256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S256x256.size a
  hwx0_3 : ∀ i : grid0.Coords, EltTy.bits .f32 = 32 ∨ (Rect.block (s := S256x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S262144x256.size a
  hwx0_4 : ∀ i : grid0.Coords, EltTy.bits .f32 = 32 ∨ (Rect.block (s := S262144x256) S1024x128.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x256x256 : Shape := ⟨3, ![256, 256, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S262144x256x1 : Shape := ⟨3, ![262144, 256, 1]⟩
abbrev S262144x256x3 : Shape := ⟨3, ![262144, 256, 3]⟩
abbrev S262144x256x2 : Shape := ⟨3, ![262144, 256, 2]⟩

abbrev nBuf : Space → Nat
  | .hbm => 52
  | .vmem => 0
  | .smem => 0
  | _ => 0

abbrev bufTy : (tb : Table) → Fin (tcTables nBuf tb) → BufTy
  | .hbm, ⟨0, _⟩ => ⟨S262144x256, .i32⟩
  | .hbm, ⟨1, _⟩ => ⟨S262144x256, .i32⟩
  | .hbm, ⟨2, _⟩ => ⟨S256x256x256, .i32⟩
  | .hbm, ⟨3, _⟩ => ⟨S256x256, .f32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S1x256, .i32⟩
  | .hbm, ⟨8, _⟩ => ⟨S1x256, .i1⟩
  | .hbm, ⟨9, _⟩ => ⟨S_, .i32⟩
  | .hbm, ⟨10, _⟩ => ⟨S1x256, .i32⟩
  | .hbm, ⟨11, _⟩ => ⟨S1x256, .i32⟩
  | .hbm, ⟨12, _⟩ => ⟨S1x256, .i32⟩
  | .hbm, ⟨13, _⟩ => ⟨S_, .i32⟩
  | .hbm, ⟨14, _⟩ => ⟨S262144x256, .i32⟩
  | .hbm, ⟨15, _⟩ => ⟨S262144x256, .i1⟩
  | .hbm, ⟨16, _⟩ => ⟨S_, .i32⟩
  | .hbm, ⟨17, _⟩ => ⟨S262144x256, .i32⟩
  | .hbm, ⟨18, _⟩ => ⟨S262144x256, .i32⟩
  | .hbm, ⟨19, _⟩ => ⟨S262144x256, .i32⟩
  | .hbm, ⟨20, _⟩ => ⟨S_, .i32⟩
  | .hbm, ⟨21, _⟩ => ⟨S262144x256, .i32⟩
  | .hbm, ⟨22, _⟩ => ⟨S262144x256, .i1⟩
  | .hbm, ⟨23, _⟩ => ⟨S_, .i32⟩
  | .hbm, ⟨24, _⟩ => ⟨S262144x256, .i32⟩
  | .hbm, ⟨25, _⟩ => ⟨S262144x256, .i32⟩
  | .hbm, ⟨26, _⟩ => ⟨S262144x256, .i32⟩
  | .hbm, ⟨27, _⟩ => ⟨S262144x256, .i32⟩
  | .hbm, ⟨28, _⟩ => ⟨S262144x256x1, .i32⟩
  | .hbm, ⟨29, _⟩ => ⟨S262144x256x1, .i32⟩
  | .hbm, ⟨30, _⟩ => ⟨S262144x256x1, .i32⟩
  | .hbm, ⟨31, _⟩ => ⟨S262144x256x3, .i32⟩
  | .hbm, ⟨32, _⟩ => ⟨S262144x256, .i32⟩
  | .hbm, ⟨33, _⟩ => ⟨S_, .i32⟩
  | .hbm, ⟨34, _⟩ => ⟨S1x256, .i32⟩
  | .hbm, ⟨35, _⟩ => ⟨S1x256, .i1⟩
  | .hbm, ⟨36, _⟩ => ⟨S_, .i32⟩
  | .hbm, ⟨37, _⟩ => ⟨S1x256, .i32⟩
  | .hbm, ⟨38, _⟩ => ⟨S1x256, .i32⟩
  | .hbm, ⟨39, _⟩ => ⟨S1x256, .i32⟩
  | .hbm, ⟨40, _⟩ => ⟨S_, .i32⟩
  | .hbm, ⟨41, _⟩ => ⟨S262144x256, .i32⟩
  | .hbm, ⟨42, _⟩ => ⟨S262144x256, .i1⟩
  | .hbm, ⟨43, _⟩ => ⟨S_, .i32⟩
  | .hbm, ⟨44, _⟩ => ⟨S262144x256, .i32⟩
  | .hbm, ⟨45, _⟩ => ⟨S262144x256, .i32⟩
  | .hbm, ⟨46, _⟩ => ⟨S262144x256, .i32⟩
  | .hbm, ⟨47, _⟩ => ⟨S262144x256, .i32⟩
  | .hbm, ⟨48, _⟩ => ⟨S262144x256x1, .i32⟩
  | .hbm, ⟨49, _⟩ => ⟨S262144x256x1, .i32⟩
  | .hbm, ⟨50, _⟩ => ⟨S262144x256x2, .i32⟩
  | .hbm, ⟨51, _⟩ => ⟨S262144x256, .f32⟩
  | _, _ => ⟨S262144x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_c_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S_S1x256 : S_.BroadcastsInDim S1x256 (![] : Fin 0 → Fin S1x256.rank)
  bcast_S_S262144x256 : S_.BroadcastsInDim S262144x256 (![] : Fin 0 → Fin S262144x256.rank)
  bcast_S1x256_S262144x256_0_1 : S1x256.BroadcastsInDim S262144x256 (![0, 1] : Fin 2 → Fin S262144x256.rank)
  bcast_S262144x256_S262144x256x1_0_1 : S262144x256.BroadcastsInDim S262144x256x1 (![0, 1] : Fin 2 → Fin S262144x256x1.rank)
  concatenates_S262144x256x1_S262144x256x1_S262144x256x1_S262144x256x3_d2 : Shape.Concatenates [S262144x256x1, S262144x256x1, S262144x256x1] S262144x256x3 2
  concatenates_S262144x256x1_S262144x256x1_S262144x256x2_d2 : Shape.Concatenates [S262144x256x1, S262144x256x1] S262144x256x2 2
  gather_S256x256x256_S262144x256x3_S262144x256_n_012_n_n_012_2_111_wf : GatherDims.WF S256x256x256 S262144x256x3 S262144x256 [] [0, 1, 2] [] [0, 1, 2] [] 2 ![1, 1, 1]
  gather_S256x256_S262144x256x2_S262144x256_n_01_n_n_01_2_11_wf : GatherDims.WF S256x256 S262144x256x2 S262144x256 [] [0, 1] [] [0, 1] [] 2 ![1, 1]

variable [Facts₀]

def gather_S256x256x256_S262144x256x3_S262144x256_n_012_n_n_012_2_111 : GatherDims S256x256x256 S262144x256x3 S262144x256 where
  offsetDims := []
  collapsedSliceDims := [0, 1, 2]
  operandBatchingDims := []
  startIndicesBatchingDims := []
  startIndexMap := [0, 1, 2]
  indexVectorDim := 2
  sliceSizes := ![1, 1, 1]
  wf := gather_S256x256x256_S262144x256x3_S262144x256_n_012_n_n_012_2_111_wf
def gather_S256x256_S262144x256x2_S262144x256_n_01_n_n_01_2_11 : GatherDims S256x256 S262144x256x2 S262144x256 where
  offsetDims := []
  collapsedSliceDims := [0, 1]
  operandBatchingDims := []
  startIndicesBatchingDims := []
  startIndexMap := [0, 1]
  indexVectorDim := 2
  sliceSizes := ![1, 1]
  wf := gather_S256x256_S262144x256x2_S262144x256_n_01_n_n_01_2_11_wf

class Facts : Prop extends Facts₀ where

variable [Facts]
-- ==== Proof.ColPay.lean ====
/-
  One channel's column of the result, as the kernel body computes it from that channel's columns of `left` and `right`
  (1024 rows each), that channel's 256 × 256 table of codes (already converted to floats) and that channel's row of
  the code book. The body does the two look-ups by selection: a row's `left` word is compared with the 256 positions
  to give a 0/1 row, whose product with the table picks the table's row; that row times the 0/1 row of the `right` word,
  summed, is the code; the code, converted back to a word and compared with the 256 positions, gives the 0/1 row whose
  product with the code-book row, summed, is the result. The body repeats this text once per channel of its block, each
  time on other slices; stated here once, over the slices as variables.
-/
import proofs.«419908_j28406913696453_3_alg».proof.KernelIdeal

noncomputable section

namespace Cert.KernelIdeal

open Idealize.ShloMosaic

variable {F : FTy → Type} [FloatOps F] [Facts]
open Facts₀ Facts

/-- The column of 1024 results for one channel: `lc`, `rc` that channel's columns of `left` and `right`, `T` its table
    (as floats), `cb` its row of the code book. -/
noncomputable def colPay (lc rc : IVec S1024x1 32) (T : Vec F S1x256x256 .bf16) (cb : Vec F S1x256 .f32) : FVec F S1024x1 .f32 :=
  have v2 : IVec S1x256 32 := iota .tc S1x256 32 [1] iota_S1x256_d1_w32
  have v6 : FVec F S256x256 .bf16 := shapeCast S256x256 T shapeCasts_S1x256x256_S256x256
  have v7 : IVec S1024x256 32 := broadcastTo S1024x256 lc broadcasts_S1024x1_S1024x256
  have v8 : IVec S1024x256 32 := broadcastTo S1024x256 v2 broadcasts_S1x256_S1024x256
  have v9 : IVec S1024x256 1 := cmpi .eq v7 v8
  have v10 : IVec S1024x256 32 := extui 32 v9 natLt_1_32
  have v11 : FVec F S1024x256 .f32 := sitofp .f32 v10
  have v12 : FVec F S1024x256 .bf16 := truncf .bf16 v11 bitsLt_bf16_f32
  have cst : FVec F S1024x256 .f32 := constant S1024x256 .f32 0x00000000#32
  have v13 : FVec F S1024x256 .f32 := matmul dot_S1024x256_S256x256_S1024x256_1_0_0_1_n_n none v12 v6 cst
  have v14 : IVec S1024x256 32 := broadcastTo S1024x256 rc broadcasts_S1024x1_S1024x256
  have v15 : IVec S1024x256 32 := broadcastTo S1024x256 v2 broadcasts_S1x256_S1024x256
  have v16 : IVec S1024x256 1 := cmpi .eq v14 v15
  have v17 : IVec S1024x256 32 := extui 32 v16 natLt_1_32
  have v18 : FVec F S1024x256 .f32 := sitofp .f32 v17
  have v19 : FVec F S1024x256 .f32 := mulf v13 v18
  have v20 : FVec F S1024 .f32 := multiReduction .add [1] S1024 v19 0x00000000#32 reduces_S1024x256_S1024 (.inl rfl) rfl
  have v21 : FVec F S1024x1 .f32 := shapeCast S1024x1 v20 shapeCasts_S1024_S1024x1
  have v22 : IVec S1024x1 32 := fptosi 32 v21
  have v23 : IVec S1024x256 32 := broadcastTo S1024x256 v22 broadcasts_S1024x1_S1024x256
  have v24 : IVec S1024x256 32 := broadcastTo S1024x256 v2 broadcasts_S1x256_S1024x256
  have v25 : IVec S1024x256 1 := cmpi .eq v23 v24
  have v26 : IVec S1024x256 32 := extui 32 v25 natLt_1_32
  have v27 : FVec F S1024x256 .f32 := sitofp .f32 v26
  have v29 : FVec F S1024x256 .f32 := broadcastTo S1024x256 cb broadcasts_S1x256_S1024x256
  have v30 : FVec F S1024x256 .f32 := mulf v27 v29
  have v31 : FVec F S1024 .f32 := multiReduction .add [1] S1024 v30 0x00000000#32 reduces_S1024x256_S1024 (.inl rfl) rfl
  have v32 : FVec F S1024x1 .f32 := shapeCast S1024x1 v31 shapeCasts_S1024_S1024x1
  v32

end Cert.KernelIdeal

end
-- ==== Proof.Lookup.lean ====
/-
  The function both programs compute, stated once over the whole argument arrays, and the hypotheses under which they
  compute it.

  For a row `n` and a channel `c` the result is `book[c, table[c, left[n, c], right[n, c]]]`: two nested look-ups, the
  inner one into channel `c`'s 256 × 256 table of codes, the outer one into channel `c`'s row of the code book. Every
  word used as a position is read signed and clamped into the axis of 256 entries (`pos`); on words already in
  `[0, 256)` the clamp is the identity (`pos_of_lt`), and that range is what `InRange` records of the three integer arrays.
-/
import Idealize.ShloMosaic.PureOps.Ideal
import Idealize.ShloMosaic.Lib.ValueIdx

noncomputable section

namespace Cert.Lookup

open Idealize.ShloMosaic Idealize.ShloMosaic.ValueIdx

/-- The [rows × channels] shape of `left`, `right` and the result. -/
abbrev Rows : Shape := ⟨2, ![262144, 256]⟩
/-- The [channels × codes × codes] shape of the table of codes. -/
abbrev Tables : Shape := ⟨3, ![256, 256, 256]⟩
/-- The [channels × codes] shape of the code book. -/
abbrev Book : Shape := ⟨2, ![256, 256]⟩

/-- A 32-bit word read as a signed position and clamped into an axis of 256 entries. -/
def pos (w : BitVec 32) : Fin 256 := ⟨min w.toInt.toNat 255, by omega⟩

/-- A word below 2³¹ reads the same signed and unsigned. -/
theorem toInt_of_lt {w : BitVec 32} (h : w.toNat < 256) : w.toInt = (w.toNat : ℤ) := by
  rw [BitVec.toInt_eq_toNat_cond]; rw [if_pos (by omega)]

/-- On a word already inside the axis the clamp does nothing. -/
theorem pos_of_lt {w : BitVec 32} (h : w.toNat < 256) : pos w = ⟨w.toNat, h⟩ := by
  apply Fin.ext
  show min w.toInt.toNat 255 = w.toNat
  rw [toInt_of_lt h]; simp only [Int.toNat_natCast]; omega

theorem pos_val_of_lt {w : BitVec 32} (h : w.toNat < 256) : (pos w).val = w.toNat := by
  rw [pos_of_lt h]

/-- The channel (second coordinate) of a position of a [rows × channels] array. -/
def chan (i : Rows.Idx) : Fin 256 := ⟨(i 1).val, (i 1).isLt⟩

/-- The result array: at row `n` and channel `c`, the code book's entry `[c, code]` for the code
    `table[c, left[n, c], right[n, c]]`. -/
def lookup (L R : IVec Rows 32) (W : IVec Tables 32) (B : FVec Ideal Book .f32) : Rows.Idx → EReal := fun i =>
  B (ix2 (chan i) (pos (W (ix3 (chan i) (pos (L i)) (pos (R i))))))

/-- Every word of the three integer arrays is a position of an axis of 256 entries. -/
structure InRange (L R : IVec Rows 32) (W : IVec Tables 32) : Prop where
  left : ∀ i, (L i).toNat < 256
  right : ∀ i, (R i).toNat < 256
  table : ∀ i, (W i).toNat < 256

end Cert.Lookup

end
-- ==== Proof.ColMath.lean ====
/-
  One channel's column of the kernel body, read at one row, at the ideal values.

  The body emulates two table look-ups by selection. A row's word w, compared with the 256 positions 0, 1, …, 255, gives
  a 0/1 row: its entry at position k is 1 if w is the word k and 0 if not, and for a word below 256 that says k is the
  position of w. A sum over k of (0/1 entry at k) · f k, or of f k · (0/1 entry at k), is then the one term f (position
  of w): every other term is 0 · f k or f k · 0, which is 0 for every extended real, and the remaining one is 1 · f or
  f · 1. So, at row r, with l and q the positions of the `left` and the `right` word of that row:
    • the product of the 0/1 rows of `left` with the table reads, at (r, b), the table's entry (l, b);
    • that, times the 0/1 row of `right` and summed over b, is the table's entry (l, q): the code, as a float;
    • the table's entries are the reals of words below 256, and such a real converted back to a word is that word;
    • the 0/1 row of the code, times the code book's row and summed, is the code book's entry at the code's position.
  Nothing here asks the code book's entries to be finite.
-/
import proofs.«419908_j28406913696453_3_alg».proof.Proof.ColPay
import proofs.«419908_j28406913696453_3_alg».proof.Proof.Gen.KernelIdeal
import proofs.«419908_j28406913696453_3_alg».proof.Proof.Lookup
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal
open Idealize.ShloMosaic Idealize.ShloMosaic.ValueIdx Cert.Lookup
open Facts₀ Facts

/-! ## Words, positions and the 0/1 entry -/

/-- A word below 256 is the word of position k exactly when k is its position. -/
theorem word_eq_ofNat_iff {w : BitVec 32} (h : w.toNat < 256) (k : Fin 256) :
    w = BitVec.ofNat 32 k.val ↔ k = pos w := by
  rw [pos_of_lt h]
  constructor
  · intro e
    apply Fin.ext
    show k.val = w.toNat
    have hk : (BitVec.ofNat 32 k.val).toNat = k.val := by
      rw [BitVec.toNat_ofNat]; exact Nat.mod_eq_of_lt (by have := k.isLt; omega)
    rw [e, hk]
  · intro e
    have hk : k.val = w.toNat := congrArg Fin.val e
    rw [hk, BitVec.ofNat_toNat, BitVec.setWidth_eq]

/-- The comparison bit of two words, widened to a word and converted to a float: 1 if they are equal, 0 if not. -/
theorem hotEntry (a b : BitVec 32) :
    FloatOps.sitofp (F := Ideal) .f32 ((IntOp.cmpi .eq a b).setWidth 32) = if a = b then (1 : EReal) else 0 := by
  show (((((BitVec.ofBool (a == b)).setWidth 32).toInt : ℤ) : ℝ) : EReal) = _
  by_cases h : a = b
  · rw [if_pos h, beq_iff_eq.2 h]
    show ((((1 : ℤ) : ℝ)) : EReal) = 1
    rw [Int.cast_one, EReal.coe_one]
  · rw [if_neg h, beq_eq_false_iff_ne.2 h]
    show ((((0 : ℤ) : ℝ)) : EReal) = 0
    rw [Int.cast_zero, EReal.coe_zero]

/-- A sum against a 0/1 row on the left is the term at the row's position. -/
theorem hot_mul_sum (l : Fin 256) (f : Fin 256 → EReal) :
    ∑ k : Fin 256, (if k = l then (1 : EReal) else 0) * f k = f l := by
  rw [Finset.sum_eq_single l]
  · rw [if_pos rfl, one_mul]
  · intro k _ hk
    rw [if_neg hk, zero_mul]
  · intro hl
    exact absurd (Finset.mem_univ l) hl

/-- A sum against a 0/1 row on the right is the term at the row's position. -/
theorem mul_hot_sum (l : Fin 256) (f : Fin 256 → EReal) :
    ∑ k : Fin 256, f k * (if k = l then (1 : EReal) else 0) = f l := by
  rw [Finset.sum_eq_single l]
  · rw [if_pos rfl, mul_one]
  · intro k _ hk
    rw [if_neg hk, mul_zero]
  · intro hl
    exact absurd (Finset.mem_univ l) hl

/-- A word below 256, converted to a float and back to a word, is the same word: its real is a natural below 256,
    which truncation toward zero and the clamp to 32 signed bits leave alone. -/
theorem fptosi_sitofp {w : BitVec 32} (h : w.toNat < 256) :
    Ideal.fptosi 32 (((w.toInt : ℝ)) : EReal) = w := by
  unfold Ideal.fptosi
  rw [Ideal.toIntClamped_coe]
  have hn : w.toInt = (w.toNat : ℤ) := toInt_of_lt h
  have h0 : (0 : ℝ) ≤ ((w.toInt : ℤ) : ℝ) := by rw [hn]; exact_mod_cast Nat.zero_le _
  rw [if_pos h0, Int.floor_intCast]
  have hp : ((2 ^ (32 - 1) : ℕ) : ℤ) = 2147483648 := by norm_num
  rw [hp]
  have hmin : min (2147483648 - 1) w.toInt = w.toInt := by rw [hn]; omega
  rw [hmin]
  have hmax : max (-2147483648) w.toInt = w.toInt := by rw [hn]; omega
  rw [hmax, BitVec.ofInt_toInt]

section
variable [Facts]

/-! ## The layout operations read at an index -/

/-- A column broadcast along the 256 positions reads, at (r, k), the column at row r. -/
theorem bcol_apply {α : Type} (col : S1024x1.Idx → α) (r : Fin 1024) (k : Fin 256) :
    broadcastTo S1024x256 col broadcasts_S1024x1_S1024x256 (ix2 r k) = col (ix2 r (0 : Fin 1)) := by
  refine broadcastTo_apply col broadcasts_S1024x1_S1024x256 (ix2 r k) (ix2 r (0 : Fin 1)) fun a => ?_
  match a with
  | ⟨0, _⟩ => rfl
  | ⟨1, _⟩ => rfl

/-- One row broadcast over the 1024 rows reads, at (r, k), the row at k. -/
theorem brow_apply {α : Type} (row : S1x256.Idx → α) (r : Fin 1024) (k : Fin 256) :
    broadcastTo S1024x256 row broadcasts_S1x256_S1024x256 (ix2 r k) = row (ix2 (0 : Fin 1) k) :=
  broadcastTo_1b_ab_apply row broadcasts_S1x256_S1024x256 r k

/-- The row of positions reads, at k, the word k. -/
theorem positions_apply (k : Fin 256) :
    iota .tc S1x256 32 [1] iota_S1x256_d1_w32 (ix2 (0 : Fin 1) k) = BitVec.ofNat 32 k.val :=
  iota_single_apply .tc S1x256 32 1 iota_S1x256_d1_w32 (ix2 (0 : Fin 1) k)

/-- The table with its unit axis dropped reads, at (k, b), the table at (0, k, b). -/
theorem table_apply {α : Type} (T : S1x256x256.Idx → α) (k b : Fin 256) :
    shapeCast S256x256 T shapeCasts_S1x256x256_S256x256 (ix2 k b) = T (ix3 (0 : Fin 1) k b) :=
  shapeCast_1ab_ab_apply T shapeCasts_S1x256x256_S256x256 k b

/-- A vector of 1024 entries written as a column reads, at (r, u), the vector at r. -/
theorem column_apply {α : Type} (v : S1024.Idx → α) (r : Fin 1024) (u : Fin 1) :
    shapeCast S1024x1 v shapeCasts_S1024_S1024x1 (ix2 r u) = v (ix1 r) :=
  shapeCast_apply v shapeCasts_S1024_S1024x1 _ _ (by
    have hu : u.val = 0 := by omega
    rw [Shape.rowMajor_val_two, Shape.rowMajor_val_one]
    show r.val = r.val * 1 + u.val
    rw [hu, Nat.mul_one, Nat.add_zero])

/-! ## The lane sum and the product read at an index -/

/-- A lane sum over the 256 positions reads, at row r, the sum over k of the entries (r, k). -/
theorem laneSum_apply (v : FVec Ideal S1024x256 .f32) (r : Fin 1024) :
    multiReduction (F := Ideal) .add [1] S1024 v 0x00000000#32 reduces_S1024x256_S1024 (.inl rfl) rfl (ix1 r)
      = ∑ k : Fin 256, v (ix2 r k) := by
  refine (Ideal.multiReduction_add_single v _ reduces_S1024x256_S1024 (.inl rfl) rfl (ix1 r)).trans ?_
  refine Finset.sum_congr rfl fun k _ => congrArg v ?_
  funext a
  match a with
  | ⟨0, _⟩ => rfl
  | ⟨1, _⟩ => rfl

/-! ## The product's operand indices, axis by axis

The product contracts the left operand's axis 1 with the right operand's axis 0; the result's axes are the left operand's
axis 0 and the right operand's axis 1. -/

/-- The left operand's row is the result's row. -/
theorem lhs_axis0 (j : S1024x256.Idx) (k : dot_S1024x256_S256x256_S1024x256_1_0_0_1_n_n.contr.Idx) :
    (dot_S1024x256_S256x256_S1024x256_1_0_0_1_n_n.lhsIdx j k 0).val = (j 0).val := rfl

/-- The left operand's column is the contraction position. -/
theorem lhs_axis1 (j : S1024x256.Idx) (k : dot_S1024x256_S256x256_S1024x256_1_0_0_1_n_n.contr.Idx) :
    (dot_S1024x256_S256x256_S1024x256_1_0_0_1_n_n.lhsIdx j k 1).val = (k ⟨0, by decide⟩).val := rfl

/-- The right operand's row is the contraction position. -/
theorem rhs_axis0 (j : S1024x256.Idx) (k : dot_S1024x256_S256x256_S1024x256_1_0_0_1_n_n.contr.Idx) :
    (dot_S1024x256_S256x256_S1024x256_1_0_0_1_n_n.rhsIdx j k 0).val = (k ⟨0, by decide⟩).val := rfl

/-- The right operand's column is the result's column. -/
theorem rhs_axis1 (j : S1024x256.Idx) (k : dot_S1024x256_S256x256_S1024x256_1_0_0_1_n_n.contr.Idx) :
    (dot_S1024x256_S256x256_S1024x256_1_0_0_1_n_n.rhsIdx j k 1).val = (j 1).val := rfl

/-- The product with a zero accumulator reads, at (r, b), the sum over k of A (r, k) · B (k, b). -/
theorem product_apply (A : FVec Ideal S1024x256 .bf16) (B : FVec Ideal S256x256 .bf16) (r : Fin 1024) (b : Fin 256) :
    matmul dot_S1024x256_S256x256_S1024x256_1_0_0_1_n_n none A B (constant (F := Ideal) S1024x256 .f32 0x00000000#32) (ix2 r b)
      = ∑ k : Fin 256, A (ix2 r k) * B (ix2 k b) := by
  refine (Ideal.matmul_constant_zero_apply dot_S1024x256_S256x256_S1024x256_1_0_0_1_n_n none A B (ix2 r b)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have hl : dot_S1024x256_S256x256_S1024x256_1_0_0_1_n_n.lhsIdx (ix2 r b)
      ((contrEquiv1 dot_S1024x256_S256x256_S1024x256_1_0_0_1_n_n 256 rfl rfl).symm k) = ix2 r k :=
    Shape.idx_ext₂ (lhs_axis0 _ _) ((lhs_axis1 _ _).trans hk)
  have hr : dot_S1024x256_S256x256_S1024x256_1_0_0_1_n_n.rhsIdx (ix2 r b)
      ((contrEquiv1 dot_S1024x256_S256x256_S1024x256_1_0_0_1_n_n 256 rfl rfl).symm k) = ix2 k b :=
    Shape.idx_ext₂ ((rhs_axis0 _ _).trans hk) (rhs_axis1 _ _)
  rw [hl, hr]

/-! ## Selection by a 0/1 row -/

/-- If row r of H is the 0/1 row of position l, the product H · B reads, at (r, b), the entry (l, b) of B. -/
theorem product_hot (H : FVec Ideal S1024x256 .bf16) (B : FVec Ideal S256x256 .bf16) (r : Fin 1024) (l : Fin 256)
    (hH : ∀ k, H (ix2 r k) = if k = l then (1 : EReal) else 0) (b : Fin 256) :
    matmul dot_S1024x256_S256x256_S1024x256_1_0_0_1_n_n none H B (constant (F := Ideal) S1024x256 .f32 0x00000000#32) (ix2 r b)
      = B (ix2 l b) := by
  refine (product_apply H B r b).trans ?_
  refine (Finset.sum_congr rfl fun k _ => congrArg (· * B (ix2 k b)) (hH k)).trans ?_
  exact hot_mul_sum l fun k => B (ix2 k b)

/-- If row r of H is the 0/1 row of position q, the lane sum of V · H reads, at row r, the entry (r, q) of V. -/
theorem laneSum_mul_hot (V H : FVec Ideal S1024x256 .f32) (r : Fin 1024) (q : Fin 256)
    (hH : ∀ k, H (ix2 r k) = if k = q then (1 : EReal) else 0) :
    multiReduction (F := Ideal) .add [1] S1024 (mulf V H) 0x00000000#32 reduces_S1024x256_S1024 (.inl rfl) rfl (ix1 r)
      = V (ix2 r q) := by
  refine (laneSum_apply (mulf V H) r).trans ?_
  refine (Finset.sum_congr rfl fun k _ => ?_).trans (mul_hot_sum q fun k => V (ix2 r k))
  show V (ix2 r k) * H (ix2 r k) = _
  rw [hH k]

/-- If row r of H is the 0/1 row of position q, the lane sum of H · V reads, at row r, the entry (r, q) of V. -/
theorem laneSum_hot_mul (H V : FVec Ideal S1024x256 .f32) (r : Fin 1024) (q : Fin 256)
    (hH : ∀ k, H (ix2 r k) = if k = q then (1 : EReal) else 0) :
    multiReduction (F := Ideal) .add [1] S1024 (mulf H V) 0x00000000#32 reduces_S1024x256_S1024 (.inl rfl) rfl (ix1 r)
      = V (ix2 r q) := by
  refine (laneSum_apply (mulf H V) r).trans ?_
  refine (Finset.sum_congr rfl fun k _ => ?_).trans (hot_mul_sum q fun k => V (ix2 r k))
  show H (ix2 r k) * V (ix2 r k) = _
  rw [hH k]

/-! ## The stages of the column -/

/-- The 0/1 rows of a column of words against the 256 positions, as floats. -/
def hot (col : IVec S1024x1 32) : FVec Ideal S1024x256 .f32 :=
  sitofp .f32 (extui 32 (cmpi .eq (broadcastTo S1024x256 col broadcasts_S1024x1_S1024x256)
    (broadcastTo S1024x256 (iota .tc S1x256 32 [1] iota_S1x256_d1_w32) broadcasts_S1x256_S1024x256)) natLt_1_32)

/-- Row r of the 0/1 rows of a column whose word at row r is below 256: 1 at that word's position, 0 elsewhere. -/
theorem hot_apply (col : IVec S1024x1 32) (r : Fin 1024) (k : Fin 256) (h : (col (ix2 r (0 : Fin 1))).toNat < 256) :
    hot col (ix2 r k) = if k = pos (col (ix2 r (0 : Fin 1))) then (1 : EReal) else 0 := by
  show FloatOps.sitofp (F := Ideal) .f32
      ((IntOp.cmpi .eq (broadcastTo S1024x256 col broadcasts_S1024x1_S1024x256 (ix2 r k))
        (broadcastTo S1024x256 (iota .tc S1x256 32 [1] iota_S1x256_d1_w32) broadcasts_S1x256_S1024x256 (ix2 r k))).setWidth 32) = _
  rw [bcol_apply, brow_apply, positions_apply, hotEntry]
  exact if_congr (word_eq_ofNat_iff h k) rfl rfl

/-- The column of codes as floats: the 0/1 rows of `left` times the table, times the 0/1 rows of `right`, summed. -/
def codeF (lc rc : IVec S1024x1 32) (T : Vec Ideal S1x256x256 .bf16) : FVec Ideal S1024x1 .f32 :=
  shapeCast S1024x1
    (multiReduction .add [1] S1024
      (mulf
        (matmul dot_S1024x256_S256x256_S1024x256_1_0_0_1_n_n none (truncf .bf16 (hot lc) bitsLt_bf16_f32)
          (shapeCast S256x256 T shapeCasts_S1x256x256_S256x256 : FVec Ideal S256x256 .bf16)
          (constant S1024x256 .f32 0x00000000#32))
        (hot rc))
      0x00000000#32 reduces_S1024x256_S1024 (.inl rfl) rfl)
    shapeCasts_S1024_S1024x1

/-- At row r the code, as a float, is the table's entry at the positions of the row's `left` and `right` words. -/
theorem codeF_apply (lc rc : IVec S1024x1 32) (T : Vec Ideal S1x256x256 .bf16) (r : Fin 1024) (u : Fin 1)
    (hl : (lc (ix2 r (0 : Fin 1))).toNat < 256) (hr : (rc (ix2 r (0 : Fin 1))).toNat < 256) :
    codeF lc rc T (ix2 r u)
      = T (ix3 (0 : Fin 1) (pos (lc (ix2 r (0 : Fin 1)))) (pos (rc (ix2 r (0 : Fin 1))))) := by
  unfold codeF
  refine (column_apply _ r u).trans ?_
  refine (laneSum_mul_hot _ (hot rc) r (pos (rc (ix2 r (0 : Fin 1)))) fun k => hot_apply rc r k hr).trans ?_
  refine (product_hot (truncf .bf16 (hot lc) bitsLt_bf16_f32) _ r (pos (lc (ix2 r (0 : Fin 1))))
    (fun k => hot_apply lc r k hl) _).trans ?_
  exact table_apply T _ _

/-- The column of the body is the 0/1 rows of the codes, converted back to words, times the code book's row, summed. -/
theorem colPay_eq (lc rc : IVec S1024x1 32) (T : Vec Ideal S1x256x256 .bf16) (cb : Vec Ideal S1x256 .f32) :
    colPay (F := Ideal) lc rc T cb
      = shapeCast S1024x1
          (multiReduction .add [1] S1024
            (mulf (hot (fptosi 32 (codeF lc rc T))) (broadcastTo S1024x256 cb broadcasts_S1x256_S1024x256))
            0x00000000#32 reduces_S1024x256_S1024 (.inl rfl) rfl)
          shapeCasts_S1024_S1024x1 := rfl

end

/-- One channel's column of the body at a row: the code book's entry at the position of the code, the code being the
    table's word at the positions of the row's `left` and `right` words. The words of `left`, `right` and the table are below
    256 and the table's floats are the reals of its words; the code book's entries may be any extended reals. -/
theorem colPay_apply (lc rc : IVec S1024x1 32) (Wc : IVec S1x256x256 32) (T : Vec Ideal S1x256x256 .bf16) (cb : Vec Ideal S1x256 .f32)
    (hl : ∀ x, (lc x).toNat < 256) (hr : ∀ x, (rc x).toNat < 256) (hW : ∀ i, (Wc i).toNat < 256)
    (hT : ∀ i, T i = (((Wc i).toInt : ℝ) : EReal)) (x : S1024x1.Idx) :
    colPay (F := Ideal) lc rc T cb x
      = cb (ix2 (0 : Fin 1) (pos (Wc (ix3 (0 : Fin 1) (pos (lc x)) (pos (rc x)))))) := by
  obtain ⟨r, u, rfl⟩ : ∃ (r : Fin 1024) (u : Fin 1), x = ix2 r u := ⟨x 0, x 1, eq_ix2 x⟩
  have hu : u = 0 := Subsingleton.elim u 0
  subst hu
  have hcode : fptosi 32 (codeF lc rc T) (ix2 r (0 : Fin 1))
      = Wc (ix3 (0 : Fin 1) (pos (lc (ix2 r (0 : Fin 1)))) (pos (rc (ix2 r (0 : Fin 1))))) := by
    show Ideal.fptosi 32 (codeF lc rc T (ix2 r (0 : Fin 1))) = _
    rw [codeF_apply lc rc T r 0 (hl _) (hr _), hT]
    exact fptosi_sitofp (hW _)
  rw [colPay_eq]
  refine (column_apply _ r 0).trans ?_
  refine (laneSum_hot_mul (hot (fptosi 32 (codeF lc rc T))) _ r
    (pos (Wc (ix3 (0 : Fin 1) (pos (lc (ix2 r (0 : Fin 1)))) (pos (rc (ix2 r (0 : Fin 1))))))) fun k => ?_).trans ?_
  · rw [hot_apply _ r k (by rw [hcode]; exact hW _), hcode]
  · exact brow_apply cb r _

end Cert.KernelIdeal

end
-- ==== Proof.Block.lean ====
/-
  One column of the kernel body, placed in its block. The body handles channel `j` of its block of 128 channels on
  column `j` of the two blocks of words (a slice at offset `j` along the channels), table `j` of the staged tables and
  row `j` of the staged code-book rows, and stores the 1024 results as column `j` of the result block. Read at a row,
  that column is the block look-up at (row, `j`): the slices, the loads and the store's rectangle all address by
  "offset plus coordinate", and the offsets are `j` on the channel axis and 0 elsewhere.
-/
import proofs.«419908_j28406913696453_3_alg».proof.Proof.ColMath
import proofs.«419908_j28406913696453_3_alg».proof.Proof.ColPay
import proofs.«419908_j28406913696453_3_alg».proof.Proof.Gen.KernelIdeal
import proofs.«419908_j28406913696453_3_alg».proof.Proof.Lookup
import Idealize.ShloMosaic.Lib.ValueIdx
import Idealize.ShloMosaic.Lib.Pipeline.Value

noncomputable section

namespace Cert.KernelIdeal

open Idealize.ShloMosaic Idealize.ShloMosaic.ValueIdx Cert.Lookup Cert.KernelIdeal.Gen

/-- The channel (second coordinate) of a position of a [1024 × 128] block. -/
def bchan (y : S1024x128.Idx) : Fin 128 := ⟨(y 1).val, (y 1).isLt⟩

/-- The look-up on one block: at row `r` and channel `c` of the block, the block's code-book entry `[c, code]` for the
    code `W2[c, x0[r, c], x1[r, c]]` of the block's table of codes. -/
def blockLookup (x0 x1 : Vec Ideal S1024x128 .i32) (W2 : IVec S128x256x256 32) (x3 : Vec Ideal S128x256 .f32) :
    Vec Ideal S1024x128 .f32 :=
  fun y => x3 (ix2 (bchan y) (pos (W2 (ix3 (bchan y) (pos (x0 y)) (pos (x1 y))))))

/-- Column `j` of a block, read at row `x`, is the block at (row, `j`): the slice's offsets add to the row's coordinates,
    and a load through the whole-block rectangle reads the block itself. -/
theorem slice_ld_apply (j : ℕ) (inb0 : ∀ a, (![0, 0] : Fin 2 → ℕ) a + S1024x128.size a ≤ S1024x128.size a)
    (hs : S1024x128.Slices ![0, j] S1024x1)
    (inbO : ∀ a, (![0, j] : Fin 2 → ℕ) a + S1024x1.size a ≤ S1024x128.size a)
    (v : Vec Ideal S1024x128 .i32) (x : S1024x1.Idx) :
    extractStridedSlice (s := S1024x128) S1024x1 ![0, j] (View.ld v (Rect.unit (s := S1024x128) ![0, 0] S1024x128.size inb0)) hs x
      = v ((Rect.unit (s := S1024x128) ![0, j] S1024x1.size inbO).emb x) := by
  refine congrArg v (funext fun a => Fin.ext ?_)
  match a with
  | ⟨0, _⟩ => show 0 + 1 * (0 + (x 0).val) = 0 + 1 * (x 0).val; omega
  | ⟨1, _⟩ => show 0 + 1 * (j + (x 1).val) = j + 1 * (x 1).val; omega

/-- The position in the block that row `x` of column `j` is stored at has channel `j`. -/
theorem bchan_emb (j : ℕ) (hj : j < 128) (inbO : ∀ a, (![0, j] : Fin 2 → ℕ) a + S1024x1.size a ≤ S1024x128.size a)
    (x : S1024x1.Idx) : bchan ((Rect.unit (s := S1024x128) ![0, j] S1024x1.size inbO).emb x) = ⟨j, hj⟩ := by
  apply Fin.ext
  show j + 1 * (x 1).val = j
  have : (x 1).val < 1 := (x 1).isLt
  omega

/-- ONE COLUMN OF THE BODY IS ONE COLUMN OF THE BLOCK LOOK-UP. Column `j` of the result block, computed from column `j` of
    the two blocks of words, table `j` of the block of tables and row `j` of the block of the code book, is at each row the
    block look-up at (row, `j`) — under the hypotheses that the words are positions of an axis of 256 entries and that
    the float table holds the integer table's values. -/
theorem piece_apply (j : ℕ) (hj : j < 128)
    (inb0 : ∀ a, (![0, 0] : Fin 2 → ℕ) a + S1024x128.size a ≤ S1024x128.size a)
    (hs : S1024x128.Slices ![0, j] S1024x1)
    (inbT : ∀ a, (![j, 0, 0] : Fin 3 → ℕ) a + S1x256x256.size a ≤ S128x256x256.size a)
    (inbC : ∀ a, (![j, 0] : Fin 2 → ℕ) a + S1x256.size a ≤ S128x256.size a)
    (inbO : ∀ a, (![0, j] : Fin 2 → ℕ) a + S1024x1.size a ≤ S1024x128.size a)
    (x0 x1 : Vec Ideal S1024x128 .i32) (W2 : IVec S128x256x256 32) (x2 : Vec Ideal S128x256x256 .bf16)
    (x3 : Vec Ideal S128x256 .f32)
    (h0 : ∀ y, (x0 y).toNat < 256) (h1 : ∀ y, (x1 y).toNat < 256) (hW : ∀ i, (W2 i).toNat < 256)
    (h2 : ∀ i, x2 i = (((W2 i).toInt : ℝ) : EReal)) (x : S1024x1.Idx) :
    colPay (F := Ideal)
        (extractStridedSlice (s := S1024x128) S1024x1 ![0, j] (View.ld x0 (Rect.unit (s := S1024x128) ![0, 0] S1024x128.size inb0)) hs)
        (extractStridedSlice (s := S1024x128) S1024x1 ![0, j] (View.ld x1 (Rect.unit (s := S1024x128) ![0, 0] S1024x128.size inb0)) hs)
        (View.ld x2 (Rect.unit (s := S128x256x256) ![j, 0, 0] S1x256x256.size inbT))
        (View.ld x3 (Rect.unit (s := S128x256) ![j, 0] S1x256.size inbC)) x
      = blockLookup x0 x1 W2 x3 ((Rect.unit (s := S1024x128) ![0, j] S1024x1.size inbO).emb x) := by
  refine (colPay_apply
    (extractStridedSlice (s := S1024x128) S1024x1 ![0, j] (View.ld x0 (Rect.unit (s := S1024x128) ![0, 0] S1024x128.size inb0)) hs)
    (extractStridedSlice (s := S1024x128) S1024x1 ![0, j] (View.ld x1 (Rect.unit (s := S1024x128) ![0, 0] S1024x128.size inb0)) hs)
    (fun i => W2 ((Rect.unit (s := S128x256x256) ![j, 0, 0] S1x256x256.size inbT).idx i))
    (View.ld x2 (Rect.unit (s := S128x256x256) ![j, 0, 0] S1x256x256.size inbT))
    (View.ld x3 (Rect.unit (s := S128x256) ![j, 0] S1x256.size inbC))
    (fun _ => h0 _) (fun _ => h1 _) (fun _ => hW _) (fun _ => h2 _) x).trans ?_
  rw [slice_ld_apply j inb0 hs inbO x0 x, slice_ld_apply j inb0 hs inbO x1 x]
  unfold blockLookup
  rw [bchan_emb j hj inbO x]
  generalize pos (x0 ((Rect.unit (s := S1024x128) ![0, j] S1024x1.size inbO).emb x)) = l
  generalize pos (x1 ((Rect.unit (s := S1024x128) ![0, j] S1024x1.size inbO).emb x)) = q
  -- the table's entry (0, l, q) of table j of the block is entry (j, l, q) of the block; likewise the code book's
  have eT : W2 ((Rect.unit (s := S128x256x256) ![j, 0, 0] S1x256x256.size inbT).idx (ix3 (0 : Fin 1) l q))
      = W2 (ix3 (⟨j, hj⟩ : Fin 128) l q) := by
    refine congrArg W2 (funext fun a => Fin.ext ?_)
    match a with
    | ⟨0, _⟩ => show j + 1 * 0 = j; omega
    | ⟨1, _⟩ => show 0 + 1 * l.val = l.val; omega
    | ⟨2, _⟩ => show 0 + 1 * q.val = q.val; omega
  rw [eT]
  generalize pos (W2 (ix3 (⟨j, hj⟩ : Fin 128) l q)) = k
  refine congrArg x3 (funext fun a => Fin.ext ?_)
  match a with
  | ⟨0, _⟩ => show j + 1 * 0 = j; omega
  | ⟨1, _⟩ => show 0 + 1 * k.val = k.val; omega

end Cert.KernelIdeal

end
-- ==== Proof.ColTable.lean ====
/- GENERATED by a script of this unit (a table of 128 cases, one per column store of the kernel body; run in the unit directory): python3 scratch/gen_coltable.py . proof/Proof/ColTable.lean
   from the piece list of `def out0_4` in proof/Proof/Gen/KernelIdeal/Frame.lean. Per column j: `pay_j` (the store's payload is the
   one-column function of column j's slices, by unfolding), `piece_j` (at a row it is the block look-up at (row, j)); then
   `out_block_apply`: the block after the body is the block look-up at every position. -/
import proofs.«419908_j28406913696453_3_alg».proof.Proof.Gen.KernelIdeal.Frame
import proofs.«419908_j28406913696453_3_alg».proof.Proof.Block

set_option maxRecDepth 16384

noncomputable section

namespace Cert.KernelIdeal.Gen

open Idealize.ShloMosaic Idealize.SL.Sem Cert.KernelIdeal Cert.Lookup
open Facts₀ Facts

/-! ## Each store's payload is the one-column function of its column's slices -/

section AnyFloats
variable {F : FTy → Type} [FloatOps F]

theorem pay_127 (x0 : Vec F S1024x128 .i32) (x1 : Vec F S1024x128 .i32) (x2 : Vec F S128x256x256 .bf16) (x3 : Vec F S128x256 .f32) :
    k0_pay1 (k0_pay282 (View.ld x0 r0_0) (View.ld x1 r0_0) (iota .tc S1x256 32 [1] iota_S1x256_d1_w32) (View.ld x2 r0_382)) (View.ld x3 r0_383)
      = colPay (extractStridedSlice (s := S1024x128) S1024x1 ![0, 127] (View.ld x0 r0_0) slices_S1024x128_o0_127_S1024x1) (extractStridedSlice (s := S1024x128) S1024x1 ![0, 127] (View.ld x1 r0_0) slices_S1024x128_o0_127_S1024x1) (View.ld x2 r0_382) (View.ld x3 r0_383) := rfl
theorem pay_126 (x0 : Vec F S1024x128 .i32) (x1 : Vec F S1024x128 .i32) (x2 : Vec F S128x256x256 .bf16) (x3 : Vec F S128x256 .f32) :
    k0_pay281 (View.ld x0 r0_0) (View.ld x1 r0_0) (iota .tc S1x256 32 [1] iota_S1x256_d1_w32) (View.ld x2 r0_379) (View.ld x3 r0_380)
      = colPay (extractStridedSlice (s := S1024x128) S1024x1 ![0, 126] (View.ld x0 r0_0) slices_S1024x128_o0_126_S1024x1) (extractStridedSlice (s := S1024x128) S1024x1 ![0, 126] (View.ld x1 r0_0) slices_S1024x128_o0_126_S1024x1) (View.ld x2 r0_379) (View.ld x3 r0_380) := rfl
theorem pay_125 (x0 : Vec F S1024x128 .i32) (x1 : Vec F S1024x128 .i32) (x2 : Vec F S128x256x256 .bf16) (x3 : Vec F S128x256 .f32) :
    k0_pay280 (iota .tc S1x256 32 [1] iota_S1x256_d1_w32) (k0_pay279 (View.ld x0 r0_0) (View.ld x1 r0_0) (iota .tc S1x256 32 [1] iota_S1x256_d1_w32) (View.ld x2 r0_376)) (View.ld x3 r0_377)
      = colPay (extractStridedSlice (s := S1024x128) S1024x1 ![0, 125] (View.ld x0 r0_0) slices_S1024x128_o0_125_S1024x1) (extractStridedSlice (s := S1024x128) S1024x1 ![0, 125] (View.ld x1 r0_0) slices_S1024x128_o0_125_S1024x1) (View.ld x2 r0_376) (View.ld x3 r0_377) := rfl
theorem pay_124 (x0 : Vec F S1024x128 .i32) (x1 : Vec F S1024x128 .i32) (x2 : Vec F S128x256x256 .bf16) (x3 : Vec F S128x256 .f32) :
    k0_pay278 (iota .tc S1x256 32 [1] iota_S1x256_d1_w32) (k0_pay276 (View.ld x0 r0_0)) (k0_pay277 (View.ld x1 r0_0)) (View.ld x2 r0_373) (View.ld x3 r0_374)
      = colPay (extractStridedSlice (s := S1024x128) S1024x1 ![0, 124] (View.ld x0 r0_0) slices_S1024x128_o0_124_S1024x1) (extractStridedSlice (s := S1024x128) S1024x1 ![0, 124] (View.ld x1 r0_0) slices_S1024x128_o0_124_S1024x1) (View.ld x2 r0_373) (View.ld x3 r0_374) := rfl
theorem pay_123 (x0 : Vec F S1024x128 .i32) (x1 : Vec F S1024x128 .i32) (x2 : Vec F S128x256x256 .bf16) (x3 : Vec F S128x256 .f32) :
    k0_pay275 (View.ld x0 r0_0) (View.ld x1 r0_0) (iota .tc S1x256 32 [1] iota_S1x256_d1_w32) (View.ld x2 r0_370) (View.ld x3 r0_371)
      = colPay (extractStridedSlice (s := S1024x128) S1024x1 ![0, 123] (View.ld x0 r0_0) slices_S1024x128_o0_123_S1024x1) (extractStridedSlice (s := S1024x128) S1024x1 ![0, 123] (View.ld x1 r0_0) slices_S1024x128_o0_123_S1024x1) (View.ld x2 r0_370) (View.ld x3 r0_371) := rfl
theorem pay_122 (x0 : Vec F S1024x128 .i32) (x1 : Vec F S1024x128 .i32) (x2 : Vec F S128x256x256 .bf16) (x3 : Vec F S128x256 .f32) :
    k0_pay274 (k0_pay272 (View.ld x0 r0_0) (View.ld x1 r0_0) (iota .tc S1x256 32 [1] iota_S1x256_d1_w32) (View.ld x2 r0_367)) (k0_pay273 (iota .tc S1x256 32 [1] iota_S1x256_d1_w32)) (View.ld x3 r0_368)
      = colPay (extractStridedSlice (s := S1024x128) S1024x1 ![0, 122] (View.ld x0 r0_0) slices_S1024x128_o0_122_S1024x1) (extractStridedSlice (s := S1024x128) S1024x1 ![0, 122] (View.ld x1 r0_0) slices_S1024x128_o0_122_S1024x1) (View.ld x2 r0_367) (View.ld x3 r0_368) := rfl
theorem pay_121 (x0 : Vec F S1024x128 .i32) (x1 : Vec F S1024x128 .i32) (x2 : Vec F S128x256x256 .bf16) (x3 : Vec F S128x256 .f32) :
    k0_pay271 (iota .tc S1x256 32 [1] iota_S1x256_d1_w32) (k0_pay267 (View.ld x1 r0_0)) (k0_pay268 (View.ld x2 r0_364)) (k0_pay269 (View.ld x0 r0_0)) (k0_pay270 (iota .tc S1x256 32 [1] iota_S1x256_d1_w32)) (View.ld x3 r0_365)
      = colPay (extractStridedSlice (s := S1024x128) S1024x1 ![0, 121] (View.ld x0 r0_0) slices_S1024x128_o0_121_S1024x1) (extractStridedSlice (s := S1024x128) S1024x1 ![0, 121] (View.ld x1 r0_0) slices_S1024x128_o0_121_S1024x1) (View.ld x2 r0_364) (View.ld x3 r0_365) := rfl
theorem pay_120 (x0 : Vec F S1024x128 .i32) (x1 : Vec F S1024x128 .i32) (x2 : Vec F S128x256x256 .bf16) (x3 : Vec F S128x256 .f32) :
    k0_pay266 (View.ld x0 r0_0) (View.ld x1 r0_0) (iota .tc S1x256 32 [1] iota_S1x256_d1_w32) (View.ld x2 r0_361) (View.ld x3 r0_362)
      = colPay (extractStridedSlice (s := S1024x128) S1024x1 ![0, 120] (View.ld x0 r0_0) slices_S1024x128_o0_120_S1024x1) (extractStridedSlice (s := S1024x128) S1024x1 ![0, 120] (View.ld x1 r0_0) slices_S1024x128_o0_120_S1024x1) (View.ld x2 r0_361) (View.ld x3 r0_362) := rfl
theorem pay_119 (x0 : Vec F S1024x128 .i32) (x1 : Vec F S1024x128 .i32) (x2 : Vec F S128x256x256 .bf16) (x3 : Vec F S128x256 .f32) :
    k0_pay265 (k0_pay264 (View.ld x0 r0_0) (View.ld x1 r0_0) (iota .tc S1x256 32 [1] iota_S1x256_d1_w32) (View.ld x2 r0_358)) (View.ld x3 r0_359)
      = colPay (extractStridedSlice (s := S1024x128) S1024x1 ![0, 119] (View.ld x0 r0_0) slices_S1024x128_o0_119_S1024x1) (extractStridedSlice (s := S1024x128) S1024x1 ![0, 119] (View.ld x1 r0_0) slices_S1024x128_o0_119_S1024x1) (View.ld x2 r0_358) (View.ld x3 r0_359) := rfl
theorem pay_118 (x0 : Vec F S1024x128 .i32) (x1 : Vec F S1024x128 .i32) (x2 : Vec F S128x256x256 .bf16) (x3 : Vec F S128x256 .f32) :
    k0_pay263 (iota .tc S1x256 32 [1] iota_S1x256_d1_w32) (k0_pay261 (View.ld x1 r0_0)) (k0_pay262 (View.ld x0 r0_0) (iota .tc S1x256 32 [1] iota_S1x256_d1_w32) (View.ld x2 r0_355)) (View.ld x3 r0_356)
      = colPay (extractStridedSlice (s := S1024x128) S1024x1 ![0, 118] (View.ld x0 r0_0) slices_S1024x128_o0_118_S1024x1) (extractStridedSlice (s := S1024x128) S1024x1 ![0, 118] (View.ld x1 r0_0) slices_S1024x128_o0_118_S1024x1) (View.ld x2 r0_355) (View.ld x3 r0_356) := rfl
theorem pay_117 (x0 : Vec F S1024x128 .i32) (x1 : Vec F S1024x128 .i32) (x2 : Vec F S128x256x256 .bf16) (x3 : Vec F S128x256 .f32) :
    k0_pay260 (View.ld x0 r0_0) (View.ld x1 r0_0) (iota .tc S1x256 32 [1] iota_S1x256_d1_w32) (View.ld x2 r0_352) (View.ld x3 r0_353)
      = colPay (extractStridedSlice (s := S1024x128) S1024x1 ![0, 117] (View.ld x0 r0_0) slices_S1024x128_o0_117_S1024x1) (extractStridedSlice (s := S1024x128) S1024x1 ![0, 117] (View.ld x1 r0_0) slices_S1024x128_o0_117_S1024x1) (View.ld x2 r0_352) (View.ld x3 r0_353) := rfl
theorem pay_116 (x0 : Vec F S1024x128 .i32) (x1 : Vec F S1024x128 .i32) (x2 : Vec F S128x256x256 .bf16) (x3 : Vec F S128x256 .f32) :
    k0_pay259 (View.ld x0 r0_0) (View.ld x1 r0_0) (iota .tc S1x256 32 [1] iota_S1x256_d1_w32) (View.ld x2 r0_349) (View.ld x3 r0_350)
      = colPay (extractStridedSlice (s := S1024x128) S1024x1 ![0, 116] (View.ld x0 r0_0) slices_S1024x128_o0_116_S1024x1) (extractStridedSlice (s := S1024x128) S1024x1 ![0, 116] (View.ld x1 r0_0) slices_S1024x128_o0_116_S1024x1) (View.ld x2 r0_349) (View.ld x3 r0_350) := rfl
theorem pay_115 (x0 : Vec F S1024x128 .i32) (x1 : Vec F S1024x128 .i32) (x2 : Vec F S128x256x256 .bf16) (x3 : Vec F S128x256 .f32) :
    k0_pay258 (iota .tc S1x256 32 [1] iota_S1x256_d1_w32) (k0_pay257 (View.ld x0 r0_0) (View.ld x1 r0_0) (iota .tc S1x256 32 [1] iota_S1x256_d1_w32) (View.ld x2 r0_346)) (View.ld x3 r0_347)
      = colPay (extractStridedSlice (s := S1024x128) S1024x1 ![0, 115] (View.ld x0 r0_0) slices_S1024x128_o0_115_S1024x1) (extractStridedSlice (s := S1024x128) S1024x1 ![0, 115] (View.ld x1 r0_0) slices_S1024x128_o0_115_S1024x1) (View.ld x2 r0_346) (View.ld x3 r0_347) := rfl
theorem pay_114 (x0 : Vec F S1024x128 .i32) (x1 : Vec F S1024x128 .i32) (x2 : Vec F S128x256x256 .bf16) (x3 : Vec F S128x256 .f32) :
    k0_pay256 (iota .tc S1x256 32 [1] iota_S1x256_d1_w32) (k0_pay254 (View.ld x0 r0_0)) (k0_pay255 (View.ld x1 r0_0)) (View.ld x2 r0_343) (View.ld x3 r0_344)
      = colPay (extractStridedSlice (s := S1024x128) S1024x1 ![0, 114] (View.ld x0 r0_0) slices_S1024x128_o0_114_S1024x1) (extractStridedSlice (s := S1024x128) S1024x1 ![0, 114] (View.ld x1 r0_0) slices_S1024x128_o0_114_S1024x1) (View.ld x2 r0_343) (View.ld x3 r0_344) := rfl
theorem pay_113 (x0 : Vec F S1024x128 .i32) (x1 : Vec F S1024x128 .i32) (x2 : Vec F S128x256x256 .bf16) (x3 : Vec F S128x256 .f32) :
    k0_pay253 (View.ld x0 r0_0) (View.ld x1 r0_0) (iota .tc S1x256 32 [1] iota_S1x256_d1_w32) (View.ld x2 r0_340) (View.ld x3 r0_341)
      = colPay (extractStridedSlice (s := S1024x128) S1024x1 ![0, 113] (View.ld x0 r0_0) slices_S1024x128_o0_113_S1024x1) (extractStridedSlice (s := S1024x128) S1024x1 ![0, 113] (View.ld x1 r0_0) slices_S1024x128_o0_113_S1024x1) (View.ld x2 r0_340) (View.ld x3 r0_341) := rfl
theorem pay_112 (x0 : Vec F S1024x128 .i32) (x1 : Vec F S1024x128 .i32) (x2 : Vec F S128x256x256 .bf16) (x3 : Vec F S128x256 .f32) :
    k0_pay252 (k0_pay250 (View.ld x0 r0_0) (View.ld x1 r0_0) (iota .tc S1x256 32 [1] iota_S1x256_d1_w32) (View.ld x2 r0_337)) (k0_pay251 (iota .tc S1x256 32 [1] iota_S1x256_d1_w32)) (View.ld x3 r0_338)
      = colPay (extractStridedSlice (s := S1024x128) S1024x1 ![0, 112] (View.ld x0 r0_0) slices_S1024x128_o0_112_S1024x1) (extractStridedSlice (s := S1024x128) S1024x1 ![0, 112] (View.ld x1 r0_0) slices_S1024x128_o0_112_S1024x1) (View.ld x2 r0_337) (View.ld x3 r0_338) := rfl
theorem pay_111 (x0 : Vec F S1024x128 .i32) (x1 : Vec F S1024x128 .i32) (x2 : Vec F S128x256x256 .bf16) (x3 : Vec F S128x256 .f32) :
    k0_pay249 (iota .tc S1x256 32 [1] iota_S1x256_d1_w32) (k0_pay245 (View.ld x1 r0_0)) (k0_pay246 (View.ld x2 r0_334)) (k0_pay247 (View.ld x0 r0_0)) (k0_pay248 (iota .tc S1x256 32 [1] iota_S1x256_d1_w32)) (View.ld x3 r0_335)
      = colPay (extractStridedSlice (s := S1024x128) S1024x1 ![0, 111] (View.ld x0 r0_0) slices_S1024x128_o0_111_S1024x1) (extractStridedSlice (s := S1024x128) S1024x1 ![0, 111] (View.ld x1 r0_0) slices_S1024x128_o0_111_S1024x1) (View.ld x2 r0_334) (View.ld x3 r0_335) := rfl
theorem pay_110 (x0 : Vec F S1024x128 .i32) (x1 : Vec F S1024x128 .i32) (x2 : Vec F S128x256x256 .bf16) (x3 : Vec F S128x256 .f32) :
    k0_pay244 (View.ld x0 r0_0) (View.ld x1 r0_0) (iota .tc S1x256 32 [1] iota_S1x256_d1_w32) (View.ld x2 r0_331) (View.ld x3 r0_332)
      = colPay (extractStridedSlice (s := S1024x128) S1024x1 ![0, 110] (View.ld x0 r0_0) slices_S1024x128_o0_110_S1024x1) (extractStridedSlice (s := S1024x128) S1024x1 ![0, 110] (View.ld x1 r0_0) slices_S1024x128_o0_110_S1024x1) (View.ld x2 r0_331) (View.ld x3 r0_332) := rfl
theorem pay_109 (x0 : Vec F S1024x128 .i32) (x1 : Vec F S1024x128 .i32) (x2 : Vec F S128x256x256 .bf16) (x3 : Vec F S128x256 .f32) :
    k0_pay243 (k0_pay242 (View.ld x0 r0_0) (View.ld x1 r0_0) (iota .tc S1x256 32 [1] iota_S1x256_d1_w32) (View.ld x2 r0_328)) (View.ld x3 r0_329)
      = colPay (extractStridedSlice (s := S1024x128) S1024x1 ![0, 109] (View.ld x0 r0_0) slices_S1024x128_o0_109_S1024x1) (extractStridedSlice (s := S1024x128) S1024x1 ![0, 109] (View.ld x1 r0_0) slices_S1024x128_o0_109_S1024x1) (View.ld x2 r0_328) (View.ld x3 r0_329) := rfl
theorem pay_108 (x0 : Vec F S1024x128 .i32) (x1 : Vec F S1024x128 .i32) (x2 : Vec F S128x256x256 .bf16) (x3 : Vec F S128x256 .f32) :
    k0_pay241 (iota .tc S1x256 32 [1] iota_S1x256_d1_w32) (k0_pay239 (View.ld x1 r0_0)) (k0_pay240 (View.ld x0 r0_0) (iota .tc S1x256 32 [1] iota_S1x256_d1_w32) (View.ld x2 r0_325)) (View.ld x3 r0_326)
      = colPay (extractStridedSlice (s := S1024x128) S1024x1 ![0, 108] (View.ld x0 r0_0) slices_S1024x128_o0_108_S1024x1) (extractStridedSlice (s := S1024x128) S1024x1 ![0, 108] (View.ld x1 r0_0) slices_S1024x128_o0_108_S1024x1) (View.ld x2 r0_325) (View.ld x3 r0_326) := rfl
theorem pay_107 (x0 : Vec F S1024x128 .i32) (x1 : Vec F S1024x128 .i32) (x2 : Vec F S128x256x256 .bf16) (x3 : Vec F S128x256 .f32) :
    k0_pay238 (View.ld x0 r0_0) (View.ld x1 r0_0) (iota .tc S1x256 32 [1] iota_S1x256_d1_w32) (View.ld x2 r0_322) (View.ld x3 r0_323)
      = colPay (extractStridedSlice (s := S1024x128) S1024x1 ![0, 107] (View.ld x0 r0_0) slices_S1024x128_o0_107_S1024x1) (extractStridedSlice (s := S1024x128) S1024x1 ![0, 107] (View.ld x1 r0_0) slices_S1024x128_o0_107_S1024x1) (View.ld x2 r0_322) (View.ld x3 r0_323) := rfl
theorem pay_106 (x0 : Vec F S1024x128 .i32) (x1 : Vec F S1024x128 .i32) (x2 : Vec F S128x256x256 .bf16) (x3 : Vec F S128x256 .f32) :
    k0_pay237 (View.ld x0 r0_0) (View.ld x1 r0_0) (iota .tc S1x256 32 [1] iota_S1x256_d1_w32) (View.ld x2 r0_319) (View.ld x3 r0_320)
      = colPay (extractStridedSlice (s := S1024x128) S1024x1 ![0, 106] (View.ld x0 r0_0) slices_S1024x128_o0_106_S1024x1) (extractStridedSlice (s := S1024x128) S1024x1 ![0, 106] (View.ld x1 r0_0) slices_S1024x128_o0_106_S1024x1) (View.ld x2 r0_319) (View.ld x3 r0_320) := rfl
theorem pay_105 (x0 : Vec F S1024x128 .i32) (x1 : Vec F S1024x128 .i32) (x2 : Vec F S128x256x256 .bf16) (x3 : Vec F S128x256 .f32) :
    k0_pay236 (iota .tc S1x256 32 [1] iota_S1x256_d1_w32) (k0_pay235 (View.ld x0 r0_0) (View.ld x1 r0_0) (iota .tc S1x256 32 [1] iota_S1x256_d1_w32) (View.ld x2 r0_316)) (View.ld x3 r0_317)
      = colPay (extractStridedSlice (s := S1024x128) S1024x1 ![0, 105] (View.ld x0 r0_0) slices_S1024x128_o0_105_S1024x1) (extractStridedSlice (s := S1024x128) S1024x1 ![0, 105] (View.ld x1 r0_0) slices_S1024x128_o0_105_S1024x1) (View.ld x2 r0_316) (View.ld x3 r0_317) := rfl
theorem pay_104 (x0 : Vec F S1024x128 .i32) (x1 : Vec F S1024x128 .i32) (x2 : Vec F S128x256x256 .bf16) (x3 : Vec F S128x256 .f32) :
    k0_pay234 (iota .tc S1x256 32 [1] iota_S1x256_d1_w32) (k0_pay232 (View.ld x0 r0_0)) (k0_pay233 (View.ld x1 r0_0)) (View.ld x2 r0_313) (View.ld x3 r0_314)
      = colPay (extractStridedSlice (s := S1024x128) S1024x1 ![0, 104] (View.ld x0 r0_0) slices_S1024x128_o0_104_S1024x1) (extractStridedSlice (s := S1024x128) S1024x1 ![0, 104] (View.ld x1 r0_0) slices_S1024x128_o0_104_S1024x1) (View.ld x2 r0_313) (View.ld x3 r0_314) := rfl
theorem pay_103 (x0 : Vec F S1024x128 .i32) (x1 : Vec F S1024x128 .i32) (x2 : Vec F S128x256x256 .bf16) (x3 : Vec F S128x256 .f32) :
    k0_pay231 (View.ld x0 r0_0) (View.ld x1 r0_0) (iota .tc S1x256 32 [1] iota_S1x256_d1_w32) (View.ld x2 r0_310) (View.ld x3 r0_311)
      = colPay (extractStridedSlice (s := S1024x128) S1024x1 ![0, 103] (View.ld x0 r0_0) slices_S1024x128_o0_103_S1024x1) (extractStridedSlice (s := S1024x128) S1024x1 ![0, 103] (View.ld x1 r0_0) slices_S1024x128_o0_103_S1024x1) (View.ld x2 r0_310) (View.ld x3 r0_311) := rfl
theorem pay_102 (x0 : Vec F S1024x128 .i32) (x1 : Vec F S1024x128 .i32) (x2 : Vec F S128x256x256 .bf16) (x3 : Vec F S128x256 .f32) :
    k0_pay230 (k0_pay228 (View.ld x0 r0_0) (View.ld x1 r0_0) (iota .tc S1x256 32 [1] iota_S1x256_d1_w32) (View.ld x2 r0_307)) (k0_pay229 (iota .tc S1x256 32 [1] iota_S1x256_d1_w32)) (View.ld x3 r0_308)
      = colPay (extractStridedSlice (s := S1024x128) S1024x1 ![0, 102] (View.ld x0 r0_0) slices_S1024x128_o0_102_S1024x1) (extractStridedSlice (s := S1024x128) S1024x1 ![0, 102] (View.ld x1 r0_0) slices_S1024x128_o0_102_S1024x1) (View.ld x2 r0_307) (View.ld x3 r0_308) := rfl
theorem pay_101 (x0 : Vec F S1024x128 .i32) (x1 : Vec F S1024x128 .i32) (x2 : Vec F S128x256x256 .bf16) (x3 : Vec F S128x256 .f32) :
    k0_pay227 (iota .tc S1x256 32 [1] iota_S1x256_d1_w32) (k0_pay223 (View.ld x1 r0_0)) (k0_pay224 (View.ld x2 r0_304)) (k0_pay225 (View.ld x0 r0_0)) (k0_pay226 (iota .tc S1x256 32 [1] iota_S1x256_d1_w32)) (View.ld x3 r0_305)
      = colPay (extractStridedSlice (s := S1024x128) S1024x1 ![0, 101] (View.ld x0 r0_0) slices_S1024x128_o0_101_S1024x1) (extractStridedSlice (s := S1024x128) S1024x1 ![0, 101] (View.ld x1 r0_0) slices_S1024x128_o0_101_S1024x1) (View.ld x2 r0_304) (View.ld x3 r0_305) := rfl
theorem pay_100 (x0 : Vec F S1024x128 .i32) (x1 : Vec F S1024x128 .i32) (x2 : Vec F S128x256x256 .bf16) (x3 : Vec F S128x256 .f32) :
    k0_pay222 (View.ld x0 r0_0) (View.ld x1 r0_0) (iota .tc S1x256 32 [1] iota_S1x256_d1_w32) (View.ld x2 r0_301) (View.ld x3 r0_302)
      = colPay (extractStridedSlice (s := S1024x128) S1024x1 ![0, 100] (View.ld x0 r0_0) slices_S1024x128_o0_100_S1024x1) (extractStridedSlice (s := S1024x128) S1024x1 ![0, 100] (View.ld x1 r0_0) slices_S1024x128_o0_100_S1024x1) (View.ld x2 r0_301) (View.ld x3 r0_302) := rfl
theorem pay_99 (x0 : Vec F S1024x128 .i32) (x1 : Vec F S1024x128 .i32) (x2 : Vec F S128x256x256 .bf16) (x3 : Vec F S128x256 .f32) :
    k0_pay221 (k0_pay220 (View.ld x0 r0_0) (View.ld x1 r0_0) (iota .tc S1x256 32 [1] iota_S1x256_d1_w32) (View.ld x2 r0_298)) (View.ld x3 r0_299)
      = colPay (extractStridedSlice (s := S1024x128) S1024x1 ![0, 99] (View.ld x0 r0_0) slices_S1024x128_o0_99_S1024x1) (extractStridedSlice (s := S1024x128) S1024x1 ![0, 99] (View.ld x1 r0_0) slices_S1024x128_o0_99_S1024x1) (View.ld x2 r0_298) (View.ld x3 r0_299) := rfl
theorem pay_98 (x0 : Vec F S1024x128 .i32) (x1 : Vec F S1024x128 .i32) (x2 : Vec F S128x256x256 .bf16) (x3 : Vec F S128x256 .f32) :
    k0_pay219 (iota .tc S1x256 32 [1] iota_S1x256_d1_w32) (k0_pay217 (View.ld x1 r0_0)) (k0_pay218 (View.ld x0 r0_0) (iota .tc S1x256 32 [1] iota_S1x256_d1_w32) (View.ld x2 r0_295)) (View.ld x3 r0_296)
      = colPay (extractStridedSlice (s := S1024x128) S1024x1 ![0, 98] (View.ld x0 r0_0) slices_S1024x128_o0_98_S1024x1) (extractStridedSlice (s := S1024x128) S1024x1 ![0, 98] (View.ld x1 r0_0) slices_S1024x128_o0_98_S1024x1) (View.ld x2 r0_295) (View.ld x3 r0_296) := rfl
theorem pay_97 (x0 : Vec F S1024x128 .i32) (x1 : Vec F S1024x128 .i32) (x2 : Vec F S128x256x256 .bf16) (x3 : Vec F S128x256 .f32) :
    k0_pay216 (View.ld x0 r0_0) (View.ld x1 r0_0) (iota .tc S1x256 32 [1] iota_S1x256_d1_w32) (View.ld x2 r0_292) (View.ld x3 r0_293)
      = colPay (extractStridedSlice (s := S1024x128) S1024x1 ![0, 97] (View.ld x0 r0_0) slices_S1024x128_o0_97_S1024x1) (extractStridedSlice (s := S1024x128) S1024x1 ![0, 97] (View.ld x1 r0_0) slices_S1024x128_o0_97_S1024x1) (View.ld x2 r0_292) (View.ld x3 r0_293) := rfl
theorem pay_96 (x0 : Vec F S1024x128 .i32) (x1 : Vec F S1024x128 .i32) (x2 : Vec F S128x256x256 .bf16) (x3 : Vec F S128x256 .f32) :
    k0_pay215 (View.ld x0 r0_0) (View.ld x1 r0_0) (iota .tc S1x256 32 [1] iota_S1x256_d1_w32) (View.ld x2 r0_289) (View.ld x3 r0_290)
      = colPay (extractStridedSlice (s := S1024x128) S1024x1 ![0, 96] (View.ld x0 r0_0) slices_S1024x128_o0_96_S1024x1) (extractStridedSlice (s := S1024x128) S1024x1 ![0, 96] (View.ld x1 r0_0) slices_S1024x128_o0_96_S1024x1) (View.ld x2 r0_289) (View.ld x3 r0_290) := rfl
theorem pay_95 (x0 : Vec F S1024x128 .i32) (x1 : Vec F S1024x128 .i32) (x2 : Vec F S128x256x256 .bf16) (x3 : Vec F S128x256 .f32) :
    k0_pay214 (iota .tc S1x256 32 [1] iota_S1x256_d1_w32) (k0_pay213 (View.ld x0 r0_0) (View.ld x1 r0_0) (iota .tc S1x256 32 [1] iota_S1x256_d1_w32) (View.ld x2 r0_286)) (View.ld x3 r0_287)
      = colPay (extractStridedSlice (s := S1024x128) S1024x1 ![0, 95] (View.ld x0 r0_0) slices_S1024x128_o0_95_S1024x1) (extractStridedSlice (s := S1024x128) S1024x1 ![0, 95] (View.ld x1 r0_0) slices_S1024x128_o0_95_S1024x1) (View.ld x2 r0_286) (View.ld x3 r0_287) := rfl
theorem pay_94 (x0 : Vec F S1024x128 .i32) (x1 : Vec F S1024x128 .i32) (x2 : Vec F S128x256x256 .bf16) (x3 : Vec F S128x256 .f32) :
    k0_pay212 (iota .tc S1x256 32 [1] iota_S1x256_d1_w32) (k0_pay210 (View.ld x0 r0_0)) (k0_pay211 (View.ld x1 r0_0)) (View.ld x2 r0_283) (View.ld x3 r0_284)
      = colPay (extractStridedSlice (s := S1024x128) S1024x1 ![0, 94] (View.ld x0 r0_0) slices_S1024x128_o0_94_S1024x1) (extractStridedSlice (s := S1024x128) S1024x1 ![0, 94] (View.ld x1 r0_0) slices_S1024x128_o0_94_S1024x1) (View.ld x2 r0_283) (View.ld x3 r0_284) := rfl
theorem pay_93 (x0 : Vec F S1024x128 .i32) (x1 : Vec F S1024x128 .i32) (x2 : Vec F S128x256x256 .bf16) (x3 : Vec F S128x256 .f32) :
    k0_pay209 (View.ld x0 r0_0) (View.ld x1 r0_0) (iota .tc S1x256 32 [1] iota_S1x256_d1_w32) (View.ld x2 r0_280) (View.ld x3 r0_281)
      = colPay (extractStridedSlice (s := S1024x128) S1024x1 ![0, 93] (View.ld x0 r0_0) slices_S1024x128_o0_93_S1024x1) (extractStridedSlice (s := S1024x128) S1024x1 ![0, 93] (View.ld x1 r0_0) slices_S1024x128_o0_93_S1024x1) (View.ld x2 r0_280) (View.ld x3 r0_281) := rfl
theorem pay_92 (x0 : Vec F S1024x128 .i32) (x1 : Vec F S1024x128 .i32) (x2 : Vec F S128x256x256 .bf16) (x3 : Vec F S128x256 .f32) :
    k0_pay208 (k0_pay206 (View.ld x0 r0_0) (View.ld x1 r0_0) (iota .tc S1x256 32 [1] iota_S1x256_d1_w32) (View.ld x2 r0_277)) (k0_pay207 (iota .tc S1x256 32 [1] iota_S1x256_d1_w32)) (View.ld x3 r0_278)
      = colPay (extractStridedSlice (s := S1024x128) S1024x1 ![0, 92] (View.ld x0 r0_0) slices_S1024x128_o0_92_S1024x1) (extractStridedSlice (s := S1024x128) S1024x1 ![0, 92] (View.ld x1 r0_0) slices_S1024x128_o0_92_S1024x1) (View.ld x2 r0_277) (View.ld x3 r0_278) := rfl
theorem pay_91 (x0 : Vec F S1024x128 .i32) (x1 : Vec F S1024x128 .i32) (x2 : Vec F S128x256x256 .bf16) (x3 : Vec F S128x256 .f32) :
    k0_pay205 (iota .tc S1x256 32 [1] iota_S1x256_d1_w32) (k0_pay201 (View.ld x1 r0_0)) (k0_pay202 (View.ld x2 r0_274)) (k0_pay203 (View.ld x0 r0_0)) (k0_pay204 (iota .tc S1x256 32 [1] iota_S1x256_d1_w32)) (View.ld x3 r0_275)
      = colPay (extractStridedSlice (s := S1024x128) S1024x1 ![0, 91] (View.ld x0 r0_0) slices_S1024x128_o0_91_S1024x1) (extractStridedSlice (s := S1024x128) S1024x1 ![0, 91] (View.ld x1 r0_0) slices_S1024x128_o0_91_S1024x1) (View.ld x2 r0_274) (View.ld x3 r0_275) := rfl
theorem pay_90 (x0 : Vec F S1024x128 .i32) (x1 : Vec F S1024x128 .i32) (x2 : Vec F S128x256x256 .bf16) (x3 : Vec F S128x256 .f32) :
    k0_pay200 (View.ld x0 r0_0) (View.ld x1 r0_0) (iota .tc S1x256 32 [1] iota_S1x256_d1_w32) (View.ld x2 r0_271) (View.ld x3 r0_272)
      = colPay (extractStridedSlice (s := S1024x128) S1024x1 ![0, 90] (View.ld x0 r0_0) slices_S1024x128_o0_90_S1024x1) (extractStridedSlice (s := S1024x128) S1024x1 ![0, 90] (View.ld x1 r0_0) slices_S1024x128_o0_90_S1024x1) (View.ld x2 r0_271) (View.ld x3 r0_272) := rfl
theorem pay_89 (x0 : Vec F S1024x128 .i32) (x1 : Vec F S1024x128 .i32) (x2 : Vec F S128x256x256 .bf16) (x3 : Vec F S128x256 .f32) :
    k0_pay199 (k0_pay198 (View.ld x0 r0_0) (View.ld x1 r0_0) (iota .tc S1x256 32 [1] iota_S1x256_d1_w32) (View.ld x2 r0_268)) (View.ld x3 r0_269)
      = colPay (extractStridedSlice (s := S1024x128) S1024x1 ![0, 89] (View.ld x0 r0_0) slices_S1024x128_o0_89_S1024x1) (extractStridedSlice (s := S1024x128) S1024x1 ![0, 89] (View.ld x1 r0_0) slices_S1024x128_o0_89_S1024x1) (View.ld x2 r0_268) (View.ld x3 r0_269) := rfl
theorem pay_88 (x0 : Vec F S1024x128 .i32) (x1 : Vec F S1024x128 .i32) (x2 : Vec F S128x256x256 .bf16) (x3 : Vec F S128x256 .f32) :
    k0_pay197 (iota .tc S1x256 32 [1] iota_S1x256_d1_w32) (k0_pay195 (View.ld x1 r0_0)) (k0_pay196 (View.ld x0 r0_0) (iota .tc S1x256 32 [1] iota_S1x256_d1_w32) (View.ld x2 r0_265)) (View.ld x3 r0_266)
      = colPay (extractStridedSlice (s := S1024x128) S1024x1 ![0, 88] (View.ld x0 r0_0) slices_S1024x128_o0_88_S1024x1) (extractStridedSlice (s := S1024x128) S1024x1 ![0, 88] (View.ld x1 r0_0) slices_S1024x128_o0_88_S1024x1) (View.ld x2 r0_265) (View.ld x3 r0_266) := rfl
theorem pay_87 (x0 : Vec F S1024x128 .i32) (x1 : Vec F S1024x128 .i32) (x2 : Vec F S128x256x256 .bf16) (x3 : Vec F S128x256 .f32) :
    k0_pay194 (View.ld x0 r0_0) (View.ld x1 r0_0) (iota .tc S1x256 32 [1] iota_S1x256_d1_w32) (View.ld x2 r0_262) (View.ld x3 r0_263)
      = colPay (extractStridedSlice (s := S1024x128) S1024x1 ![0, 87] (View.ld x0 r0_0) slices_S1024x128_o0_87_S1024x1) (extractStridedSlice (s := S1024x128) S1024x1 ![0, 87] (View.ld x1 r0_0) slices_S1024x128_o0_87_S1024x1) (View.ld x2 r0_262) (View.ld x3 r0_263) := rfl
theorem pay_86 (x0 : Vec F S1024x128 .i32) (x1 : Vec F S1024x128 .i32) (x2 : Vec F S128x256x256 .bf16) (x3 : Vec F S128x256 .f32) :
    k0_pay193 (View.ld x0 r0_0) (View.ld x1 r0_0) (iota .tc S1x256 32 [1] iota_S1x256_d1_w32) (View.ld x2 r0_259) (View.ld x3 r0_260)
      = colPay (extractStridedSlice (s := S1024x128) S1024x1 ![0, 86] (View.ld x0 r0_0) slices_S1024x128_o0_86_S1024x1) (extractStridedSlice (s := S1024x128) S1024x1 ![0, 86] (View.ld x1 r0_0) slices_S1024x128_o0_86_S1024x1) (View.ld x2 r0_259) (View.ld x3 r0_260) := rfl
theorem pay_85 (x0 : Vec F S1024x128 .i32) (x1 : Vec F S1024x128 .i32) (x2 : Vec F S128x256x256 .bf16) (x3 : Vec F S128x256 .f32) :
    k0_pay192 (iota .tc S1x256 32 [1] iota_S1x256_d1_w32) (k0_pay191 (View.ld x0 r0_0) (View.ld x1 r0_0) (iota .tc S1x256 32 [1] iota_S1x256_d1_w32) (View.ld x2 r0_256)) (View.ld x3 r0_257)
      = colPay (extractStridedSlice (s := S1024x128) S1024x1 ![0, 85] (View.ld x0 r0_0) slices_S1024x128_o0_85_S1024x1) (extractStridedSlice (s := S1024x128) S1024x1 ![0, 85] (View.ld x1 r0_0) slices_S1024x128_o0_85_S1024x1) (View.ld x2 r0_256) (View.ld x3 r0_257) := rfl
theorem pay_84 (x0 : Vec F S1024x128 .i32) (x1 : Vec F S1024x128 .i32) (x2 : Vec F S128x256x256 .bf16) (x3 : Vec F S128x256 .f32) :
    k0_pay190 (iota .tc S1x256 32 [1] iota_S1x256_d1_w32) (k0_pay188 (View.ld x0 r0_0)) (k0_pay189 (View.ld x1 r0_0)) (View.ld x2 r0_253) (View.ld x3 r0_254)
      = colPay (extractStridedSlice (s := S1024x128) S1024x1 ![0, 84] (View.ld x0 r0_0) slices_S1024x128_o0_84_S1024x1) (extractStridedSlice (s := S1024x128) S1024x1 ![0, 84] (View.ld x1 r0_0) slices_S1024x128_o0_84_S1024x1) (View.ld x2 r0_253) (View.ld x3 r0_254) := rfl
theorem pay_83 (x0 : Vec F S1024x128 .i32) (x1 : Vec F S1024x128 .i32) (x2 : Vec F S128x256x256 .bf16) (x3 : Vec F S128x256 .f32) :
    k0_pay187 (View.ld x0 r0_0) (View.ld x1 r0_0) (iota .tc S1x256 32 [1] iota_S1x256_d1_w32) (View.ld x2 r0_250) (View.ld x3 r0_251)
      = colPay (extractStridedSlice (s := S1024x128) S1024x1 ![0, 83] (View.ld x0 r0_0) slices_S1024x128_o0_83_S1024x1) (extractStridedSlice (s := S1024x128) S1024x1 ![0, 83] (View.ld x1 r0_0) slices_S1024x128_o0_83_S1024x1) (View.ld x2 r0_250) (View.ld x3 r0_251) := rfl
theorem pay_82 (x0 : Vec F S1024x128 .i32) (x1 : Vec F S1024x128 .i32) (x2 : Vec F S128x256x256 .bf16) (x3 : Vec F S128x256 .f32) :
    k0_pay186 (k0_pay184 (View.ld x0 r0_0) (View.ld x1 r0_0) (iota .tc S1x256 32 [1] iota_S1x256_d1_w32) (View.ld x2 r0_247)) (k0_pay185 (iota .tc S1x256 32 [1] iota_S1x256_d1_w32)) (View.ld x3 r0_248)
      = colPay (extractStridedSlice (s := S1024x128) S1024x1 ![0, 82] (View.ld x0 r0_0) slices_S1024x128_o0_82_S1024x1) (extractStridedSlice (s := S1024x128) S1024x1 ![0, 82] (View.ld x1 r0_0) slices_S1024x128_o0_82_S1024x1) (View.ld x2 r0_247) (View.ld x3 r0_248) := rfl
theorem pay_81 (x0 : Vec F S1024x128 .i32) (x1 : Vec F S1024x128 .i32) (x2 : Vec F S128x256x256 .bf16) (x3 : Vec F S128x256 .f32) :
    k0_pay183 (iota .tc S1x256 32 [1] iota_S1x256_d1_w32) (k0_pay179 (View.ld x1 r0_0)) (k0_pay180 (View.ld x2 r0_244)) (k0_pay181 (View.ld x0 r0_0)) (k0_pay182 (iota .tc S1x256 32 [1] iota_S1x256_d1_w32)) (View.ld x3 r0_245)
      = colPay (extractStridedSlice (s := S1024x128) S1024x1 ![0, 81] (View.ld x0 r0_0) slices_S1024x128_o0_81_S1024x1) (extractStridedSlice (s := S1024x128) S1024x1 ![0, 81] (View.ld x1 r0_0) slices_S1024x128_o0_81_S1024x1) (View.ld x2 r0_244) (View.ld x3 r0_245) := rfl
theorem pay_80 (x0 : Vec F S1024x128 .i32) (x1 : Vec F S1024x128 .i32) (x2 : Vec F S128x256x256 .bf16) (x3 : Vec F S128x256 .f32) :
    k0_pay178 (View.ld x0 r0_0) (View.ld x1 r0_0) (iota .tc S1x256 32 [1] iota_S1x256_d1_w32) (View.ld x2 r0_241) (View.ld x3 r0_242)
      = colPay (extractStridedSlice (s := S1024x128) S1024x1 ![0, 80] (View.ld x0 r0_0) slices_S1024x128_o0_80_S1024x1) (extractStridedSlice (s := S1024x128) S1024x1 ![0, 80] (View.ld x1 r0_0) slices_S1024x128_o0_80_S1024x1) (View.ld x2 r0_241) (View.ld x3 r0_242) := rfl
theorem pay_79 (x0 : Vec F S1024x128 .i32) (x1 : Vec F S1024x128 .i32) (x2 : Vec F S128x256x256 .bf16) (x3 : Vec F S128x256 .f32) :
    k0_pay177 (k0_pay176 (View.ld x0 r0_0) (View.ld x1 r0_0) (iota .tc S1x256 32 [1] iota_S1x256_d1_w32) (View.ld x2 r0_238)) (View.ld x3 r0_239)
      = colPay (extractStridedSlice (s := S1024x128) S1024x1 ![0, 79] (View.ld x0 r0_0) slices_S1024x128_o0_79_S1024x1) (extractStridedSlice (s := S1024x128) S1024x1 ![0, 79] (View.ld x1 r0_0) slices_S1024x128_o0_79_S1024x1) (View.ld x2 r0_238) (View.ld x3 r0_239) := rfl
theorem pay_78 (x0 : Vec F S1024x128 .i32) (x1 : Vec F S1024x128 .i32) (x2 : Vec F S128x256x256 .bf16) (x3 : Vec F S128x256 .f32) :
    k0_pay175 (iota .tc S1x256 32 [1] iota_S1x256_d1_w32) (k0_pay173 (View.ld x1 r0_0)) (k0_pay174 (View.ld x0 r0_0) (iota .tc S1x256 32 [1] iota_S1x256_d1_w32) (View.ld x2 r0_235)) (View.ld x3 r0_236)
      = colPay (extractStridedSlice (s := S1024x128) S1024x1 ![0, 78] (View.ld x0 r0_0) slices_S1024x128_o0_78_S1024x1) (extractStridedSlice (s := S1024x128) S1024x1 ![0, 78] (View.ld x1 r0_0) slices_S1024x128_o0_78_S1024x1) (View.ld x2 r0_235) (View.ld x3 r0_236) := rfl
theorem pay_77 (x0 : Vec F S1024x128 .i32) (x1 : Vec F S1024x128 .i32) (x2 : Vec F S128x256x256 .bf16) (x3 : Vec F S128x256 .f32) :
    k0_pay172 (View.ld x0 r0_0) (View.ld x1 r0_0) (iota .tc S1x256 32 [1] iota_S1x256_d1_w32) (View.ld x2 r0_232) (View.ld x3 r0_233)
      = colPay (extractStridedSlice (s := S1024x128) S1024x1 ![0, 77] (View.ld x0 r0_0) slices_S1024x128_o0_77_S1024x1) (extractStridedSlice (s := S1024x128) S1024x1 ![0, 77] (View.ld x1 r0_0) slices_S1024x128_o0_77_S1024x1) (View.ld x2 r0_232) (View.ld x3 r0_233) := rfl
theorem pay_76 (x0 : Vec F S1024x128 .i32) (x1 : Vec F S1024x128 .i32) (x2 : Vec F S128x256x256 .bf16) (x3 : Vec F S128x256 .f32) :
    k0_pay171 (View.ld x0 r0_0) (View.ld x1 r0_0) (iota .tc S1x256 32 [1] iota_S1x256_d1_w32) (View.ld x2 r0_229) (View.ld x3 r0_230)
      = colPay (extractStridedSlice (s := S1024x128) S1024x1 ![0, 76] (View.ld x0 r0_0) slices_S1024x128_o0_76_S1024x1) (extractStridedSlice (s := S1024x128) S1024x1 ![0, 76] (View.ld x1 r0_0) slices_S1024x128_o0_76_S1024x1) (View.ld x2 r0_229) (View.ld x3 r0_230) := rfl
theorem pay_75 (x0 : Vec F S1024x128 .i32) (x1 : Vec F S1024x128 .i32) (x2 : Vec F S128x256x256 .bf16) (x3 : Vec F S128x256 .f32) :
    k0_pay170 (iota .tc S1x256 32 [1] iota_S1x256_d1_w32) (k0_pay169 (View.ld x0 r0_0) (View.ld x1 r0_0) (iota .tc S1x256 32 [1] iota_S1x256_d1_w32) (View.ld x2 r0_226)) (View.ld x3 r0_227)
      = colPay (extractStridedSlice (s := S1024x128) S1024x1 ![0, 75] (View.ld x0 r0_0) slices_S1024x128_o0_75_S1024x1) (extractStridedSlice (s := S1024x128) S1024x1 ![0, 75] (View.ld x1 r0_0) slices_S1024x128_o0_75_S1024x1) (View.ld x2 r0_226) (View.ld x3 r0_227) := rfl
theorem pay_74 (x0 : Vec F S1024x128 .i32) (x1 : Vec F S1024x128 .i32) (x2 : Vec F S128x256x256 .bf16) (x3 : Vec F S128x256 .f32) :
    k0_pay168 (iota .tc S1x256 32 [1] iota_S1x256_d1_w32) (k0_pay166 (View.ld x0 r0_0)) (k0_pay167 (View.ld x1 r0_0)) (View.ld x2 r0_223) (View.ld x3 r0_224)
      = colPay (extractStridedSlice (s := S1024x128) S1024x1 ![0, 74] (View.ld x0 r0_0) slices_S1024x128_o0_74_S1024x1) (extractStridedSlice (s := S1024x128) S1024x1 ![0, 74] (View.ld x1 r0_0) slices_S1024x128_o0_74_S1024x1) (View.ld x2 r0_223) (View.ld x3 r0_224) := rfl
theorem pay_73 (x0 : Vec F S1024x128 .i32) (x1 : Vec F S1024x128 .i32) (x2 : Vec F S128x256x256 .bf16) (x3 : Vec F S128x256 .f32) :
    k0_pay165 (View.ld x0 r0_0) (View.ld x1 r0_0) (iota .tc S1x256 32 [1] iota_S1x256_d1_w32) (View.ld x2 r0_220) (View.ld x3 r0_221)
      = colPay (extractStridedSlice (s := S1024x128) S1024x1 ![0, 73] (View.ld x0 r0_0) slices_S1024x128_o0_73_S1024x1) (extractStridedSlice (s := S1024x128) S1024x1 ![0, 73] (View.ld x1 r0_0) slices_S1024x128_o0_73_S1024x1) (View.ld x2 r0_220) (View.ld x3 r0_221) := rfl
theorem pay_72 (x0 : Vec F S1024x128 .i32) (x1 : Vec F S1024x128 .i32) (x2 : Vec F S128x256x256 .bf16) (x3 : Vec F S128x256 .f32) :
    k0_pay164 (k0_pay162 (View.ld x0 r0_0) (View.ld x1 r0_0) (iota .tc S1x256 32 [1] iota_S1x256_d1_w32) (View.ld x2 r0_217)) (k0_pay163 (iota .tc S1x256 32 [1] iota_S1x256_d1_w32)) (View.ld x3 r0_218)
      = colPay (extractStridedSlice (s := S1024x128) S1024x1 ![0, 72] (View.ld x0 r0_0) slices_S1024x128_o0_72_S1024x1) (extractStridedSlice (s := S1024x128) S1024x1 ![0, 72] (View.ld x1 r0_0) slices_S1024x128_o0_72_S1024x1) (View.ld x2 r0_217) (View.ld x3 r0_218) := rfl
theorem pay_71 (x0 : Vec F S1024x128 .i32) (x1 : Vec F S1024x128 .i32) (x2 : Vec F S128x256x256 .bf16) (x3 : Vec F S128x256 .f32) :
    k0_pay161 (iota .tc S1x256 32 [1] iota_S1x256_d1_w32) (k0_pay157 (View.ld x1 r0_0)) (k0_pay158 (View.ld x2 r0_214)) (k0_pay159 (View.ld x0 r0_0)) (k0_pay160 (iota .tc S1x256 32 [1] iota_S1x256_d1_w32)) (View.ld x3 r0_215)
      = colPay (extractStridedSlice (s := S1024x128) S1024x1 ![0, 71] (View.ld x0 r0_0) slices_S1024x128_o0_71_S1024x1) (extractStridedSlice (s := S1024x128) S1024x1 ![0, 71] (View.ld x1 r0_0) slices_S1024x128_o0_71_S1024x1) (View.ld x2 r0_214) (View.ld x3 r0_215) := rfl
theorem pay_70 (x0 : Vec F S1024x128 .i32) (x1 : Vec F S1024x128 .i32) (x2 : Vec F S128x256x256 .bf16) (x3 : Vec F S128x256 .f32) :
    k0_pay156 (View.ld x0 r0_0) (View.ld x1 r0_0) (iota .tc S1x256 32 [1] iota_S1x256_d1_w32) (View.ld x2 r0_211) (View.ld x3 r0_212)
      = colPay (extractStridedSlice (s := S1024x128) S1024x1 ![0, 70] (View.ld x0 r0_0) slices_S1024x128_o0_70_S1024x1) (extractStridedSlice (s := S1024x128) S1024x1 ![0, 70] (View.ld x1 r0_0) slices_S1024x128_o0_70_S1024x1) (View.ld x2 r0_211) (View.ld x3 r0_212) := rfl
theorem pay_69 (x0 : Vec F S1024x128 .i32) (x1 : Vec F S1024x128 .i32) (x2 : Vec F S128x256x256 .bf16) (x3 : Vec F S128x256 .f32) :
    k0_pay155 (k0_pay154 (View.ld x0 r0_0) (View.ld x1 r0_0) (iota .tc S1x256 32 [1] iota_S1x256_d1_w32) (View.ld x2 r0_208)) (View.ld x3 r0_209)
      = colPay (extractStridedSlice (s := S1024x128) S1024x1 ![0, 69] (View.ld x0 r0_0) slices_S1024x128_o0_69_S1024x1) (extractStridedSlice (s := S1024x128) S1024x1 ![0, 69] (View.ld x1 r0_0) slices_S1024x128_o0_69_S1024x1) (View.ld x2 r0_208) (View.ld x3 r0_209) := rfl
theorem pay_68 (x0 : Vec F S1024x128 .i32) (x1 : Vec F S1024x128 .i32) (x2 : Vec F S128x256x256 .bf16) (x3 : Vec F S128x256 .f32) :
    k0_pay153 (iota .tc S1x256 32 [1] iota_S1x256_d1_w32) (k0_pay151 (View.ld x1 r0_0)) (k0_pay152 (View.ld x0 r0_0) (iota .tc S1x256 32 [1] iota_S1x256_d1_w32) (View.ld x2 r0_205)) (View.ld x3 r0_206)
      = colPay (extractStridedSlice (s := S1024x128) S1024x1 ![0, 68] (View.ld x0 r0_0) slices_S1024x128_o0_68_S1024x1) (extractStridedSlice (s := S1024x128) S1024x1 ![0, 68] (View.ld x1 r0_0) slices_S1024x128_o0_68_S1024x1) (View.ld x2 r0_205) (View.ld x3 r0_206) := rfl
theorem pay_67 (x0 : Vec F S1024x128 .i32) (x1 : Vec F S1024x128 .i32) (x2 : Vec F S128x256x256 .bf16) (x3 : Vec F S128x256 .f32) :
    k0_pay150 (View.ld x0 r0_0) (View.ld x1 r0_0) (iota .tc S1x256 32 [1] iota_S1x256_d1_w32) (View.ld x2 r0_202) (View.ld x3 r0_203)
      = colPay (extractStridedSlice (s := S1024x128) S1024x1 ![0, 67] (View.ld x0 r0_0) slices_S1024x128_o0_67_S1024x1) (extractStridedSlice (s := S1024x128) S1024x1 ![0, 67] (View.ld x1 r0_0) slices_S1024x128_o0_67_S1024x1) (View.ld x2 r0_202) (View.ld x3 r0_203) := rfl
theorem pay_66 (x0 : Vec F S1024x128 .i32) (x1 : Vec F S1024x128 .i32) (x2 : Vec F S128x256x256 .bf16) (x3 : Vec F S128x256 .f32) :
    k0_pay149 (View.ld x0 r0_0) (View.ld x1 r0_0) (iota .tc S1x256 32 [1] iota_S1x256_d1_w32) (View.ld x2 r0_199) (View.ld x3 r0_200)
      = colPay (extractStridedSlice (s := S1024x128) S1024x1 ![0, 66] (View.ld x0 r0_0) slices_S1024x128_o0_66_S1024x1) (extractStridedSlice (s := S1024x128) S1024x1 ![0, 66] (View.ld x1 r0_0) slices_S1024x128_o0_66_S1024x1) (View.ld x2 r0_199) (View.ld x3 r0_200) := rfl
theorem pay_65 (x0 : Vec F S1024x128 .i32) (x1 : Vec F S1024x128 .i32) (x2 : Vec F S128x256x256 .bf16) (x3 : Vec F S128x256 .f32) :
    k0_pay148 (iota .tc S1x256 32 [1] iota_S1x256_d1_w32) (k0_pay147 (View.ld x0 r0_0) (View.ld x1 r0_0) (iota .tc S1x256 32 [1] iota_S1x256_d1_w32) (View.ld x2 r0_196)) (View.ld x3 r0_197)
      = colPay (extractStridedSlice (s := S1024x128) S1024x1 ![0, 65] (View.ld x0 r0_0) slices_S1024x128_o0_65_S1024x1) (extractStridedSlice (s := S1024x128) S1024x1 ![0, 65] (View.ld x1 r0_0) slices_S1024x128_o0_65_S1024x1) (View.ld x2 r0_196) (View.ld x3 r0_197) := rfl
theorem pay_64 (x0 : Vec F S1024x128 .i32) (x1 : Vec F S1024x128 .i32) (x2 : Vec F S128x256x256 .bf16) (x3 : Vec F S128x256 .f32) :
    k0_pay146 (iota .tc S1x256 32 [1] iota_S1x256_d1_w32) (k0_pay144 (View.ld x0 r0_0)) (k0_pay145 (View.ld x1 r0_0)) (View.ld x2 r0_193) (View.ld x3 r0_194)
      = colPay (extractStridedSlice (s := S1024x128) S1024x1 ![0, 64] (View.ld x0 r0_0) slices_S1024x128_o0_64_S1024x1) (extractStridedSlice (s := S1024x128) S1024x1 ![0, 64] (View.ld x1 r0_0) slices_S1024x128_o0_64_S1024x1) (View.ld x2 r0_193) (View.ld x3 r0_194) := rfl
theorem pay_63 (x0 : Vec F S1024x128 .i32) (x1 : Vec F S1024x128 .i32) (x2 : Vec F S128x256x256 .bf16) (x3 : Vec F S128x256 .f32) :
    k0_pay143 (View.ld x0 r0_0) (View.ld x1 r0_0) (iota .tc S1x256 32 [1] iota_S1x256_d1_w32) (View.ld x2 r0_190) (View.ld x3 r0_191)
      = colPay (extractStridedSlice (s := S1024x128) S1024x1 ![0, 63] (View.ld x0 r0_0) slices_S1024x128_o0_63_S1024x1) (extractStridedSlice (s := S1024x128) S1024x1 ![0, 63] (View.ld x1 r0_0) slices_S1024x128_o0_63_S1024x1) (View.ld x2 r0_190) (View.ld x3 r0_191) := rfl
theorem pay_62 (x0 : Vec F S1024x128 .i32) (x1 : Vec F S1024x128 .i32) (x2 : Vec F S128x256x256 .bf16) (x3 : Vec F S128x256 .f32) :
    k0_pay142 (k0_pay140 (View.ld x0 r0_0) (View.ld x1 r0_0) (iota .tc S1x256 32 [1] iota_S1x256_d1_w32) (View.ld x2 r0_187)) (k0_pay141 (iota .tc S1x256 32 [1] iota_S1x256_d1_w32)) (View.ld x3 r0_188)
      = colPay (extractStridedSlice (s := S1024x128) S1024x1 ![0, 62] (View.ld x0 r0_0) slices_S1024x128_o0_62_S1024x1) (extractStridedSlice (s := S1024x128) S1024x1 ![0, 62] (View.ld x1 r0_0) slices_S1024x128_o0_62_S1024x1) (View.ld x2 r0_187) (View.ld x3 r0_188) := rfl
theorem pay_61 (x0 : Vec F S1024x128 .i32) (x1 : Vec F S1024x128 .i32) (x2 : Vec F S128x256x256 .bf16) (x3 : Vec F S128x256 .f32) :
    k0_pay139 (iota .tc S1x256 32 [1] iota_S1x256_d1_w32) (k0_pay135 (View.ld x1 r0_0)) (k0_pay136 (View.ld x2 r0_184)) (k0_pay137 (View.ld x0 r0_0)) (k0_pay138 (iota .tc S1x256 32 [1] iota_S1x256_d1_w32)) (View.ld x3 r0_185)
      = colPay (extractStridedSlice (s := S1024x128) S1024x1 ![0, 61] (View.ld x0 r0_0) slices_S1024x128_o0_61_S1024x1) (extractStridedSlice (s := S1024x128) S1024x1 ![0, 61] (View.ld x1 r0_0) slices_S1024x128_o0_61_S1024x1) (View.ld x2 r0_184) (View.ld x3 r0_185) := rfl
theorem pay_60 (x0 : Vec F S1024x128 .i32) (x1 : Vec F S1024x128 .i32) (x2 : Vec F S128x256x256 .bf16) (x3 : Vec F S128x256 .f32) :
    k0_pay134 (View.ld x0 r0_0) (View.ld x1 r0_0) (iota .tc S1x256 32 [1] iota_S1x256_d1_w32) (View.ld x2 r0_181) (View.ld x3 r0_182)
      = colPay (extractStridedSlice (s := S1024x128) S1024x1 ![0, 60] (View.ld x0 r0_0) slices_S1024x128_o0_60_S1024x1) (extractStridedSlice (s := S1024x128) S1024x1 ![0, 60] (View.ld x1 r0_0) slices_S1024x128_o0_60_S1024x1) (View.ld x2 r0_181) (View.ld x3 r0_182) := rfl
theorem pay_59 (x0 : Vec F S1024x128 .i32) (x1 : Vec F S1024x128 .i32) (x2 : Vec F S128x256x256 .bf16) (x3 : Vec F S128x256 .f32) :
    k0_pay133 (k0_pay132 (View.ld x0 r0_0) (View.ld x1 r0_0) (iota .tc S1x256 32 [1] iota_S1x256_d1_w32) (View.ld x2 r0_178)) (View.ld x3 r0_179)
      = colPay (extractStridedSlice (s := S1024x128) S1024x1 ![0, 59] (View.ld x0 r0_0) slices_S1024x128_o0_59_S1024x1) (extractStridedSlice (s := S1024x128) S1024x1 ![0, 59] (View.ld x1 r0_0) slices_S1024x128_o0_59_S1024x1) (View.ld x2 r0_178) (View.ld x3 r0_179) := rfl
theorem pay_58 (x0 : Vec F S1024x128 .i32) (x1 : Vec F S1024x128 .i32) (x2 : Vec F S128x256x256 .bf16) (x3 : Vec F S128x256 .f32) :
    k0_pay131 (iota .tc S1x256 32 [1] iota_S1x256_d1_w32) (k0_pay129 (View.ld x1 r0_0)) (k0_pay130 (View.ld x0 r0_0) (iota .tc S1x256 32 [1] iota_S1x256_d1_w32) (View.ld x2 r0_175)) (View.ld x3 r0_176)
      = colPay (extractStridedSlice (s := S1024x128) S1024x1 ![0, 58] (View.ld x0 r0_0) slices_S1024x128_o0_58_S1024x1) (extractStridedSlice (s := S1024x128) S1024x1 ![0, 58] (View.ld x1 r0_0) slices_S1024x128_o0_58_S1024x1) (View.ld x2 r0_175) (View.ld x3 r0_176) := rfl
theorem pay_57 (x0 : Vec F S1024x128 .i32) (x1 : Vec F S1024x128 .i32) (x2 : Vec F S128x256x256 .bf16) (x3 : Vec F S128x256 .f32) :
    k0_pay128 (View.ld x0 r0_0) (View.ld x1 r0_0) (iota .tc S1x256 32 [1] iota_S1x256_d1_w32) (View.ld x2 r0_172) (View.ld x3 r0_173)
      = colPay (extractStridedSlice (s := S1024x128) S1024x1 ![0, 57] (View.ld x0 r0_0) slices_S1024x128_o0_57_S1024x1) (extractStridedSlice (s := S1024x128) S1024x1 ![0, 57] (View.ld x1 r0_0) slices_S1024x128_o0_57_S1024x1) (View.ld x2 r0_172) (View.ld x3 r0_173) := rfl
theorem pay_56 (x0 : Vec F S1024x128 .i32) (x1 : Vec F S1024x128 .i32) (x2 : Vec F S128x256x256 .bf16) (x3 : Vec F S128x256 .f32) :
    k0_pay127 (View.ld x0 r0_0) (View.ld x1 r0_0) (iota .tc S1x256 32 [1] iota_S1x256_d1_w32) (View.ld x2 r0_169) (View.ld x3 r0_170)
      = colPay (extractStridedSlice (s := S1024x128) S1024x1 ![0, 56] (View.ld x0 r0_0) slices_S1024x128_o0_56_S1024x1) (extractStridedSlice (s := S1024x128) S1024x1 ![0, 56] (View.ld x1 r0_0) slices_S1024x128_o0_56_S1024x1) (View.ld x2 r0_169) (View.ld x3 r0_170) := rfl
theorem pay_55 (x0 : Vec F S1024x128 .i32) (x1 : Vec F S1024x128 .i32) (x2 : Vec F S128x256x256 .bf16) (x3 : Vec F S128x256 .f32) :
    k0_pay126 (iota .tc S1x256 32 [1] iota_S1x256_d1_w32) (k0_pay125 (View.ld x0 r0_0) (View.ld x1 r0_0) (iota .tc S1x256 32 [1] iota_S1x256_d1_w32) (View.ld x2 r0_166)) (View.ld x3 r0_167)
      = colPay (extractStridedSlice (s := S1024x128) S1024x1 ![0, 55] (View.ld x0 r0_0) slices_S1024x128_o0_55_S1024x1) (extractStridedSlice (s := S1024x128) S1024x1 ![0, 55] (View.ld x1 r0_0) slices_S1024x128_o0_55_S1024x1) (View.ld x2 r0_166) (View.ld x3 r0_167) := rfl
theorem pay_54 (x0 : Vec F S1024x128 .i32) (x1 : Vec F S1024x128 .i32) (x2 : Vec F S128x256x256 .bf16) (x3 : Vec F S128x256 .f32) :
    k0_pay124 (iota .tc S1x256 32 [1] iota_S1x256_d1_w32) (k0_pay122 (View.ld x0 r0_0)) (k0_pay123 (View.ld x1 r0_0)) (View.ld x2 r0_163) (View.ld x3 r0_164)
      = colPay (extractStridedSlice (s := S1024x128) S1024x1 ![0, 54] (View.ld x0 r0_0) slices_S1024x128_o0_54_S1024x1) (extractStridedSlice (s := S1024x128) S1024x1 ![0, 54] (View.ld x1 r0_0) slices_S1024x128_o0_54_S1024x1) (View.ld x2 r0_163) (View.ld x3 r0_164) := rfl
theorem pay_53 (x0 : Vec F S1024x128 .i32) (x1 : Vec F S1024x128 .i32) (x2 : Vec F S128x256x256 .bf16) (x3 : Vec F S128x256 .f32) :
    k0_pay121 (View.ld x0 r0_0) (View.ld x1 r0_0) (iota .tc S1x256 32 [1] iota_S1x256_d1_w32) (View.ld x2 r0_160) (View.ld x3 r0_161)
      = colPay (extractStridedSlice (s := S1024x128) S1024x1 ![0, 53] (View.ld x0 r0_0) slices_S1024x128_o0_53_S1024x1) (extractStridedSlice (s := S1024x128) S1024x1 ![0, 53] (View.ld x1 r0_0) slices_S1024x128_o0_53_S1024x1) (View.ld x2 r0_160) (View.ld x3 r0_161) := rfl
theorem pay_52 (x0 : Vec F S1024x128 .i32) (x1 : Vec F S1024x128 .i32) (x2 : Vec F S128x256x256 .bf16) (x3 : Vec F S128x256 .f32) :
    k0_pay120 (k0_pay118 (View.ld x0 r0_0) (View.ld x1 r0_0) (iota .tc S1x256 32 [1] iota_S1x256_d1_w32) (View.ld x2 r0_157)) (k0_pay119 (iota .tc S1x256 32 [1] iota_S1x256_d1_w32)) (View.ld x3 r0_158)
      = colPay (extractStridedSlice (s := S1024x128) S1024x1 ![0, 52] (View.ld x0 r0_0) slices_S1024x128_o0_52_S1024x1) (extractStridedSlice (s := S1024x128) S1024x1 ![0, 52] (View.ld x1 r0_0) slices_S1024x128_o0_52_S1024x1) (View.ld x2 r0_157) (View.ld x3 r0_158) := rfl
theorem pay_51 (x0 : Vec F S1024x128 .i32) (x1 : Vec F S1024x128 .i32) (x2 : Vec F S128x256x256 .bf16) (x3 : Vec F S128x256 .f32) :
    k0_pay117 (iota .tc S1x256 32 [1] iota_S1x256_d1_w32) (k0_pay113 (View.ld x1 r0_0)) (k0_pay114 (View.ld x2 r0_154)) (k0_pay115 (View.ld x0 r0_0)) (k0_pay116 (iota .tc S1x256 32 [1] iota_S1x256_d1_w32)) (View.ld x3 r0_155)
      = colPay (extractStridedSlice (s := S1024x128) S1024x1 ![0, 51] (View.ld x0 r0_0) slices_S1024x128_o0_51_S1024x1) (extractStridedSlice (s := S1024x128) S1024x1 ![0, 51] (View.ld x1 r0_0) slices_S1024x128_o0_51_S1024x1) (View.ld x2 r0_154) (View.ld x3 r0_155) := rfl
theorem pay_50 (x0 : Vec F S1024x128 .i32) (x1 : Vec F S1024x128 .i32) (x2 : Vec F S128x256x256 .bf16) (x3 : Vec F S128x256 .f32) :
    k0_pay112 (View.ld x0 r0_0) (View.ld x1 r0_0) (iota .tc S1x256 32 [1] iota_S1x256_d1_w32) (View.ld x2 r0_151) (View.ld x3 r0_152)
      = colPay (extractStridedSlice (s := S1024x128) S1024x1 ![0, 50] (View.ld x0 r0_0) slices_S1024x128_o0_50_S1024x1) (extractStridedSlice (s := S1024x128) S1024x1 ![0, 50] (View.ld x1 r0_0) slices_S1024x128_o0_50_S1024x1) (View.ld x2 r0_151) (View.ld x3 r0_152) := rfl
theorem pay_49 (x0 : Vec F S1024x128 .i32) (x1 : Vec F S1024x128 .i32) (x2 : Vec F S128x256x256 .bf16) (x3 : Vec F S128x256 .f32) :
    k0_pay111 (k0_pay110 (View.ld x0 r0_0) (View.ld x1 r0_0) (iota .tc S1x256 32 [1] iota_S1x256_d1_w32) (View.ld x2 r0_148)) (View.ld x3 r0_149)
      = colPay (extractStridedSlice (s := S1024x128) S1024x1 ![0, 49] (View.ld x0 r0_0) slices_S1024x128_o0_49_S1024x1) (extractStridedSlice (s := S1024x128) S1024x1 ![0, 49] (View.ld x1 r0_0) slices_S1024x128_o0_49_S1024x1) (View.ld x2 r0_148) (View.ld x3 r0_149) := rfl
theorem pay_48 (x0 : Vec F S1024x128 .i32) (x1 : Vec F S1024x128 .i32) (x2 : Vec F S128x256x256 .bf16) (x3 : Vec F S128x256 .f32) :
    k0_pay109 (iota .tc S1x256 32 [1] iota_S1x256_d1_w32) (k0_pay107 (View.ld x1 r0_0)) (k0_pay108 (View.ld x0 r0_0) (iota .tc S1x256 32 [1] iota_S1x256_d1_w32) (View.ld x2 r0_145)) (View.ld x3 r0_146)
      = colPay (extractStridedSlice (s := S1024x128) S1024x1 ![0, 48] (View.ld x0 r0_0) slices_S1024x128_o0_48_S1024x1) (extractStridedSlice (s := S1024x128) S1024x1 ![0, 48] (View.ld x1 r0_0) slices_S1024x128_o0_48_S1024x1) (View.ld x2 r0_145) (View.ld x3 r0_146) := rfl
theorem pay_47 (x0 : Vec F S1024x128 .i32) (x1 : Vec F S1024x128 .i32) (x2 : Vec F S128x256x256 .bf16) (x3 : Vec F S128x256 .f32) :
    k0_pay106 (View.ld x0 r0_0) (View.ld x1 r0_0) (iota .tc S1x256 32 [1] iota_S1x256_d1_w32) (View.ld x2 r0_142) (View.ld x3 r0_143)
      = colPay (extractStridedSlice (s := S1024x128) S1024x1 ![0, 47] (View.ld x0 r0_0) slices_S1024x128_o0_47_S1024x1) (extractStridedSlice (s := S1024x128) S1024x1 ![0, 47] (View.ld x1 r0_0) slices_S1024x128_o0_47_S1024x1) (View.ld x2 r0_142) (View.ld x3 r0_143) := rfl
theorem pay_46 (x0 : Vec F S1024x128 .i32) (x1 : Vec F S1024x128 .i32) (x2 : Vec F S128x256x256 .bf16) (x3 : Vec F S128x256 .f32) :
    k0_pay105 (View.ld x0 r0_0) (View.ld x1 r0_0) (iota .tc S1x256 32 [1] iota_S1x256_d1_w32) (View.ld x2 r0_139) (View.ld x3 r0_140)
      = colPay (extractStridedSlice (s := S1024x128) S1024x1 ![0, 46] (View.ld x0 r0_0) slices_S1024x128_o0_46_S1024x1) (extractStridedSlice (s := S1024x128) S1024x1 ![0, 46] (View.ld x1 r0_0) slices_S1024x128_o0_46_S1024x1) (View.ld x2 r0_139) (View.ld x3 r0_140) := rfl
theorem pay_45 (x0 : Vec F S1024x128 .i32) (x1 : Vec F S1024x128 .i32) (x2 : Vec F S128x256x256 .bf16) (x3 : Vec F S128x256 .f32) :
    k0_pay104 (iota .tc S1x256 32 [1] iota_S1x256_d1_w32) (k0_pay103 (View.ld x0 r0_0) (View.ld x1 r0_0) (iota .tc S1x256 32 [1] iota_S1x256_d1_w32) (View.ld x2 r0_136)) (View.ld x3 r0_137)
      = colPay (extractStridedSlice (s := S1024x128) S1024x1 ![0, 45] (View.ld x0 r0_0) slices_S1024x128_o0_45_S1024x1) (extractStridedSlice (s := S1024x128) S1024x1 ![0, 45] (View.ld x1 r0_0) slices_S1024x128_o0_45_S1024x1) (View.ld x2 r0_136) (View.ld x3 r0_137) := rfl
theorem pay_44 (x0 : Vec F S1024x128 .i32) (x1 : Vec F S1024x128 .i32) (x2 : Vec F S128x256x256 .bf16) (x3 : Vec F S128x256 .f32) :
    k0_pay102 (iota .tc S1x256 32 [1] iota_S1x256_d1_w32) (k0_pay100 (View.ld x0 r0_0)) (k0_pay101 (View.ld x1 r0_0)) (View.ld x2 r0_133) (View.ld x3 r0_134)
      = colPay (extractStridedSlice (s := S1024x128) S1024x1 ![0, 44] (View.ld x0 r0_0) slices_S1024x128_o0_44_S1024x1) (extractStridedSlice (s := S1024x128) S1024x1 ![0, 44] (View.ld x1 r0_0) slices_S1024x128_o0_44_S1024x1) (View.ld x2 r0_133) (View.ld x3 r0_134) := rfl
theorem pay_43 (x0 : Vec F S1024x128 .i32) (x1 : Vec F S1024x128 .i32) (x2 : Vec F S128x256x256 .bf16) (x3 : Vec F S128x256 .f32) :
    k0_pay99 (View.ld x0 r0_0) (View.ld x1 r0_0) (iota .tc S1x256 32 [1] iota_S1x256_d1_w32) (View.ld x2 r0_130) (View.ld x3 r0_131)
      = colPay (extractStridedSlice (s := S1024x128) S1024x1 ![0, 43] (View.ld x0 r0_0) slices_S1024x128_o0_43_S1024x1) (extractStridedSlice (s := S1024x128) S1024x1 ![0, 43] (View.ld x1 r0_0) slices_S1024x128_o0_43_S1024x1) (View.ld x2 r0_130) (View.ld x3 r0_131) := rfl
theorem pay_42 (x0 : Vec F S1024x128 .i32) (x1 : Vec F S1024x128 .i32) (x2 : Vec F S128x256x256 .bf16) (x3 : Vec F S128x256 .f32) :
    k0_pay98 (k0_pay96 (View.ld x0 r0_0) (View.ld x1 r0_0) (iota .tc S1x256 32 [1] iota_S1x256_d1_w32) (View.ld x2 r0_127)) (k0_pay97 (iota .tc S1x256 32 [1] iota_S1x256_d1_w32)) (View.ld x3 r0_128)
      = colPay (extractStridedSlice (s := S1024x128) S1024x1 ![0, 42] (View.ld x0 r0_0) slices_S1024x128_o0_42_S1024x1) (extractStridedSlice (s := S1024x128) S1024x1 ![0, 42] (View.ld x1 r0_0) slices_S1024x128_o0_42_S1024x1) (View.ld x2 r0_127) (View.ld x3 r0_128) := rfl
theorem pay_41 (x0 : Vec F S1024x128 .i32) (x1 : Vec F S1024x128 .i32) (x2 : Vec F S128x256x256 .bf16) (x3 : Vec F S128x256 .f32) :
    k0_pay95 (iota .tc S1x256 32 [1] iota_S1x256_d1_w32) (k0_pay91 (View.ld x1 r0_0)) (k0_pay92 (View.ld x2 r0_124)) (k0_pay93 (View.ld x0 r0_0)) (k0_pay94 (iota .tc S1x256 32 [1] iota_S1x256_d1_w32)) (View.ld x3 r0_125)
      = colPay (extractStridedSlice (s := S1024x128) S1024x1 ![0, 41] (View.ld x0 r0_0) slices_S1024x128_o0_41_S1024x1) (extractStridedSlice (s := S1024x128) S1024x1 ![0, 41] (View.ld x1 r0_0) slices_S1024x128_o0_41_S1024x1) (View.ld x2 r0_124) (View.ld x3 r0_125) := rfl
theorem pay_40 (x0 : Vec F S1024x128 .i32) (x1 : Vec F S1024x128 .i32) (x2 : Vec F S128x256x256 .bf16) (x3 : Vec F S128x256 .f32) :
    k0_pay90 (View.ld x0 r0_0) (View.ld x1 r0_0) (iota .tc S1x256 32 [1] iota_S1x256_d1_w32) (View.ld x2 r0_121) (View.ld x3 r0_122)
      = colPay (extractStridedSlice (s := S1024x128) S1024x1 ![0, 40] (View.ld x0 r0_0) slices_S1024x128_o0_40_S1024x1) (extractStridedSlice (s := S1024x128) S1024x1 ![0, 40] (View.ld x1 r0_0) slices_S1024x128_o0_40_S1024x1) (View.ld x2 r0_121) (View.ld x3 r0_122) := rfl
theorem pay_39 (x0 : Vec F S1024x128 .i32) (x1 : Vec F S1024x128 .i32) (x2 : Vec F S128x256x256 .bf16) (x3 : Vec F S128x256 .f32) :
    k0_pay89 (k0_pay88 (View.ld x0 r0_0) (View.ld x1 r0_0) (iota .tc S1x256 32 [1] iota_S1x256_d1_w32) (View.ld x2 r0_118)) (View.ld x3 r0_119)
      = colPay (extractStridedSlice (s := S1024x128) S1024x1 ![0, 39] (View.ld x0 r0_0) slices_S1024x128_o0_39_S1024x1) (extractStridedSlice (s := S1024x128) S1024x1 ![0, 39] (View.ld x1 r0_0) slices_S1024x128_o0_39_S1024x1) (View.ld x2 r0_118) (View.ld x3 r0_119) := rfl
theorem pay_38 (x0 : Vec F S1024x128 .i32) (x1 : Vec F S1024x128 .i32) (x2 : Vec F S128x256x256 .bf16) (x3 : Vec F S128x256 .f32) :
    k0_pay87 (iota .tc S1x256 32 [1] iota_S1x256_d1_w32) (k0_pay85 (View.ld x1 r0_0)) (k0_pay86 (View.ld x0 r0_0) (iota .tc S1x256 32 [1] iota_S1x256_d1_w32) (View.ld x2 r0_115)) (View.ld x3 r0_116)
      = colPay (extractStridedSlice (s := S1024x128) S1024x1 ![0, 38] (View.ld x0 r0_0) slices_S1024x128_o0_38_S1024x1) (extractStridedSlice (s := S1024x128) S1024x1 ![0, 38] (View.ld x1 r0_0) slices_S1024x128_o0_38_S1024x1) (View.ld x2 r0_115) (View.ld x3 r0_116) := rfl
theorem pay_37 (x0 : Vec F S1024x128 .i32) (x1 : Vec F S1024x128 .i32) (x2 : Vec F S128x256x256 .bf16) (x3 : Vec F S128x256 .f32) :
    k0_pay84 (View.ld x0 r0_0) (View.ld x1 r0_0) (iota .tc S1x256 32 [1] iota_S1x256_d1_w32) (View.ld x2 r0_112) (View.ld x3 r0_113)
      = colPay (extractStridedSlice (s := S1024x128) S1024x1 ![0, 37] (View.ld x0 r0_0) slices_S1024x128_o0_37_S1024x1) (extractStridedSlice (s := S1024x128) S1024x1 ![0, 37] (View.ld x1 r0_0) slices_S1024x128_o0_37_S1024x1) (View.ld x2 r0_112) (View.ld x3 r0_113) := rfl
theorem pay_36 (x0 : Vec F S1024x128 .i32) (x1 : Vec F S1024x128 .i32) (x2 : Vec F S128x256x256 .bf16) (x3 : Vec F S128x256 .f32) :
    k0_pay83 (View.ld x0 r0_0) (View.ld x1 r0_0) (iota .tc S1x256 32 [1] iota_S1x256_d1_w32) (View.ld x2 r0_109) (View.ld x3 r0_110)
      = colPay (extractStridedSlice (s := S1024x128) S1024x1 ![0, 36] (View.ld x0 r0_0) slices_S1024x128_o0_36_S1024x1) (extractStridedSlice (s := S1024x128) S1024x1 ![0, 36] (View.ld x1 r0_0) slices_S1024x128_o0_36_S1024x1) (View.ld x2 r0_109) (View.ld x3 r0_110) := rfl
theorem pay_35 (x0 : Vec F S1024x128 .i32) (x1 : Vec F S1024x128 .i32) (x2 : Vec F S128x256x256 .bf16) (x3 : Vec F S128x256 .f32) :
    k0_pay82 (iota .tc S1x256 32 [1] iota_S1x256_d1_w32) (k0_pay81 (View.ld x0 r0_0) (View.ld x1 r0_0) (iota .tc S1x256 32 [1] iota_S1x256_d1_w32) (View.ld x2 r0_106)) (View.ld x3 r0_107)
      = colPay (extractStridedSlice (s := S1024x128) S1024x1 ![0, 35] (View.ld x0 r0_0) slices_S1024x128_o0_35_S1024x1) (extractStridedSlice (s := S1024x128) S1024x1 ![0, 35] (View.ld x1 r0_0) slices_S1024x128_o0_35_S1024x1) (View.ld x2 r0_106) (View.ld x3 r0_107) := rfl
theorem pay_34 (x0 : Vec F S1024x128 .i32) (x1 : Vec F S1024x128 .i32) (x2 : Vec F S128x256x256 .bf16) (x3 : Vec F S128x256 .f32) :
    k0_pay80 (iota .tc S1x256 32 [1] iota_S1x256_d1_w32) (k0_pay78 (View.ld x0 r0_0)) (k0_pay79 (View.ld x1 r0_0)) (View.ld x2 r0_103) (View.ld x3 r0_104)
      = colPay (extractStridedSlice (s := S1024x128) S1024x1 ![0, 34] (View.ld x0 r0_0) slices_S1024x128_o0_34_S1024x1) (extractStridedSlice (s := S1024x128) S1024x1 ![0, 34] (View.ld x1 r0_0) slices_S1024x128_o0_34_S1024x1) (View.ld x2 r0_103) (View.ld x3 r0_104) := rfl
theorem pay_33 (x0 : Vec F S1024x128 .i32) (x1 : Vec F S1024x128 .i32) (x2 : Vec F S128x256x256 .bf16) (x3 : Vec F S128x256 .f32) :
    k0_pay77 (View.ld x0 r0_0) (View.ld x1 r0_0) (iota .tc S1x256 32 [1] iota_S1x256_d1_w32) (View.ld x2 r0_100) (View.ld x3 r0_101)
      = colPay (extractStridedSlice (s := S1024x128) S1024x1 ![0, 33] (View.ld x0 r0_0) slices_S1024x128_o0_33_S1024x1) (extractStridedSlice (s := S1024x128) S1024x1 ![0, 33] (View.ld x1 r0_0) slices_S1024x128_o0_33_S1024x1) (View.ld x2 r0_100) (View.ld x3 r0_101) := rfl
theorem pay_32 (x0 : Vec F S1024x128 .i32) (x1 : Vec F S1024x128 .i32) (x2 : Vec F S128x256x256 .bf16) (x3 : Vec F S128x256 .f32) :
    k0_pay76 (k0_pay74 (View.ld x0 r0_0) (View.ld x1 r0_0) (iota .tc S1x256 32 [1] iota_S1x256_d1_w32) (View.ld x2 r0_97)) (k0_pay75 (iota .tc S1x256 32 [1] iota_S1x256_d1_w32)) (View.ld x3 r0_98)
      = colPay (extractStridedSlice (s := S1024x128) S1024x1 ![0, 32] (View.ld x0 r0_0) slices_S1024x128_o0_32_S1024x1) (extractStridedSlice (s := S1024x128) S1024x1 ![0, 32] (View.ld x1 r0_0) slices_S1024x128_o0_32_S1024x1) (View.ld x2 r0_97) (View.ld x3 r0_98) := rfl
theorem pay_31 (x0 : Vec F S1024x128 .i32) (x1 : Vec F S1024x128 .i32) (x2 : Vec F S128x256x256 .bf16) (x3 : Vec F S128x256 .f32) :
    k0_pay73 (iota .tc S1x256 32 [1] iota_S1x256_d1_w32) (k0_pay69 (View.ld x1 r0_0)) (k0_pay70 (View.ld x2 r0_94)) (k0_pay71 (View.ld x0 r0_0)) (k0_pay72 (iota .tc S1x256 32 [1] iota_S1x256_d1_w32)) (View.ld x3 r0_95)
      = colPay (extractStridedSlice (s := S1024x128) S1024x1 ![0, 31] (View.ld x0 r0_0) slices_S1024x128_o0_31_S1024x1) (extractStridedSlice (s := S1024x128) S1024x1 ![0, 31] (View.ld x1 r0_0) slices_S1024x128_o0_31_S1024x1) (View.ld x2 r0_94) (View.ld x3 r0_95) := rfl
theorem pay_30 (x0 : Vec F S1024x128 .i32) (x1 : Vec F S1024x128 .i32) (x2 : Vec F S128x256x256 .bf16) (x3 : Vec F S128x256 .f32) :
    k0_pay68 (View.ld x0 r0_0) (View.ld x1 r0_0) (iota .tc S1x256 32 [1] iota_S1x256_d1_w32) (View.ld x2 r0_91) (View.ld x3 r0_92)
      = colPay (extractStridedSlice (s := S1024x128) S1024x1 ![0, 30] (View.ld x0 r0_0) slices_S1024x128_o0_30_S1024x1) (extractStridedSlice (s := S1024x128) S1024x1 ![0, 30] (View.ld x1 r0_0) slices_S1024x128_o0_30_S1024x1) (View.ld x2 r0_91) (View.ld x3 r0_92) := rfl
theorem pay_29 (x0 : Vec F S1024x128 .i32) (x1 : Vec F S1024x128 .i32) (x2 : Vec F S128x256x256 .bf16) (x3 : Vec F S128x256 .f32) :
    k0_pay67 (k0_pay66 (View.ld x0 r0_0) (View.ld x1 r0_0) (iota .tc S1x256 32 [1] iota_S1x256_d1_w32) (View.ld x2 r0_88)) (View.ld x3 r0_89)
      = colPay (extractStridedSlice (s := S1024x128) S1024x1 ![0, 29] (View.ld x0 r0_0) slices_S1024x128_o0_29_S1024x1) (extractStridedSlice (s := S1024x128) S1024x1 ![0, 29] (View.ld x1 r0_0) slices_S1024x128_o0_29_S1024x1) (View.ld x2 r0_88) (View.ld x3 r0_89) := rfl
theorem pay_28 (x0 : Vec F S1024x128 .i32) (x1 : Vec F S1024x128 .i32) (x2 : Vec F S128x256x256 .bf16) (x3 : Vec F S128x256 .f32) :
    k0_pay65 (iota .tc S1x256 32 [1] iota_S1x256_d1_w32) (k0_pay63 (View.ld x1 r0_0)) (k0_pay64 (View.ld x0 r0_0) (iota .tc S1x256 32 [1] iota_S1x256_d1_w32) (View.ld x2 r0_85)) (View.ld x3 r0_86)
      = colPay (extractStridedSlice (s := S1024x128) S1024x1 ![0, 28] (View.ld x0 r0_0) slices_S1024x128_o0_28_S1024x1) (extractStridedSlice (s := S1024x128) S1024x1 ![0, 28] (View.ld x1 r0_0) slices_S1024x128_o0_28_S1024x1) (View.ld x2 r0_85) (View.ld x3 r0_86) := rfl
theorem pay_27 (x0 : Vec F S1024x128 .i32) (x1 : Vec F S1024x128 .i32) (x2 : Vec F S128x256x256 .bf16) (x3 : Vec F S128x256 .f32) :
    k0_pay62 (View.ld x0 r0_0) (View.ld x1 r0_0) (iota .tc S1x256 32 [1] iota_S1x256_d1_w32) (View.ld x2 r0_82) (View.ld x3 r0_83)
      = colPay (extractStridedSlice (s := S1024x128) S1024x1 ![0, 27] (View.ld x0 r0_0) slices_S1024x128_o0_27_S1024x1) (extractStridedSlice (s := S1024x128) S1024x1 ![0, 27] (View.ld x1 r0_0) slices_S1024x128_o0_27_S1024x1) (View.ld x2 r0_82) (View.ld x3 r0_83) := rfl
theorem pay_26 (x0 : Vec F S1024x128 .i32) (x1 : Vec F S1024x128 .i32) (x2 : Vec F S128x256x256 .bf16) (x3 : Vec F S128x256 .f32) :
    k0_pay61 (View.ld x0 r0_0) (View.ld x1 r0_0) (iota .tc S1x256 32 [1] iota_S1x256_d1_w32) (View.ld x2 r0_79) (View.ld x3 r0_80)
      = colPay (extractStridedSlice (s := S1024x128) S1024x1 ![0, 26] (View.ld x0 r0_0) slices_S1024x128_o0_26_S1024x1) (extractStridedSlice (s := S1024x128) S1024x1 ![0, 26] (View.ld x1 r0_0) slices_S1024x128_o0_26_S1024x1) (View.ld x2 r0_79) (View.ld x3 r0_80) := rfl
theorem pay_25 (x0 : Vec F S1024x128 .i32) (x1 : Vec F S1024x128 .i32) (x2 : Vec F S128x256x256 .bf16) (x3 : Vec F S128x256 .f32) :
    k0_pay60 (iota .tc S1x256 32 [1] iota_S1x256_d1_w32) (k0_pay59 (View.ld x0 r0_0) (View.ld x1 r0_0) (iota .tc S1x256 32 [1] iota_S1x256_d1_w32) (View.ld x2 r0_76)) (View.ld x3 r0_77)
      = colPay (extractStridedSlice (s := S1024x128) S1024x1 ![0, 25] (View.ld x0 r0_0) slices_S1024x128_o0_25_S1024x1) (extractStridedSlice (s := S1024x128) S1024x1 ![0, 25] (View.ld x1 r0_0) slices_S1024x128_o0_25_S1024x1) (View.ld x2 r0_76) (View.ld x3 r0_77) := rfl
theorem pay_24 (x0 : Vec F S1024x128 .i32) (x1 : Vec F S1024x128 .i32) (x2 : Vec F S128x256x256 .bf16) (x3 : Vec F S128x256 .f32) :
    k0_pay58 (iota .tc S1x256 32 [1] iota_S1x256_d1_w32) (k0_pay56 (View.ld x0 r0_0)) (k0_pay57 (View.ld x1 r0_0)) (View.ld x2 r0_73) (View.ld x3 r0_74)
      = colPay (extractStridedSlice (s := S1024x128) S1024x1 ![0, 24] (View.ld x0 r0_0) slices_S1024x128_o0_24_S1024x1) (extractStridedSlice (s := S1024x128) S1024x1 ![0, 24] (View.ld x1 r0_0) slices_S1024x128_o0_24_S1024x1) (View.ld x2 r0_73) (View.ld x3 r0_74) := rfl
theorem pay_23 (x0 : Vec F S1024x128 .i32) (x1 : Vec F S1024x128 .i32) (x2 : Vec F S128x256x256 .bf16) (x3 : Vec F S128x256 .f32) :
    k0_pay55 (View.ld x0 r0_0) (View.ld x1 r0_0) (iota .tc S1x256 32 [1] iota_S1x256_d1_w32) (View.ld x2 r0_70) (View.ld x3 r0_71)
      = colPay (extractStridedSlice (s := S1024x128) S1024x1 ![0, 23] (View.ld x0 r0_0) slices_S1024x128_o0_23_S1024x1) (extractStridedSlice (s := S1024x128) S1024x1 ![0, 23] (View.ld x1 r0_0) slices_S1024x128_o0_23_S1024x1) (View.ld x2 r0_70) (View.ld x3 r0_71) := rfl
theorem pay_22 (x0 : Vec F S1024x128 .i32) (x1 : Vec F S1024x128 .i32) (x2 : Vec F S128x256x256 .bf16) (x3 : Vec F S128x256 .f32) :
    k0_pay54 (k0_pay52 (View.ld x0 r0_0) (View.ld x1 r0_0) (iota .tc S1x256 32 [1] iota_S1x256_d1_w32) (View.ld x2 r0_67)) (k0_pay53 (iota .tc S1x256 32 [1] iota_S1x256_d1_w32)) (View.ld x3 r0_68)
      = colPay (extractStridedSlice (s := S1024x128) S1024x1 ![0, 22] (View.ld x0 r0_0) slices_S1024x128_o0_22_S1024x1) (extractStridedSlice (s := S1024x128) S1024x1 ![0, 22] (View.ld x1 r0_0) slices_S1024x128_o0_22_S1024x1) (View.ld x2 r0_67) (View.ld x3 r0_68) := rfl
theorem pay_21 (x0 : Vec F S1024x128 .i32) (x1 : Vec F S1024x128 .i32) (x2 : Vec F S128x256x256 .bf16) (x3 : Vec F S128x256 .f32) :
    k0_pay51 (iota .tc S1x256 32 [1] iota_S1x256_d1_w32) (k0_pay47 (View.ld x1 r0_0)) (k0_pay48 (View.ld x2 r0_64)) (k0_pay49 (View.ld x0 r0_0)) (k0_pay50 (iota .tc S1x256 32 [1] iota_S1x256_d1_w32)) (View.ld x3 r0_65)
      = colPay (extractStridedSlice (s := S1024x128) S1024x1 ![0, 21] (View.ld x0 r0_0) slices_S1024x128_o0_21_S1024x1) (extractStridedSlice (s := S1024x128) S1024x1 ![0, 21] (View.ld x1 r0_0) slices_S1024x128_o0_21_S1024x1) (View.ld x2 r0_64) (View.ld x3 r0_65) := rfl
theorem pay_20 (x0 : Vec F S1024x128 .i32) (x1 : Vec F S1024x128 .i32) (x2 : Vec F S128x256x256 .bf16) (x3 : Vec F S128x256 .f32) :
    k0_pay46 (View.ld x0 r0_0) (View.ld x1 r0_0) (iota .tc S1x256 32 [1] iota_S1x256_d1_w32) (View.ld x2 r0_61) (View.ld x3 r0_62)
      = colPay (extractStridedSlice (s := S1024x128) S1024x1 ![0, 20] (View.ld x0 r0_0) slices_S1024x128_o0_20_S1024x1) (extractStridedSlice (s := S1024x128) S1024x1 ![0, 20] (View.ld x1 r0_0) slices_S1024x128_o0_20_S1024x1) (View.ld x2 r0_61) (View.ld x3 r0_62) := rfl
theorem pay_19 (x0 : Vec F S1024x128 .i32) (x1 : Vec F S1024x128 .i32) (x2 : Vec F S128x256x256 .bf16) (x3 : Vec F S128x256 .f32) :
    k0_pay45 (k0_pay44 (View.ld x0 r0_0) (View.ld x1 r0_0) (iota .tc S1x256 32 [1] iota_S1x256_d1_w32) (View.ld x2 r0_58)) (View.ld x3 r0_59)
      = colPay (extractStridedSlice (s := S1024x128) S1024x1 ![0, 19] (View.ld x0 r0_0) slices_S1024x128_o0_19_S1024x1) (extractStridedSlice (s := S1024x128) S1024x1 ![0, 19] (View.ld x1 r0_0) slices_S1024x128_o0_19_S1024x1) (View.ld x2 r0_58) (View.ld x3 r0_59) := rfl
theorem pay_18 (x0 : Vec F S1024x128 .i32) (x1 : Vec F S1024x128 .i32) (x2 : Vec F S128x256x256 .bf16) (x3 : Vec F S128x256 .f32) :
    k0_pay43 (iota .tc S1x256 32 [1] iota_S1x256_d1_w32) (k0_pay41 (View.ld x1 r0_0)) (k0_pay42 (View.ld x0 r0_0) (iota .tc S1x256 32 [1] iota_S1x256_d1_w32) (View.ld x2 r0_55)) (View.ld x3 r0_56)
      = colPay (extractStridedSlice (s := S1024x128) S1024x1 ![0, 18] (View.ld x0 r0_0) slices_S1024x128_o0_18_S1024x1) (extractStridedSlice (s := S1024x128) S1024x1 ![0, 18] (View.ld x1 r0_0) slices_S1024x128_o0_18_S1024x1) (View.ld x2 r0_55) (View.ld x3 r0_56) := rfl
theorem pay_17 (x0 : Vec F S1024x128 .i32) (x1 : Vec F S1024x128 .i32) (x2 : Vec F S128x256x256 .bf16) (x3 : Vec F S128x256 .f32) :
    k0_pay40 (View.ld x0 r0_0) (View.ld x1 r0_0) (iota .tc S1x256 32 [1] iota_S1x256_d1_w32) (View.ld x2 r0_52) (View.ld x3 r0_53)
      = colPay (extractStridedSlice (s := S1024x128) S1024x1 ![0, 17] (View.ld x0 r0_0) slices_S1024x128_o0_17_S1024x1) (extractStridedSlice (s := S1024x128) S1024x1 ![0, 17] (View.ld x1 r0_0) slices_S1024x128_o0_17_S1024x1) (View.ld x2 r0_52) (View.ld x3 r0_53) := rfl
theorem pay_16 (x0 : Vec F S1024x128 .i32) (x1 : Vec F S1024x128 .i32) (x2 : Vec F S128x256x256 .bf16) (x3 : Vec F S128x256 .f32) :
    k0_pay39 (View.ld x0 r0_0) (View.ld x1 r0_0) (iota .tc S1x256 32 [1] iota_S1x256_d1_w32) (View.ld x2 r0_49) (View.ld x3 r0_50)
      = colPay (extractStridedSlice (s := S1024x128) S1024x1 ![0, 16] (View.ld x0 r0_0) slices_S1024x128_o0_16_S1024x1) (extractStridedSlice (s := S1024x128) S1024x1 ![0, 16] (View.ld x1 r0_0) slices_S1024x128_o0_16_S1024x1) (View.ld x2 r0_49) (View.ld x3 r0_50) := rfl
theorem pay_15 (x0 : Vec F S1024x128 .i32) (x1 : Vec F S1024x128 .i32) (x2 : Vec F S128x256x256 .bf16) (x3 : Vec F S128x256 .f32) :
    k0_pay38 (iota .tc S1x256 32 [1] iota_S1x256_d1_w32) (k0_pay37 (View.ld x0 r0_0) (View.ld x1 r0_0) (iota .tc S1x256 32 [1] iota_S1x256_d1_w32) (View.ld x2 r0_46)) (View.ld x3 r0_47)
      = colPay (extractStridedSlice (s := S1024x128) S1024x1 ![0, 15] (View.ld x0 r0_0) slices_S1024x128_o0_15_S1024x1) (extractStridedSlice (s := S1024x128) S1024x1 ![0, 15] (View.ld x1 r0_0) slices_S1024x128_o0_15_S1024x1) (View.ld x2 r0_46) (View.ld x3 r0_47) := rfl
theorem pay_14 (x0 : Vec F S1024x128 .i32) (x1 : Vec F S1024x128 .i32) (x2 : Vec F S128x256x256 .bf16) (x3 : Vec F S128x256 .f32) :
    k0_pay36 (iota .tc S1x256 32 [1] iota_S1x256_d1_w32) (k0_pay34 (View.ld x0 r0_0)) (k0_pay35 (View.ld x1 r0_0)) (View.ld x2 r0_43) (View.ld x3 r0_44)
      = colPay (extractStridedSlice (s := S1024x128) S1024x1 ![0, 14] (View.ld x0 r0_0) slices_S1024x128_o0_14_S1024x1) (extractStridedSlice (s := S1024x128) S1024x1 ![0, 14] (View.ld x1 r0_0) slices_S1024x128_o0_14_S1024x1) (View.ld x2 r0_43) (View.ld x3 r0_44) := rfl
theorem pay_13 (x0 : Vec F S1024x128 .i32) (x1 : Vec F S1024x128 .i32) (x2 : Vec F S128x256x256 .bf16) (x3 : Vec F S128x256 .f32) :
    k0_pay33 (View.ld x0 r0_0) (View.ld x1 r0_0) (iota .tc S1x256 32 [1] iota_S1x256_d1_w32) (View.ld x2 r0_40) (View.ld x3 r0_41)
      = colPay (extractStridedSlice (s := S1024x128) S1024x1 ![0, 13] (View.ld x0 r0_0) slices_S1024x128_o0_13_S1024x1) (extractStridedSlice (s := S1024x128) S1024x1 ![0, 13] (View.ld x1 r0_0) slices_S1024x128_o0_13_S1024x1) (View.ld x2 r0_40) (View.ld x3 r0_41) := rfl
theorem pay_12 (x0 : Vec F S1024x128 .i32) (x1 : Vec F S1024x128 .i32) (x2 : Vec F S128x256x256 .bf16) (x3 : Vec F S128x256 .f32) :
    k0_pay32 (k0_pay30 (View.ld x0 r0_0) (View.ld x1 r0_0) (iota .tc S1x256 32 [1] iota_S1x256_d1_w32) (View.ld x2 r0_37)) (k0_pay31 (iota .tc S1x256 32 [1] iota_S1x256_d1_w32)) (View.ld x3 r0_38)
      = colPay (extractStridedSlice (s := S1024x128) S1024x1 ![0, 12] (View.ld x0 r0_0) slices_S1024x128_o0_12_S1024x1) (extractStridedSlice (s := S1024x128) S1024x1 ![0, 12] (View.ld x1 r0_0) slices_S1024x128_o0_12_S1024x1) (View.ld x2 r0_37) (View.ld x3 r0_38) := rfl
theorem pay_11 (x0 : Vec F S1024x128 .i32) (x1 : Vec F S1024x128 .i32) (x2 : Vec F S128x256x256 .bf16) (x3 : Vec F S128x256 .f32) :
    k0_pay29 (iota .tc S1x256 32 [1] iota_S1x256_d1_w32) (k0_pay25 (View.ld x1 r0_0)) (k0_pay26 (View.ld x2 r0_34)) (k0_pay27 (View.ld x0 r0_0)) (k0_pay28 (iota .tc S1x256 32 [1] iota_S1x256_d1_w32)) (View.ld x3 r0_35)
      = colPay (extractStridedSlice (s := S1024x128) S1024x1 ![0, 11] (View.ld x0 r0_0) slices_S1024x128_o0_11_S1024x1) (extractStridedSlice (s := S1024x128) S1024x1 ![0, 11] (View.ld x1 r0_0) slices_S1024x128_o0_11_S1024x1) (View.ld x2 r0_34) (View.ld x3 r0_35) := rfl
theorem pay_10 (x0 : Vec F S1024x128 .i32) (x1 : Vec F S1024x128 .i32) (x2 : Vec F S128x256x256 .bf16) (x3 : Vec F S128x256 .f32) :
    k0_pay24 (View.ld x0 r0_0) (View.ld x1 r0_0) (iota .tc S1x256 32 [1] iota_S1x256_d1_w32) (View.ld x2 r0_31) (View.ld x3 r0_32)
      = colPay (extractStridedSlice (s := S1024x128) S1024x1 ![0, 10] (View.ld x0 r0_0) slices_S1024x128_o0_10_S1024x1) (extractStridedSlice (s := S1024x128) S1024x1 ![0, 10] (View.ld x1 r0_0) slices_S1024x128_o0_10_S1024x1) (View.ld x2 r0_31) (View.ld x3 r0_32) := rfl
theorem pay_9 (x0 : Vec F S1024x128 .i32) (x1 : Vec F S1024x128 .i32) (x2 : Vec F S128x256x256 .bf16) (x3 : Vec F S128x256 .f32) :
    k0_pay23 (k0_pay22 (View.ld x0 r0_0) (View.ld x1 r0_0) (iota .tc S1x256 32 [1] iota_S1x256_d1_w32) (View.ld x2 r0_28)) (View.ld x3 r0_29)
      = colPay (extractStridedSlice (s := S1024x128) S1024x1 ![0, 9] (View.ld x0 r0_0) slices_S1024x128_o0_9_S1024x1) (extractStridedSlice (s := S1024x128) S1024x1 ![0, 9] (View.ld x1 r0_0) slices_S1024x128_o0_9_S1024x1) (View.ld x2 r0_28) (View.ld x3 r0_29) := rfl
theorem pay_8 (x0 : Vec F S1024x128 .i32) (x1 : Vec F S1024x128 .i32) (x2 : Vec F S128x256x256 .bf16) (x3 : Vec F S128x256 .f32) :
    k0_pay21 (iota .tc S1x256 32 [1] iota_S1x256_d1_w32) (k0_pay19 (View.ld x1 r0_0)) (k0_pay20 (View.ld x0 r0_0) (iota .tc S1x256 32 [1] iota_S1x256_d1_w32) (View.ld x2 r0_25)) (View.ld x3 r0_26)
      = colPay (extractStridedSlice (s := S1024x128) S1024x1 ![0, 8] (View.ld x0 r0_0) slices_S1024x128_o0_8_S1024x1) (extractStridedSlice (s := S1024x128) S1024x1 ![0, 8] (View.ld x1 r0_0) slices_S1024x128_o0_8_S1024x1) (View.ld x2 r0_25) (View.ld x3 r0_26) := rfl
theorem pay_7 (x0 : Vec F S1024x128 .i32) (x1 : Vec F S1024x128 .i32) (x2 : Vec F S128x256x256 .bf16) (x3 : Vec F S128x256 .f32) :
    k0_pay18 (View.ld x0 r0_0) (View.ld x1 r0_0) (iota .tc S1x256 32 [1] iota_S1x256_d1_w32) (View.ld x2 r0_22) (View.ld x3 r0_23)
      = colPay (extractStridedSlice (s := S1024x128) S1024x1 ![0, 7] (View.ld x0 r0_0) slices_S1024x128_o0_7_S1024x1) (extractStridedSlice (s := S1024x128) S1024x1 ![0, 7] (View.ld x1 r0_0) slices_S1024x128_o0_7_S1024x1) (View.ld x2 r0_22) (View.ld x3 r0_23) := rfl
theorem pay_6 (x0 : Vec F S1024x128 .i32) (x1 : Vec F S1024x128 .i32) (x2 : Vec F S128x256x256 .bf16) (x3 : Vec F S128x256 .f32) :
    k0_pay17 (View.ld x0 r0_0) (View.ld x1 r0_0) (iota .tc S1x256 32 [1] iota_S1x256_d1_w32) (View.ld x2 r0_19) (View.ld x3 r0_20)
      = colPay (extractStridedSlice (s := S1024x128) S1024x1 ![0, 6] (View.ld x0 r0_0) slices_S1024x128_o0_6_S1024x1) (extractStridedSlice (s := S1024x128) S1024x1 ![0, 6] (View.ld x1 r0_0) slices_S1024x128_o0_6_S1024x1) (View.ld x2 r0_19) (View.ld x3 r0_20) := rfl
theorem pay_5 (x0 : Vec F S1024x128 .i32) (x1 : Vec F S1024x128 .i32) (x2 : Vec F S128x256x256 .bf16) (x3 : Vec F S128x256 .f32) :
    k0_pay16 (iota .tc S1x256 32 [1] iota_S1x256_d1_w32) (k0_pay15 (View.ld x0 r0_0) (View.ld x1 r0_0) (iota .tc S1x256 32 [1] iota_S1x256_d1_w32) (View.ld x2 r0_16)) (View.ld x3 r0_17)
      = colPay (extractStridedSlice (s := S1024x128) S1024x1 ![0, 5] (View.ld x0 r0_0) slices_S1024x128_o0_5_S1024x1) (extractStridedSlice (s := S1024x128) S1024x1 ![0, 5] (View.ld x1 r0_0) slices_S1024x128_o0_5_S1024x1) (View.ld x2 r0_16) (View.ld x3 r0_17) := rfl
theorem pay_4 (x0 : Vec F S1024x128 .i32) (x1 : Vec F S1024x128 .i32) (x2 : Vec F S128x256x256 .bf16) (x3 : Vec F S128x256 .f32) :
    k0_pay14 (iota .tc S1x256 32 [1] iota_S1x256_d1_w32) (k0_pay12 (View.ld x0 r0_0)) (k0_pay13 (View.ld x1 r0_0)) (View.ld x2 r0_13) (View.ld x3 r0_14)
      = colPay (extractStridedSlice (s := S1024x128) S1024x1 ![0, 4] (View.ld x0 r0_0) slices_S1024x128_o0_4_S1024x1) (extractStridedSlice (s := S1024x128) S1024x1 ![0, 4] (View.ld x1 r0_0) slices_S1024x128_o0_4_S1024x1) (View.ld x2 r0_13) (View.ld x3 r0_14) := rfl
theorem pay_3 (x0 : Vec F S1024x128 .i32) (x1 : Vec F S1024x128 .i32) (x2 : Vec F S128x256x256 .bf16) (x3 : Vec F S128x256 .f32) :
    k0_pay11 (View.ld x0 r0_0) (View.ld x1 r0_0) (iota .tc S1x256 32 [1] iota_S1x256_d1_w32) (View.ld x2 r0_10) (View.ld x3 r0_11)
      = colPay (extractStridedSlice (s := S1024x128) S1024x1 ![0, 3] (View.ld x0 r0_0) slices_S1024x128_o0_3_S1024x1) (extractStridedSlice (s := S1024x128) S1024x1 ![0, 3] (View.ld x1 r0_0) slices_S1024x128_o0_3_S1024x1) (View.ld x2 r0_10) (View.ld x3 r0_11) := rfl
theorem pay_2 (x0 : Vec F S1024x128 .i32) (x1 : Vec F S1024x128 .i32) (x2 : Vec F S128x256x256 .bf16) (x3 : Vec F S128x256 .f32) :
    k0_pay10 (k0_pay8 (View.ld x0 r0_0) (View.ld x1 r0_0) (iota .tc S1x256 32 [1] iota_S1x256_d1_w32) (View.ld x2 r0_7)) (k0_pay9 (iota .tc S1x256 32 [1] iota_S1x256_d1_w32)) (View.ld x3 r0_8)
      = colPay (extractStridedSlice (s := S1024x128) S1024x1 ![0, 2] (View.ld x0 r0_0) slices_S1024x128_o0_2_S1024x1) (extractStridedSlice (s := S1024x128) S1024x1 ![0, 2] (View.ld x1 r0_0) slices_S1024x128_o0_2_S1024x1) (View.ld x2 r0_7) (View.ld x3 r0_8) := rfl
theorem pay_1 (x0 : Vec F S1024x128 .i32) (x1 : Vec F S1024x128 .i32) (x2 : Vec F S128x256x256 .bf16) (x3 : Vec F S128x256 .f32) :
    k0_pay7 (iota .tc S1x256 32 [1] iota_S1x256_d1_w32) (k0_pay3 (View.ld x1 r0_0)) (k0_pay4 (View.ld x2 r0_4)) (k0_pay5 (View.ld x0 r0_0)) k0_pay6 (View.ld x3 r0_5)
      = colPay (extractStridedSlice (s := S1024x128) S1024x1 ![0, 1] (View.ld x0 r0_0) slices_S1024x128_o0_1_S1024x1) (extractStridedSlice (s := S1024x128) S1024x1 ![0, 1] (View.ld x1 r0_0) slices_S1024x128_o0_1_S1024x1) (View.ld x2 r0_4) (View.ld x3 r0_5) := rfl
theorem pay_0 (x0 : Vec F S1024x128 .i32) (x1 : Vec F S1024x128 .i32) (x2 : Vec F S128x256x256 .bf16) (x3 : Vec F S128x256 .f32) :
    k0_pay2 (View.ld x0 r0_0) (View.ld x1 r0_0) (View.ld x2 r0_1) (View.ld x3 r0_2)
      = colPay (extractStridedSlice (s := S1024x128) S1024x1 ![0, 0] (View.ld x0 r0_0) slices_S1024x128_o0_0_S1024x1) (extractStridedSlice (s := S1024x128) S1024x1 ![0, 0] (View.ld x1 r0_0) slices_S1024x128_o0_0_S1024x1) (View.ld x2 r0_1) (View.ld x3 r0_2) := rfl

end AnyFloats

/-- A list of pieces each of which is a block of one function stays so with one more such piece in front. -/
theorem pieces_cons {G : S1024x128.Idx → EReal} (p : View.Piece (Elt Ideal) S1024x128 .f32) (L : List (View.Piece (Elt Ideal) S1024x128 .f32))
    (hp : ∀ x : p.1.shape.Idx, p.2 x = G (p.1.emb x)) (hL : ∀ q ∈ L, ∀ x : q.1.shape.Idx, q.2 x = G (q.1.emb x)) :
    ∀ q ∈ p :: L, ∀ x : q.1.shape.Idx, q.2 x = G (q.1.emb x) := by
  intro q hq
  rcases List.mem_cons.mp hq with rfl | h
  · exact hp
  · exact hL q h

/-! ## Each store, read at a row, is the block look-up at (row, its column) -/

section AtIdeal
variable (x0 x1 : Vec Ideal S1024x128 .i32) (W2 : IVec S128x256x256 32) (x2 : Vec Ideal S128x256x256 .bf16) (x3 : Vec Ideal S128x256 .f32)
  (h0 : ∀ y, (x0 y).toNat < 256) (h1 : ∀ y, (x1 y).toNat < 256) (hW : ∀ i, (W2 i).toNat < 256)
  (h2 : ∀ i, x2 i = (((W2 i).toInt : ℝ) : EReal))
include h0 h1 hW h2

theorem piece_127 (x : r0_384.shape.Idx) :
    (k0_pay1 (k0_pay282 (View.ld x0 r0_0) (View.ld x1 r0_0) (iota .tc S1x256 32 [1] iota_S1x256_d1_w32) (View.ld x2 r0_382)) (View.ld x3 r0_383)) x = blockLookup x0 x1 W2 x3 (r0_384.emb x) :=
  (congrFun (pay_127 x0 x1 x2 x3) x).trans (piece_apply 127 (by decide) _ _ _ _ _ x0 x1 W2 x2 x3 h0 h1 hW h2 x)
theorem piece_126 (x : r0_381.shape.Idx) :
    (k0_pay281 (View.ld x0 r0_0) (View.ld x1 r0_0) (iota .tc S1x256 32 [1] iota_S1x256_d1_w32) (View.ld x2 r0_379) (View.ld x3 r0_380)) x = blockLookup x0 x1 W2 x3 (r0_381.emb x) :=
  (congrFun (pay_126 x0 x1 x2 x3) x).trans (piece_apply 126 (by decide) _ _ _ _ _ x0 x1 W2 x2 x3 h0 h1 hW h2 x)
theorem piece_125 (x : r0_378.shape.Idx) :
    (k0_pay280 (iota .tc S1x256 32 [1] iota_S1x256_d1_w32) (k0_pay279 (View.ld x0 r0_0) (View.ld x1 r0_0) (iota .tc S1x256 32 [1] iota_S1x256_d1_w32) (View.ld x2 r0_376)) (View.ld x3 r0_377)) x = blockLookup x0 x1 W2 x3 (r0_378.emb x) :=
  (congrFun (pay_125 x0 x1 x2 x3) x).trans (piece_apply 125 (by decide) _ _ _ _ _ x0 x1 W2 x2 x3 h0 h1 hW h2 x)
theorem piece_124 (x : r0_375.shape.Idx) :
    (k0_pay278 (iota .tc S1x256 32 [1] iota_S1x256_d1_w32) (k0_pay276 (View.ld x0 r0_0)) (k0_pay277 (View.ld x1 r0_0)) (View.ld x2 r0_373) (View.ld x3 r0_374)) x = blockLookup x0 x1 W2 x3 (r0_375.emb x) :=
  (congrFun (pay_124 x0 x1 x2 x3) x).trans (piece_apply 124 (by decide) _ _ _ _ _ x0 x1 W2 x2 x3 h0 h1 hW h2 x)
theorem piece_123 (x : r0_372.shape.Idx) :
    (k0_pay275 (View.ld x0 r0_0) (View.ld x1 r0_0) (iota .tc S1x256 32 [1] iota_S1x256_d1_w32) (View.ld x2 r0_370) (View.ld x3 r0_371)) x = blockLookup x0 x1 W2 x3 (r0_372.emb x) :=
  (congrFun (pay_123 x0 x1 x2 x3) x).trans (piece_apply 123 (by decide) _ _ _ _ _ x0 x1 W2 x2 x3 h0 h1 hW h2 x)
theorem piece_122 (x : r0_369.shape.Idx) :
    (k0_pay274 (k0_pay272 (View.ld x0 r0_0) (View.ld x1 r0_0) (iota .tc S1x256 32 [1] iota_S1x256_d1_w32) (View.ld x2 r0_367)) (k0_pay273 (iota .tc S1x256 32 [1] iota_S1x256_d1_w32)) (View.ld x3 r0_368)) x = blockLookup x0 x1 W2 x3 (r0_369.emb x) :=
  (congrFun (pay_122 x0 x1 x2 x3) x).trans (piece_apply 122 (by decide) _ _ _ _ _ x0 x1 W2 x2 x3 h0 h1 hW h2 x)
theorem piece_121 (x : r0_366.shape.Idx) :
    (k0_pay271 (iota .tc S1x256 32 [1] iota_S1x256_d1_w32) (k0_pay267 (View.ld x1 r0_0)) (k0_pay268 (View.ld x2 r0_364)) (k0_pay269 (View.ld x0 r0_0)) (k0_pay270 (iota .tc S1x256 32 [1] iota_S1x256_d1_w32)) (View.ld x3 r0_365)) x = blockLookup x0 x1 W2 x3 (r0_366.emb x) :=
  (congrFun (pay_121 x0 x1 x2 x3) x).trans (piece_apply 121 (by decide) _ _ _ _ _ x0 x1 W2 x2 x3 h0 h1 hW h2 x)
theorem piece_120 (x : r0_363.shape.Idx) :
    (k0_pay266 (View.ld x0 r0_0) (View.ld x1 r0_0) (iota .tc S1x256 32 [1] iota_S1x256_d1_w32) (View.ld x2 r0_361) (View.ld x3 r0_362)) x = blockLookup x0 x1 W2 x3 (r0_363.emb x) :=
  (congrFun (pay_120 x0 x1 x2 x3) x).trans (piece_apply 120 (by decide) _ _ _ _ _ x0 x1 W2 x2 x3 h0 h1 hW h2 x)
theorem piece_119 (x : r0_360.shape.Idx) :
    (k0_pay265 (k0_pay264 (View.ld x0 r0_0) (View.ld x1 r0_0) (iota .tc S1x256 32 [1] iota_S1x256_d1_w32) (View.ld x2 r0_358)) (View.ld x3 r0_359)) x = blockLookup x0 x1 W2 x3 (r0_360.emb x) :=
  (congrFun (pay_119 x0 x1 x2 x3) x).trans (piece_apply 119 (by decide) _ _ _ _ _ x0 x1 W2 x2 x3 h0 h1 hW h2 x)
theorem piece_118 (x : r0_357.shape.Idx) :
    (k0_pay263 (iota .tc S1x256 32 [1] iota_S1x256_d1_w32) (k0_pay261 (View.ld x1 r0_0)) (k0_pay262 (View.ld x0 r0_0) (iota .tc S1x256 32 [1] iota_S1x256_d1_w32) (View.ld x2 r0_355)) (View.ld x3 r0_356)) x = blockLookup x0 x1 W2 x3 (r0_357.emb x) :=
  (congrFun (pay_118 x0 x1 x2 x3) x).trans (piece_apply 118 (by decide) _ _ _ _ _ x0 x1 W2 x2 x3 h0 h1 hW h2 x)
theorem piece_117 (x : r0_354.shape.Idx) :
    (k0_pay260 (View.ld x0 r0_0) (View.ld x1 r0_0) (iota .tc S1x256 32 [1] iota_S1x256_d1_w32) (View.ld x2 r0_352) (View.ld x3 r0_353)) x = blockLookup x0 x1 W2 x3 (r0_354.emb x) :=
  (congrFun (pay_117 x0 x1 x2 x3) x).trans (piece_apply 117 (by decide) _ _ _ _ _ x0 x1 W2 x2 x3 h0 h1 hW h2 x)
theorem piece_116 (x : r0_351.shape.Idx) :
    (k0_pay259 (View.ld x0 r0_0) (View.ld x1 r0_0) (iota .tc S1x256 32 [1] iota_S1x256_d1_w32) (View.ld x2 r0_349) (View.ld x3 r0_350)) x = blockLookup x0 x1 W2 x3 (r0_351.emb x) :=
  (congrFun (pay_116 x0 x1 x2 x3) x).trans (piece_apply 116 (by decide) _ _ _ _ _ x0 x1 W2 x2 x3 h0 h1 hW h2 x)
theorem piece_115 (x : r0_348.shape.Idx) :
    (k0_pay258 (iota .tc S1x256 32 [1] iota_S1x256_d1_w32) (k0_pay257 (View.ld x0 r0_0) (View.ld x1 r0_0) (iota .tc S1x256 32 [1] iota_S1x256_d1_w32) (View.ld x2 r0_346)) (View.ld x3 r0_347)) x = blockLookup x0 x1 W2 x3 (r0_348.emb x) :=
  (congrFun (pay_115 x0 x1 x2 x3) x).trans (piece_apply 115 (by decide) _ _ _ _ _ x0 x1 W2 x2 x3 h0 h1 hW h2 x)
theorem piece_114 (x : r0_345.shape.Idx) :
    (k0_pay256 (iota .tc S1x256 32 [1] iota_S1x256_d1_w32) (k0_pay254 (View.ld x0 r0_0)) (k0_pay255 (View.ld x1 r0_0)) (View.ld x2 r0_343) (View.ld x3 r0_344)) x = blockLookup x0 x1 W2 x3 (r0_345.emb x) :=
  (congrFun (pay_114 x0 x1 x2 x3) x).trans (piece_apply 114 (by decide) _ _ _ _ _ x0 x1 W2 x2 x3 h0 h1 hW h2 x)
theorem piece_113 (x : r0_342.shape.Idx) :
    (k0_pay253 (View.ld x0 r0_0) (View.ld x1 r0_0) (iota .tc S1x256 32 [1] iota_S1x256_d1_w32) (View.ld x2 r0_340) (View.ld x3 r0_341)) x = blockLookup x0 x1 W2 x3 (r0_342.emb x) :=
  (congrFun (pay_113 x0 x1 x2 x3) x).trans (piece_apply 113 (by decide) _ _ _ _ _ x0 x1 W2 x2 x3 h0 h1 hW h2 x)
theorem piece_112 (x : r0_339.shape.Idx) :
    (k0_pay252 (k0_pay250 (View.ld x0 r0_0) (View.ld x1 r0_0) (iota .tc S1x256 32 [1] iota_S1x256_d1_w32) (View.ld x2 r0_337)) (k0_pay251 (iota .tc S1x256 32 [1] iota_S1x256_d1_w32)) (View.ld x3 r0_338)) x = blockLookup x0 x1 W2 x3 (r0_339.emb x) :=
  (congrFun (pay_112 x0 x1 x2 x3) x).trans (piece_apply 112 (by decide) _ _ _ _ _ x0 x1 W2 x2 x3 h0 h1 hW h2 x)
theorem piece_111 (x : r0_336.shape.Idx) :
    (k0_pay249 (iota .tc S1x256 32 [1] iota_S1x256_d1_w32) (k0_pay245 (View.ld x1 r0_0)) (k0_pay246 (View.ld x2 r0_334)) (k0_pay247 (View.ld x0 r0_0)) (k0_pay248 (iota .tc S1x256 32 [1] iota_S1x256_d1_w32)) (View.ld x3 r0_335)) x = blockLookup x0 x1 W2 x3 (r0_336.emb x) :=
  (congrFun (pay_111 x0 x1 x2 x3) x).trans (piece_apply 111 (by decide) _ _ _ _ _ x0 x1 W2 x2 x3 h0 h1 hW h2 x)
theorem piece_110 (x : r0_333.shape.Idx) :
    (k0_pay244 (View.ld x0 r0_0) (View.ld x1 r0_0) (iota .tc S1x256 32 [1] iota_S1x256_d1_w32) (View.ld x2 r0_331) (View.ld x3 r0_332)) x = blockLookup x0 x1 W2 x3 (r0_333.emb x) :=
  (congrFun (pay_110 x0 x1 x2 x3) x).trans (piece_apply 110 (by decide) _ _ _ _ _ x0 x1 W2 x2 x3 h0 h1 hW h2 x)
theorem piece_109 (x : r0_330.shape.Idx) :
    (k0_pay243 (k0_pay242 (View.ld x0 r0_0) (View.ld x1 r0_0) (iota .tc S1x256 32 [1] iota_S1x256_d1_w32) (View.ld x2 r0_328)) (View.ld x3 r0_329)) x = blockLookup x0 x1 W2 x3 (r0_330.emb x) :=
  (congrFun (pay_109 x0 x1 x2 x3) x).trans (piece_apply 109 (by decide) _ _ _ _ _ x0 x1 W2 x2 x3 h0 h1 hW h2 x)
theorem piece_108 (x : r0_327.shape.Idx) :
    (k0_pay241 (iota .tc S1x256 32 [1] iota_S1x256_d1_w32) (k0_pay239 (View.ld x1 r0_0)) (k0_pay240 (View.ld x0 r0_0) (iota .tc S1x256 32 [1] iota_S1x256_d1_w32) (View.ld x2 r0_325)) (View.ld x3 r0_326)) x = blockLookup x0 x1 W2 x3 (r0_327.emb x) :=
  (congrFun (pay_108 x0 x1 x2 x3) x).trans (piece_apply 108 (by decide) _ _ _ _ _ x0 x1 W2 x2 x3 h0 h1 hW h2 x)
theorem piece_107 (x : r0_324.shape.Idx) :
    (k0_pay238 (View.ld x0 r0_0) (View.ld x1 r0_0) (iota .tc S1x256 32 [1] iota_S1x256_d1_w32) (View.ld x2 r0_322) (View.ld x3 r0_323)) x = blockLookup x0 x1 W2 x3 (r0_324.emb x) :=
  (congrFun (pay_107 x0 x1 x2 x3) x).trans (piece_apply 107 (by decide) _ _ _ _ _ x0 x1 W2 x2 x3 h0 h1 hW h2 x)
theorem piece_106 (x : r0_321.shape.Idx) :
    (k0_pay237 (View.ld x0 r0_0) (View.ld x1 r0_0) (iota .tc S1x256 32 [1] iota_S1x256_d1_w32) (View.ld x2 r0_319) (View.ld x3 r0_320)) x = blockLookup x0 x1 W2 x3 (r0_321.emb x) :=
  (congrFun (pay_106 x0 x1 x2 x3) x).trans (piece_apply 106 (by decide) _ _ _ _ _ x0 x1 W2 x2 x3 h0 h1 hW h2 x)
theorem piece_105 (x : r0_318.shape.Idx) :
    (k0_pay236 (iota .tc S1x256 32 [1] iota_S1x256_d1_w32) (k0_pay235 (View.ld x0 r0_0) (View.ld x1 r0_0) (iota .tc S1x256 32 [1] iota_S1x256_d1_w32) (View.ld x2 r0_316)) (View.ld x3 r0_317)) x = blockLookup x0 x1 W2 x3 (r0_318.emb x) :=
  (congrFun (pay_105 x0 x1 x2 x3) x).trans (piece_apply 105 (by decide) _ _ _ _ _ x0 x1 W2 x2 x3 h0 h1 hW h2 x)
theorem piece_104 (x : r0_315.shape.Idx) :
    (k0_pay234 (iota .tc S1x256 32 [1] iota_S1x256_d1_w32) (k0_pay232 (View.ld x0 r0_0)) (k0_pay233 (View.ld x1 r0_0)) (View.ld x2 r0_313) (View.ld x3 r0_314)) x = blockLookup x0 x1 W2 x3 (r0_315.emb x) :=
  (congrFun (pay_104 x0 x1 x2 x3) x).trans (piece_apply 104 (by decide) _ _ _ _ _ x0 x1 W2 x2 x3 h0 h1 hW h2 x)
theorem piece_103 (x : r0_312.shape.Idx) :
    (k0_pay231 (View.ld x0 r0_0) (View.ld x1 r0_0) (iota .tc S1x256 32 [1] iota_S1x256_d1_w32) (View.ld x2 r0_310) (View.ld x3 r0_311)) x = blockLookup x0 x1 W2 x3 (r0_312.emb x) :=
  (congrFun (pay_103 x0 x1 x2 x3) x).trans (piece_apply 103 (by decide) _ _ _ _ _ x0 x1 W2 x2 x3 h0 h1 hW h2 x)
theorem piece_102 (x : r0_309.shape.Idx) :
    (k0_pay230 (k0_pay228 (View.ld x0 r0_0) (View.ld x1 r0_0) (iota .tc S1x256 32 [1] iota_S1x256_d1_w32) (View.ld x2 r0_307)) (k0_pay229 (iota .tc S1x256 32 [1] iota_S1x256_d1_w32)) (View.ld x3 r0_308)) x = blockLookup x0 x1 W2 x3 (r0_309.emb x) :=
  (congrFun (pay_102 x0 x1 x2 x3) x).trans (piece_apply 102 (by decide) _ _ _ _ _ x0 x1 W2 x2 x3 h0 h1 hW h2 x)
theorem piece_101 (x : r0_306.shape.Idx) :
    (k0_pay227 (iota .tc S1x256 32 [1] iota_S1x256_d1_w32) (k0_pay223 (View.ld x1 r0_0)) (k0_pay224 (View.ld x2 r0_304)) (k0_pay225 (View.ld x0 r0_0)) (k0_pay226 (iota .tc S1x256 32 [1] iota_S1x256_d1_w32)) (View.ld x3 r0_305)) x = blockLookup x0 x1 W2 x3 (r0_306.emb x) :=
  (congrFun (pay_101 x0 x1 x2 x3) x).trans (piece_apply 101 (by decide) _ _ _ _ _ x0 x1 W2 x2 x3 h0 h1 hW h2 x)
theorem piece_100 (x : r0_303.shape.Idx) :
    (k0_pay222 (View.ld x0 r0_0) (View.ld x1 r0_0) (iota .tc S1x256 32 [1] iota_S1x256_d1_w32) (View.ld x2 r0_301) (View.ld x3 r0_302)) x = blockLookup x0 x1 W2 x3 (r0_303.emb x) :=
  (congrFun (pay_100 x0 x1 x2 x3) x).trans (piece_apply 100 (by decide) _ _ _ _ _ x0 x1 W2 x2 x3 h0 h1 hW h2 x)
theorem piece_99 (x : r0_300.shape.Idx) :
    (k0_pay221 (k0_pay220 (View.ld x0 r0_0) (View.ld x1 r0_0) (iota .tc S1x256 32 [1] iota_S1x256_d1_w32) (View.ld x2 r0_298)) (View.ld x3 r0_299)) x = blockLookup x0 x1 W2 x3 (r0_300.emb x) :=
  (congrFun (pay_99 x0 x1 x2 x3) x).trans (piece_apply 99 (by decide) _ _ _ _ _ x0 x1 W2 x2 x3 h0 h1 hW h2 x)
theorem piece_98 (x : r0_297.shape.Idx) :
    (k0_pay219 (iota .tc S1x256 32 [1] iota_S1x256_d1_w32) (k0_pay217 (View.ld x1 r0_0)) (k0_pay218 (View.ld x0 r0_0) (iota .tc S1x256 32 [1] iota_S1x256_d1_w32) (View.ld x2 r0_295)) (View.ld x3 r0_296)) x = blockLookup x0 x1 W2 x3 (r0_297.emb x) :=
  (congrFun (pay_98 x0 x1 x2 x3) x).trans (piece_apply 98 (by decide) _ _ _ _ _ x0 x1 W2 x2 x3 h0 h1 hW h2 x)
theorem piece_97 (x : r0_294.shape.Idx) :
    (k0_pay216 (View.ld x0 r0_0) (View.ld x1 r0_0) (iota .tc S1x256 32 [1] iota_S1x256_d1_w32) (View.ld x2 r0_292) (View.ld x3 r0_293)) x = blockLookup x0 x1 W2 x3 (r0_294.emb x) :=
  (congrFun (pay_97 x0 x1 x2 x3) x).trans (piece_apply 97 (by decide) _ _ _ _ _ x0 x1 W2 x2 x3 h0 h1 hW h2 x)
theorem piece_96 (x : r0_291.shape.Idx) :
    (k0_pay215 (View.ld x0 r0_0) (View.ld x1 r0_0) (iota .tc S1x256 32 [1] iota_S1x256_d1_w32) (View.ld x2 r0_289) (View.ld x3 r0_290)) x = blockLookup x0 x1 W2 x3 (r0_291.emb x) :=
  (congrFun (pay_96 x0 x1 x2 x3) x).trans (piece_apply 96 (by decide) _ _ _ _ _ x0 x1 W2 x2 x3 h0 h1 hW h2 x)
theorem piece_95 (x : r0_288.shape.Idx) :
    (k0_pay214 (iota .tc S1x256 32 [1] iota_S1x256_d1_w32) (k0_pay213 (View.ld x0 r0_0) (View.ld x1 r0_0) (iota .tc S1x256 32 [1] iota_S1x256_d1_w32) (View.ld x2 r0_286)) (View.ld x3 r0_287)) x = blockLookup x0 x1 W2 x3 (r0_288.emb x) :=
  (congrFun (pay_95 x0 x1 x2 x3) x).trans (piece_apply 95 (by decide) _ _ _ _ _ x0 x1 W2 x2 x3 h0 h1 hW h2 x)
theorem piece_94 (x : r0_285.shape.Idx) :
    (k0_pay212 (iota .tc S1x256 32 [1] iota_S1x256_d1_w32) (k0_pay210 (View.ld x0 r0_0)) (k0_pay211 (View.ld x1 r0_0)) (View.ld x2 r0_283) (View.ld x3 r0_284)) x = blockLookup x0 x1 W2 x3 (r0_285.emb x) :=
  (congrFun (pay_94 x0 x1 x2 x3) x).trans (piece_apply 94 (by decide) _ _ _ _ _ x0 x1 W2 x2 x3 h0 h1 hW h2 x)
theorem piece_93 (x : r0_282.shape.Idx) :
    (k0_pay209 (View.ld x0 r0_0) (View.ld x1 r0_0) (iota .tc S1x256 32 [1] iota_S1x256_d1_w32) (View.ld x2 r0_280) (View.ld x3 r0_281)) x = blockLookup x0 x1 W2 x3 (r0_282.emb x) :=
  (congrFun (pay_93 x0 x1 x2 x3) x).trans (piece_apply 93 (by decide) _ _ _ _ _ x0 x1 W2 x2 x3 h0 h1 hW h2 x)
theorem piece_92 (x : r0_279.shape.Idx) :
    (k0_pay208 (k0_pay206 (View.ld x0 r0_0) (View.ld x1 r0_0) (iota .tc S1x256 32 [1] iota_S1x256_d1_w32) (View.ld x2 r0_277)) (k0_pay207 (iota .tc S1x256 32 [1] iota_S1x256_d1_w32)) (View.ld x3 r0_278)) x = blockLookup x0 x1 W2 x3 (r0_279.emb x) :=
  (congrFun (pay_92 x0 x1 x2 x3) x).trans (piece_apply 92 (by decide) _ _ _ _ _ x0 x1 W2 x2 x3 h0 h1 hW h2 x)
theorem piece_91 (x : r0_276.shape.Idx) :
    (k0_pay205 (iota .tc S1x256 32 [1] iota_S1x256_d1_w32) (k0_pay201 (View.ld x1 r0_0)) (k0_pay202 (View.ld x2 r0_274)) (k0_pay203 (View.ld x0 r0_0)) (k0_pay204 (iota .tc S1x256 32 [1] iota_S1x256_d1_w32)) (View.ld x3 r0_275)) x = blockLookup x0 x1 W2 x3 (r0_276.emb x) :=
  (congrFun (pay_91 x0 x1 x2 x3) x).trans (piece_apply 91 (by decide) _ _ _ _ _ x0 x1 W2 x2 x3 h0 h1 hW h2 x)
theorem piece_90 (x : r0_273.shape.Idx) :
    (k0_pay200 (View.ld x0 r0_0) (View.ld x1 r0_0) (iota .tc S1x256 32 [1] iota_S1x256_d1_w32) (View.ld x2 r0_271) (View.ld x3 r0_272)) x = blockLookup x0 x1 W2 x3 (r0_273.emb x) :=
  (congrFun (pay_90 x0 x1 x2 x3) x).trans (piece_apply 90 (by decide) _ _ _ _ _ x0 x1 W2 x2 x3 h0 h1 hW h2 x)
theorem piece_89 (x : r0_270.shape.Idx) :
    (k0_pay199 (k0_pay198 (View.ld x0 r0_0) (View.ld x1 r0_0) (iota .tc S1x256 32 [1] iota_S1x256_d1_w32) (View.ld x2 r0_268)) (View.ld x3 r0_269)) x = blockLookup x0 x1 W2 x3 (r0_270.emb x) :=
  (congrFun (pay_89 x0 x1 x2 x3) x).trans (piece_apply 89 (by decide) _ _ _ _ _ x0 x1 W2 x2 x3 h0 h1 hW h2 x)
theorem piece_88 (x : r0_267.shape.Idx) :
    (k0_pay197 (iota .tc S1x256 32 [1] iota_S1x256_d1_w32) (k0_pay195 (View.ld x1 r0_0)) (k0_pay196 (View.ld x0 r0_0) (iota .tc S1x256 32 [1] iota_S1x256_d1_w32) (View.ld x2 r0_265)) (View.ld x3 r0_266)) x = blockLookup x0 x1 W2 x3 (r0_267.emb x) :=
  (congrFun (pay_88 x0 x1 x2 x3) x).trans (piece_apply 88 (by decide) _ _ _ _ _ x0 x1 W2 x2 x3 h0 h1 hW h2 x)
theorem piece_87 (x : r0_264.shape.Idx) :
    (k0_pay194 (View.ld x0 r0_0) (View.ld x1 r0_0) (iota .tc S1x256 32 [1] iota_S1x256_d1_w32) (View.ld x2 r0_262) (View.ld x3 r0_263)) x = blockLookup x0 x1 W2 x3 (r0_264.emb x) :=
  (congrFun (pay_87 x0 x1 x2 x3) x).trans (piece_apply 87 (by decide) _ _ _ _ _ x0 x1 W2 x2 x3 h0 h1 hW h2 x)
theorem piece_86 (x : r0_261.shape.Idx) :
    (k0_pay193 (View.ld x0 r0_0) (View.ld x1 r0_0) (iota .tc S1x256 32 [1] iota_S1x256_d1_w32) (View.ld x2 r0_259) (View.ld x3 r0_260)) x = blockLookup x0 x1 W2 x3 (r0_261.emb x) :=
  (congrFun (pay_86 x0 x1 x2 x3) x).trans (piece_apply 86 (by decide) _ _ _ _ _ x0 x1 W2 x2 x3 h0 h1 hW h2 x)
theorem piece_85 (x : r0_258.shape.Idx) :
    (k0_pay192 (iota .tc S1x256 32 [1] iota_S1x256_d1_w32) (k0_pay191 (View.ld x0 r0_0) (View.ld x1 r0_0) (iota .tc S1x256 32 [1] iota_S1x256_d1_w32) (View.ld x2 r0_256)) (View.ld x3 r0_257)) x = blockLookup x0 x1 W2 x3 (r0_258.emb x) :=
  (congrFun (pay_85 x0 x1 x2 x3) x).trans (piece_apply 85 (by decide) _ _ _ _ _ x0 x1 W2 x2 x3 h0 h1 hW h2 x)
theorem piece_84 (x : r0_255.shape.Idx) :
    (k0_pay190 (iota .tc S1x256 32 [1] iota_S1x256_d1_w32) (k0_pay188 (View.ld x0 r0_0)) (k0_pay189 (View.ld x1 r0_0)) (View.ld x2 r0_253) (View.ld x3 r0_254)) x = blockLookup x0 x1 W2 x3 (r0_255.emb x) :=
  (congrFun (pay_84 x0 x1 x2 x3) x).trans (piece_apply 84 (by decide) _ _ _ _ _ x0 x1 W2 x2 x3 h0 h1 hW h2 x)
theorem piece_83 (x : r0_252.shape.Idx) :
    (k0_pay187 (View.ld x0 r0_0) (View.ld x1 r0_0) (iota .tc S1x256 32 [1] iota_S1x256_d1_w32) (View.ld x2 r0_250) (View.ld x3 r0_251)) x = blockLookup x0 x1 W2 x3 (r0_252.emb x) :=
  (congrFun (pay_83 x0 x1 x2 x3) x).trans (piece_apply 83 (by decide) _ _ _ _ _ x0 x1 W2 x2 x3 h0 h1 hW h2 x)
theorem piece_82 (x : r0_249.shape.Idx) :
    (k0_pay186 (k0_pay184 (View.ld x0 r0_0) (View.ld x1 r0_0) (iota .tc S1x256 32 [1] iota_S1x256_d1_w32) (View.ld x2 r0_247)) (k0_pay185 (iota .tc S1x256 32 [1] iota_S1x256_d1_w32)) (View.ld x3 r0_248)) x = blockLookup x0 x1 W2 x3 (r0_249.emb x) :=
  (congrFun (pay_82 x0 x1 x2 x3) x).trans (piece_apply 82 (by decide) _ _ _ _ _ x0 x1 W2 x2 x3 h0 h1 hW h2 x)
theorem piece_81 (x : r0_246.shape.Idx) :
    (k0_pay183 (iota .tc S1x256 32 [1] iota_S1x256_d1_w32) (k0_pay179 (View.ld x1 r0_0)) (k0_pay180 (View.ld x2 r0_244)) (k0_pay181 (View.ld x0 r0_0)) (k0_pay182 (iota .tc S1x256 32 [1] iota_S1x256_d1_w32)) (View.ld x3 r0_245)) x = blockLookup x0 x1 W2 x3 (r0_246.emb x) :=
  (congrFun (pay_81 x0 x1 x2 x3) x).trans (piece_apply 81 (by decide) _ _ _ _ _ x0 x1 W2 x2 x3 h0 h1 hW h2 x)
theorem piece_80 (x : r0_243.shape.Idx) :
    (k0_pay178 (View.ld x0 r0_0) (View.ld x1 r0_0) (iota .tc S1x256 32 [1] iota_S1x256_d1_w32) (View.ld x2 r0_241) (View.ld x3 r0_242)) x = blockLookup x0 x1 W2 x3 (r0_243.emb x) :=
  (congrFun (pay_80 x0 x1 x2 x3) x).trans (piece_apply 80 (by decide) _ _ _ _ _ x0 x1 W2 x2 x3 h0 h1 hW h2 x)
theorem piece_79 (x : r0_240.shape.Idx) :
    (k0_pay177 (k0_pay176 (View.ld x0 r0_0) (View.ld x1 r0_0) (iota .tc S1x256 32 [1] iota_S1x256_d1_w32) (View.ld x2 r0_238)) (View.ld x3 r0_239)) x = blockLookup x0 x1 W2 x3 (r0_240.emb x) :=
  (congrFun (pay_79 x0 x1 x2 x3) x).trans (piece_apply 79 (by decide) _ _ _ _ _ x0 x1 W2 x2 x3 h0 h1 hW h2 x)
theorem piece_78 (x : r0_237.shape.Idx) :
    (k0_pay175 (iota .tc S1x256 32 [1] iota_S1x256_d1_w32) (k0_pay173 (View.ld x1 r0_0)) (k0_pay174 (View.ld x0 r0_0) (iota .tc S1x256 32 [1] iota_S1x256_d1_w32) (View.ld x2 r0_235)) (View.ld x3 r0_236)) x = blockLookup x0 x1 W2 x3 (r0_237.emb x) :=
  (congrFun (pay_78 x0 x1 x2 x3) x).trans (piece_apply 78 (by decide) _ _ _ _ _ x0 x1 W2 x2 x3 h0 h1 hW h2 x)
theorem piece_77 (x : r0_234.shape.Idx) :
    (k0_pay172 (View.ld x0 r0_0) (View.ld x1 r0_0) (iota .tc S1x256 32 [1] iota_S1x256_d1_w32) (View.ld x2 r0_232) (View.ld x3 r0_233)) x = blockLookup x0 x1 W2 x3 (r0_234.emb x) :=
  (congrFun (pay_77 x0 x1 x2 x3) x).trans (piece_apply 77 (by decide) _ _ _ _ _ x0 x1 W2 x2 x3 h0 h1 hW h2 x)
theorem piece_76 (x : r0_231.shape.Idx) :
    (k0_pay171 (View.ld x0 r0_0) (View.ld x1 r0_0) (iota .tc S1x256 32 [1] iota_S1x256_d1_w32) (View.ld x2 r0_229) (View.ld x3 r0_230)) x = blockLookup x0 x1 W2 x3 (r0_231.emb x) :=
  (congrFun (pay_76 x0 x1 x2 x3) x).trans (piece_apply 76 (by decide) _ _ _ _ _ x0 x1 W2 x2 x3 h0 h1 hW h2 x)
theorem piece_75 (x : r0_228.shape.Idx) :
    (k0_pay170 (iota .tc S1x256 32 [1] iota_S1x256_d1_w32) (k0_pay169 (View.ld x0 r0_0) (View.ld x1 r0_0) (iota .tc S1x256 32 [1] iota_S1x256_d1_w32) (View.ld x2 r0_226)) (View.ld x3 r0_227)) x = blockLookup x0 x1 W2 x3 (r0_228.emb x) :=
  (congrFun (pay_75 x0 x1 x2 x3) x).trans (piece_apply 75 (by decide) _ _ _ _ _ x0 x1 W2 x2 x3 h0 h1 hW h2 x)
theorem piece_74 (x : r0_225.shape.Idx) :
    (k0_pay168 (iota .tc S1x256 32 [1] iota_S1x256_d1_w32) (k0_pay166 (View.ld x0 r0_0)) (k0_pay167 (View.ld x1 r0_0)) (View.ld x2 r0_223) (View.ld x3 r0_224)) x = blockLookup x0 x1 W2 x3 (r0_225.emb x) :=
  (congrFun (pay_74 x0 x1 x2 x3) x).trans (piece_apply 74 (by decide) _ _ _ _ _ x0 x1 W2 x2 x3 h0 h1 hW h2 x)
theorem piece_73 (x : r0_222.shape.Idx) :
    (k0_pay165 (View.ld x0 r0_0) (View.ld x1 r0_0) (iota .tc S1x256 32 [1] iota_S1x256_d1_w32) (View.ld x2 r0_220) (View.ld x3 r0_221)) x = blockLookup x0 x1 W2 x3 (r0_222.emb x) :=
  (congrFun (pay_73 x0 x1 x2 x3) x).trans (piece_apply 73 (by decide) _ _ _ _ _ x0 x1 W2 x2 x3 h0 h1 hW h2 x)
theorem piece_72 (x : r0_219.shape.Idx) :
    (k0_pay164 (k0_pay162 (View.ld x0 r0_0) (View.ld x1 r0_0) (iota .tc S1x256 32 [1] iota_S1x256_d1_w32) (View.ld x2 r0_217)) (k0_pay163 (iota .tc S1x256 32 [1] iota_S1x256_d1_w32)) (View.ld x3 r0_218)) x = blockLookup x0 x1 W2 x3 (r0_219.emb x) :=
  (congrFun (pay_72 x0 x1 x2 x3) x).trans (piece_apply 72 (by decide) _ _ _ _ _ x0 x1 W2 x2 x3 h0 h1 hW h2 x)
theorem piece_71 (x : r0_216.shape.Idx) :
    (k0_pay161 (iota .tc S1x256 32 [1] iota_S1x256_d1_w32) (k0_pay157 (View.ld x1 r0_0)) (k0_pay158 (View.ld x2 r0_214)) (k0_pay159 (View.ld x0 r0_0)) (k0_pay160 (iota .tc S1x256 32 [1] iota_S1x256_d1_w32)) (View.ld x3 r0_215)) x = blockLookup x0 x1 W2 x3 (r0_216.emb x) :=
  (congrFun (pay_71 x0 x1 x2 x3) x).trans (piece_apply 71 (by decide) _ _ _ _ _ x0 x1 W2 x2 x3 h0 h1 hW h2 x)
theorem piece_70 (x : r0_213.shape.Idx) :
    (k0_pay156 (View.ld x0 r0_0) (View.ld x1 r0_0) (iota .tc S1x256 32 [1] iota_S1x256_d1_w32) (View.ld x2 r0_211) (View.ld x3 r0_212)) x = blockLookup x0 x1 W2 x3 (r0_213.emb x) :=
  (congrFun (pay_70 x0 x1 x2 x3) x).trans (piece_apply 70 (by decide) _ _ _ _ _ x0 x1 W2 x2 x3 h0 h1 hW h2 x)
theorem piece_69 (x : r0_210.shape.Idx) :
    (k0_pay155 (k0_pay154 (View.ld x0 r0_0) (View.ld x1 r0_0) (iota .tc S1x256 32 [1] iota_S1x256_d1_w32) (View.ld x2 r0_208)) (View.ld x3 r0_209)) x = blockLookup x0 x1 W2 x3 (r0_210.emb x) :=
  (congrFun (pay_69 x0 x1 x2 x3) x).trans (piece_apply 69 (by decide) _ _ _ _ _ x0 x1 W2 x2 x3 h0 h1 hW h2 x)
theorem piece_68 (x : r0_207.shape.Idx) :
    (k0_pay153 (iota .tc S1x256 32 [1] iota_S1x256_d1_w32) (k0_pay151 (View.ld x1 r0_0)) (k0_pay152 (View.ld x0 r0_0) (iota .tc S1x256 32 [1] iota_S1x256_d1_w32) (View.ld x2 r0_205)) (View.ld x3 r0_206)) x = blockLookup x0 x1 W2 x3 (r0_207.emb x) :=
  (congrFun (pay_68 x0 x1 x2 x3) x).trans (piece_apply 68 (by decide) _ _ _ _ _ x0 x1 W2 x2 x3 h0 h1 hW h2 x)
theorem piece_67 (x : r0_204.shape.Idx) :
    (k0_pay150 (View.ld x0 r0_0) (View.ld x1 r0_0) (iota .tc S1x256 32 [1] iota_S1x256_d1_w32) (View.ld x2 r0_202) (View.ld x3 r0_203)) x = blockLookup x0 x1 W2 x3 (r0_204.emb x) :=
  (congrFun (pay_67 x0 x1 x2 x3) x).trans (piece_apply 67 (by decide) _ _ _ _ _ x0 x1 W2 x2 x3 h0 h1 hW h2 x)
theorem piece_66 (x : r0_201.shape.Idx) :
    (k0_pay149 (View.ld x0 r0_0) (View.ld x1 r0_0) (iota .tc S1x256 32 [1] iota_S1x256_d1_w32) (View.ld x2 r0_199) (View.ld x3 r0_200)) x = blockLookup x0 x1 W2 x3 (r0_201.emb x) :=
  (congrFun (pay_66 x0 x1 x2 x3) x).trans (piece_apply 66 (by decide) _ _ _ _ _ x0 x1 W2 x2 x3 h0 h1 hW h2 x)
theorem piece_65 (x : r0_198.shape.Idx) :
    (k0_pay148 (iota .tc S1x256 32 [1] iota_S1x256_d1_w32) (k0_pay147 (View.ld x0 r0_0) (View.ld x1 r0_0) (iota .tc S1x256 32 [1] iota_S1x256_d1_w32) (View.ld x2 r0_196)) (View.ld x3 r0_197)) x = blockLookup x0 x1 W2 x3 (r0_198.emb x) :=
  (congrFun (pay_65 x0 x1 x2 x3) x).trans (piece_apply 65 (by decide) _ _ _ _ _ x0 x1 W2 x2 x3 h0 h1 hW h2 x)
theorem piece_64 (x : r0_195.shape.Idx) :
    (k0_pay146 (iota .tc S1x256 32 [1] iota_S1x256_d1_w32) (k0_pay144 (View.ld x0 r0_0)) (k0_pay145 (View.ld x1 r0_0)) (View.ld x2 r0_193) (View.ld x3 r0_194)) x = blockLookup x0 x1 W2 x3 (r0_195.emb x) :=
  (congrFun (pay_64 x0 x1 x2 x3) x).trans (piece_apply 64 (by decide) _ _ _ _ _ x0 x1 W2 x2 x3 h0 h1 hW h2 x)
theorem piece_63 (x : r0_192.shape.Idx) :
    (k0_pay143 (View.ld x0 r0_0) (View.ld x1 r0_0) (iota .tc S1x256 32 [1] iota_S1x256_d1_w32) (View.ld x2 r0_190) (View.ld x3 r0_191)) x = blockLookup x0 x1 W2 x3 (r0_192.emb x) :=
  (congrFun (pay_63 x0 x1 x2 x3) x).trans (piece_apply 63 (by decide) _ _ _ _ _ x0 x1 W2 x2 x3 h0 h1 hW h2 x)
theorem piece_62 (x : r0_189.shape.Idx) :
    (k0_pay142 (k0_pay140 (View.ld x0 r0_0) (View.ld x1 r0_0) (iota .tc S1x256 32 [1] iota_S1x256_d1_w32) (View.ld x2 r0_187)) (k0_pay141 (iota .tc S1x256 32 [1] iota_S1x256_d1_w32)) (View.ld x3 r0_188)) x = blockLookup x0 x1 W2 x3 (r0_189.emb x) :=
  (congrFun (pay_62 x0 x1 x2 x3) x).trans (piece_apply 62 (by decide) _ _ _ _ _ x0 x1 W2 x2 x3 h0 h1 hW h2 x)
theorem piece_61 (x : r0_186.shape.Idx) :
    (k0_pay139 (iota .tc S1x256 32 [1] iota_S1x256_d1_w32) (k0_pay135 (View.ld x1 r0_0)) (k0_pay136 (View.ld x2 r0_184)) (k0_pay137 (View.ld x0 r0_0)) (k0_pay138 (iota .tc S1x256 32 [1] iota_S1x256_d1_w32)) (View.ld x3 r0_185)) x = blockLookup x0 x1 W2 x3 (r0_186.emb x) :=
  (congrFun (pay_61 x0 x1 x2 x3) x).trans (piece_apply 61 (by decide) _ _ _ _ _ x0 x1 W2 x2 x3 h0 h1 hW h2 x)
theorem piece_60 (x : r0_183.shape.Idx) :
    (k0_pay134 (View.ld x0 r0_0) (View.ld x1 r0_0) (iota .tc S1x256 32 [1] iota_S1x256_d1_w32) (View.ld x2 r0_181) (View.ld x3 r0_182)) x = blockLookup x0 x1 W2 x3 (r0_183.emb x) :=
  (congrFun (pay_60 x0 x1 x2 x3) x).trans (piece_apply 60 (by decide) _ _ _ _ _ x0 x1 W2 x2 x3 h0 h1 hW h2 x)
theorem piece_59 (x : r0_180.shape.Idx) :
    (k0_pay133 (k0_pay132 (View.ld x0 r0_0) (View.ld x1 r0_0) (iota .tc S1x256 32 [1] iota_S1x256_d1_w32) (View.ld x2 r0_178)) (View.ld x3 r0_179)) x = blockLookup x0 x1 W2 x3 (r0_180.emb x) :=
  (congrFun (pay_59 x0 x1 x2 x3) x).trans (piece_apply 59 (by decide) _ _ _ _ _ x0 x1 W2 x2 x3 h0 h1 hW h2 x)
theorem piece_58 (x : r0_177.shape.Idx) :
    (k0_pay131 (iota .tc S1x256 32 [1] iota_S1x256_d1_w32) (k0_pay129 (View.ld x1 r0_0)) (k0_pay130 (View.ld x0 r0_0) (iota .tc S1x256 32 [1] iota_S1x256_d1_w32) (View.ld x2 r0_175)) (View.ld x3 r0_176)) x = blockLookup x0 x1 W2 x3 (r0_177.emb x) :=
  (congrFun (pay_58 x0 x1 x2 x3) x).trans (piece_apply 58 (by decide) _ _ _ _ _ x0 x1 W2 x2 x3 h0 h1 hW h2 x)
theorem piece_57 (x : r0_174.shape.Idx) :
    (k0_pay128 (View.ld x0 r0_0) (View.ld x1 r0_0) (iota .tc S1x256 32 [1] iota_S1x256_d1_w32) (View.ld x2 r0_172) (View.ld x3 r0_173)) x = blockLookup x0 x1 W2 x3 (r0_174.emb x) :=
  (congrFun (pay_57 x0 x1 x2 x3) x).trans (piece_apply 57 (by decide) _ _ _ _ _ x0 x1 W2 x2 x3 h0 h1 hW h2 x)
theorem piece_56 (x : r0_171.shape.Idx) :
    (k0_pay127 (View.ld x0 r0_0) (View.ld x1 r0_0) (iota .tc S1x256 32 [1] iota_S1x256_d1_w32) (View.ld x2 r0_169) (View.ld x3 r0_170)) x = blockLookup x0 x1 W2 x3 (r0_171.emb x) :=
  (congrFun (pay_56 x0 x1 x2 x3) x).trans (piece_apply 56 (by decide) _ _ _ _ _ x0 x1 W2 x2 x3 h0 h1 hW h2 x)
theorem piece_55 (x : r0_168.shape.Idx) :
    (k0_pay126 (iota .tc S1x256 32 [1] iota_S1x256_d1_w32) (k0_pay125 (View.ld x0 r0_0) (View.ld x1 r0_0) (iota .tc S1x256 32 [1] iota_S1x256_d1_w32) (View.ld x2 r0_166)) (View.ld x3 r0_167)) x = blockLookup x0 x1 W2 x3 (r0_168.emb x) :=
  (congrFun (pay_55 x0 x1 x2 x3) x).trans (piece_apply 55 (by decide) _ _ _ _ _ x0 x1 W2 x2 x3 h0 h1 hW h2 x)
theorem piece_54 (x : r0_165.shape.Idx) :
    (k0_pay124 (iota .tc S1x256 32 [1] iota_S1x256_d1_w32) (k0_pay122 (View.ld x0 r0_0)) (k0_pay123 (View.ld x1 r0_0)) (View.ld x2 r0_163) (View.ld x3 r0_164)) x = blockLookup x0 x1 W2 x3 (r0_165.emb x) :=
  (congrFun (pay_54 x0 x1 x2 x3) x).trans (piece_apply 54 (by decide) _ _ _ _ _ x0 x1 W2 x2 x3 h0 h1 hW h2 x)
theorem piece_53 (x : r0_162.shape.Idx) :
    (k0_pay121 (View.ld x0 r0_0) (View.ld x1 r0_0) (iota .tc S1x256 32 [1] iota_S1x256_d1_w32) (View.ld x2 r0_160) (View.ld x3 r0_161)) x = blockLookup x0 x1 W2 x3 (r0_162.emb x) :=
  (congrFun (pay_53 x0 x1 x2 x3) x).trans (piece_apply 53 (by decide) _ _ _ _ _ x0 x1 W2 x2 x3 h0 h1 hW h2 x)
theorem piece_52 (x : r0_159.shape.Idx) :
    (k0_pay120 (k0_pay118 (View.ld x0 r0_0) (View.ld x1 r0_0) (iota .tc S1x256 32 [1] iota_S1x256_d1_w32) (View.ld x2 r0_157)) (k0_pay119 (iota .tc S1x256 32 [1] iota_S1x256_d1_w32)) (View.ld x3 r0_158)) x = blockLookup x0 x1 W2 x3 (r0_159.emb x) :=
  (congrFun (pay_52 x0 x1 x2 x3) x).trans (piece_apply 52 (by decide) _ _ _ _ _ x0 x1 W2 x2 x3 h0 h1 hW h2 x)
theorem piece_51 (x : r0_156.shape.Idx) :
    (k0_pay117 (iota .tc S1x256 32 [1] iota_S1x256_d1_w32) (k0_pay113 (View.ld x1 r0_0)) (k0_pay114 (View.ld x2 r0_154)) (k0_pay115 (View.ld x0 r0_0)) (k0_pay116 (iota .tc S1x256 32 [1] iota_S1x256_d1_w32)) (View.ld x3 r0_155)) x = blockLookup x0 x1 W2 x3 (r0_156.emb x) :=
  (congrFun (pay_51 x0 x1 x2 x3) x).trans (piece_apply 51 (by decide) _ _ _ _ _ x0 x1 W2 x2 x3 h0 h1 hW h2 x)
theorem piece_50 (x : r0_153.shape.Idx) :
    (k0_pay112 (View.ld x0 r0_0) (View.ld x1 r0_0) (iota .tc S1x256 32 [1] iota_S1x256_d1_w32) (View.ld x2 r0_151) (View.ld x3 r0_152)) x = blockLookup x0 x1 W2 x3 (r0_153.emb x) :=
  (congrFun (pay_50 x0 x1 x2 x3) x).trans (piece_apply 50 (by decide) _ _ _ _ _ x0 x1 W2 x2 x3 h0 h1 hW h2 x)
theorem piece_49 (x : r0_150.shape.Idx) :
    (k0_pay111 (k0_pay110 (View.ld x0 r0_0) (View.ld x1 r0_0) (iota .tc S1x256 32 [1] iota_S1x256_d1_w32) (View.ld x2 r0_148)) (View.ld x3 r0_149)) x = blockLookup x0 x1 W2 x3 (r0_150.emb x) :=
  (congrFun (pay_49 x0 x1 x2 x3) x).trans (piece_apply 49 (by decide) _ _ _ _ _ x0 x1 W2 x2 x3 h0 h1 hW h2 x)
theorem piece_48 (x : r0_147.shape.Idx) :
    (k0_pay109 (iota .tc S1x256 32 [1] iota_S1x256_d1_w32) (k0_pay107 (View.ld x1 r0_0)) (k0_pay108 (View.ld x0 r0_0) (iota .tc S1x256 32 [1] iota_S1x256_d1_w32) (View.ld x2 r0_145)) (View.ld x3 r0_146)) x = blockLookup x0 x1 W2 x3 (r0_147.emb x) :=
  (congrFun (pay_48 x0 x1 x2 x3) x).trans (piece_apply 48 (by decide) _ _ _ _ _ x0 x1 W2 x2 x3 h0 h1 hW h2 x)
theorem piece_47 (x : r0_144.shape.Idx) :
    (k0_pay106 (View.ld x0 r0_0) (View.ld x1 r0_0) (iota .tc S1x256 32 [1] iota_S1x256_d1_w32) (View.ld x2 r0_142) (View.ld x3 r0_143)) x = blockLookup x0 x1 W2 x3 (r0_144.emb x) :=
  (congrFun (pay_47 x0 x1 x2 x3) x).trans (piece_apply 47 (by decide) _ _ _ _ _ x0 x1 W2 x2 x3 h0 h1 hW h2 x)
theorem piece_46 (x : r0_141.shape.Idx) :
    (k0_pay105 (View.ld x0 r0_0) (View.ld x1 r0_0) (iota .tc S1x256 32 [1] iota_S1x256_d1_w32) (View.ld x2 r0_139) (View.ld x3 r0_140)) x = blockLookup x0 x1 W2 x3 (r0_141.emb x) :=
  (congrFun (pay_46 x0 x1 x2 x3) x).trans (piece_apply 46 (by decide) _ _ _ _ _ x0 x1 W2 x2 x3 h0 h1 hW h2 x)
theorem piece_45 (x : r0_138.shape.Idx) :
    (k0_pay104 (iota .tc S1x256 32 [1] iota_S1x256_d1_w32) (k0_pay103 (View.ld x0 r0_0) (View.ld x1 r0_0) (iota .tc S1x256 32 [1] iota_S1x256_d1_w32) (View.ld x2 r0_136)) (View.ld x3 r0_137)) x = blockLookup x0 x1 W2 x3 (r0_138.emb x) :=
  (congrFun (pay_45 x0 x1 x2 x3) x).trans (piece_apply 45 (by decide) _ _ _ _ _ x0 x1 W2 x2 x3 h0 h1 hW h2 x)
theorem piece_44 (x : r0_135.shape.Idx) :
    (k0_pay102 (iota .tc S1x256 32 [1] iota_S1x256_d1_w32) (k0_pay100 (View.ld x0 r0_0)) (k0_pay101 (View.ld x1 r0_0)) (View.ld x2 r0_133) (View.ld x3 r0_134)) x = blockLookup x0 x1 W2 x3 (r0_135.emb x) :=
  (congrFun (pay_44 x0 x1 x2 x3) x).trans (piece_apply 44 (by decide) _ _ _ _ _ x0 x1 W2 x2 x3 h0 h1 hW h2 x)
theorem piece_43 (x : r0_132.shape.Idx) :
    (k0_pay99 (View.ld x0 r0_0) (View.ld x1 r0_0) (iota .tc S1x256 32 [1] iota_S1x256_d1_w32) (View.ld x2 r0_130) (View.ld x3 r0_131)) x = blockLookup x0 x1 W2 x3 (r0_132.emb x) :=
  (congrFun (pay_43 x0 x1 x2 x3) x).trans (piece_apply 43 (by decide) _ _ _ _ _ x0 x1 W2 x2 x3 h0 h1 hW h2 x)
theorem piece_42 (x : r0_129.shape.Idx) :
    (k0_pay98 (k0_pay96 (View.ld x0 r0_0) (View.ld x1 r0_0) (iota .tc S1x256 32 [1] iota_S1x256_d1_w32) (View.ld x2 r0_127)) (k0_pay97 (iota .tc S1x256 32 [1] iota_S1x256_d1_w32)) (View.ld x3 r0_128)) x = blockLookup x0 x1 W2 x3 (r0_129.emb x) :=
  (congrFun (pay_42 x0 x1 x2 x3) x).trans (piece_apply 42 (by decide) _ _ _ _ _ x0 x1 W2 x2 x3 h0 h1 hW h2 x)
theorem piece_41 (x : r0_126.shape.Idx) :
    (k0_pay95 (iota .tc S1x256 32 [1] iota_S1x256_d1_w32) (k0_pay91 (View.ld x1 r0_0)) (k0_pay92 (View.ld x2 r0_124)) (k0_pay93 (View.ld x0 r0_0)) (k0_pay94 (iota .tc S1x256 32 [1] iota_S1x256_d1_w32)) (View.ld x3 r0_125)) x = blockLookup x0 x1 W2 x3 (r0_126.emb x) :=
  (congrFun (pay_41 x0 x1 x2 x3) x).trans (piece_apply 41 (by decide) _ _ _ _ _ x0 x1 W2 x2 x3 h0 h1 hW h2 x)
theorem piece_40 (x : r0_123.shape.Idx) :
    (k0_pay90 (View.ld x0 r0_0) (View.ld x1 r0_0) (iota .tc S1x256 32 [1] iota_S1x256_d1_w32) (View.ld x2 r0_121) (View.ld x3 r0_122)) x = blockLookup x0 x1 W2 x3 (r0_123.emb x) :=
  (congrFun (pay_40 x0 x1 x2 x3) x).trans (piece_apply 40 (by decide) _ _ _ _ _ x0 x1 W2 x2 x3 h0 h1 hW h2 x)
theorem piece_39 (x : r0_120.shape.Idx) :
    (k0_pay89 (k0_pay88 (View.ld x0 r0_0) (View.ld x1 r0_0) (iota .tc S1x256 32 [1] iota_S1x256_d1_w32) (View.ld x2 r0_118)) (View.ld x3 r0_119)) x = blockLookup x0 x1 W2 x3 (r0_120.emb x) :=
  (congrFun (pay_39 x0 x1 x2 x3) x).trans (piece_apply 39 (by decide) _ _ _ _ _ x0 x1 W2 x2 x3 h0 h1 hW h2 x)
theorem piece_38 (x : r0_117.shape.Idx) :
    (k0_pay87 (iota .tc S1x256 32 [1] iota_S1x256_d1_w32) (k0_pay85 (View.ld x1 r0_0)) (k0_pay86 (View.ld x0 r0_0) (iota .tc S1x256 32 [1] iota_S1x256_d1_w32) (View.ld x2 r0_115)) (View.ld x3 r0_116)) x = blockLookup x0 x1 W2 x3 (r0_117.emb x) :=
  (congrFun (pay_38 x0 x1 x2 x3) x).trans (piece_apply 38 (by decide) _ _ _ _ _ x0 x1 W2 x2 x3 h0 h1 hW h2 x)
theorem piece_37 (x : r0_114.shape.Idx) :
    (k0_pay84 (View.ld x0 r0_0) (View.ld x1 r0_0) (iota .tc S1x256 32 [1] iota_S1x256_d1_w32) (View.ld x2 r0_112) (View.ld x3 r0_113)) x = blockLookup x0 x1 W2 x3 (r0_114.emb x) :=
  (congrFun (pay_37 x0 x1 x2 x3) x).trans (piece_apply 37 (by decide) _ _ _ _ _ x0 x1 W2 x2 x3 h0 h1 hW h2 x)
theorem piece_36 (x : r0_111.shape.Idx) :
    (k0_pay83 (View.ld x0 r0_0) (View.ld x1 r0_0) (iota .tc S1x256 32 [1] iota_S1x256_d1_w32) (View.ld x2 r0_109) (View.ld x3 r0_110)) x = blockLookup x0 x1 W2 x3 (r0_111.emb x) :=
  (congrFun (pay_36 x0 x1 x2 x3) x).trans (piece_apply 36 (by decide) _ _ _ _ _ x0 x1 W2 x2 x3 h0 h1 hW h2 x)
theorem piece_35 (x : r0_108.shape.Idx) :
    (k0_pay82 (iota .tc S1x256 32 [1] iota_S1x256_d1_w32) (k0_pay81 (View.ld x0 r0_0) (View.ld x1 r0_0) (iota .tc S1x256 32 [1] iota_S1x256_d1_w32) (View.ld x2 r0_106)) (View.ld x3 r0_107)) x = blockLookup x0 x1 W2 x3 (r0_108.emb x) :=
  (congrFun (pay_35 x0 x1 x2 x3) x).trans (piece_apply 35 (by decide) _ _ _ _ _ x0 x1 W2 x2 x3 h0 h1 hW h2 x)
theorem piece_34 (x : r0_105.shape.Idx) :
    (k0_pay80 (iota .tc S1x256 32 [1] iota_S1x256_d1_w32) (k0_pay78 (View.ld x0 r0_0)) (k0_pay79 (View.ld x1 r0_0)) (View.ld x2 r0_103) (View.ld x3 r0_104)) x = blockLookup x0 x1 W2 x3 (r0_105.emb x) :=
  (congrFun (pay_34 x0 x1 x2 x3) x).trans (piece_apply 34 (by decide) _ _ _ _ _ x0 x1 W2 x2 x3 h0 h1 hW h2 x)
theorem piece_33 (x : r0_102.shape.Idx) :
    (k0_pay77 (View.ld x0 r0_0) (View.ld x1 r0_0) (iota .tc S1x256 32 [1] iota_S1x256_d1_w32) (View.ld x2 r0_100) (View.ld x3 r0_101)) x = blockLookup x0 x1 W2 x3 (r0_102.emb x) :=
  (congrFun (pay_33 x0 x1 x2 x3) x).trans (piece_apply 33 (by decide) _ _ _ _ _ x0 x1 W2 x2 x3 h0 h1 hW h2 x)
theorem piece_32 (x : r0_99.shape.Idx) :
    (k0_pay76 (k0_pay74 (View.ld x0 r0_0) (View.ld x1 r0_0) (iota .tc S1x256 32 [1] iota_S1x256_d1_w32) (View.ld x2 r0_97)) (k0_pay75 (iota .tc S1x256 32 [1] iota_S1x256_d1_w32)) (View.ld x3 r0_98)) x = blockLookup x0 x1 W2 x3 (r0_99.emb x) :=
  (congrFun (pay_32 x0 x1 x2 x3) x).trans (piece_apply 32 (by decide) _ _ _ _ _ x0 x1 W2 x2 x3 h0 h1 hW h2 x)
theorem piece_31 (x : r0_96.shape.Idx) :
    (k0_pay73 (iota .tc S1x256 32 [1] iota_S1x256_d1_w32) (k0_pay69 (View.ld x1 r0_0)) (k0_pay70 (View.ld x2 r0_94)) (k0_pay71 (View.ld x0 r0_0)) (k0_pay72 (iota .tc S1x256 32 [1] iota_S1x256_d1_w32)) (View.ld x3 r0_95)) x = blockLookup x0 x1 W2 x3 (r0_96.emb x) :=
  (congrFun (pay_31 x0 x1 x2 x3) x).trans (piece_apply 31 (by decide) _ _ _ _ _ x0 x1 W2 x2 x3 h0 h1 hW h2 x)
theorem piece_30 (x : r0_93.shape.Idx) :
    (k0_pay68 (View.ld x0 r0_0) (View.ld x1 r0_0) (iota .tc S1x256 32 [1] iota_S1x256_d1_w32) (View.ld x2 r0_91) (View.ld x3 r0_92)) x = blockLookup x0 x1 W2 x3 (r0_93.emb x) :=
  (congrFun (pay_30 x0 x1 x2 x3) x).trans (piece_apply 30 (by decide) _ _ _ _ _ x0 x1 W2 x2 x3 h0 h1 hW h2 x)
theorem piece_29 (x : r0_90.shape.Idx) :
    (k0_pay67 (k0_pay66 (View.ld x0 r0_0) (View.ld x1 r0_0) (iota .tc S1x256 32 [1] iota_S1x256_d1_w32) (View.ld x2 r0_88)) (View.ld x3 r0_89)) x = blockLookup x0 x1 W2 x3 (r0_90.emb x) :=
  (congrFun (pay_29 x0 x1 x2 x3) x).trans (piece_apply 29 (by decide) _ _ _ _ _ x0 x1 W2 x2 x3 h0 h1 hW h2 x)
theorem piece_28 (x : r0_87.shape.Idx) :
    (k0_pay65 (iota .tc S1x256 32 [1] iota_S1x256_d1_w32) (k0_pay63 (View.ld x1 r0_0)) (k0_pay64 (View.ld x0 r0_0) (iota .tc S1x256 32 [1] iota_S1x256_d1_w32) (View.ld x2 r0_85)) (View.ld x3 r0_86)) x = blockLookup x0 x1 W2 x3 (r0_87.emb x) :=
  (congrFun (pay_28 x0 x1 x2 x3) x).trans (piece_apply 28 (by decide) _ _ _ _ _ x0 x1 W2 x2 x3 h0 h1 hW h2 x)
theorem piece_27 (x : r0_84.shape.Idx) :
    (k0_pay62 (View.ld x0 r0_0) (View.ld x1 r0_0) (iota .tc S1x256 32 [1] iota_S1x256_d1_w32) (View.ld x2 r0_82) (View.ld x3 r0_83)) x = blockLookup x0 x1 W2 x3 (r0_84.emb x) :=
  (congrFun (pay_27 x0 x1 x2 x3) x).trans (piece_apply 27 (by decide) _ _ _ _ _ x0 x1 W2 x2 x3 h0 h1 hW h2 x)
theorem piece_26 (x : r0_81.shape.Idx) :
    (k0_pay61 (View.ld x0 r0_0) (View.ld x1 r0_0) (iota .tc S1x256 32 [1] iota_S1x256_d1_w32) (View.ld x2 r0_79) (View.ld x3 r0_80)) x = blockLookup x0 x1 W2 x3 (r0_81.emb x) :=
  (congrFun (pay_26 x0 x1 x2 x3) x).trans (piece_apply 26 (by decide) _ _ _ _ _ x0 x1 W2 x2 x3 h0 h1 hW h2 x)
theorem piece_25 (x : r0_78.shape.Idx) :
    (k0_pay60 (iota .tc S1x256 32 [1] iota_S1x256_d1_w32) (k0_pay59 (View.ld x0 r0_0) (View.ld x1 r0_0) (iota .tc S1x256 32 [1] iota_S1x256_d1_w32) (View.ld x2 r0_76)) (View.ld x3 r0_77)) x = blockLookup x0 x1 W2 x3 (r0_78.emb x) :=
  (congrFun (pay_25 x0 x1 x2 x3) x).trans (piece_apply 25 (by decide) _ _ _ _ _ x0 x1 W2 x2 x3 h0 h1 hW h2 x)
theorem piece_24 (x : r0_75.shape.Idx) :
    (k0_pay58 (iota .tc S1x256 32 [1] iota_S1x256_d1_w32) (k0_pay56 (View.ld x0 r0_0)) (k0_pay57 (View.ld x1 r0_0)) (View.ld x2 r0_73) (View.ld x3 r0_74)) x = blockLookup x0 x1 W2 x3 (r0_75.emb x) :=
  (congrFun (pay_24 x0 x1 x2 x3) x).trans (piece_apply 24 (by decide) _ _ _ _ _ x0 x1 W2 x2 x3 h0 h1 hW h2 x)
theorem piece_23 (x : r0_72.shape.Idx) :
    (k0_pay55 (View.ld x0 r0_0) (View.ld x1 r0_0) (iota .tc S1x256 32 [1] iota_S1x256_d1_w32) (View.ld x2 r0_70) (View.ld x3 r0_71)) x = blockLookup x0 x1 W2 x3 (r0_72.emb x) :=
  (congrFun (pay_23 x0 x1 x2 x3) x).trans (piece_apply 23 (by decide) _ _ _ _ _ x0 x1 W2 x2 x3 h0 h1 hW h2 x)
theorem piece_22 (x : r0_69.shape.Idx) :
    (k0_pay54 (k0_pay52 (View.ld x0 r0_0) (View.ld x1 r0_0) (iota .tc S1x256 32 [1] iota_S1x256_d1_w32) (View.ld x2 r0_67)) (k0_pay53 (iota .tc S1x256 32 [1] iota_S1x256_d1_w32)) (View.ld x3 r0_68)) x = blockLookup x0 x1 W2 x3 (r0_69.emb x) :=
  (congrFun (pay_22 x0 x1 x2 x3) x).trans (piece_apply 22 (by decide) _ _ _ _ _ x0 x1 W2 x2 x3 h0 h1 hW h2 x)
theorem piece_21 (x : r0_66.shape.Idx) :
    (k0_pay51 (iota .tc S1x256 32 [1] iota_S1x256_d1_w32) (k0_pay47 (View.ld x1 r0_0)) (k0_pay48 (View.ld x2 r0_64)) (k0_pay49 (View.ld x0 r0_0)) (k0_pay50 (iota .tc S1x256 32 [1] iota_S1x256_d1_w32)) (View.ld x3 r0_65)) x = blockLookup x0 x1 W2 x3 (r0_66.emb x) :=
  (congrFun (pay_21 x0 x1 x2 x3) x).trans (piece_apply 21 (by decide) _ _ _ _ _ x0 x1 W2 x2 x3 h0 h1 hW h2 x)
theorem piece_20 (x : r0_63.shape.Idx) :
    (k0_pay46 (View.ld x0 r0_0) (View.ld x1 r0_0) (iota .tc S1x256 32 [1] iota_S1x256_d1_w32) (View.ld x2 r0_61) (View.ld x3 r0_62)) x = blockLookup x0 x1 W2 x3 (r0_63.emb x) :=
  (congrFun (pay_20 x0 x1 x2 x3) x).trans (piece_apply 20 (by decide) _ _ _ _ _ x0 x1 W2 x2 x3 h0 h1 hW h2 x)
theorem piece_19 (x : r0_60.shape.Idx) :
    (k0_pay45 (k0_pay44 (View.ld x0 r0_0) (View.ld x1 r0_0) (iota .tc S1x256 32 [1] iota_S1x256_d1_w32) (View.ld x2 r0_58)) (View.ld x3 r0_59)) x = blockLookup x0 x1 W2 x3 (r0_60.emb x) :=
  (congrFun (pay_19 x0 x1 x2 x3) x).trans (piece_apply 19 (by decide) _ _ _ _ _ x0 x1 W2 x2 x3 h0 h1 hW h2 x)
theorem piece_18 (x : r0_57.shape.Idx) :
    (k0_pay43 (iota .tc S1x256 32 [1] iota_S1x256_d1_w32) (k0_pay41 (View.ld x1 r0_0)) (k0_pay42 (View.ld x0 r0_0) (iota .tc S1x256 32 [1] iota_S1x256_d1_w32) (View.ld x2 r0_55)) (View.ld x3 r0_56)) x = blockLookup x0 x1 W2 x3 (r0_57.emb x) :=
  (congrFun (pay_18 x0 x1 x2 x3) x).trans (piece_apply 18 (by decide) _ _ _ _ _ x0 x1 W2 x2 x3 h0 h1 hW h2 x)
theorem piece_17 (x : r0_54.shape.Idx) :
    (k0_pay40 (View.ld x0 r0_0) (View.ld x1 r0_0) (iota .tc S1x256 32 [1] iota_S1x256_d1_w32) (View.ld x2 r0_52) (View.ld x3 r0_53)) x = blockLookup x0 x1 W2 x3 (r0_54.emb x) :=
  (congrFun (pay_17 x0 x1 x2 x3) x).trans (piece_apply 17 (by decide) _ _ _ _ _ x0 x1 W2 x2 x3 h0 h1 hW h2 x)
theorem piece_16 (x : r0_51.shape.Idx) :
    (k0_pay39 (View.ld x0 r0_0) (View.ld x1 r0_0) (iota .tc S1x256 32 [1] iota_S1x256_d1_w32) (View.ld x2 r0_49) (View.ld x3 r0_50)) x = blockLookup x0 x1 W2 x3 (r0_51.emb x) :=
  (congrFun (pay_16 x0 x1 x2 x3) x).trans (piece_apply 16 (by decide) _ _ _ _ _ x0 x1 W2 x2 x3 h0 h1 hW h2 x)
theorem piece_15 (x : r0_48.shape.Idx) :
    (k0_pay38 (iota .tc S1x256 32 [1] iota_S1x256_d1_w32) (k0_pay37 (View.ld x0 r0_0) (View.ld x1 r0_0) (iota .tc S1x256 32 [1] iota_S1x256_d1_w32) (View.ld x2 r0_46)) (View.ld x3 r0_47)) x = blockLookup x0 x1 W2 x3 (r0_48.emb x) :=
  (congrFun (pay_15 x0 x1 x2 x3) x).trans (piece_apply 15 (by decide) _ _ _ _ _ x0 x1 W2 x2 x3 h0 h1 hW h2 x)
theorem piece_14 (x : r0_45.shape.Idx) :
    (k0_pay36 (iota .tc S1x256 32 [1] iota_S1x256_d1_w32) (k0_pay34 (View.ld x0 r0_0)) (k0_pay35 (View.ld x1 r0_0)) (View.ld x2 r0_43) (View.ld x3 r0_44)) x = blockLookup x0 x1 W2 x3 (r0_45.emb x) :=
  (congrFun (pay_14 x0 x1 x2 x3) x).trans (piece_apply 14 (by decide) _ _ _ _ _ x0 x1 W2 x2 x3 h0 h1 hW h2 x)
theorem piece_13 (x : r0_42.shape.Idx) :
    (k0_pay33 (View.ld x0 r0_0) (View.ld x1 r0_0) (iota .tc S1x256 32 [1] iota_S1x256_d1_w32) (View.ld x2 r0_40) (View.ld x3 r0_41)) x = blockLookup x0 x1 W2 x3 (r0_42.emb x) :=
  (congrFun (pay_13 x0 x1 x2 x3) x).trans (piece_apply 13 (by decide) _ _ _ _ _ x0 x1 W2 x2 x3 h0 h1 hW h2 x)
theorem piece_12 (x : r0_39.shape.Idx) :
    (k0_pay32 (k0_pay30 (View.ld x0 r0_0) (View.ld x1 r0_0) (iota .tc S1x256 32 [1] iota_S1x256_d1_w32) (View.ld x2 r0_37)) (k0_pay31 (iota .tc S1x256 32 [1] iota_S1x256_d1_w32)) (View.ld x3 r0_38)) x = blockLookup x0 x1 W2 x3 (r0_39.emb x) :=
  (congrFun (pay_12 x0 x1 x2 x3) x).trans (piece_apply 12 (by decide) _ _ _ _ _ x0 x1 W2 x2 x3 h0 h1 hW h2 x)
theorem piece_11 (x : r0_36.shape.Idx) :
    (k0_pay29 (iota .tc S1x256 32 [1] iota_S1x256_d1_w32) (k0_pay25 (View.ld x1 r0_0)) (k0_pay26 (View.ld x2 r0_34)) (k0_pay27 (View.ld x0 r0_0)) (k0_pay28 (iota .tc S1x256 32 [1] iota_S1x256_d1_w32)) (View.ld x3 r0_35)) x = blockLookup x0 x1 W2 x3 (r0_36.emb x) :=
  (congrFun (pay_11 x0 x1 x2 x3) x).trans (piece_apply 11 (by decide) _ _ _ _ _ x0 x1 W2 x2 x3 h0 h1 hW h2 x)
theorem piece_10 (x : r0_33.shape.Idx) :
    (k0_pay24 (View.ld x0 r0_0) (View.ld x1 r0_0) (iota .tc S1x256 32 [1] iota_S1x256_d1_w32) (View.ld x2 r0_31) (View.ld x3 r0_32)) x = blockLookup x0 x1 W2 x3 (r0_33.emb x) :=
  (congrFun (pay_10 x0 x1 x2 x3) x).trans (piece_apply 10 (by decide) _ _ _ _ _ x0 x1 W2 x2 x3 h0 h1 hW h2 x)
theorem piece_9 (x : r0_30.shape.Idx) :
    (k0_pay23 (k0_pay22 (View.ld x0 r0_0) (View.ld x1 r0_0) (iota .tc S1x256 32 [1] iota_S1x256_d1_w32) (View.ld x2 r0_28)) (View.ld x3 r0_29)) x = blockLookup x0 x1 W2 x3 (r0_30.emb x) :=
  (congrFun (pay_9 x0 x1 x2 x3) x).trans (piece_apply 9 (by decide) _ _ _ _ _ x0 x1 W2 x2 x3 h0 h1 hW h2 x)
theorem piece_8 (x : r0_27.shape.Idx) :
    (k0_pay21 (iota .tc S1x256 32 [1] iota_S1x256_d1_w32) (k0_pay19 (View.ld x1 r0_0)) (k0_pay20 (View.ld x0 r0_0) (iota .tc S1x256 32 [1] iota_S1x256_d1_w32) (View.ld x2 r0_25)) (View.ld x3 r0_26)) x = blockLookup x0 x1 W2 x3 (r0_27.emb x) :=
  (congrFun (pay_8 x0 x1 x2 x3) x).trans (piece_apply 8 (by decide) _ _ _ _ _ x0 x1 W2 x2 x3 h0 h1 hW h2 x)
theorem piece_7 (x : r0_24.shape.Idx) :
    (k0_pay18 (View.ld x0 r0_0) (View.ld x1 r0_0) (iota .tc S1x256 32 [1] iota_S1x256_d1_w32) (View.ld x2 r0_22) (View.ld x3 r0_23)) x = blockLookup x0 x1 W2 x3 (r0_24.emb x) :=
  (congrFun (pay_7 x0 x1 x2 x3) x).trans (piece_apply 7 (by decide) _ _ _ _ _ x0 x1 W2 x2 x3 h0 h1 hW h2 x)
theorem piece_6 (x : r0_21.shape.Idx) :
    (k0_pay17 (View.ld x0 r0_0) (View.ld x1 r0_0) (iota .tc S1x256 32 [1] iota_S1x256_d1_w32) (View.ld x2 r0_19) (View.ld x3 r0_20)) x = blockLookup x0 x1 W2 x3 (r0_21.emb x) :=
  (congrFun (pay_6 x0 x1 x2 x3) x).trans (piece_apply 6 (by decide) _ _ _ _ _ x0 x1 W2 x2 x3 h0 h1 hW h2 x)
theorem piece_5 (x : r0_18.shape.Idx) :
    (k0_pay16 (iota .tc S1x256 32 [1] iota_S1x256_d1_w32) (k0_pay15 (View.ld x0 r0_0) (View.ld x1 r0_0) (iota .tc S1x256 32 [1] iota_S1x256_d1_w32) (View.ld x2 r0_16)) (View.ld x3 r0_17)) x = blockLookup x0 x1 W2 x3 (r0_18.emb x) :=
  (congrFun (pay_5 x0 x1 x2 x3) x).trans (piece_apply 5 (by decide) _ _ _ _ _ x0 x1 W2 x2 x3 h0 h1 hW h2 x)
theorem piece_4 (x : r0_15.shape.Idx) :
    (k0_pay14 (iota .tc S1x256 32 [1] iota_S1x256_d1_w32) (k0_pay12 (View.ld x0 r0_0)) (k0_pay13 (View.ld x1 r0_0)) (View.ld x2 r0_13) (View.ld x3 r0_14)) x = blockLookup x0 x1 W2 x3 (r0_15.emb x) :=
  (congrFun (pay_4 x0 x1 x2 x3) x).trans (piece_apply 4 (by decide) _ _ _ _ _ x0 x1 W2 x2 x3 h0 h1 hW h2 x)
theorem piece_3 (x : r0_12.shape.Idx) :
    (k0_pay11 (View.ld x0 r0_0) (View.ld x1 r0_0) (iota .tc S1x256 32 [1] iota_S1x256_d1_w32) (View.ld x2 r0_10) (View.ld x3 r0_11)) x = blockLookup x0 x1 W2 x3 (r0_12.emb x) :=
  (congrFun (pay_3 x0 x1 x2 x3) x).trans (piece_apply 3 (by decide) _ _ _ _ _ x0 x1 W2 x2 x3 h0 h1 hW h2 x)
theorem piece_2 (x : r0_9.shape.Idx) :
    (k0_pay10 (k0_pay8 (View.ld x0 r0_0) (View.ld x1 r0_0) (iota .tc S1x256 32 [1] iota_S1x256_d1_w32) (View.ld x2 r0_7)) (k0_pay9 (iota .tc S1x256 32 [1] iota_S1x256_d1_w32)) (View.ld x3 r0_8)) x = blockLookup x0 x1 W2 x3 (r0_9.emb x) :=
  (congrFun (pay_2 x0 x1 x2 x3) x).trans (piece_apply 2 (by decide) _ _ _ _ _ x0 x1 W2 x2 x3 h0 h1 hW h2 x)
theorem piece_1 (x : r0_6.shape.Idx) :
    (k0_pay7 (iota .tc S1x256 32 [1] iota_S1x256_d1_w32) (k0_pay3 (View.ld x1 r0_0)) (k0_pay4 (View.ld x2 r0_4)) (k0_pay5 (View.ld x0 r0_0)) k0_pay6 (View.ld x3 r0_5)) x = blockLookup x0 x1 W2 x3 (r0_6.emb x) :=
  (congrFun (pay_1 x0 x1 x2 x3) x).trans (piece_apply 1 (by decide) _ _ _ _ _ x0 x1 W2 x2 x3 h0 h1 hW h2 x)
theorem piece_0 (x : r0_3.shape.Idx) :
    (k0_pay2 (View.ld x0 r0_0) (View.ld x1 r0_0) (View.ld x2 r0_1) (View.ld x3 r0_2)) x = blockLookup x0 x1 W2 x3 (r0_3.emb x) :=
  (congrFun (pay_0 x0 x1 x2 x3) x).trans (piece_apply 0 (by decide) _ _ _ _ _ x0 x1 W2 x2 x3 h0 h1 hW h2 x)

/-- THE BLOCK AFTER THE BODY: the canon of the 128 column stores is the block look-up at every position (each store is
    its column of that one function, and the stores cover the block). -/
theorem out_block_apply (y : S1024x128.Idx) : out0_4 x0 x1 x2 x3 y = blockLookup x0 x1 W2 x3 y := by
  unfold out0_4
  refine View.canon_apply_of_pieces (blockLookup x0 x1 W2 x3) _ ?_ y (cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine pieces_cons _ _ (piece_127 x0 x1 W2 x2 x3 h0 h1 hW h2) ?_
  refine pieces_cons _ _ (piece_126 x0 x1 W2 x2 x3 h0 h1 hW h2) ?_
  refine pieces_cons _ _ (piece_125 x0 x1 W2 x2 x3 h0 h1 hW h2) ?_
  refine pieces_cons _ _ (piece_124 x0 x1 W2 x2 x3 h0 h1 hW h2) ?_
  refine pieces_cons _ _ (piece_123 x0 x1 W2 x2 x3 h0 h1 hW h2) ?_
  refine pieces_cons _ _ (piece_122 x0 x1 W2 x2 x3 h0 h1 hW h2) ?_
  refine pieces_cons _ _ (piece_121 x0 x1 W2 x2 x3 h0 h1 hW h2) ?_
  refine pieces_cons _ _ (piece_120 x0 x1 W2 x2 x3 h0 h1 hW h2) ?_
  refine pieces_cons _ _ (piece_119 x0 x1 W2 x2 x3 h0 h1 hW h2) ?_
  refine pieces_cons _ _ (piece_118 x0 x1 W2 x2 x3 h0 h1 hW h2) ?_
  refine pieces_cons _ _ (piece_117 x0 x1 W2 x2 x3 h0 h1 hW h2) ?_
  refine pieces_cons _ _ (piece_116 x0 x1 W2 x2 x3 h0 h1 hW h2) ?_
  refine pieces_cons _ _ (piece_115 x0 x1 W2 x2 x3 h0 h1 hW h2) ?_
  refine pieces_cons _ _ (piece_114 x0 x1 W2 x2 x3 h0 h1 hW h2) ?_
  refine pieces_cons _ _ (piece_113 x0 x1 W2 x2 x3 h0 h1 hW h2) ?_
  refine pieces_cons _ _ (piece_112 x0 x1 W2 x2 x3 h0 h1 hW h2) ?_
  refine pieces_cons _ _ (piece_111 x0 x1 W2 x2 x3 h0 h1 hW h2) ?_
  refine pieces_cons _ _ (piece_110 x0 x1 W2 x2 x3 h0 h1 hW h2) ?_
  refine pieces_cons _ _ (piece_109 x0 x1 W2 x2 x3 h0 h1 hW h2) ?_
  refine pieces_cons _ _ (piece_108 x0 x1 W2 x2 x3 h0 h1 hW h2) ?_
  refine pieces_cons _ _ (piece_107 x0 x1 W2 x2 x3 h0 h1 hW h2) ?_
  refine pieces_cons _ _ (piece_106 x0 x1 W2 x2 x3 h0 h1 hW h2) ?_
  refine pieces_cons _ _ (piece_105 x0 x1 W2 x2 x3 h0 h1 hW h2) ?_
  refine pieces_cons _ _ (piece_104 x0 x1 W2 x2 x3 h0 h1 hW h2) ?_
  refine pieces_cons _ _ (piece_103 x0 x1 W2 x2 x3 h0 h1 hW h2) ?_
  refine pieces_cons _ _ (piece_102 x0 x1 W2 x2 x3 h0 h1 hW h2) ?_
  refine pieces_cons _ _ (piece_101 x0 x1 W2 x2 x3 h0 h1 hW h2) ?_
  refine pieces_cons _ _ (piece_100 x0 x1 W2 x2 x3 h0 h1 hW h2) ?_
  refine pieces_cons _ _ (piece_99 x0 x1 W2 x2 x3 h0 h1 hW h2) ?_
  refine pieces_cons _ _ (piece_98 x0 x1 W2 x2 x3 h0 h1 hW h2) ?_
  refine pieces_cons _ _ (piece_97 x0 x1 W2 x2 x3 h0 h1 hW h2) ?_
  refine pieces_cons _ _ (piece_96 x0 x1 W2 x2 x3 h0 h1 hW h2) ?_
  refine pieces_cons _ _ (piece_95 x0 x1 W2 x2 x3 h0 h1 hW h2) ?_
  refine pieces_cons _ _ (piece_94 x0 x1 W2 x2 x3 h0 h1 hW h2) ?_
  refine pieces_cons _ _ (piece_93 x0 x1 W2 x2 x3 h0 h1 hW h2) ?_
  refine pieces_cons _ _ (piece_92 x0 x1 W2 x2 x3 h0 h1 hW h2) ?_
  refine pieces_cons _ _ (piece_91 x0 x1 W2 x2 x3 h0 h1 hW h2) ?_
  refine pieces_cons _ _ (piece_90 x0 x1 W2 x2 x3 h0 h1 hW h2) ?_
  refine pieces_cons _ _ (piece_89 x0 x1 W2 x2 x3 h0 h1 hW h2) ?_
  refine pieces_cons _ _ (piece_88 x0 x1 W2 x2 x3 h0 h1 hW h2) ?_
  refine pieces_cons _ _ (piece_87 x0 x1 W2 x2 x3 h0 h1 hW h2) ?_
  refine pieces_cons _ _ (piece_86 x0 x1 W2 x2 x3 h0 h1 hW h2) ?_
  refine pieces_cons _ _ (piece_85 x0 x1 W2 x2 x3 h0 h1 hW h2) ?_
  refine pieces_cons _ _ (piece_84 x0 x1 W2 x2 x3 h0 h1 hW h2) ?_
  refine pieces_cons _ _ (piece_83 x0 x1 W2 x2 x3 h0 h1 hW h2) ?_
  refine pieces_cons _ _ (piece_82 x0 x1 W2 x2 x3 h0 h1 hW h2) ?_
  refine pieces_cons _ _ (piece_81 x0 x1 W2 x2 x3 h0 h1 hW h2) ?_
  refine pieces_cons _ _ (piece_80 x0 x1 W2 x2 x3 h0 h1 hW h2) ?_
  refine pieces_cons _ _ (piece_79 x0 x1 W2 x2 x3 h0 h1 hW h2) ?_
  refine pieces_cons _ _ (piece_78 x0 x1 W2 x2 x3 h0 h1 hW h2) ?_
  refine pieces_cons _ _ (piece_77 x0 x1 W2 x2 x3 h0 h1 hW h2) ?_
  refine pieces_cons _ _ (piece_76 x0 x1 W2 x2 x3 h0 h1 hW h2) ?_
  refine pieces_cons _ _ (piece_75 x0 x1 W2 x2 x3 h0 h1 hW h2) ?_
  refine pieces_cons _ _ (piece_74 x0 x1 W2 x2 x3 h0 h1 hW h2) ?_
  refine pieces_cons _ _ (piece_73 x0 x1 W2 x2 x3 h0 h1 hW h2) ?_
  refine pieces_cons _ _ (piece_72 x0 x1 W2 x2 x3 h0 h1 hW h2) ?_
  refine pieces_cons _ _ (piece_71 x0 x1 W2 x2 x3 h0 h1 hW h2) ?_
  refine pieces_cons _ _ (piece_70 x0 x1 W2 x2 x3 h0 h1 hW h2) ?_
  refine pieces_cons _ _ (piece_69 x0 x1 W2 x2 x3 h0 h1 hW h2) ?_
  refine pieces_cons _ _ (piece_68 x0 x1 W2 x2 x3 h0 h1 hW h2) ?_
  refine pieces_cons _ _ (piece_67 x0 x1 W2 x2 x3 h0 h1 hW h2) ?_
  refine pieces_cons _ _ (piece_66 x0 x1 W2 x2 x3 h0 h1 hW h2) ?_
  refine pieces_cons _ _ (piece_65 x0 x1 W2 x2 x3 h0 h1 hW h2) ?_
  refine pieces_cons _ _ (piece_64 x0 x1 W2 x2 x3 h0 h1 hW h2) ?_
  refine pieces_cons _ _ (piece_63 x0 x1 W2 x2 x3 h0 h1 hW h2) ?_
  refine pieces_cons _ _ (piece_62 x0 x1 W2 x2 x3 h0 h1 hW h2) ?_
  refine pieces_cons _ _ (piece_61 x0 x1 W2 x2 x3 h0 h1 hW h2) ?_
  refine pieces_cons _ _ (piece_60 x0 x1 W2 x2 x3 h0 h1 hW h2) ?_
  refine pieces_cons _ _ (piece_59 x0 x1 W2 x2 x3 h0 h1 hW h2) ?_
  refine pieces_cons _ _ (piece_58 x0 x1 W2 x2 x3 h0 h1 hW h2) ?_
  refine pieces_cons _ _ (piece_57 x0 x1 W2 x2 x3 h0 h1 hW h2) ?_
  refine pieces_cons _ _ (piece_56 x0 x1 W2 x2 x3 h0 h1 hW h2) ?_
  refine pieces_cons _ _ (piece_55 x0 x1 W2 x2 x3 h0 h1 hW h2) ?_
  refine pieces_cons _ _ (piece_54 x0 x1 W2 x2 x3 h0 h1 hW h2) ?_
  refine pieces_cons _ _ (piece_53 x0 x1 W2 x2 x3 h0 h1 hW h2) ?_
  refine pieces_cons _ _ (piece_52 x0 x1 W2 x2 x3 h0 h1 hW h2) ?_
  refine pieces_cons _ _ (piece_51 x0 x1 W2 x2 x3 h0 h1 hW h2) ?_
  refine pieces_cons _ _ (piece_50 x0 x1 W2 x2 x3 h0 h1 hW h2) ?_
  refine pieces_cons _ _ (piece_49 x0 x1 W2 x2 x3 h0 h1 hW h2) ?_
  refine pieces_cons _ _ (piece_48 x0 x1 W2 x2 x3 h0 h1 hW h2) ?_
  refine pieces_cons _ _ (piece_47 x0 x1 W2 x2 x3 h0 h1 hW h2) ?_
  refine pieces_cons _ _ (piece_46 x0 x1 W2 x2 x3 h0 h1 hW h2) ?_
  refine pieces_cons _ _ (piece_45 x0 x1 W2 x2 x3 h0 h1 hW h2) ?_
  refine pieces_cons _ _ (piece_44 x0 x1 W2 x2 x3 h0 h1 hW h2) ?_
  refine pieces_cons _ _ (piece_43 x0 x1 W2 x2 x3 h0 h1 hW h2) ?_
  refine pieces_cons _ _ (piece_42 x0 x1 W2 x2 x3 h0 h1 hW h2) ?_
  refine pieces_cons _ _ (piece_41 x0 x1 W2 x2 x3 h0 h1 hW h2) ?_
  refine pieces_cons _ _ (piece_40 x0 x1 W2 x2 x3 h0 h1 hW h2) ?_
  refine pieces_cons _ _ (piece_39 x0 x1 W2 x2 x3 h0 h1 hW h2) ?_
  refine pieces_cons _ _ (piece_38 x0 x1 W2 x2 x3 h0 h1 hW h2) ?_
  refine pieces_cons _ _ (piece_37 x0 x1 W2 x2 x3 h0 h1 hW h2) ?_
  refine pieces_cons _ _ (piece_36 x0 x1 W2 x2 x3 h0 h1 hW h2) ?_
  refine pieces_cons _ _ (piece_35 x0 x1 W2 x2 x3 h0 h1 hW h2) ?_
  refine pieces_cons _ _ (piece_34 x0 x1 W2 x2 x3 h0 h1 hW h2) ?_
  refine pieces_cons _ _ (piece_33 x0 x1 W2 x2 x3 h0 h1 hW h2) ?_
  refine pieces_cons _ _ (piece_32 x0 x1 W2 x2 x3 h0 h1 hW h2) ?_
  refine pieces_cons _ _ (piece_31 x0 x1 W2 x2 x3 h0 h1 hW h2) ?_
  refine pieces_cons _ _ (piece_30 x0 x1 W2 x2 x3 h0 h1 hW h2) ?_
  refine pieces_cons _ _ (piece_29 x0 x1 W2 x2 x3 h0 h1 hW h2) ?_
  refine pieces_cons _ _ (piece_28 x0 x1 W2 x2 x3 h0 h1 hW h2) ?_
  refine pieces_cons _ _ (piece_27 x0 x1 W2 x2 x3 h0 h1 hW h2) ?_
  refine pieces_cons _ _ (piece_26 x0 x1 W2 x2 x3 h0 h1 hW h2) ?_
  refine pieces_cons _ _ (piece_25 x0 x1 W2 x2 x3 h0 h1 hW h2) ?_
  refine pieces_cons _ _ (piece_24 x0 x1 W2 x2 x3 h0 h1 hW h2) ?_
  refine pieces_cons _ _ (piece_23 x0 x1 W2 x2 x3 h0 h1 hW h2) ?_
  refine pieces_cons _ _ (piece_22 x0 x1 W2 x2 x3 h0 h1 hW h2) ?_
  refine pieces_cons _ _ (piece_21 x0 x1 W2 x2 x3 h0 h1 hW h2) ?_
  refine pieces_cons _ _ (piece_20 x0 x1 W2 x2 x3 h0 h1 hW h2) ?_
  refine pieces_cons _ _ (piece_19 x0 x1 W2 x2 x3 h0 h1 hW h2) ?_
  refine pieces_cons _ _ (piece_18 x0 x1 W2 x2 x3 h0 h1 hW h2) ?_
  refine pieces_cons _ _ (piece_17 x0 x1 W2 x2 x3 h0 h1 hW h2) ?_
  refine pieces_cons _ _ (piece_16 x0 x1 W2 x2 x3 h0 h1 hW h2) ?_
  refine pieces_cons _ _ (piece_15 x0 x1 W2 x2 x3 h0 h1 hW h2) ?_
  refine pieces_cons _ _ (piece_14 x0 x1 W2 x2 x3 h0 h1 hW h2) ?_
  refine pieces_cons _ _ (piece_13 x0 x1 W2 x2 x3 h0 h1 hW h2) ?_
  refine pieces_cons _ _ (piece_12 x0 x1 W2 x2 x3 h0 h1 hW h2) ?_
  refine pieces_cons _ _ (piece_11 x0 x1 W2 x2 x3 h0 h1 hW h2) ?_
  refine pieces_cons _ _ (piece_10 x0 x1 W2 x2 x3 h0 h1 hW h2) ?_
  refine pieces_cons _ _ (piece_9 x0 x1 W2 x2 x3 h0 h1 hW h2) ?_
  refine pieces_cons _ _ (piece_8 x0 x1 W2 x2 x3 h0 h1 hW h2) ?_
  refine pieces_cons _ _ (piece_7 x0 x1 W2 x2 x3 h0 h1 hW h2) ?_
  refine pieces_cons _ _ (piece_6 x0 x1 W2 x2 x3 h0 h1 hW h2) ?_
  refine pieces_cons _ _ (piece_5 x0 x1 W2 x2 x3 h0 h1 hW h2) ?_
  refine pieces_cons _ _ (piece_4 x0 x1 W2 x2 x3 h0 h1 hW h2) ?_
  refine pieces_cons _ _ (piece_3 x0 x1 W2 x2 x3 h0 h1 hW h2) ?_
  refine pieces_cons _ _ (piece_2 x0 x1 W2 x2 x3 h0 h1 hW h2) ?_
  refine pieces_cons _ _ (piece_1 x0 x1 W2 x2 x3 h0 h1 hW h2) ?_
  refine pieces_cons _ _ (piece_0 x0 x1 W2 x2 x3 h0 h1 hW h2) ?_
  exact fun q hq => absurd hq List.not_mem_nil

end AtIdeal

end Cert.KernelIdeal.Gen

end
-- ==== Proof.KernelValue.lean ====
/-
  The kernel's result array, whole. One grid point (a tile of 128 channels, a tile of 1024 rows) stages the blocks of
  `left` and `right` at (row tile, channel tile), the channel tile's 128 tables and its 128 rows of the code book, and
  writes back the block of the result at (row tile, channel tile). The body leaves in that block the block look-up of
  the staged blocks (the table of the 128 column stores); read through the blocks' places in the arrays, the block look-up
  at a position of the block is the look-up over the whole arrays at that position's place (`flushed_eq`): the two word
  blocks sit where the result block sits, and table `c` / code-book row `c` of the staged channel tile are table / row
  `128 · tile + c` of the arrays. The result blocks tile the array (`cover`), so the array ends at the look-up (`final`).
  The tables reach the kernel converted to floats by the one host operation before the call; a word's float is its
  signed value (`table_eq`).
-/
import proofs.«419908_j28406913696453_3_alg».proof.Proof.Gen.KernelIdeal.Value
import proofs.«419908_j28406913696453_3_alg».proof.Proof.ColTable
import proofs.«419908_j28406913696453_3_alg».proof.Proof.Lookup
import Idealize.ShloMosaic.Lib.StableHlo.Run

noncomputable section

namespace Cert.KernelIdeal.Whole

open Cert.KernelIdeal Cert.KernelIdeal.Gen Cert.Lookup Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- `left` as launched. -/
abbrev A0 (c : Dev nD) : IVec Rows 32 := m ((c : Thread nD τ).loc main_arg0)
/-- `right` as launched. -/
abbrev A1 (c : Dev nD) : IVec Rows 32 := m ((c : Thread nD τ).loc main_arg1)
/-- The tables of codes as launched. -/
abbrev A2 (c : Dev nD) : IVec Tables 32 := m ((c : Thread nD τ).loc main_arg2)
/-- The code book as launched. -/
abbrev A3 (c : Dev nD) : FVec Ideal Book .f32 := m ((c : Thread nD τ).loc main_arg3)

/-- The tables as the kernel finds them: each word converted to the float of its signed value. -/
theorem table_eq (c : Dev nD) :
    (V m c main_v0 : S256x256x256.Idx → EReal) = fun i => (((A2 m c i).toInt : ℝ) : EReal) := by
  dsimp only [Gen.V, Gen.hostOps0]; after_results; rfl

/-! ## Where a grid point's blocks sit -/

/-- The printed index maps, decided over the 512 grid points: the two word blocks sit at the result block's place; the
    staged tables and code-book rows are those of the result block's channel tile, from their first entry on. -/
theorem idx_facts : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 3) = win0_4.index t (1 : Fin 2) ∧ win0_2.index t (1 : Fin 3) = 0 ∧ win0_2.index t (2 : Fin 3) = 0
    ∧ win0_3.index t (0 : Fin 2) = win0_4.index t (1 : Fin 2) ∧ win0_3.index t (1 : Fin 2) = 0 :=
  (by decide +kernel : ∀ t : Fin grid0.N, _)

theorem lt_N (q0 : Fin 256) (q1 : Fin 2) : q1.val * 256 + q0.val < grid0.N := by
  have h0 := q0.isLt; have h1 := q1.isLt; rw [N_0]; omega

/-- The grid runs the row tiles fastest: point `256 · (channel tile) + (row tile)` writes the block at
    (row tile, channel tile). -/
theorem onto_aux : ∀ (q0 : Fin 256) (q1 : Fin 2),
    win0_4.index ⟨q1.val * 256 + q0.val, lt_N q0 q1⟩ = ![q0.val, q1.val] := by decide +kernel

/-- Every block of the result array is SOME point's. -/
theorem idx_onto (q0 : Fin 256) (q1 : Fin 2) : ∃ t : Fin cfg0.N, win0_4.index t = ![q0.val, q1.val] :=
  ⟨⟨q1.val * 256 + q0.val, lt_N q0 q1⟩, onto_aux q0 q1⟩

section Point
variable (c : Dev nD) (t : Fin cfg0.N)

/-- The place in the arrays of position `y` of the result block of point `t`. -/
abbrev place (y : S1024x128.Idx) : S262144x256.Idx := ((cfg0.win 4).blk t).view.emb y

theorem place_val0 (y : S1024x128.Idx) : ((place t y) 0).val = win0_4.index t (0 : Fin 2) * 1024 + 1 * (y 0).val := rfl
theorem place_val1 (y : S1024x128.Idx) : ((place t y) 1).val = win0_4.index t (1 : Fin 2) * 128 + 1 * (y 1).val := rfl

/-- The block of `left` sits at the result block's place. -/
theorem emb0 (y : S1024x128.Idx) : ((cfg0.win 0).blk t).view.emb y = place t y := by
  obtain ⟨e0, e1, -⟩ := idx_facts t
  funext a; apply Fin.ext
  match a with
  | ⟨0, _⟩ => show win0_0.index t (0 : Fin 2) * 1024 + 1 * (y 0).val = win0_4.index t (0 : Fin 2) * 1024 + 1 * (y 0).val; omega
  | ⟨1, _⟩ => show win0_0.index t (1 : Fin 2) * 128 + 1 * (y 1).val = win0_4.index t (1 : Fin 2) * 128 + 1 * (y 1).val; omega

/-- The block of `right` sits at the result block's place. -/
theorem emb1 (y : S1024x128.Idx) : ((cfg0.win 1).blk t).view.emb y = place t y := by
  obtain ⟨-, -, e0, e1, -⟩ := idx_facts t
  funext a; apply Fin.ext
  match a with
  | ⟨0, _⟩ => show win0_1.index t (0 : Fin 2) * 1024 + 1 * (y 0).val = win0_4.index t (0 : Fin 2) * 1024 + 1 * (y 0).val; omega
  | ⟨1, _⟩ => show win0_1.index t (1 : Fin 2) * 128 + 1 * (y 1).val = win0_4.index t (1 : Fin 2) * 128 + 1 * (y 1).val; omega

/-- Table `c` of the staged tables, for `c` the block channel of `y`, is the table of `y`'s place's channel. -/
theorem emb2 (y : S1024x128.Idx) (a b : Fin 256) :
    ((cfg0.win 2).blk t).view.emb (ix3 (bchan y) a b) = ix3 (chan (place t y)) a b := by
  obtain ⟨-, -, -, -, e0, e1, e2, -⟩ := idx_facts t
  funext d; apply Fin.ext
  match d with
  | ⟨0, _⟩ => show win0_2.index t (0 : Fin 3) * 128 + 1 * (y 1).val = win0_4.index t (1 : Fin 2) * 128 + 1 * (y 1).val; omega
  | ⟨1, _⟩ => show win0_2.index t (1 : Fin 3) * 256 + 1 * a.val = a.val; omega
  | ⟨2, _⟩ => show win0_2.index t (2 : Fin 3) * 256 + 1 * b.val = b.val; omega

/-- Row `c` of the staged code-book rows is the row of `y`'s place's channel. -/
theorem emb3 (y : S1024x128.Idx) (k : Fin 256) :
    ((cfg0.win 3).blk t).view.emb (ix2 (bchan y) k) = ix2 (chan (place t y)) k := by
  obtain ⟨-, -, -, -, -, -, -, e0, e1⟩ := idx_facts t
  funext d; apply Fin.ext
  match d with
  | ⟨0, _⟩ => show win0_3.index t (0 : Fin 2) * 128 + 1 * (y 1).val = win0_4.index t (1 : Fin 2) * 128 + 1 * (y 1).val; omega
  | ⟨1, _⟩ => show win0_3.index t (1 : Fin 2) * 256 + 1 * k.val = k.val; omega

/-- The staged blocks, each at its literal type. -/
abbrev lblk : Vec Ideal S1024x128 .i32 := iblk m c 0 t
abbrev rblk : Vec Ideal S1024x128 .i32 := iblk m c 1 t
abbrev tblk : Vec Ideal S128x256x256 .bf16 := iblk m c 2 t
abbrev cblk : Vec Ideal S128x256 .f32 := iblk m c 3 t
/-- The staged tables' words, before the conversion. -/
abbrev wblk : IVec S128x256x256 32 := fun i => A2 m c (((cfg0.win 2).blk t).view.emb i)

theorem lblk_apply (y : S1024x128.Idx) : lblk m c t y = A0 m c (place t y) := by
  show V m c main_arg0 (((cfg0.win 0).blk t).view.emb y) = _
  rw [V_main_arg0, emb0]
theorem rblk_apply (y : S1024x128.Idx) : rblk m c t y = A1 m c (place t y) := by
  show V m c main_arg1 (((cfg0.win 1).blk t).view.emb y) = _
  rw [V_main_arg1, emb1]
theorem tblk_apply (i : S128x256x256.Idx) : tblk m c t i = (((wblk m c t i).toInt : ℝ) : EReal) := by
  show (V m c main_v0 : S256x256x256.Idx → EReal) (((cfg0.win 2).blk t).view.emb i) = _
  rw [table_eq]
theorem cblk_apply (i : S128x256.Idx) : cblk m c t i = A3 m c (((cfg0.win 3).blk t).view.emb i) := by
  show V m c main_arg3 (((cfg0.win 3).blk t).view.emb i) = _
  rw [V_main_arg3]

/-- WHAT POINT `t` WRITES BACK is block `t` of the look-up over the whole arrays. -/
theorem flushed_eq (h : InRange (A0 m c) (A1 m c) (A2 m c)) :
    (dats m 0 c).flushed 4 t
      = ((cfg0.win 4).blk t).view.read (Elt Ideal) (lookup (A0 m c) (A1 m c) (A2 m c) (A3 m c)) := by
  rw [Value.flushed4]
  funext y
  show out0_4 (lblk m c t) (rblk m c t) (tblk m c t) (cblk m c t) y
    = lookup (A0 m c) (A1 m c) (A2 m c) (A3 m c) (place t y)
  refine (out_block_apply (lblk m c t) (rblk m c t) (wblk m c t) (tblk m c t) (cblk m c t)
    (fun y => by rw [lblk_apply]; exact h.left _) (fun y => by rw [rblk_apply]; exact h.right _)
    (fun i => h.table _) (tblk_apply m c t) y).trans ?_
  unfold blockLookup lookup
  rw [lblk_apply, rblk_apply]
  generalize pos (A0 m c (place t y)) = l
  generalize pos (A1 m c (place t y)) = q
  show cblk m c t (ix2 (bchan y) (pos (A2 m c (((cfg0.win 2).blk t).view.emb (ix3 (bchan y) l q))))) = _
  rw [emb2]
  generalize pos (A2 m c (ix3 (chan (place t y)) l q)) = k
  rw [cblk_apply, emb3]

end Point

/-! ## The blocks tile the array -/

/-- An index of the array is in point `t`'s block iff each coordinate is in the block's range on its axis. -/
theorem mem_blk (t : Fin cfg0.N) (i : S262144x256.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v1).slice (win0_4.rect t)).set ↔ _
  rw [View.set_slice_whole, Rect.mem_set_unit]
  exact Iff.rfl

/-- Every index of the result array is in some point's block: row `n` in row tile `n / 1024`, channel `c` in channel
    tile `c / 128`. -/
theorem cover (i : S262144x256.Idx) :
    ∃ t : Fin cfg0.N, (cfg0.win 4).flush t = true ∧ i ∈ ((cfg0.win 4).blk t).view.set := by
  have hi0 : (i 0).val < 262144 := (i 0).isLt
  have hi1 : (i 1).val < 256 := (i 1).isLt
  obtain ⟨t, ht⟩ := idx_onto ⟨(i 0).val / 1024, by omega⟩ ⟨(i 1).val / 128, by omega⟩
  have q0 : win0_4.index t (0 : Fin 2) = (i 0).val / 1024 := congrFun ht 0
  have q1 : win0_4.index t (1 : Fin 2) = (i 1).val / 128 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 128 ≤ (i 1).val ∧ (i 1).val < win0_4.index t (1 : Fin 2) * 128 + 128; omega

/-- THE ARRAY after the run is the look-up over the argument arrays. -/
theorem final (c : Dev nD) (h : InRange (A0 m c) (A1 m c) (A2 m c)) :
    (dats m 0 c).arrAt 4 cfg0.N = lookup (A0 m c) (A1 m c) (A2 m c) (A3 m c) :=
  (dats m 0 c).arrAt_eq_of_cover 4 (lookup (A0 m c) (A1 m c) (A2 m c) (A3 m c)) (fun t _ => flushed_eq m c t h) cover

/-! ## The run, read -/

/-- The frame run re-posted: under the range hypotheses the result array ends at the look-up, the arguments unchanged. -/
theorem run (h : ∀ c : Dev nD, InRange (A0 m c) (A1 m c) (A2 m c)) :
    θ_run defs (onTc (τ := τ) (main (F := Ideal))) ⟨m, fun _ => 0, ρ⟩ fun r => ∀ c : Dev nD,
      r.2.mem ((c : Thread nD τ).loc main_v1) = lookup (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r hr c => ⟨(hr c).1.trans (final m c (h c)), (hr c).2⟩) (Value.run_blocks m ρ)

end Cert.KernelIdeal.Whole

end
-- ==== Proof.LibSsa.lean ====
/-
  General lemmas about a straight line of host operations in static single assignment: every operation writes one
  buffer of its own, and no buffer is written twice. In such a line the contents a buffer holds at the end are decided
  where it is written: the operation's function applied to what its operands hold AT THE END, since nothing after an
  operand's own writer writes it again. One equation per operation, each about the fold of the whole line, none
  mentioning the rest of the line.
-/
import Idealize.ShloMosaic.Lib.StableHlo.Run

namespace Idealize.ShloMosaic.StableHlo

open Idealize.ShloMosaic Idealize.SL.Sem

variable {τ : Topo} {sig : RefSig} {Val : EltTy → Type}

/-- The line's operations write, one each and in order, exactly the references of the list `W`: the `k`-th operation
    writes the `k`-th reference and nothing else. -/
def WritesAre (ops : List (HloOp τ sig Val)) (W : List (Ref sig .tc)) : Prop :=
  List.Forall₂ (fun op w => op.writes = {(Proc.devRef .tc w : DevRef τ sig)}) ops W

/-- The fold over two lines one after the other is the second line's fold from where the first ends. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- What remains of the line after its first `j` operations writes what remains of the list. -/
theorem WritesAre.drop {ops : List (HloOp τ sig Val)} {W : List (Ref sig .tc)} (hW : WritesAre ops W) (j : ℕ) :
    WritesAre (ops.drop j) (W.drop j) := by
  unfold WritesAre at hW ⊢
  induction hW generalizing j with
  | nil => simp only [List.drop_nil]; exact List.Forall₂.nil
  | cons h t ih =>
    cases j with
    | zero => exact List.Forall₂.cons h t
    | succ j => simpa only [List.drop_succ_cons] using ih j

/-- A reference the line never writes holds at the end what it held at the start. -/
theorem after_keep {ops : List (HloOp τ sig Val)} {W : List (Ref sig .tc)} (hW : WritesAre ops W)
    (F0 : Valuation τ sig Val) {r : Ref sig .tc} (hr : r ∉ W) :
    after ops F0 (Proc.devRef .tc r) = F0 (Proc.devRef .tc r) := by
  unfold WritesAre at hW
  induction hW generalizing F0 with
  | nil => rfl
  | cons h _ ih =>
    rw [after_cons, ih _ fun hm => hr (List.mem_cons_of_mem _ hm), HloOp.result_of_not_mem]
    rw [h, Finset.mem_singleton]
    exact fun e => hr (Proc.devRef_injective _ e ▸ List.mem_cons_self)

/-- A reference no operation from the `k`-th on writes holds at the end what it held after the first `k` operations. -/
theorem after_eq_take {ops : List (HloOp τ sig Val)} {W : List (Ref sig .tc)} (hW : WritesAre ops W)
    (F0 : Valuation τ sig Val) (k : ℕ) {r : Ref sig .tc} (hr : r ∉ W.drop k) :
    after ops F0 (Proc.devRef .tc r) = after (ops.take k) F0 (Proc.devRef .tc r) := by
  conv_lhs => rw [← List.take_append_drop k ops, after_append]
  exact after_keep (hW.drop k) _ hr

/-- The reference the `k`-th operation writes, written by none after it, holds at the end that operation's result over
    what the first `k` operations leave. -/
theorem after_eq_result {ops : List (HloOp τ sig Val)} {W : List (Ref sig .tc)} (hW : WritesAre ops W)
    (F0 : Valuation τ sig Val) (k : ℕ) {op : HloOp τ sig Val} (hk : ops[k]? = some op) {y : Ref sig .tc}
    (hy' : y ∉ W.drop (k + 1)) :
    after ops F0 (Proc.devRef .tc y) = op.result (after (ops.take k) F0) (Proc.devRef .tc y) := by
  obtain ⟨hlt, rfl⟩ := List.getElem?_eq_some_iff.mp hk
  conv_lhs => rw [← List.take_append_drop k ops, after_append, List.drop_eq_getElem_cons hlt, after_cons]
  exact after_keep (hW.drop (k + 1)) _ hy'

/-- A constant: written by the `k`-th operation and by none after it, the reference ends at the constant. -/
theorem ssa_nullary {ops : List (HloOp τ sig Val)} {W : List (Ref sig .tc)} (hW : WritesAre ops W)
    (F0 : Valuation τ sig Val) (k : ℕ) {y : Ref sig .tc} {v : y.ty.Contents Val} {hy}
    (hk : ops[k]? = some (nullary y v hy)) (hy' : y ∉ W.drop (k + 1)) :
    after ops F0 (Proc.devRef .tc y) = v := by
  rw [after_eq_result hW F0 k hk hy']
  exact nullary_result y v hy _

/-- One operand: the result, written by the `k`-th operation and by none after it, ends at the function of what the
    operand ends at, the operand being written by no operation from the `k`-th on. -/
theorem ssa_unary {ops : List (HloOp τ sig Val)} {W : List (Ref sig .tc)} (hW : WritesAre ops W)
    (F0 : Valuation τ sig Val) (k : ℕ) {x y : Ref sig .tc} {f : x.ty.Contents Val → y.ty.Contents Val} {hx hy}
    (hk : ops[k]? = some (unary x y f hx hy)) (hx' : x ∉ W.drop k) (hy' : y ∉ W.drop (k + 1)) :
    after ops F0 (Proc.devRef .tc y) = f (after ops F0 (Proc.devRef .tc x)) := by
  rw [after_eq_result hW F0 k hk hy', after_eq_take hW F0 k hx']
  exact unary_result x y f hx hy _

/-- Two operands: as `ssa_unary`, both operands written by no operation from the `k`-th on. -/
theorem ssa_binary {ops : List (HloOp τ sig Val)} {W : List (Ref sig .tc)} (hW : WritesAre ops W)
    (F0 : Valuation τ sig Val) (k : ℕ) {a b y : Ref sig .tc}
    {f : a.ty.Contents Val → b.ty.Contents Val → y.ty.Contents Val} {ha hb hy}
    (hk : ops[k]? = some (binary a b y f ha hb hy)) (ha' : a ∉ W.drop k) (hb' : b ∉ W.drop k)
    (hy' : y ∉ W.drop (k + 1)) :
    after ops F0 (Proc.devRef .tc y) = f (after ops F0 (Proc.devRef .tc a)) (after ops F0 (Proc.devRef .tc b)) := by
  rw [after_eq_result hW F0 k hk hy', after_eq_take hW F0 k ha', after_eq_take hW F0 k hb']
  exact binary_result a b y f ha hb hy _

/-- Three operands: as `ssa_unary`, the three operands written by no operation from the `k`-th on. -/
theorem ssa_ternary {ops : List (HloOp τ sig Val)} {W : List (Ref sig .tc)} (hW : WritesAre ops W)
    (F0 : Valuation τ sig Val) (k : ℕ) {c a b y : Ref sig .tc}
    {f : c.ty.Contents Val → a.ty.Contents Val → b.ty.Contents Val → y.ty.Contents Val} {hc ha hb hy}
    (hk : ops[k]? = some (ternary c a b y f hc ha hb hy)) (hc' : c ∉ W.drop k) (ha' : a ∉ W.drop k)
    (hb' : b ∉ W.drop k) (hy' : y ∉ W.drop (k + 1)) :
    after ops F0 (Proc.devRef .tc y)
      = f (after ops F0 (Proc.devRef .tc c)) (after ops F0 (Proc.devRef .tc a)) (after ops F0 (Proc.devRef .tc b)) := by
  rw [after_eq_result hW F0 k hk hy', after_eq_take hW F0 k hc', after_eq_take hW F0 k ha', after_eq_take hW F0 k hb']
  exact ternary_result c a b y f hc ha hb hy _

/-- A reshape: the result ends at the operand's final contents, read in row-major order at the result's shape. -/
theorem ssa_reshape {ops : List (HloOp τ sig Val)} {W : List (Ref sig .tc)} (hW : WritesAre ops W)
    (F0 : Valuation τ sig Val) (k : ℕ) {x y : Ref sig .tc} {he : x.ty.elt = y.ty.elt}
    {hn : x.ty.shape.ShapeCasts y.ty.shape} {hx hy}
    (hk : ops[k]? = some (reshape x y he hn hx hy)) (hx' : x ∉ W.drop k) (hy' : y ∉ W.drop (k + 1)) :
    after ops F0 (Proc.devRef .tc y)
      = fun i => he ▸ shapeCast y.ty.shape (after ops F0 (Proc.devRef .tc x)) hn i := by
  rw [after_eq_result hW F0 k hk hy', after_eq_take hW F0 k hx']
  exact reshape_result x y he hn hx hy _

/-- A family of operands: the result ends at the function of the family of what the operands end at, every operand
    written by no operation from the `k`-th on. -/
theorem ssa_nary {n : ℕ} {ops : List (HloOp τ sig Val)} {W : List (Ref sig .tc)} (hW : WritesAre ops W)
    (F0 : Valuation τ sig Val) (k : ℕ) {xs : Fin n → Ref sig .tc} {y : Ref sig .tc}
    {f : ((j : Fin n) → (xs j).ty.Contents Val) → y.ty.Contents Val} {hxs hy}
    (hk : ops[k]? = some (nary xs y f hxs hy)) (hxs' : ∀ j, xs j ∉ W.drop k) (hy' : y ∉ W.drop (k + 1)) :
    after ops F0 (Proc.devRef .tc y) = f (fun j => after ops F0 (Proc.devRef .tc (xs j))) := by
  have hops : (fun j => after ops F0 (Proc.devRef .tc (xs j)))
      = fun j => after (ops.take k) F0 (Proc.devRef .tc (xs j)) :=
    funext fun j => after_eq_take hW F0 k (hxs' j)
  rw [after_eq_result hW F0 k hk hy', hops]
  exact nary_result xs y f hxs hy _

section Test

/- A line of three operations over any four distinct references: a constant into `a`, a function of `x` into `y`, a
   function of `y` and `a` into `z`. The stage equations, in program order, give `z`'s final contents in terms of
   what `x` held at the start. -/
example {x a y z : Ref sig .tc} (hxa : x ≠ a) (hxy : x ≠ y) (hxz : x ≠ z) (hay : a ≠ y) (haz : a ≠ z) (hyz : y ≠ z)
    (v : a.ty.Contents Val) (f : x.ty.Contents Val → y.ty.Contents Val)
    (g : y.ty.Contents Val → a.ty.Contents Val → z.ty.Contents Val) (hx ha hy hz) (F0 : Valuation τ sig Val) :
    after [nullary (τ := τ) a v ha, unary x y f hx hy, binary y a z g hy ha hz] F0 (Proc.devRef .tc z)
      = g (f (F0 (Proc.devRef .tc x))) v := by
  have hW : WritesAre [nullary (τ := τ) a v ha, unary x y f hx hy, binary y a z g hy ha hz] [a, y, z] :=
    .cons rfl (.cons rfl (.cons rfl .nil))
  have e0 := after_keep hW F0 (r := x) (by simp [hxa, hxy, hxz])
  have e1 := ssa_nullary hW F0 0 rfl (by simp [hay, haz])
  have e2 := ssa_unary hW F0 1 rfl (by simp [hxy, hxz]) (by simp [hyz])
  have e3 := ssa_binary hW F0 2 rfl (by simp [hyz]) (by simp [haz]) (by simp)
  rw [e3, e2, e1, e0]

end Test

end Idealize.ShloMosaic.StableHlo
-- ==== Proof.RefStages.lean ====
/-
  The reference program's run, with its result stated as the last stage of the read-back.

  The reference is a straight line of 48 host operations in single assignment: each writes one buffer of its own, none
  is written twice, and the four arguments are never written. So what a buffer holds at the end of the line is its
  operation's function of what the operands hold at the end, and, going through the line in program order, each
  buffer's final contents are the stage `val_<buffer>` of the arguments' launch contents: one equation per operation,
  each from the equations of its operands and the stage's own definition. The last of them, at `main_v37`, with the
  four arguments kept, is the run's post.
-/
import proofs.«419908_j28406913696453_3_alg».proof.Proof.RefOps
import proofs.«419908_j28406913696453_3_alg».proof.Proof.RefRead
import proofs.«419908_j28406913696453_3_alg».proof.Proof.LibSsa

namespace Cert.ReferenceIdeal.Stages
open Cert.ReferenceIdeal Cert.ReferenceIdeal.Gen Idealize.ShloMosaic Idealize.ShloMosaic.TcCoe Idealize.SL.Sem Idealize.ShloMosaic.StableHlo
variable {F : FTy → Type} [FloatOps F]

/-! ## What the line writes -/

/-- The references the 48 operations write, in program order: the `k`-th operation writes the `k`-th of them. -/
abbrev W : List (Ref sig .tc) :=
  [main_v0, main_v1, main_c, main_v2, main_v3, main_c_0, main_v4, main_v5, main_v6, main_c_1, main_v7, main_v8,
   main_c_2, main_v9, main_v10, main_v11, main_c_3, main_v12, main_v13, main_c_4, main_v14, main_v15, main_v16,
   main_v17, main_v18, main_v19, main_v20, main_v21, main_v22, main_c_5, main_v23, main_v24, main_c_6, main_v25,
   main_v26, main_v27, main_c_7, main_v28, main_v29, main_c_8, main_v30, main_v31, main_v32, main_v33, main_v34,
   main_v35, main_v36, main_v37]

set_option maxRecDepth 8192 in
/-- Each operation writes exactly its own result reference. -/
theorem hW : WritesAre (ValueP.ops (F := F)) W :=
  .cons rfl (.cons rfl (.cons rfl (.cons rfl (.cons rfl (.cons rfl (.cons rfl (.cons rfl
  (.cons rfl (.cons rfl (.cons rfl (.cons rfl (.cons rfl (.cons rfl (.cons rfl (.cons rfl
  (.cons rfl (.cons rfl (.cons rfl (.cons rfl (.cons rfl (.cons rfl (.cons rfl (.cons rfl
  (.cons rfl (.cons rfl (.cons rfl (.cons rfl (.cons rfl (.cons rfl (.cons rfl (.cons rfl
  (.cons rfl (.cons rfl (.cons rfl (.cons rfl (.cons rfl (.cons rfl (.cons rfl (.cons rfl
  (.cons rfl (.cons rfl (.cons rfl (.cons rfl (.cons rfl (.cons rfl (.cons rfl (.cons rfl
  .nil)))))))))))))))))))))))))))))))))))))))))))))))

section Stage

-- the contents the device's buffers hold when the line starts
variable (F0 : Valuation τ sig (Elt F))

/-! ## The arguments are kept

No operation writes an argument: it ends holding what it held at the start. -/

theorem keep_arg0 : after (ValueP.ops (F := F)) F0 (Proc.devRef .tc main_arg0) = F0 (Proc.devRef .tc main_arg0) :=
  after_keep hW F0 (r := main_arg0) (by decide)

theorem keep_arg1 : after (ValueP.ops (F := F)) F0 (Proc.devRef .tc main_arg1) = F0 (Proc.devRef .tc main_arg1) :=
  after_keep hW F0 (r := main_arg1) (by decide)

theorem keep_arg2 : after (ValueP.ops (F := F)) F0 (Proc.devRef .tc main_arg2) = F0 (Proc.devRef .tc main_arg2) :=
  after_keep hW F0 (r := main_arg2) (by decide)

theorem keep_arg3 : after (ValueP.ops (F := F)) F0 (Proc.devRef .tc main_arg3) = F0 (Proc.devRef .tc main_arg3) :=
  after_keep hW F0 (r := main_arg3) (by decide)

/-! ## The stages, in program order

For the `k`-th operation: its single-assignment equation (the operation read off the list at `k`, its operands
written by no operation from the `k`-th on, its result by none after the `k`-th), then the operands' own equations,
then the stage's definition. -/

/-! ### The column index, wrapped: `%0` … `%6` -/

-- %0 = iota
theorem st_v0 : after (ValueP.ops (F := F)) F0 (Proc.devRef .tc main_v0) = ReadP.val_main_v0 (F := F) := by
  have e := ssa_nullary (hW (F := F)) F0 0 rfl (by decide)
  rw [e]
  rfl

-- %1 = broadcast_in_dim %0
theorem st_v1 : after (ValueP.ops (F := F)) F0 (Proc.devRef .tc main_v1) = ReadP.val_main_v1 (F := F) := by
  have e := ssa_unary (hW (F := F)) F0 1 rfl (by decide) (by decide)
  rw [e, st_v0 F0]
  rfl

-- %c = constant 0
theorem st_c : after (ValueP.ops (F := F)) F0 (Proc.devRef .tc main_c) = ReadP.val_main_c (F := F) := by
  have e := ssa_nullary (hW (F := F)) F0 2 rfl (by decide)
  rw [e]
  rfl

-- %2 = broadcast_in_dim %c
theorem st_v2 : after (ValueP.ops (F := F)) F0 (Proc.devRef .tc main_v2) = ReadP.val_main_v2 (F := F) := by
  have e := ssa_unary (hW (F := F)) F0 3 rfl (by decide) (by decide)
  rw [e, st_c F0]
  rfl

-- %3 = compare LT %1, %2
theorem st_v3 : after (ValueP.ops (F := F)) F0 (Proc.devRef .tc main_v3) = ReadP.val_main_v3 (F := F) := by
  have e := ssa_binary (hW (F := F)) F0 4 rfl (by decide) (by decide) (by decide)
  rw [e, st_v1 F0, st_v2 F0]
  rfl

-- %c_0 = constant 256
theorem st_c_0 : after (ValueP.ops (F := F)) F0 (Proc.devRef .tc main_c_0) = ReadP.val_main_c_0 (F := F) := by
  have e := ssa_nullary (hW (F := F)) F0 5 rfl (by decide)
  rw [e]
  rfl

-- %4 = broadcast_in_dim %c_0
theorem st_v4 : after (ValueP.ops (F := F)) F0 (Proc.devRef .tc main_v4) = ReadP.val_main_v4 (F := F) := by
  have e := ssa_unary (hW (F := F)) F0 6 rfl (by decide) (by decide)
  rw [e, st_c_0 F0]
  rfl

-- %5 = add %1, %4
theorem st_v5 : after (ValueP.ops (F := F)) F0 (Proc.devRef .tc main_v5) = ReadP.val_main_v5 (F := F) := by
  have e := ssa_binary (hW (F := F)) F0 7 rfl (by decide) (by decide) (by decide)
  rw [e, st_v1 F0, st_v4 F0]
  rfl

-- %6 = select %3, %5, %1
theorem st_v6 : after (ValueP.ops (F := F)) F0 (Proc.devRef .tc main_v6) = ReadP.val_main_v6 (F := F) := by
  have e := ssa_ternary (hW (F := F)) F0 8 rfl (by decide) (by decide) (by decide) (by decide)
  rw [e, st_v3 F0, st_v5 F0, st_v1 F0]
  rfl

/-! ### The first argument's indices, wrapped: `%c_1` … `%11` -/

-- %c_1 = constant 0
theorem st_c_1 : after (ValueP.ops (F := F)) F0 (Proc.devRef .tc main_c_1) = ReadP.val_main_c_1 (F := F) := by
  have e := ssa_nullary (hW (F := F)) F0 9 rfl (by decide)
  rw [e]
  rfl

-- %7 = broadcast_in_dim %c_1
theorem st_v7 : after (ValueP.ops (F := F)) F0 (Proc.devRef .tc main_v7) = ReadP.val_main_v7 (F := F) := by
  have e := ssa_unary (hW (F := F)) F0 10 rfl (by decide) (by decide)
  rw [e, st_c_1 F0]
  rfl

-- %8 = compare LT %arg0, %7
theorem st_v8 : after (ValueP.ops (F := F)) F0 (Proc.devRef .tc main_v8)
    = ReadP.val_main_v8 (F := F) (F0 (Proc.devRef .tc main_arg0)) := by
  have e := ssa_binary (hW (F := F)) F0 11 rfl (by decide) (by decide) (by decide)
  rw [e, keep_arg0 F0, st_v7 F0]
  rfl

-- %c_2 = constant 256
theorem st_c_2 : after (ValueP.ops (F := F)) F0 (Proc.devRef .tc main_c_2) = ReadP.val_main_c_2 (F := F) := by
  have e := ssa_nullary (hW (F := F)) F0 12 rfl (by decide)
  rw [e]
  rfl

-- %9 = broadcast_in_dim %c_2
theorem st_v9 : after (ValueP.ops (F := F)) F0 (Proc.devRef .tc main_v9) = ReadP.val_main_v9 (F := F) := by
  have e := ssa_unary (hW (F := F)) F0 13 rfl (by decide) (by decide)
  rw [e, st_c_2 F0]
  rfl

-- %10 = add %arg0, %9
theorem st_v10 : after (ValueP.ops (F := F)) F0 (Proc.devRef .tc main_v10)
    = ReadP.val_main_v10 (F := F) (F0 (Proc.devRef .tc main_arg0)) := by
  have e := ssa_binary (hW (F := F)) F0 14 rfl (by decide) (by decide) (by decide)
  rw [e, keep_arg0 F0, st_v9 F0]
  rfl

-- %11 = select %8, %10, %arg0
theorem st_v11 : after (ValueP.ops (F := F)) F0 (Proc.devRef .tc main_v11)
    = ReadP.val_main_v11 (F := F) (F0 (Proc.devRef .tc main_arg0)) := by
  have e := ssa_ternary (hW (F := F)) F0 15 rfl (by decide) (by decide) (by decide) (by decide)
  rw [e, st_v8 F0, st_v10 F0, keep_arg0 F0]
  rfl

/-! ### The second argument's indices, wrapped: `%c_3` … `%16` -/

-- %c_3 = constant 0
theorem st_c_3 : after (ValueP.ops (F := F)) F0 (Proc.devRef .tc main_c_3) = ReadP.val_main_c_3 (F := F) := by
  have e := ssa_nullary (hW (F := F)) F0 16 rfl (by decide)
  rw [e]
  rfl

-- %12 = broadcast_in_dim %c_3
theorem st_v12 : after (ValueP.ops (F := F)) F0 (Proc.devRef .tc main_v12) = ReadP.val_main_v12 (F := F) := by
  have e := ssa_unary (hW (F := F)) F0 17 rfl (by decide) (by decide)
  rw [e, st_c_3 F0]
  rfl

-- %13 = compare LT %arg1, %12
theorem st_v13 : after (ValueP.ops (F := F)) F0 (Proc.devRef .tc main_v13)
    = ReadP.val_main_v13 (F := F) (F0 (Proc.devRef .tc main_arg1)) := by
  have e := ssa_binary (hW (F := F)) F0 18 rfl (by decide) (by decide) (by decide)
  rw [e, keep_arg1 F0, st_v12 F0]
  rfl

-- %c_4 = constant 256
theorem st_c_4 : after (ValueP.ops (F := F)) F0 (Proc.devRef .tc main_c_4) = ReadP.val_main_c_4 (F := F) := by
  have e := ssa_nullary (hW (F := F)) F0 19 rfl (by decide)
  rw [e]
  rfl

-- %14 = broadcast_in_dim %c_4
theorem st_v14 : after (ValueP.ops (F := F)) F0 (Proc.devRef .tc main_v14) = ReadP.val_main_v14 (F := F) := by
  have e := ssa_unary (hW (F := F)) F0 20 rfl (by decide) (by decide)
  rw [e, st_c_4 F0]
  rfl

-- %15 = add %arg1, %14
theorem st_v15 : after (ValueP.ops (F := F)) F0 (Proc.devRef .tc main_v15)
    = ReadP.val_main_v15 (F := F) (F0 (Proc.devRef .tc main_arg1)) := by
  have e := ssa_binary (hW (F := F)) F0 21 rfl (by decide) (by decide) (by decide)
  rw [e, keep_arg1 F0, st_v14 F0]
  rfl

-- %16 = select %13, %15, %arg1
theorem st_v16 : after (ValueP.ops (F := F)) F0 (Proc.devRef .tc main_v16)
    = ReadP.val_main_v16 (F := F) (F0 (Proc.devRef .tc main_arg1)) := by
  have e := ssa_ternary (hW (F := F)) F0 22 rfl (by decide) (by decide) (by decide) (by decide)
  rw [e, st_v13 F0, st_v15 F0, keep_arg1 F0]
  rfl

/-! ### The three index columns, side by side, and the first gather: `%17` … `%22` -/

-- %17 = broadcast_in_dim %6
theorem st_v17 : after (ValueP.ops (F := F)) F0 (Proc.devRef .tc main_v17) = ReadP.val_main_v17 (F := F) := by
  have e := ssa_unary (hW (F := F)) F0 23 rfl (by decide) (by decide)
  rw [e, st_v6 F0]
  rfl

-- %18 = broadcast_in_dim %17
theorem st_v18 : after (ValueP.ops (F := F)) F0 (Proc.devRef .tc main_v18) = ReadP.val_main_v18 (F := F) := by
  have e := ssa_unary (hW (F := F)) F0 24 rfl (by decide) (by decide)
  rw [e, st_v17 F0]
  rfl

-- %19 = broadcast_in_dim %11
theorem st_v19 : after (ValueP.ops (F := F)) F0 (Proc.devRef .tc main_v19)
    = ReadP.val_main_v19 (F := F) (F0 (Proc.devRef .tc main_arg0)) := by
  have e := ssa_unary (hW (F := F)) F0 25 rfl (by decide) (by decide)
  rw [e, st_v11 F0]
  rfl

-- %20 = broadcast_in_dim %16
theorem st_v20 : after (ValueP.ops (F := F)) F0 (Proc.devRef .tc main_v20)
    = ReadP.val_main_v20 (F := F) (F0 (Proc.devRef .tc main_arg1)) := by
  have e := ssa_unary (hW (F := F)) F0 26 rfl (by decide) (by decide)
  rw [e, st_v16 F0]
  rfl

-- %21 = concatenate %18, %19, %20 (the family of operands read at its three places)
theorem st_v21 : after (ValueP.ops (F := F)) F0 (Proc.devRef .tc main_v21)
    = ReadP.val_main_v21 (F := F) (F0 (Proc.devRef .tc main_arg0)) (F0 (Proc.devRef .tc main_arg1)) := by
  have e := ssa_nary (hW (F := F)) F0 27 rfl (by decide) (by decide)
  rw [e]
  show concatenate S262144x256x3 2
      [⟨S262144x256x1, after (ValueP.ops (F := F)) F0 (Proc.devRef .tc main_v18)⟩,
       ⟨S262144x256x1, after (ValueP.ops (F := F)) F0 (Proc.devRef .tc main_v19)⟩,
       ⟨S262144x256x1, after (ValueP.ops (F := F)) F0 (Proc.devRef .tc main_v20)⟩]
      concatenates_S262144x256x1_S262144x256x1_S262144x256x1_S262144x256x3_d2 = _
  rw [st_v18 F0, st_v19 F0, st_v20 F0]
  rfl

-- %22 = gather %arg2 at %21
theorem st_v22 : after (ValueP.ops (F := F)) F0 (Proc.devRef .tc main_v22)
    = ReadP.val_main_v22 (F := F) (F0 (Proc.devRef .tc main_arg0)) (F0 (Proc.devRef .tc main_arg1))
        (F0 (Proc.devRef .tc main_arg2)) := by
  have e := ssa_binary (hW (F := F)) F0 28 rfl (by decide) (by decide) (by decide)
  rw [e, keep_arg2 F0, st_v21 F0]
  rfl

/-! ### The column index, wrapped a second time: `%c_5` … `%27` -/

-- %c_5 = constant 0
theorem st_c_5 : after (ValueP.ops (F := F)) F0 (Proc.devRef .tc main_c_5) = ReadP.val_main_c_5 (F := F) := by
  have e := ssa_nullary (hW (F := F)) F0 29 rfl (by decide)
  rw [e]
  rfl

-- %23 = broadcast_in_dim %c_5
theorem st_v23 : after (ValueP.ops (F := F)) F0 (Proc.devRef .tc main_v23) = ReadP.val_main_v23 (F := F) := by
  have e := ssa_unary (hW (F := F)) F0 30 rfl (by decide) (by decide)
  rw [e, st_c_5 F0]
  rfl

-- %24 = compare LT %1, %23
theorem st_v24 : after (ValueP.ops (F := F)) F0 (Proc.devRef .tc main_v24) = ReadP.val_main_v24 (F := F) := by
  have e := ssa_binary (hW (F := F)) F0 31 rfl (by decide) (by decide) (by decide)
  rw [e, st_v1 F0, st_v23 F0]
  rfl

-- %c_6 = constant 256
theorem st_c_6 : after (ValueP.ops (F := F)) F0 (Proc.devRef .tc main_c_6) = ReadP.val_main_c_6 (F := F) := by
  have e := ssa_nullary (hW (F := F)) F0 32 rfl (by decide)
  rw [e]
  rfl

-- %25 = broadcast_in_dim %c_6
theorem st_v25 : after (ValueP.ops (F := F)) F0 (Proc.devRef .tc main_v25) = ReadP.val_main_v25 (F := F) := by
  have e := ssa_unary (hW (F := F)) F0 33 rfl (by decide) (by decide)
  rw [e, st_c_6 F0]
  rfl

-- %26 = add %1, %25
theorem st_v26 : after (ValueP.ops (F := F)) F0 (Proc.devRef .tc main_v26) = ReadP.val_main_v26 (F := F) := by
  have e := ssa_binary (hW (F := F)) F0 34 rfl (by decide) (by decide) (by decide)
  rw [e, st_v1 F0, st_v25 F0]
  rfl

-- %27 = select %24, %26, %1
theorem st_v27 : after (ValueP.ops (F := F)) F0 (Proc.devRef .tc main_v27) = ReadP.val_main_v27 (F := F) := by
  have e := ssa_ternary (hW (F := F)) F0 35 rfl (by decide) (by decide) (by decide) (by decide)
  rw [e, st_v24 F0, st_v26 F0, st_v1 F0]
  rfl

/-! ### The gathered indices, wrapped: `%c_7` … `%32` -/

-- %c_7 = constant 0
theorem st_c_7 : after (ValueP.ops (F := F)) F0 (Proc.devRef .tc main_c_7) = ReadP.val_main_c_7 (F := F) := by
  have e := ssa_nullary (hW (F := F)) F0 36 rfl (by decide)
  rw [e]
  rfl

-- %28 = broadcast_in_dim %c_7
theorem st_v28 : after (ValueP.ops (F := F)) F0 (Proc.devRef .tc main_v28) = ReadP.val_main_v28 (F := F) := by
  have e := ssa_unary (hW (F := F)) F0 37 rfl (by decide) (by decide)
  rw [e, st_c_7 F0]
  rfl

-- %29 = compare LT %22, %28
theorem st_v29 : after (ValueP.ops (F := F)) F0 (Proc.devRef .tc main_v29)
    = ReadP.val_main_v29 (F := F) (F0 (Proc.devRef .tc main_arg0)) (F0 (Proc.devRef .tc main_arg1))
        (F0 (Proc.devRef .tc main_arg2)) := by
  have e := ssa_binary (hW (F := F)) F0 38 rfl (by decide) (by decide) (by decide)
  rw [e, st_v22 F0, st_v28 F0]
  rfl

-- %c_8 = constant 256
theorem st_c_8 : after (ValueP.ops (F := F)) F0 (Proc.devRef .tc main_c_8) = ReadP.val_main_c_8 (F := F) := by
  have e := ssa_nullary (hW (F := F)) F0 39 rfl (by decide)
  rw [e]
  rfl

-- %30 = broadcast_in_dim %c_8
theorem st_v30 : after (ValueP.ops (F := F)) F0 (Proc.devRef .tc main_v30) = ReadP.val_main_v30 (F := F) := by
  have e := ssa_unary (hW (F := F)) F0 40 rfl (by decide) (by decide)
  rw [e, st_c_8 F0]
  rfl

-- %31 = add %22, %30
theorem st_v31 : after (ValueP.ops (F := F)) F0 (Proc.devRef .tc main_v31)
    = ReadP.val_main_v31 (F := F) (F0 (Proc.devRef .tc main_arg0)) (F0 (Proc.devRef .tc main_arg1))
        (F0 (Proc.devRef .tc main_arg2)) := by
  have e := ssa_binary (hW (F := F)) F0 41 rfl (by decide) (by decide) (by decide)
  rw [e, st_v22 F0, st_v30 F0]
  rfl

-- %32 = select %29, %31, %22
theorem st_v32 : after (ValueP.ops (F := F)) F0 (Proc.devRef .tc main_v32)
    = ReadP.val_main_v32 (F := F) (F0 (Proc.devRef .tc main_arg0)) (F0 (Proc.devRef .tc main_arg1))
        (F0 (Proc.devRef .tc main_arg2)) := by
  have e := ssa_ternary (hW (F := F)) F0 42 rfl (by decide) (by decide) (by decide) (by decide)
  rw [e, st_v29 F0, st_v31 F0, st_v22 F0]
  rfl

/-! ### The two index columns, side by side, and the second gather: `%33` … `%37` -/

-- %33 = broadcast_in_dim %27
theorem st_v33 : after (ValueP.ops (F := F)) F0 (Proc.devRef .tc main_v33) = ReadP.val_main_v33 (F := F) := by
  have e := ssa_unary (hW (F := F)) F0 43 rfl (by decide) (by decide)
  rw [e, st_v27 F0]
  rfl

-- %34 = broadcast_in_dim %33
theorem st_v34 : after (ValueP.ops (F := F)) F0 (Proc.devRef .tc main_v34) = ReadP.val_main_v34 (F := F) := by
  have e := ssa_unary (hW (F := F)) F0 44 rfl (by decide) (by decide)
  rw [e, st_v33 F0]
  rfl

-- %35 = broadcast_in_dim %32
theorem st_v35 : after (ValueP.ops (F := F)) F0 (Proc.devRef .tc main_v35)
    = ReadP.val_main_v35 (F := F) (F0 (Proc.devRef .tc main_arg0)) (F0 (Proc.devRef .tc main_arg1))
        (F0 (Proc.devRef .tc main_arg2)) := by
  have e := ssa_unary (hW (F := F)) F0 45 rfl (by decide) (by decide)
  rw [e, st_v32 F0]
  rfl

-- %36 = concatenate %34, %35
theorem st_v36 : after (ValueP.ops (F := F)) F0 (Proc.devRef .tc main_v36)
    = ReadP.val_main_v36 (F := F) (F0 (Proc.devRef .tc main_arg0)) (F0 (Proc.devRef .tc main_arg1))
        (F0 (Proc.devRef .tc main_arg2)) := by
  have e := ssa_binary (hW (F := F)) F0 46 rfl (by decide) (by decide) (by decide)
  rw [e, st_v34 F0, st_v35 F0]
  rfl

-- %37 = gather %arg3 at %36
theorem st_v37 : after (ValueP.ops (F := F)) F0 (Proc.devRef .tc main_v37)
    = ReadP.val_main_v37 (F := F) (F0 (Proc.devRef .tc main_arg0)) (F0 (Proc.devRef .tc main_arg1))
        (F0 (Proc.devRef .tc main_arg2)) (F0 (Proc.devRef .tc main_arg3)) := by
  have e := ssa_binary (hW (F := F)) F0 47 rfl (by decide) (by decide) (by decide)
  rw [e, keep_arg3 F0, st_v36 F0]
  rfl

end Stage

/-! ## The run

Every weakly fair execution of the reference terminates with each buffer at the fold of the line over the launch
contents; at `main_v37` that fold is the last stage of the arguments' launch contents, and at the arguments it is the
launch contents. -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = Cert.ReferenceIdeal.ReadP.val_main_v37 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c main_v37).trans (st_v37 (fun b => m (c, b))),
      (h c main_arg0).trans (keep_arg0 (fun b => m (c, b))),
      (h c main_arg1).trans (keep_arg1 (fun b => m (c, b))),
      (h c main_arg2).trans (keep_arg2 (fun b => m (c, b))),
      (h c main_arg3).trans (keep_arg3 (fun b => m (c, b)))⟩)
    (run_seq ValueP.scopedRefs_eq ValueP.scopedSems_eq defs main (fun _ => ValueP.ops) ValueP.main_eq
      (fun _ => ValueP.ops_sub) m ρ)

end Cert.ReferenceIdeal.Stages
-- ==== Proof.RefValue.lean ====
/-
  The reference's last stage is the look-up function, index by index.

  The reference computes `book[c, table[c, left[n, c], right[n, c]]]` in two point look-ups. For each it builds an
  array of start indices `[rows × channels × k]` (`k = 3` for the table, `k = 2` for the code book) by laying `k`
  one-entry columns side by side along the last axis: the channel numbers `0 … 255` repeated down the rows, then the
  position arrays. Before a word is used as a position it is wrapped around (`256` is added when it is negative); a
  word in `[0, 256)` is not negative, so the wrap-around keeps it. The look-up at `(n, c)` reads its operand at the
  `k` components of the start index `[n, c, ·]`, each read signed and clamped into its axis of 256 entries: `pos`.

  Below, in order: the word lemma (the wrap-around keeps a position); each look-up read at `(n, c)` over any
  operand and any array of start indices; each array of columns read at its last coordinate `0, 1, 2`; the stages of
  the reference read at an index, from the channel numbers to the codes; and the theorem.
-/
import proofs.«419908_j28406913696453_3_alg».proof.Proof.RefRead
import proofs.«419908_j28406913696453_3_alg».proof.Proof.Lookup
import Idealize.ShloMosaic.Lib.ValueIdx
import Idealize.ShloMosaic.Lib.Pipeline.Value

noncomputable section

namespace Cert.Lookup

open Idealize.ShloMosaic Idealize.ShloMosaic.ValueIdx Cert.ReferenceIdeal Cert.ReferenceIdeal.Gen
open Cert.ReferenceIdeal.ReadP

/-! ## Words -/

/-- A word below 256 is not negative, so the wrap-around of a negative position keeps it. -/
theorem norm_of_lt {w : BitVec 32} (h : w.toNat < 256) :
    Scalar.select (IntOp.cmpi .slt w 0#32) (IntOp.addi w 256#32) w = w := by
  have hs : w.slt 0#32 = false := by
    unfold BitVec.slt
    rw [toInt_of_lt h, BitVec.toInt_zero]
    exact decide_eq_false (Int.not_lt.mpr (Int.natCast_nonneg _))
  have hc : IntOp.cmpi .slt w 0#32 = 0#1 := by
    unfold IntOp.cmpi
    show BitVec.ofBool (w.slt 0#32) = 0#1
    rw [hs]
    rfl
  rw [hc]
  exact select_zero _ _

/-- The word of a channel number is below 256. -/
theorem chanWord_lt (c : Fin 256) : (BitVec.ofNat 32 c.val).toNat < 256 := by
  rw [BitVec.toNat_ofNat]
  exact lt_of_le_of_lt (Nat.mod_le _ _) c.isLt

/-- Clamping the word of a channel number gives the channel back. -/
theorem pos_chanWord (c : Fin 256) : pos (BitVec.ofNat 32 c.val) = c := by
  apply Fin.ext
  rw [pos_val_of_lt (chanWord_lt c), BitVec.toNat_ofNat]
  exact Nat.mod_eq_of_lt (lt_trans c.isLt (by decide))

/-! ## The point look-up into the three-axis table, read at `(n, c)`

Every axis of the table is collapsed and named by the start index map, there are no batching and no offset axes, and
the start index is the vector along the last axis of the start indices. So on each axis of the table the position
read is the start alone: the component of the start index for that axis, read signed and clamped to `256 − 1`. -/

/-- The dimension numbers of the point look-up into the three-axis table. -/
abbrev G3 : GatherDims S256x256x256 S262144x256x3 S262144x256 :=
  gather_S256x256x256_S262144x256x3_S262144x256_n_012_n_n_012_2_111

/-- No axis of the table is a batching axis. -/
theorem G3_batch (a : Fin 3) : a ∉ G3.operandBatchingDims := List.not_mem_nil

/-- Every axis of the table is collapsed. -/
theorem G3_collapsed (a : Fin 3) : a ∈ G3.collapsedSliceDims := by
  show a ∈ ([0, 1, 2] : List (Fin 3))
  match a with
  | ⟨0, _⟩ => exact List.mem_cons_self
  | ⟨1, _⟩ => exact List.mem_cons_of_mem _ List.mem_cons_self
  | ⟨2, _⟩ => exact List.mem_cons_of_mem _ (List.mem_cons_of_mem _ List.mem_cons_self)

/-- So no axis of the table is kept as an offset axis. -/
theorem G3_kept (a : Fin 3) : a ∉ G3.sKept :=
  fun h => ((GatherDims.mem_sKept _ _).mp h).1 (G3_collapsed a)

/-- Every axis of the table is named by the start index map (the same list `[0, 1, 2]`). -/
theorem G3_map (a : Fin 3) : a ∈ G3.startIndexMap := G3_collapsed a

/-- On every axis of the table the look-up reads the clamped start alone. -/
theorem G3_operandIdx_val (idx : IVec S262144x256x3 32) (j : S262144x256.Idx) (a : Fin 3) :
    (G3.operandIdx j idx a).val = G3.start j idx a := by
  show G3.start j idx a + G3.batchCoord j a + G3.offCoord j a = _
  rw [GatherDims.batchCoord_eq_zero _ _ _ (G3_batch a), GatherDims.offCoord_eq_zero _ _ _ (G3_kept a),
    Nat.add_zero]

/-- Component `a` of the start index of result position `(n, c)` sits at `[n, c, a]`. -/
theorem G3_siIdx (n : Fin 262144) (c : Fin 256) (a : Fin 3)
    (h : List.idxOf a G3.startIndexMap < G3.startIndexMap.length) :
    G3.siIdx (ix2 n c) ⟨List.idxOf a G3.startIndexMap, h⟩ = ix3 n c a := by
  funext b
  refine Fin.ext ?_
  match b with
  | ⟨0, _⟩ => rfl
  | ⟨1, _⟩ => rfl
  | ⟨2, _⟩ =>
    match a with
    | ⟨0, _⟩ => rfl
    | ⟨1, _⟩ => rfl
    | ⟨2, _⟩ => rfl

/-- Every axis of the table has 256 entries and the slice is one entry, so a start is clamped to 255. -/
theorem G3_room (a : Fin 3) : S256x256x256.size a - G3.sliceSizes a = 255 := by
  match a with
  | ⟨0, _⟩ => rfl
  | ⟨1, _⟩ => rfl
  | ⟨2, _⟩ => rfl

/-- The start of the slice on axis `a`: component `a` of the start index, clamped into the axis. -/
theorem G3_start (idx : IVec S262144x256x3 32) (n : Fin 262144) (c : Fin 256) (a : Fin 3) :
    G3.start (ix2 n c) idx a = (pos (idx (ix3 n c a))).val := by
  unfold GatherDims.start
  rw [dif_pos (G3_map a), G3_siIdx n c a, G3_room a]
  rfl

/-- THE THREE-INDEX LOOK-UP READ AT `(n, c)`: the table at the three components of the start index `[n, c, ·]`,
    each read signed and clamped into its axis. -/
theorem gather3_apply {α : Type} (x : S256x256x256.Idx → α) (idx : IVec S262144x256x3 32)
    (n : Fin 262144) (c : Fin 256) :
    Host.gather G3 x idx (ix2 n c)
      = x (ix3 (pos (idx (ix3 n c 0))) (pos (idx (ix3 n c 1))) (pos (idx (ix3 n c 2)))) := by
  unfold Host.gather
  congr 1
  funext a
  refine Fin.ext ?_
  rw [G3_operandIdx_val, G3_start]
  match a with
  | ⟨0, _⟩ => rfl
  | ⟨1, _⟩ => rfl
  | ⟨2, _⟩ => rfl

/-! ## The point look-up into the two-axis code book, read at `(n, c)`: the same, with two components -/

/-- The dimension numbers of the point look-up into the two-axis code book. -/
abbrev G2 : GatherDims S256x256 S262144x256x2 S262144x256 :=
  gather_S256x256_S262144x256x2_S262144x256_n_01_n_n_01_2_11

/-- No axis of the code book is a batching axis. -/
theorem G2_batch (a : Fin 2) : a ∉ G2.operandBatchingDims := List.not_mem_nil

/-- Both axes of the code book are collapsed. -/
theorem G2_collapsed (a : Fin 2) : a ∈ G2.collapsedSliceDims := by
  show a ∈ ([0, 1] : List (Fin 2))
  match a with
  | ⟨0, _⟩ => exact List.mem_cons_self
  | ⟨1, _⟩ => exact List.mem_cons_of_mem _ List.mem_cons_self

/-- So neither is kept as an offset axis. -/
theorem G2_kept (a : Fin 2) : a ∉ G2.sKept :=
  fun h => ((GatherDims.mem_sKept _ _).mp h).1 (G2_collapsed a)

/-- Both axes of the code book are named by the start index map (the same list `[0, 1]`). -/
theorem G2_map (a : Fin 2) : a ∈ G2.startIndexMap := G2_collapsed a

/-- On both axes of the code book the look-up reads the clamped start alone. -/
theorem G2_operandIdx_val (idx : IVec S262144x256x2 32) (j : S262144x256.Idx) (a : Fin 2) :
    (G2.operandIdx j idx a).val = G2.start j idx a := by
  show G2.start j idx a + G2.batchCoord j a + G2.offCoord j a = _
  rw [GatherDims.batchCoord_eq_zero _ _ _ (G2_batch a), GatherDims.offCoord_eq_zero _ _ _ (G2_kept a),
    Nat.add_zero]

/-- Component `a` of the start index of result position `(n, c)` sits at `[n, c, a]`. -/
theorem G2_siIdx (n : Fin 262144) (c : Fin 256) (a : Fin 2)
    (h : List.idxOf a G2.startIndexMap < G2.startIndexMap.length) :
    G2.siIdx (ix2 n c) ⟨List.idxOf a G2.startIndexMap, h⟩ = ix3 n c a := by
  funext b
  refine Fin.ext ?_
  match b with
  | ⟨0, _⟩ => rfl
  | ⟨1, _⟩ => rfl
  | ⟨2, _⟩ =>
    match a with
    | ⟨0, _⟩ => rfl
    | ⟨1, _⟩ => rfl

/-- Both axes of the code book have 256 entries and the slice is one entry, so a start is clamped to 255. -/
theorem G2_room (a : Fin 2) : S256x256.size a - G2.sliceSizes a = 255 := by
  match a with
  | ⟨0, _⟩ => rfl
  | ⟨1, _⟩ => rfl

/-- The start of the slice on axis `a`: component `a` of the start index, clamped into the axis. -/
theorem G2_start (idx : IVec S262144x256x2 32) (n : Fin 262144) (c : Fin 256) (a : Fin 2) :
    G2.start (ix2 n c) idx a = (pos (idx (ix3 n c a))).val := by
  unfold GatherDims.start
  rw [dif_pos (G2_map a), G2_siIdx n c a, G2_room a]
  rfl

/-- THE TWO-INDEX LOOK-UP READ AT `(n, c)`: the code book at the two components of the start index `[n, c, ·]`,
    each read signed and clamped into its axis. -/
theorem gather2_apply {α : Type} (x : S256x256.Idx → α) (idx : IVec S262144x256x2 32)
    (n : Fin 262144) (c : Fin 256) :
    Host.gather G2 x idx (ix2 n c) = x (ix2 (pos (idx (ix3 n c 0))) (pos (idx (ix3 n c 1)))) := by
  unfold Host.gather
  congr 1
  funext a
  refine Fin.ext ?_
  rw [G2_operandIdx_val, G2_start]
  match a with
  | ⟨0, _⟩ => rfl
  | ⟨1, _⟩ => rfl

/-! ## Columns laid side by side

One-entry columns `[rows × channels × 1]` laid side by side along the last axis: entry `k` of the result's last axis
is column `k`, read at its only entry `0`. Column `k` is piece `k` of the list, the `k` pieces before it have extent
`k` together, and the other two coordinates are the result's. -/

section Columns
variable {α : Type}

/-- Of three columns, entry 0 is the first. -/
theorem cat3_apply0 (a b d : S262144x256x1.Idx → α) (n : Fin 262144) (c : Fin 256) :
    concatenate S262144x256x3 2 [⟨S262144x256x1, a⟩, ⟨S262144x256x1, b⟩, ⟨S262144x256x1, d⟩]
      Facts₀.concatenates_S262144x256x1_S262144x256x1_S262144x256x1_S262144x256x3_d2 (ix3 n c (0 : Fin 3))
      = a (ix3 n c (0 : Fin 1)) := by
  refine concatenate_apply_piece (t := S262144x256x3) 2
    [⟨S262144x256x1, a⟩, ⟨S262144x256x1, b⟩, ⟨S262144x256x1, d⟩] _ (ix3 n c (0 : Fin 3))
    0 (by show 0 < 3; decide) S262144x256x1 a rfl rfl 0 rfl (ix3 n c (0 : Fin 1)) ?_ rfl
  intro e he
  match e with
  | ⟨0, _⟩ => rfl
  | ⟨1, _⟩ => rfl
  | ⟨2, _⟩ => exact absurd rfl he

/-- Of three columns, entry 1 is the second. -/
theorem cat3_apply1 (a b d : S262144x256x1.Idx → α) (n : Fin 262144) (c : Fin 256) :
    concatenate S262144x256x3 2 [⟨S262144x256x1, a⟩, ⟨S262144x256x1, b⟩, ⟨S262144x256x1, d⟩]
      Facts₀.concatenates_S262144x256x1_S262144x256x1_S262144x256x1_S262144x256x3_d2 (ix3 n c (1 : Fin 3))
      = b (ix3 n c (0 : Fin 1)) := by
  refine concatenate_apply_piece (t := S262144x256x3) 2
    [⟨S262144x256x1, a⟩, ⟨S262144x256x1, b⟩, ⟨S262144x256x1, d⟩] _ (ix3 n c (1 : Fin 3))
    1 (by show 1 < 3; decide) S262144x256x1 b rfl rfl 1 rfl (ix3 n c (0 : Fin 1)) ?_ rfl
  intro e he
  match e with
  | ⟨0, _⟩ => rfl
  | ⟨1, _⟩ => rfl
  | ⟨2, _⟩ => exact absurd rfl he

/-- Of three columns, entry 2 is the third. -/
theorem cat3_apply2 (a b d : S262144x256x1.Idx → α) (n : Fin 262144) (c : Fin 256) :
    concatenate S262144x256x3 2 [⟨S262144x256x1, a⟩, ⟨S262144x256x1, b⟩, ⟨S262144x256x1, d⟩]
      Facts₀.concatenates_S262144x256x1_S262144x256x1_S262144x256x1_S262144x256x3_d2 (ix3 n c (2 : Fin 3))
      = d (ix3 n c (0 : Fin 1)) := by
  refine concatenate_apply_piece (t := S262144x256x3) 2
    [⟨S262144x256x1, a⟩, ⟨S262144x256x1, b⟩, ⟨S262144x256x1, d⟩] _ (ix3 n c (2 : Fin 3))
    2 (by show 2 < 3; decide) S262144x256x1 d rfl rfl 2 rfl (ix3 n c (0 : Fin 1)) ?_ rfl
  intro e he
  match e with
  | ⟨0, _⟩ => rfl
  | ⟨1, _⟩ => rfl
  | ⟨2, _⟩ => exact absurd rfl he

/-- Of two columns, entry 0 is the first. -/
theorem cat2_apply0 (a b : S262144x256x1.Idx → α) (n : Fin 262144) (c : Fin 256) :
    concatenate S262144x256x2 2 [⟨S262144x256x1, a⟩, ⟨S262144x256x1, b⟩]
      Facts₀.concatenates_S262144x256x1_S262144x256x1_S262144x256x2_d2 (ix3 n c (0 : Fin 2))
      = a (ix3 n c (0 : Fin 1)) := by
  refine concatenate_apply_piece (t := S262144x256x2) 2
    [⟨S262144x256x1, a⟩, ⟨S262144x256x1, b⟩] _ (ix3 n c (0 : Fin 2))
    0 (by show 0 < 2; decide) S262144x256x1 a rfl rfl 0 rfl (ix3 n c (0 : Fin 1)) ?_ rfl
  intro e he
  match e with
  | ⟨0, _⟩ => rfl
  | ⟨1, _⟩ => rfl
  | ⟨2, _⟩ => exact absurd rfl he

/-- Of two columns, entry 1 is the second. -/
theorem cat2_apply1 (a b : S262144x256x1.Idx → α) (n : Fin 262144) (c : Fin 256) :
    concatenate S262144x256x2 2 [⟨S262144x256x1, a⟩, ⟨S262144x256x1, b⟩]
      Facts₀.concatenates_S262144x256x1_S262144x256x1_S262144x256x2_d2 (ix3 n c (1 : Fin 2))
      = b (ix3 n c (0 : Fin 1)) := by
  refine concatenate_apply_piece (t := S262144x256x2) 2
    [⟨S262144x256x1, a⟩, ⟨S262144x256x1, b⟩] _ (ix3 n c (1 : Fin 2))
    1 (by show 1 < 2; decide) S262144x256x1 b rfl rfl 1 rfl (ix3 n c (0 : Fin 1)) ?_ rfl
  intro e he
  match e with
  | ⟨0, _⟩ => rfl
  | ⟨1, _⟩ => rfl
  | ⟨2, _⟩ => exact absurd rfl he

end Columns

/-! ## The stages of the reference read at an index -/

/-! ### The channel numbers -/

/-- The row of channel numbers `[1 × 256]`: at column `q` the word of `q`. -/
theorem v1_apply (j : S1x256.Idx) : val_main_v1 (F := Ideal) j = BitVec.ofNat 32 (j 1).val := by
  rw [val_main_v1_apply, val_main_v0_apply]

/-- The row of channel numbers wrapped around (for the table look-up) is the row itself: no channel number is
    negative. -/
theorem v6_apply (j : S1x256.Idx) : val_main_v6 (F := Ideal) j = BitVec.ofNat 32 (j 1).val := by
  rw [val_main_v6_apply, val_main_v3_apply, val_main_v5_apply, val_main_v2_apply, val_main_v4_apply,
    val_main_c_apply, val_main_c_0_apply, v1_apply]
  exact norm_of_lt (chanWord_lt ⟨(j 1).val, (j 1).isLt⟩)

/-- The row of channel numbers wrapped around a second time (for the code-book look-up) likewise. -/
theorem v27_apply (j : S1x256.Idx) : val_main_v27 (F := Ideal) j = BitVec.ofNat 32 (j 1).val := by
  rw [val_main_v27_apply, val_main_v24_apply, val_main_v26_apply, val_main_v23_apply, val_main_v25_apply,
    val_main_c_5_apply, val_main_c_6_apply, v1_apply]
  exact norm_of_lt (chanWord_lt ⟨(j 1).val, (j 1).isLt⟩)

/-- The first column of the table look-up's start indices: at `[n, c, 0]` the word of `c`. -/
theorem v18_apply (n : Fin 262144) (c : Fin 256) :
    val_main_v18 (F := Ideal) (ix3 n c (0 : Fin 1)) = BitVec.ofNat 32 c.val := by
  rw [val_main_v18_apply, val_main_v17_apply, v6_apply]

/-- The first column of the code-book look-up's start indices: at `[n, c, 0]` the word of `c`. -/
theorem v34_apply (n : Fin 262144) (c : Fin 256) :
    val_main_v34 (F := Ideal) (ix3 n c (0 : Fin 1)) = BitVec.ofNat 32 c.val := by
  rw [val_main_v34_apply, val_main_v33_apply, v27_apply]

/-! ### The position arrays as columns of start indices -/

/-- Position `[n, c, 0]` of a column array names position `(n, c)` of the array it was made from: the left
    array's column … -/
theorem idx19_ix3 (n : Fin 262144) (c : Fin 256) : idx_main_v19 (ix3 n c (0 : Fin 1)) = ix2 n c := by
  funext a
  match a with
  | ⟨0, _⟩ => rfl
  | ⟨1, _⟩ => rfl

/-- … the right array's column … -/
theorem idx20_ix3 (n : Fin 262144) (c : Fin 256) : idx_main_v20 (ix3 n c (0 : Fin 1)) = ix2 n c := by
  funext a
  match a with
  | ⟨0, _⟩ => rfl
  | ⟨1, _⟩ => rfl

/-- … and the codes' column. -/
theorem idx35_ix3 (n : Fin 262144) (c : Fin 256) : idx_main_v35 (ix3 n c (0 : Fin 1)) = ix2 n c := by
  funext a
  match a with
  | ⟨0, _⟩ => rfl
  | ⟨1, _⟩ => rfl

/-- The left array wrapped around is the left array wherever its word is a position. -/
theorem v11_apply (x0 : IVec Rows 32) (j : Rows.Idx) (h : (x0 j).toNat < 256) :
    val_main_v11 (F := Ideal) x0 j = x0 j := by
  rw [val_main_v11_apply, val_main_v8_apply, val_main_v10_apply, val_main_v7_apply, val_main_v9_apply,
    val_main_c_1_apply, val_main_c_2_apply]
  exact norm_of_lt h

/-- The right array wrapped around is the right array wherever its word is a position. -/
theorem v16_apply (x1 : IVec Rows 32) (j : Rows.Idx) (h : (x1 j).toNat < 256) :
    val_main_v16 (F := Ideal) x1 j = x1 j := by
  rw [val_main_v16_apply, val_main_v13_apply, val_main_v15_apply, val_main_v12_apply, val_main_v14_apply,
    val_main_c_3_apply, val_main_c_4_apply]
  exact norm_of_lt h

/-- The second column of the table look-up's start indices: at `[n, c, 0]` the left word of `(n, c)`. -/
theorem v19_apply (x0 : IVec Rows 32) (n : Fin 262144) (c : Fin 256) (h : (x0 (ix2 n c)).toNat < 256) :
    val_main_v19 (F := Ideal) x0 (ix3 n c (0 : Fin 1)) = x0 (ix2 n c) := by
  rw [val_main_v19_apply, idx19_ix3, v11_apply x0 (ix2 n c) h]

/-- The third column of the table look-up's start indices: at `[n, c, 0]` the right word of `(n, c)`. -/
theorem v20_apply (x1 : IVec Rows 32) (n : Fin 262144) (c : Fin 256) (h : (x1 (ix2 n c)).toNat < 256) :
    val_main_v20 (F := Ideal) x1 (ix3 n c (0 : Fin 1)) = x1 (ix2 n c) := by
  rw [val_main_v20_apply, idx20_ix3, v16_apply x1 (ix2 n c) h]

/-! ### The start indices of the table look-up, and the look-up -/

/-- Component 0 of the start index at `(n, c)`: the word of `c`. -/
theorem v21_apply0 (x0 x1 : IVec Rows 32) (n : Fin 262144) (c : Fin 256) :
    val_main_v21 (F := Ideal) x0 x1 (ix3 n c (0 : Fin 3)) = BitVec.ofNat 32 c.val := by
  unfold val_main_v21
  rw [cat3_apply0, v18_apply]

/-- Component 1 of the start index at `(n, c)`: the left word. -/
theorem v21_apply1 (x0 x1 : IVec Rows 32) (n : Fin 262144) (c : Fin 256) (h : (x0 (ix2 n c)).toNat < 256) :
    val_main_v21 (F := Ideal) x0 x1 (ix3 n c (1 : Fin 3)) = x0 (ix2 n c) := by
  unfold val_main_v21
  rw [cat3_apply1, v19_apply x0 n c h]

/-- Component 2 of the start index at `(n, c)`: the right word. -/
theorem v21_apply2 (x0 x1 : IVec Rows 32) (n : Fin 262144) (c : Fin 256) (h : (x1 (ix2 n c)).toNat < 256) :
    val_main_v21 (F := Ideal) x0 x1 (ix3 n c (2 : Fin 3)) = x1 (ix2 n c) := by
  unfold val_main_v21
  rw [cat3_apply2, v20_apply x1 n c h]

/-- The codes: at `(n, c)` channel `c`'s table at the left and right words of `(n, c)`. -/
theorem v22_apply (x0 x1 : IVec Rows 32) (x2 : IVec Tables 32) (h : InRange x0 x1 x2)
    (n : Fin 262144) (c : Fin 256) :
    val_main_v22 (F := Ideal) x0 x1 x2 (ix2 n c) = x2 (ix3 c (pos (x0 (ix2 n c))) (pos (x1 (ix2 n c)))) := by
  show Host.gather G3 x2 (val_main_v21 (F := Ideal) x0 x1) (ix2 n c) = _
  rw [gather3_apply, v21_apply0, v21_apply1 x0 x1 n c (h.left _), v21_apply2 x0 x1 n c (h.right _), pos_chanWord]

/-! ### The start indices of the code-book look-up -/

/-- The codes wrapped around are the codes: every code is a word of the table, a position. -/
theorem v32_apply (x0 x1 : IVec Rows 32) (x2 : IVec Tables 32) (h : InRange x0 x1 x2)
    (n : Fin 262144) (c : Fin 256) :
    val_main_v32 (F := Ideal) x0 x1 x2 (ix2 n c) = val_main_v22 (F := Ideal) x0 x1 x2 (ix2 n c) := by
  rw [val_main_v32_apply, val_main_v29_apply, val_main_v31_apply, val_main_v28_apply, val_main_v30_apply,
    val_main_c_7_apply, val_main_c_8_apply]
  apply norm_of_lt
  rw [v22_apply x0 x1 x2 h n c]
  exact h.table _

/-- The second column of the code-book look-up's start indices: at `[n, c, 0]` the code of `(n, c)`. -/
theorem v35_apply (x0 x1 : IVec Rows 32) (x2 : IVec Tables 32) (h : InRange x0 x1 x2)
    (n : Fin 262144) (c : Fin 256) :
    val_main_v35 (F := Ideal) x0 x1 x2 (ix3 n c (0 : Fin 1)) = val_main_v22 (F := Ideal) x0 x1 x2 (ix2 n c) := by
  rw [val_main_v35_apply, idx35_ix3, v32_apply x0 x1 x2 h n c]

/-- Component 0 of the start index at `(n, c)`: the word of `c`. -/
theorem v36_apply0 (x0 x1 : IVec Rows 32) (x2 : IVec Tables 32) (n : Fin 262144) (c : Fin 256) :
    val_main_v36 (F := Ideal) x0 x1 x2 (ix3 n c (0 : Fin 2)) = BitVec.ofNat 32 c.val := by
  unfold val_main_v36
  rw [cat2_apply0, v34_apply]

/-- Component 1 of the start index at `(n, c)`: the code. -/
theorem v36_apply1 (x0 x1 : IVec Rows 32) (x2 : IVec Tables 32) (h : InRange x0 x1 x2)
    (n : Fin 262144) (c : Fin 256) :
    val_main_v36 (F := Ideal) x0 x1 x2 (ix3 n c (1 : Fin 2)) = val_main_v22 (F := Ideal) x0 x1 x2 (ix2 n c) := by
  unfold val_main_v36
  rw [cat2_apply1, v35_apply x0 x1 x2 h n c]

/-! ## The reference is the look-up function -/

/-- At `(n, c)` the reference's last stage reads the code book at `(c, code)`, the code being channel `c`'s table at
    the clamped left and right words of `(n, c)`: the function `lookup`, whose channel of `(n, c)` is `c`. -/
theorem ref_eq (x0 x1 : IVec Rows 32) (x2 : IVec Tables 32) (x3 : FVec Ideal Book .f32) (h : InRange x0 x1 x2) :
    Cert.ReferenceIdeal.ReadP.val_main_v37 (F := Ideal) x0 x1 x2 x3 = lookup x0 x1 x2 x3 := by
  funext i
  obtain ⟨n, c, rfl⟩ : ∃ (n : Fin 262144) (c : Fin 256), i = ix2 n c := ⟨i 0, i 1, eq_ix2 i⟩
  show Host.gather G2 x3 (val_main_v36 (F := Ideal) x0 x1 x2) (ix2 n c) = _
  rw [gather2_apply, v36_apply0, v36_apply1 x0 x1 x2 h n c, v22_apply x0 x1 x2 h n c, pos_chanWord]
  rfl

end Cert.Lookup

end
-- ==== Proof.PreRange.lean ====
/-
  The printed precondition, read back as range facts.

  The precondition is the conjunction of four tests, each a reduction by `and` over a whole array: that the code book is
  finite, and that every word of `left`, of `right` and of the table of codes is at least 0 and below 256 as a signed
  number. When the conjunction is 1, each of the four reductions is 1; a reduction by `and` that is 1 met only 1s; and a
  word `w` whose two signed tests `w ≥ 0` and `w < 256` are both 1 has an unsigned value below 256. The test of the
  code book is not used.
-/
import proofs.«419908_j28406913696453_3_alg».proof.Pre_finite_inputs
import proofs.«419908_j28406913696453_3_alg».proof.Proof.Gen.Pre_finite_inputs
import proofs.«419908_j28406913696453_3_alg».proof.Proof.Lookup
import Idealize.ShloMosaic.Lib.ReduceAll
import Idealize.ShloMosaic.Lib.StableHlo.Predicate

namespace Cert.Lookup
open Idealize.ShloMosaic

/-- A 32-bit word that is at least 0 and below 256 when read signed is below 256 when read unsigned: the two
    comparisons, joined by `and`, are 1 only if `0 ≤ w.toInt < 256`, and a word of the upper half (whose signed value is
    its unsigned value minus 2³²) is negative. -/
theorem toNat_lt_of_tests {w : BitVec 32}
    (h : IntOp.andi (IntOp.cmpi .sge w 0#32) (IntOp.cmpi .slt w 256#32) = 1#1) : w.toNat < 256 := by
  obtain ⟨hge, hlt⟩ := IntOp.andi_eq_one.1 h
  have h0 : (0#32 : BitVec 32).toInt ≤ w.toInt := IntOp.cmpi_sge.1 hge
  have h1 : w.toInt < (256#32 : BitVec 32).toInt := IntOp.cmpi_slt.1 hlt
  have e0 : (0#32 : BitVec 32).toInt = 0 := by decide
  have e1 : (256#32 : BitVec 32).toInt = 256 := by decide
  rw [e0] at h0
  rw [e1] at h1
  have hw : w.toNat < 2 ^ 32 := w.isLt
  rw [BitVec.toInt_eq_toNat_cond] at h0 h1
  by_cases hc : 2 * w.toNat < 2 ^ 32
  · -- lower half: the signed value is the unsigned one, which the second test bounds
    rw [if_pos hc] at h1
    omega
  · -- upper half: the signed value is negative, against the first test
    rw [if_neg hc] at h0
    omega

/-- One `all((x ≥ 0) & (x < 256))`, at any shape: when the reduction by `and` of the elementwise test against the two
    broadcast constants is 1, every word of `x` is below 256. -/
theorem lt_of_all {s : Shape} {axes : List (Fin s.rank)} (x : IVec s 32)
    (hb : Cert.Pre_finite_inputs.S_.BroadcastsInDim s ![]) (hr : s.ReducesTo axes Cert.Pre_finite_inputs.S_)
    (hu : 0 < Cert.Pre_finite_inputs.S_.numel)
    (e : Host.reduce IntOp.andi
        (andi (cmpi .sge x (broadcastInDim s ![] hb (constantI Cert.Pre_finite_inputs.S_ 32 0#32)))
          (cmpi .slt x (broadcastInDim s ![] hb (constantI Cert.Pre_finite_inputs.S_ 32 256#32))))
        (constantI Cert.Pre_finite_inputs.S_ 1 1#1) hr hu ValueIdx.ix0 = 1#1)
    (i : s.Idx) : (x i).toNat < 256 := by
  -- the result of a reduction over all axes has one index only
  haveI : Subsingleton Cert.Pre_finite_inputs.S_.Idx := ⟨fun _ _ => funext fun d => d.elim0⟩
  -- so the reduction met only 1s: the test is 1 at `i`
  have hi := Host.reduce_andi_all _ _ hr hu ValueIdx.ix0 e i
  -- at `i` the test is the `and` of the two comparisons of `x i` with the constants
  have hi' : IntOp.andi (IntOp.cmpi .sge (x i) 0#32) (IntOp.cmpi .slt (x i) 256#32) = 1#1 := hi
  exact toNat_lt_of_tests hi'

/-- If the printed precondition is 1 then every word of `left`, of `right` and of the table of codes is below 256: the
    outer conjunctions split into the four reductions, and each of the three integer ones gives its array's bound. -/
theorem inRange_of_pre {F : FTy → Type} [FloatOps F] (L R : IVec Rows 32) (W : IVec Tables 32) (B : FVec F Book .f32)
    (h : Cert.Pre_finite_inputs.fn (F := F) L R W B = fun _ => 1#1) : InRange L R W := by
  have h0 := congrFun h ValueIdx.ix0
  dsimp only [Cert.Pre_finite_inputs.fn, Cert.Pre_finite_inputs.fn_part1] at h0
  -- ((book ∧ left) ∧ right) ∧ table, at the one index of a scalar
  change IntOp.andi _ _ = 1#1 at h0
  obtain ⟨h1, hW⟩ := IntOp.andi_eq_one.1 h0
  change IntOp.andi _ _ = 1#1 at h1
  obtain ⟨h2, hR⟩ := IntOp.andi_eq_one.1 h1
  change IntOp.andi _ _ = 1#1 at h2
  obtain ⟨_, hL⟩ := IntOp.andi_eq_one.1 h2
  exact ⟨lt_of_all L _ _ _ hL, lt_of_all R _ _ _ hR, lt_of_all W _ _ _ hW⟩

end Cert.Lookup
-- ==== Proof.lean ====
/-
  The certificate of the per-channel double code-book look-up: for every row `n` and channel `c`,
  `out[n, c] = codebook[c, white_table[c, left[n, c], right[n, c]]]`.

  The reference gathers: the three index arrays (channel, `left`, `right`) are joined into index triples and the table
  is read at each (clamped) triple, then the pairs (channel, code) are joined and the code book read at each. The kernel
  has no gather: per channel it compares the `left` word with the 256 positions, multiplies the resulting 0/1 row into
  the channel's table (picking a table row), multiplies by the 0/1 row of the `right` word and sums (picking the code),
  converts the code back to a word, and with its 0/1 row picks the code-book entry the same way. A sum of zeros and one
  term is that term over the extended reals too, so the two agree wherever the words are positions of the axes they
  index: `0 ≤ left, right, white_table < 256`, which is the precondition's evident-domain part (outside it the reference
  clamps or wraps an index while the kernel's 0/1 rows are empty). The finiteness of the code book is not used.

  Kernel side: the body's 128 column stores are each one column of the block look-up (Proof/ColMath.lean for the
  arithmetic of one column, Proof/Block.lean for its place in the block, Proof/ColTable.lean the 128 cases), the blocks
  tile the array (Proof/KernelValue.lean). Reference side: the run, operation by operation (Proof/RefStages.lean), and its
  last stage read at an index (Proof/RefValue.lean). The precondition read as ranges: Proof/PreRange.lean.
-/
import proofs.«419908_j28406913696453_3_alg».proof.Defs
import proofs.«419908_j28406913696453_3_alg».proof.Proof.Gen.Kernel
import proofs.«419908_j28406913696453_3_alg».proof.Proof.Gen.Kernel.Skeleton
import proofs.«419908_j28406913696453_3_alg».proof.Proof.Gen.Kernel.Launch
import proofs.«419908_j28406913696453_3_alg».proof.Proof.Gen.Kernel.Points
import proofs.«419908_j28406913696453_3_alg».proof.Proof.Gen.Kernel.Frame
import proofs.«419908_j28406913696453_3_alg».proof.Proof.Gen.KernelIdeal
import proofs.«419908_j28406913696453_3_alg».proof.Proof.Gen.KernelIdeal.Skeleton
import proofs.«419908_j28406913696453_3_alg».proof.Proof.Gen.KernelIdeal.Launch
import proofs.«419908_j28406913696453_3_alg».proof.Proof.Gen.KernelIdeal.Points
import proofs.«419908_j28406913696453_3_alg».proof.Proof.Gen.KernelIdeal.Frame
import proofs.«419908_j28406913696453_3_alg».proof.Proof.Gen.ReferenceIdeal
import proofs.«419908_j28406913696453_3_alg».proof.Proof.Gen.Pre_finite_inputs
import proofs.«419908_j28406913696453_3_alg».proof.Proof.Gen.KernelIdeal.Value
import proofs.«419908_j28406913696453_3_alg».proof.Proof.KernelValue
import proofs.«419908_j28406913696453_3_alg».proof.Proof.RefStages
import proofs.«419908_j28406913696453_3_alg».proof.Proof.RefValue
import proofs.«419908_j28406913696453_3_alg».proof.Proof.PreRange
import Idealize.ShloMosaic.Adequacy
import Idealize.ShloMosaic.Init

noncomputable section

namespace Cert.Proof

open Idealize.ShloMosaic Idealize.SL.Sem Cert.Lookup

/-- The word-level kernel runs and leaves its arguments as they were: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Stages.run (F := Ideal) m ρ)

/-- Both programs end with the result array at the look-up over the argument arrays: the kernel's array block by
    block, the reference's last stage index by index, both under the ranges the precondition gives. -/
theorem algebraic : Cert.algebraic_KernelIdeal_ReferenceIdeal := by
  intro m ρ m' ρ' hpre hagree
  have hR : ∀ c, InRange (Cert.KernelIdeal.Whole.A0 m c) (Cert.KernelIdeal.Whole.A1 m c) (Cert.KernelIdeal.Whole.A2 m c) :=
    fun c => inRange_of_pre _ _ _ _ (hpre c)
  refine ⟨fun c => lookup (Cert.KernelIdeal.Whole.A0 m c) (Cert.KernelIdeal.Whole.A1 m c) (Cert.KernelIdeal.Whole.A2 m c)
    (Cert.KernelIdeal.Whole.A3 m c), Cert.KernelIdeal.Whole.run m ρ hR, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2.1, (hagree c).2.2.2]
  exact ref_eq _ _ _ _ (hR c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
